-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v10_1)) (v1 : (c : Dev Cert.KernelIdeal.nD) → Buf (Elt Ideal) ((c.tc : Thread Cert.KernelIdeal.nD Cert.KernelIdeal.τ).loc Cert.KernelIdeal.main_v10_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_1) = v0 c
          ∧ r.2.mem ((c.tc : Thread Cert.KernelIdeal.nD Cert.KernelIdeal.τ).loc Cert.KernelIdeal.main_v10_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x16 : Shape := ⟨2, ![10000, 16]⟩
abbrev S10000x2048 : Shape := ⟨2, ![10000, 2048]⟩
abbrev S2048 : Shape := ⟨1, ![2048]⟩
abbrev S128x32 : Shape := ⟨2, ![128, 32]⟩
abbrev S32 : Shape := ⟨1, ![32]⟩
abbrev S16x32 : Shape := ⟨2, ![16, 32]⟩
abbrev S64x64 : Shape := ⟨2, ![64, 64]⟩
abbrev S64 : Shape := ⟨1, ![64]⟩
abbrev S64x32 : Shape := ⟨2, ![64, 32]⟩
abbrev S32x64 : Shape := ⟨2, ![32, 64]⟩
abbrev S64x2 : Shape := ⟨2, ![64, 2]⟩
abbrev S2 : Shape := ⟨1, ![2]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x16 : S_.BroadcastsInDim S10000x16 (![] : Fin 0 → Fin S10000x16.rank)
  reducesTo_S10000x16_S_d0_1 : S10000x16.ReducesTo [0, 1] S_
  bcast_S_S10000x2048 : S_.BroadcastsInDim S10000x2048 (![] : Fin 0 → Fin S10000x2048.rank)
  reducesTo_S10000x2048_S_d0_1 : S10000x2048.ReducesTo [0, 1] S_
  bcast_S_S2048 : S_.BroadcastsInDim S2048 (![] : Fin 0 → Fin S2048.rank)
  reducesTo_S2048_S_d0 : S2048.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32x64 : S_.BroadcastsInDim S32x64 (![] : Fin 0 → Fin S32x64.rank)
  reducesTo_S32x64_S_d0_1 : S32x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_v83 : IVec S_ 1) (main_v84 : FVec F S2 .f32) (main_cst_32 : FVec F S_ .f32) : IVec S_ 1 :=
  let main_v85 : FVec F S2 .f32 := broadcastInDim S2 ![] bcast_S_S2 main_cst_32
  let main_v86 : IVec S2 1 := cmpf .olt main_v84 main_v85
  let main_c_33 : IVec S_ 1 := constantI S_ 1 1#1
  let main_v87 : IVec S_ 1 := (fun x v => Host.reduce IntOp.andi x v reducesTo_S2_S_d0 h_S_) main_v86 main_c_33
  let main_v88 : IVec S_ 1 := andi main_v83 main_v87
  main_v88

def fn_part4 {F : FTy → Type} [FloatOps F] (main_arg14 : FVec F S64x64 .f32) (main_arg15 : FVec F S64 .f32) (main_arg16 : FVec F S64x2 .f32) (main_arg17 : FVec F S2 .f32) (main_v63 : IVec S_ 1) (main_v67 : IVec S_ 1) : IVec S_ 1 :=
  let main_v68 : IVec S_ 1 := andi main_v63 main_v67
  let main_v69 : FVec F S64x64 .f32 := Host.absf main_arg14
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x2 .f32 := Host.absf main_arg16
  let main_cst_30 : FVec F S_ .f32 := constant S_ .f32 0x7F800000#32
  let main_v80 : FVec F S64x2 .f32 := broadcastInDim S64x2 ![] bcast_S_S64x2 main_cst_30
  let main_v81 : IVec S64x2 1 := cmpf .olt main_v79 main_v80
  let main_c_31 : IVec S_ 1 := constantI S_ 1 1#1
  let main_v82 : IVec S_ 1 := (fun x v => Host.reduce IntOp.andi x v reducesTo_S64x2_S_d0_1 h_S_) main_v81 main_c_31
  let main_v83 : IVec S_ 1 := andi main_v78 main_v82
  let main_v84 : FVec F S2 .f32 := Host.absf main_arg17
  let main_cst_32 : FVec F S_ .f32 := constant S_ .f32 0x7F800000#32
  fn_part5 (F := F) main_v83 main_v84 main_cst_32

def fn_part3 {F : FTy → Type} [FloatOps F] (main_arg11 : FVec F S32 .f32) (main_arg12 : FVec F S32x64 .f32) (main_arg13 : FVec F S64 .f32) (main_arg14 : FVec F S64x64 .f32) (main_arg15 : FVec F S64 .f32) (main_arg16 : FVec F S64x2 .f32) (main_arg17 : FVec F S2 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x64 .f32 := Host.absf main_arg12
  let main_cst_22 : FVec F S_ .f32 := constant S_ .f32 0x7F800000#32
  let main_v60 : FVec F S32x64 .f32 := broadcastInDim S32x64 ![] bcast_S_S32x64 main_cst_22
  let main_v61 : IVec S32x64 1 := cmpf .olt main_v59 main_v60
  let main_c_23 : IVec S_ 1 := constantI S_ 1 1#1
  let main_v62 : IVec S_ 1 := (fun x v => Host.reduce IntOp.andi x v reducesTo_S32x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_v63 main_v67

def fn_part2 {F : FTy → Type} [FloatOps F] (main_arg7 : FVec F S32 .f32) (main_arg8 : FVec F S64x64 .f32) (main_arg9 : FVec F S64 .f32) (main_arg10 : FVec F S64x32 .f32) (main_arg11 : FVec F S32 .f32) (main_arg12 : FVec F S32x64 .f32) (main_arg13 : FVec F S64 .f32) (main_arg14 : FVec F S64x64 .f32) (main_arg15 : FVec F S64 .f32) (main_arg16 : FVec F S64x2 .f32) (main_arg17 : FVec F S2 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x32 .f32 := Host.absf main_arg10
  let main_cst_18 : FVec F S_ .f32 := constant S_ .f32 0x7F800000#32
  let main_v50 : FVec F S64x32 .f32 := broadcastInDim S64x32 ![] bcast_S_S64x32 main_cst_18
  fn_part3 (F := F) main_arg11 main_arg12 main_arg13 main_arg14 main_arg15 main_arg16 main_arg17 main_v48 main_v49 main_v50

def fn_part1 {F : FTy → Type} [FloatOps F] (main_arg4 : FVec F S128x32 .f32) (main_arg5 : FVec F S32 .f32) (main_arg6 : FVec F S16x32 .f32) (main_arg7 : FVec F S32 .f32) (main_arg8 : FVec F S64x64 .f32) (main_arg9 : FVec F S64 .f32) (main_arg10 : FVec F S64x32 .f32) (main_arg11 : FVec F S32 .f32) (main_arg12 : FVec F S32x64 .f32) (main_arg13 : FVec F S64 .f32) (main_arg14 : FVec F S64x64 .f32) (main_arg15 : FVec F S64 .f32) (main_arg16 : FVec F S64x2 .f32) (main_arg17 : FVec F S2 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S128x32 .f32 := Host.absf main_arg4
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S16x32 .f32 := Host.absf main_arg6
  let main_cst_10 : FVec F S_ .f32 := constant S_ .f32 0x7F800000#32
  let main_v30 : FVec F S16x32 .f32 := broadcastInDim S16x32 ![] bcast_S_S16x32 main_cst_10
  let main_v31 : IVec S16x32 1 := cmpf .olt main_v29 main_v30
  let main_c_11 : IVec S_ 1 := constantI S_ 1 1#1
  let main_v32 : IVec S_ 1 := (fun x v => Host.reduce IntOp.andi x v reducesTo_S16x32_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S10000x128 .f32) (main_arg1 : FVec F S10000x16 .f32) (main_arg2 : FVec F S10000x2048 .f32) (main_arg3 : FVec F S2048 .f32) (main_arg4 : FVec F S128x32 .f32) (main_arg5 : FVec F S32 .f32) (main_arg6 : FVec F S16x32 .f32) (main_arg7 : FVec F S32 .f32) (main_arg8 : FVec F S64x64 .f32) (main_arg9 : FVec F S64 .f32) (main_arg10 : FVec F S64x32 .f32) (main_arg11 : FVec F S32 .f32) (main_arg12 : FVec F S32x64 .f32) (main_arg13 : FVec F S64 .f32) (main_arg14 : FVec F S64x64 .f32) (main_arg15 : FVec F S64 .f32) (main_arg16 : FVec F S64x2 .f32) (main_arg17 : FVec F S2 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x16 .f32 := Host.absf main_arg1
  let main_cst_0 : FVec F S_ .f32 := constant S_ .f32 0x7F800000#32
  let main_v5 : FVec F S10000x16 .f32 := broadcastInDim S10000x16 ![] bcast_S_S10000x16 main_cst_0
  let main_v6 : IVec S10000x16 1 := cmpf .olt main_v4 main_v5
  let main_c_1 : IVec S_ 1 := constantI S_ 1 1#1
  let main_v7 : IVec S_ 1 := (fun x v => Host.reduce IntOp.andi x v reducesTo_S10000x16_S_d0_1 h_S_) main_v6 main_c_1
  let main_v8 : IVec S_ 1 := andi main_v3 main_v7
  let main_v9 : FVec F S10000x2048 .f32 := Host.absf main_arg2
  let main_cst_2 : FVec F S_ .f32 := constant S_ .f32 0x7F800000#32
  let main_v10 : FVec F S10000x2048 .f32 := broadcastInDim S10000x2048 ![] bcast_S_S10000x2048 main_cst_2
  let main_v11 : IVec S10000x2048 1 := cmpf .olt main_v9 main_v10
  let main_c_3 : IVec S_ 1 := constantI S_ 1 1#1
  let main_v12 : IVec S_ 1 := (fun x v => Host.reduce IntOp.andi x v reducesTo_S10000x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S10000x128 : Shape := ⟨2, ![10000, 128]⟩
abbrev S10000x16 : Shape := ⟨2, ![10000, 16]⟩
abbrev S10000x2048 : Shape := ⟨2, ![10000, 2048]⟩
abbrev S2048 : Shape := ⟨1, ![2048]⟩
abbrev S128x32 : Shape := ⟨2, ![128, 32]⟩
abbrev S32 : Shape := ⟨1, ![32]⟩
abbrev S16x32 : Shape := ⟨2, ![16, 32]⟩
abbrev S64x64 : Shape := ⟨2, ![64, 64]⟩
abbrev S64 : Shape := ⟨1, ![64]⟩
abbrev S64x32 : Shape := ⟨2, ![64, 32]⟩
abbrev S32x64 : Shape := ⟨2, ![32, 64]⟩
abbrev S64x2 : Shape := ⟨2, ![64, 2]⟩
abbrev S2 : Shape := ⟨1, ![2]⟩
abbrev S2048x1 : Shape := ⟨2, ![2048, 1]⟩
abbrev S1x2048 : Shape := ⟨2, ![1, 2048]⟩
abbrev S1x32 : Shape := ⟨2, ![1, 32]⟩
abbrev S1x64 : Shape := ⟨2, ![1, 64]⟩
abbrev S1x2 : Shape := ⟨2, ![1, 2]⟩
abbrev S10000x32 : Shape := ⟨2, ![10000, 32]⟩
abbrev S10000x2 : Shape := ⟨2, ![10000, 2]⟩
abbrev S400x2048 : Shape := ⟨2, ![400, 2048]⟩
abbrev S400x128 : Shape := ⟨2, ![400, 128]⟩
abbrev S400x16 : Shape := ⟨2, ![400, 16]⟩
abbrev S400x32 : Shape := ⟨2, ![400, 32]⟩
abbrev S400x2 : Shape := ⟨2, ![400, 2]⟩
abbrev S64x2048 : Shape := ⟨2, ![64, 2048]⟩
abbrev S2048x64 : Shape := ⟨2, ![2048, 64]⟩
abbrev S400x1 : Shape := ⟨2, ![400, 1]⟩
abbrev S1x400 : Shape := ⟨2, ![1, 400]⟩
abbrev S400x64 : Shape := ⟨2, ![400, 64]⟩

abbrev nBuf : Space → Nat
  | .hbm => 30
  | .vmem => 31
  | .smem => 0
  | _ => 0

abbrev bufTy : (tb : Table) → Fin (tcTables nBuf tb) → BufTy
  | .hbm, ⟨0, _⟩ => ⟨S10000x128, .f32⟩
  | .hbm, ⟨1, _⟩ => ⟨S10000x16, .f32⟩
  | .hbm, ⟨2, _⟩ => ⟨S10000x2048, .f32⟩
  | .hbm, ⟨3, _⟩ => ⟨S2048, .f32⟩
  | .hbm, ⟨4, _⟩ => ⟨S128x32, .f32⟩
  | .hbm, ⟨5, _⟩ => ⟨S32, .f32⟩
  | .hbm, ⟨6, _⟩ => ⟨S16x32, .f32⟩
  | .hbm, ⟨7, _⟩ => ⟨S32, .f32⟩
  | .hbm, ⟨8, _⟩ => ⟨S64x64, .f32⟩
  | .hbm, ⟨9, _⟩ => ⟨S64, .f32⟩
  | .hbm, ⟨10, _⟩ => ⟨S64x32, .f32⟩
  | .hbm, ⟨11, _⟩ => ⟨S32, .f32⟩
  | .hbm, ⟨12, _⟩ => ⟨S32x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x2, .f32⟩
  | .hbm, ⟨17, _⟩ => ⟨S2, .f32⟩
  | .hbm, ⟨18, _⟩ => ⟨S2048x1, .f32⟩
  | .hbm, ⟨19, _⟩ => ⟨S2048x1, .bf16⟩
  | .hbm, ⟨20, _⟩ => ⟨S1x2048, .f32⟩
  | .hbm, ⟨21, _⟩ => ⟨S1x32, .f32⟩
  | .hbm, ⟨22, _⟩ => ⟨S1x32, .f32⟩
  | .hbm, ⟨23, _⟩ => ⟨S1x64, .f32⟩
  | .hbm, ⟨24, _⟩ => ⟨S1x32, .f32⟩
  | .hbm, ⟨25, _⟩ => ⟨S1x64, .f32⟩
  | .hbm, ⟨26, _⟩ => ⟨S1x64, .f32⟩
  | .hbm, ⟨27, _⟩ => ⟨S1x2, .f32⟩
  | .hbm, ⟨28, _⟩ => ⟨S10000x32, .f32⟩
  | .hbm, ⟨29, _⟩ => ⟨S10000x2, .f32⟩
  | .local _ .vmem, ⟨0, _⟩ => ⟨S400x2048, .f32⟩
  | .local _ .vmem, ⟨1, _⟩ => ⟨S400x2048, .f32⟩
  | .local _ .vmem, ⟨2, _⟩ => ⟨S400x128, .f32⟩
  | .local _ .vmem, ⟨3, _⟩ => ⟨S400x128, .f32⟩
  | .local _ .vmem, ⟨4, _⟩ => ⟨S400x16, .f32⟩
  | .local _ .vmem, ⟨5, _⟩ => ⟨S400x16, .f32⟩
  | .local _ .vmem, ⟨6, _⟩ => ⟨S2048x1, .bf16⟩
  | .local _ .vmem, ⟨7, _⟩ => ⟨S1x2048, .f32⟩
  | .local _ .vmem, ⟨8, _⟩ => ⟨S128x32, .f32⟩
  | .local _ .vmem, ⟨9, _⟩ => ⟨S1x32, .f32⟩
  | .local _ .vmem, ⟨10, _⟩ => ⟨S16x32, .f32⟩
  | .local _ .vmem, ⟨11, _⟩ => ⟨S1x32, .f32⟩
  | .local _ .vmem, ⟨12, _⟩ => ⟨S64x64, .f32⟩
  | .local _ .vmem, ⟨13, _⟩ => ⟨S1x64, .f32⟩
  | .local _ .vmem, ⟨14, _⟩ => ⟨S64x32, .f32⟩
  | .local _ .vmem, ⟨15, _⟩ => ⟨S1x32, .f32⟩
  | .local _ .vmem, ⟨16, _⟩ => ⟨S32x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S64x2, .f32⟩
  | .local _ .vmem, ⟨21, _⟩ => ⟨S1x2, .f32⟩
  | .local _ .vmem, ⟨22, _⟩ => ⟨S400x32, .f32⟩
  | .local _ .vmem, ⟨23, _⟩ => ⟨S400x32, .f32⟩
  | .local _ .vmem, ⟨24, _⟩ => ⟨S400x2, .f32⟩
  | .local _ .vmem, ⟨25, _⟩ => ⟨S400x2, .f32⟩
  | .local _ .vmem, ⟨26, _⟩ => ⟨S10000x2048, .bf16⟩
  | .local _ .vmem, ⟨27, _⟩ => ⟨S1x2048, .f32⟩
  | .local _ .vmem, ⟨28, _⟩ => ⟨S64x2048, .f32⟩
  | .local _ .vmem, ⟨29, _⟩ => ⟨S64x2048, .f32⟩
  | .local _ .vmem, ⟨30, _⟩ => ⟨S2048x64, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10_0 : Ref sig .tc := ⟨.hbm, 28, rfl⟩
abbrev main_v10_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem19_1 : DmaSem sig := 23
abbrev cc0_sem20_0 : DmaSem sig := 24
abbrev cc0_sem20_1 : DmaSem sig := 25

abbrev nD : Nat := 1
abbrev τ : Topo := Topo.v7x

variable {F : FTy → Type} [FloatOps F]

abbrev grid0 : Pipeline.Grid := ⟨1, ![75], ![false]⟩

def k0_cond2 (i : grid0.Coords) : BitVec 1 :=
  let arg0 : BitVec 32 := BitVec.ofNat 32 (i 0).val
  let c25_i32 : BitVec 32 := 25#32
  let v3 : BitVec 1 := Scalar.cmpi .slt arg0 c25_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c400_i32 : BitVec 32 := 400#32
  let v22 : BitVec 32 := Scalar.muli arg0 c400_i32
  let v23 : Index := Scalar.indexCast v22
  let c0_11 : Index := 0#32
  ![v23.toNat, 0]
def k0_cond4 (i : grid0.Coords) : BitVec 1 :=
  let arg0 : BitVec 32 := BitVec.ofNat 32 (i 0).val
  let c25_i32_4 : BitVec 32 := 25#32
  let v9 : BitVec 1 := Scalar.cmpi .sge arg0 c25_i32_4
  let c50_i32 : BitVec 32 := 50#32
  let v10 : BitVec 1 := Scalar.cmpi .slt arg0 c50_i32
  let v11 : BitVec 1 := Scalar.andi v9 v10
  let v12 : BitVec 32 := Scalar.extui v11
  let c0_i32_5 : BitVec 32 := 0#32
  let v13 : BitVec 1 := Scalar.cmpi .ne v12 c0_i32_5
  v13

def k0_off2 (i : grid0.Coords) : Fin 2 → Nat :=
  let arg0 : BitVec 32 := BitVec.ofNat 32 (i 0).val
  let c25_i32_10 : BitVec 32 := 25#32
  let v20 : BitVec 32 := Scalar.subi arg0 c25_i32_10
  let c400_i32 : BitVec 32 := 400#32
  let v21 : BitVec 32 := Scalar.muli v20 c400_i32
  let v22 : Index := Scalar.indexCast v21
  let c0 : Index := 0#32
  ![v22.toNat, 0]
def k0_cond6 (i : grid0.Coords) : BitVec 1 :=
  let arg0 : BitVec 32 := BitVec.ofNat 32 (i 0).val
  let c50_i32_8 : BitVec 32 := 50#32
  let v17 : BitVec 1 := Scalar.cmpi .sge arg0 c50_i32_8
  let v18 : BitVec 32 := Scalar.extui v17
  let c0_i32_9 : BitVec 32 := 0#32
  let v19 : BitVec 1 := Scalar.cmpi .ne v18 c0_i32_9
  v19

def k0_off3 (i : grid0.Coords) : Fin 2 → Nat :=
  let arg0 : BitVec 32 := BitVec.ofNat 32 (i 0).val
  let c50_i32_10 : BitVec 32 := 50#32
  let v20 : BitVec 32 := Scalar.subi arg0 c50_i32_10
  let c400_i32 : BitVec 32 := 400#32
  let v21 : BitVec 32 := Scalar.muli v20 c400_i32
  let v22 : Index := Scalar.indexCast v21
  let c0 : Index := 0#32
  ![v22.toNat, 0]
def cc0_transform_0 (i : grid0.Coords) : Fin 2 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c50_i32 : BitVec 32 := 50#32
  let v0 : BitVec 32 := Scalar.subi arg0 c50_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S400x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S64x2 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x2 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S400x32 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S400x2 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

class Facts₀ : Prop where
  shapeCasts_S2048_S2048x1 : S2048.ShapeCasts S2048x1
  bitsLt_bf16_f32 : FTy.bits .bf16 < FTy.bits .f32
  shapeCasts_S2048_S1x2048 : S2048.ShapeCasts S1x2048
  shapeCasts_S32_S1x32 : S32.ShapeCasts S1x32
  shapeCasts_S64_S1x64 : S64.ShapeCasts S1x64
  shapeCasts_S2_S1x2 : S2.ShapeCasts S1x2
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S400x2048_S400x2048_0_0 : ∀ a, (![0, 0] : Fin 2 → Nat) a + S400x2048.size a ≤ S400x2048.size a
  h_S400x2048 : 0 < S400x2048.numel
  shapeCasts_S400x2048_S400x2048 : S400x2048.ShapeCasts S400x2048
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S400x128_S400x128_0_0 : ∀ a, (![0, 0] : Fin 2 → Nat) a + S400x128.size a ≤ S400x128.size a
  h_S400x128 : 0 < S400x128.numel
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S400x32 : S1x32.Broadcasts S400x32
  inb_S400x16_S400x16_0_0 : ∀ a, (![0, 0] : Fin 2 → Nat) a + S400x16.size a ≤ S400x16.size a
  h_S400x16 : 0 < S400x16.numel
  inb_S16x32_S16x32_0_0 : ∀ a, (![0, 0] : Fin 2 → Nat) a + S16x32.size a ≤ S16x32.size a
  h_S16x32 : 0 < S16x32.numel
  concatenates_S400x32_S400x32_S400x64_d1 : Shape.Concatenates [S400x32, S400x32] S400x64 1
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S64x32_S64x32_0_0 : ∀ a, (![0, 0] : Fin 2 → Nat) a + S64x32.size a ≤ S64x32.size a
  h_S64x32 : 0 < S64x32.numel
  inb_S400x32_S400x32_0_0 : ∀ a, (![0, 0] : Fin 2 → Nat) a + S400x32.size a ≤ S400x32.size a
  h_S400x32 : 0 < S400x32.numel
  inb_S32x64_S32x64_0_0 : ∀ a, (![0, 0] : Fin 2 → Nat) a + S32x64.size a ≤ S32x64.size a
  h_S32x64 : 0 < S32x64.numel
  broadcasts_S400x1_S400x64 : S400x1.Broadcasts S400x64
  broadcasts_S1x2048_S64x2048 : S1x2048.Broadcasts S64x2048
  transposes_S64x2048_p1_0_S2048x64 : S64x2048.Transposes [1, 0] S2048x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S400x2 : S1x2.Broadcasts S400x2
  inb_S400x2_S400x2_0_0 : ∀ a, (![0, 0] : Fin 2 → Nat) a + S400x2.size a ≤ S400x2.size a
  h_S400x2 : 0 < S400x2.numel
  dot_S400x2048_S2048x1_S400x1_1_0_0_1_n_n_wf : DotDims.WF S400x2048 S2048x1 S400x1 [1] [0] [0] [1] [] []
  dot_S1x400_S400x2048_S1x2048_1_0_0_1_n_n_wf : DotDims.WF S1x400 S400x2048 S1x2048 [1] [0] [0] [1] [] []
  dot_S400x128_S128x32_S400x32_1_0_0_1_n_n_wf : DotDims.WF S400x128 S128x32 S400x32 [1] [0] [0] [1] [] []
  dot_S400x16_S16x32_S400x32_1_0_0_1_n_n_wf : DotDims.WF S400x16 S16x32 S400x32 [1] [0] [0] [1] [] []
  dot_S400x64_S64x64_S400x64_1_0_0_1_n_n_wf : DotDims.WF S400x64 S64x64 S400x64 [1] [0] [0] [1] [] []
  dot_S400x64_S64x32_S400x32_1_0_0_1_n_n_wf : DotDims.WF S400x64 S64x32 S400x32 [1] [0] [0] [1] [] []
  dot_S400x32_S32x64_S400x64_1_0_0_1_n_n_wf : DotDims.WF S400x32 S32x64 S400x64 [1] [0] [0] [1] [] []
  dot_S400x64_S400x2048_S64x2048_0_0_1_1_n_n_wf : DotDims.WF S400x64 S400x2048 S64x2048 [0] [0] [1] [1] [] []
  dot_S400x2048_S2048x64_S400x64_1_0_0_1_n_n_wf : DotDims.WF S400x2048 S2048x64 S400x64 [1] [0] [0] [1] [] []
  dot_S400x64_S64x2_S400x2_1_0_0_1_n_n_wf : DotDims.WF S400x64 S64x2 S400x2 [1] [0] [0] [1] [] []
  hrank0 : 0 < grid0.rank
  k0_off1_inb : ∀ i : grid0.Coords, ∀ (k0_h2 : k0_cond2 i = 1#1), ∀ a, (k0_off1 i) a + S400x2048.size a ≤ S10000x2048.size a
  k0_off1_packedbf16 : ∀ i : grid0.Coords, ∀ (k0_h2 : k0_cond2 i = 1#1), (Rect.unit (s := S10000x2048) (k0_off1 i) S400x2048.size (k0_off1_inb i k0_h2)).PackedRows (EltTy.packing .bf16)
  k0_off2_inb : ∀ i : grid0.Coords, ∀ (k0_h4 : k0_cond4 i = 1#1), ∀ a, (k0_off2 i) a + S400x2048.size a ≤ S10000x2048.size a
  k0_off3_inb : ∀ i : grid0.Coords, ∀ (k0_h6 : k0_cond6 i = 1#1), ∀ a, (k0_off3 i) a + S400x2048.size a ≤ S10000x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x2048.size a ≤ S10000x2048.size a
  hwx0_0 : ∀ i : grid0.Coords, EltTy.bits .f32 = 32 ∨ (Rect.block (s := S10000x2048) S400x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x128.size a ≤ S10000x128.size a
  hwx0_1 : ∀ i : grid0.Coords, EltTy.bits .f32 = 32 ∨ (Rect.block (s := S10000x128) S400x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x16.size a ≤ S10000x16.size a
  hwx0_2 : ∀ i : grid0.Coords, EltTy.bits .f32 = 32 ∨ (Rect.block (s := S10000x16) S400x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S2048x1.size a
  hwx0_3 : ∀ i : grid0.Coords, EltTy.bits .bf16 = 32 ∨ (Rect.block (s := S2048x1) S2048x1.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x32.size a ≤ S128x32.size a
  hwx0_5 : ∀ i : grid0.Coords, EltTy.bits .f32 = 32 ∨ (Rect.block (s := S128x32) S128x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x32.size a ≤ S16x32.size a
  hwx0_7 : ∀ i : grid0.Coords, EltTy.bits .f32 = 32 ∨ (Rect.block (s := S16x32) S16x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x32.size a ≤ S64x32.size a
  hwx0_11 : ∀ i : grid0.Coords, EltTy.bits .f32 = 32 ∨ (Rect.block (s := S64x32) S64x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x32.size a ≤ S1x32.size a
  hwx0_12 : ∀ i : grid0.Coords, EltTy.bits .f32 = 32 ∨ (Rect.block (s := S1x32) S1x32.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S32x64.size a ≤ S32x64.size a
  hwx0_13 : ∀ i : grid0.Coords, EltTy.bits .f32 = 32 ∨ (Rect.block (s := S32x64) S32x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x64.size a ≤ S1x64.size a
  hwx0_14 : ∀ i : grid0.Coords, EltTy.bits .f32 = 32 ∨ (Rect.block (s := S1x64) S1x64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S64x64.size a ≤ S64x64.size a
  hwx0_15 : ∀ i : grid0.Coords, EltTy.bits .f32 = 32 ∨ (Rect.block (s := S64x64) S64x64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x64.size a ≤ S1x64.size a
  hwx0_16 : ∀ i : grid0.Coords, EltTy.bits .f32 = 32 ∨ (Rect.block (s := S1x64) S1x64.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S64x2.size a ≤ S64x2.size a
  hwx0_17 : ∀ i : grid0.Coords, EltTy.bits .f32 = 32 ∨ (Rect.block (s := S64x2) S64x2.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x2.size a ≤ S1x2.size a
  hwx0_18 : ∀ i : grid0.Coords, EltTy.bits .f32 = 32 ∨ (Rect.block (s := S1x2) S1x2.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S400x32.size a ≤ S10000x32.size a
  hwx0_19 : ∀ i : grid0.Coords, EltTy.bits .f32 = 32 ∨ (Rect.block (s := S10000x32) S400x32.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S400x2.size a ≤ S10000x2.size a
  hwx0_20 : ∀ i : grid0.Coords, EltTy.bits .f32 = 32 ∨ (Rect.block (s := S10000x2) S400x2.size (cc0_transform_20 i) (hinb0_20 i)).WholeWords (EltTy.packing .f32)

variable [Facts₀]

def dot_S400x2048_S2048x1_S400x1_1_0_0_1_n_n : DotDims S400x2048 S2048x1 S400x1 where
  lhsContracting := [1]
  rhsContracting := [0]
  lhsNonContracting := [0]
  rhsNonContracting := [1]
  lhsBatch := []
  rhsBatch := []
  wf := dot_S400x2048_S2048x1_S400x1_1_0_0_1_n_n_wf
def dot_S1x400_S400x2048_S1x2048_1_0_0_1_n_n : DotDims S1x400 S400x2048 S1x2048 where
  lhsContracting := [1]
  rhsContracting := [0]
  lhsNonContracting := [0]
  rhsNonContracting := [1]
  lhsBatch := []
  rhsBatch := []
  wf := dot_S1x400_S400x2048_S1x2048_1_0_0_1_n_n_wf
def dot_S400x128_S128x32_S400x32_1_0_0_1_n_n : DotDims S400x128 S128x32 S400x32 where
  lhsContracting := [1]
  rhsContracting := [0]
  lhsNonContracting := [0]
  rhsNonContracting := [1]
  lhsBatch := []
  rhsBatch := []
  wf := dot_S400x128_S128x32_S400x32_1_0_0_1_n_n_wf
def dot_S400x16_S16x32_S400x32_1_0_0_1_n_n : DotDims S400x16 S16x32 S400x32 where
  lhsContracting := [1]
  rhsContracting := [0]
  lhsNonContracting := [0]
  rhsNonContracting := [1]
  lhsBatch := []
  rhsBatch := []
  wf := dot_S400x16_S16x32_S400x32_1_0_0_1_n_n_wf
def dot_S400x64_S64x64_S400x64_1_0_0_1_n_n : DotDims S400x64 S64x64 S400x64 where
  lhsContracting := [1]
  rhsContracting := [0]
  lhsNonContracting := [0]
  rhsNonContracting := [1]
  lhsBatch := []
  rhsBatch := []
  wf := dot_S400x64_S64x64_S400x64_1_0_0_1_n_n_wf
def dot_S400x64_S64x32_S400x32_1_0_0_1_n_n : DotDims S400x64 S64x32 S400x32 where
  lhsContracting := [1]
  rhsContracting := [0]
  lhsNonContracting := [0]
  rhsNonContracting := [1]
  lhsBatch := []
  rhsBatch := []
  wf := dot_S400x64_S64x32_S400x32_1_0_0_1_n_n_wf
def dot_S400x32_S32x64_S400x64_1_0_0_1_n_n : DotDims S400x32 S32x64 S400x64 where
  lhsContracting := [1]
  rhsContracting := [0]
  lhsNonContracting := [0]
  rhsNonContracting := [1]
  lhsBatch := []
  rhsBatch := []
  wf := dot_S400x32_S32x64_S400x64_1_0_0_1_n_n_wf
def dot_S400x64_S400x2048_S64x2048_0_0_1_1_n_n : DotDims S400x64 S400x2048 S64x2048 where
  lhsContracting := [0]
  rhsContracting := [0]
  lhsNonContracting := [1]
  rhsNonContracting := [1]
  lhsBatch := []
  rhsBatch := []
  wf := dot_S400x64_S400x2048_S64x2048_0_0_1_1_n_n_wf
def dot_S400x2048_S2048x64_S400x64_1_0_0_1_n_n : DotDims S400x2048 S2048x64 S400x64 where
  lhsContracting := [1]
  rhsContracting := [0]
  lhsNonContracting := [0]
  rhsNonContracting := [1]
  lhsBatch := []
  rhsBatch := []
  wf := dot_S400x2048_S2048x64_S400x64_1_0_0_1_n_n_wf
def dot_S400x64_S64x2_S400x2_1_0_0_1_n_n : DotDims S400x64 S64x2 S400x2 where
  lhsContracting := [1]
  rhsContracting := [0]
  lhsNonContracting := [0]
  rhsNonContracting := [1]
  lhsBatch := []
  rhsBatch := []
  wf := dot_S400x64_S64x2_S400x2_1_0_0_1_n_n_wf

abbrev win0_0 : Pipeline.Window sig grid0 :=
  Pipeline.Window.ofSpec (Memref.whole main_arg2) S400x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S400x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S16x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S64x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v6) S1x32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg12) S32x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v7) S1x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg14) S64x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v8) S1x64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg16) S64x2.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v9) S1x2.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v10_0) S400x32.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v10_1) S400x2.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

abbrev idle0 : Fin 21 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun _ => false | 19 => fun i => !(k0_cond2 i == 1#1) | 20 => fun i => !(k0_cond6 i == 1#1) | ⟨_ + 21, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x16 : Shape := ⟨2, ![10000, 16]⟩
abbrev S10000x2048 : Shape := ⟨2, ![10000, 2048]⟩
abbrev S2048 : Shape := ⟨1, ![2048]⟩
abbrev S128x32 : Shape := ⟨2, ![128, 32]⟩
abbrev S32 : Shape := ⟨1, ![32]⟩
abbrev S16x32 : Shape := ⟨2, ![16, 32]⟩
abbrev S64x64 : Shape := ⟨2, ![64, 64]⟩
abbrev S64 : Shape := ⟨1, ![64]⟩
abbrev S64x32 : Shape := ⟨2, ![64, 32]⟩
abbrev S32x64 : Shape := ⟨2, ![32, 64]⟩
abbrev S64x2 : Shape := ⟨2, ![64, 2]⟩
abbrev S2 : Shape := ⟨1, ![2]⟩
abbrev S10000x32 : Shape := ⟨2, ![10000, 32]⟩
abbrev S1x32 : Shape := ⟨2, ![1, 32]⟩
abbrev S10000x64 : Shape := ⟨2, ![10000, 64]⟩
abbrev S1x64 : Shape := ⟨2, ![1, 64]⟩
abbrev S_ : Shape := ⟨0, ![]⟩
abbrev S1x2048 : Shape := ⟨2, ![1, 2048]⟩
abbrev S10000 : Shape := ⟨1, ![10000]⟩
abbrev S10000x1 : Shape := ⟨2, ![10000, 1]⟩
abbrev S2048x10000 : Shape := ⟨2, ![2048, 10000]⟩
abbrev S2048x64 : Shape := ⟨2, ![2048, 64]⟩
abbrev S2048x1 : Shape := ⟨2, ![2048, 1]⟩
abbrev S10000x2 : Shape := ⟨2, ![10000, 2]⟩
abbrev S1x2 : Shape := ⟨2, ![1, 2]⟩

abbrev nBuf : Space → Nat
  | .hbm => 124
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x16, .f32⟩
  | .hbm, ⟨2, _⟩ => ⟨S10000x2048, .f32⟩
  | .hbm, ⟨3, _⟩ => ⟨S2048, .f32⟩
  | .hbm, ⟨4, _⟩ => ⟨S128x32, .f32⟩
  | .hbm, ⟨5, _⟩ => ⟨S32, .f32⟩
  | .hbm, ⟨6, _⟩ => ⟨S16x32, .f32⟩
  | .hbm, ⟨7, _⟩ => ⟨S32, .f32⟩
  | .hbm, ⟨8, _⟩ => ⟨S64x64, .f32⟩
  | .hbm, ⟨9, _⟩ => ⟨S64, .f32⟩
  | .hbm, ⟨10, _⟩ => ⟨S64x32, .f32⟩
  | .hbm, ⟨11, _⟩ => ⟨S32, .f32⟩
  | .hbm, ⟨12, _⟩ => ⟨S32x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x2, .f32⟩
  | .hbm, ⟨17, _⟩ => ⟨S2, .f32⟩
  | .hbm, ⟨18, _⟩ => ⟨S10000x32, .f32⟩
  | .hbm, ⟨19, _⟩ => ⟨S1x32, .f32⟩
  | .hbm, ⟨20, _⟩ => ⟨S10000x32, .f32⟩
  | .hbm, ⟨21, _⟩ => ⟨S10000x32, .f32⟩
  | .hbm, ⟨22, _⟩ => ⟨S10000x32, .f32⟩
  | .hbm, ⟨23, _⟩ => ⟨S1x32, .f32⟩
  | .hbm, ⟨24, _⟩ => ⟨S10000x32, .f32⟩
  | .hbm, ⟨25, _⟩ => ⟨S10000x32, .f32⟩
  | .hbm, ⟨26, _⟩ => ⟨S10000x64, .f32⟩
  | .hbm, ⟨27, _⟩ => ⟨S10000x64, .f32⟩
  | .hbm, ⟨28, _⟩ => ⟨S1x64, .f32⟩
  | .hbm, ⟨29, _⟩ => ⟨S10000x64, .f32⟩
  | .hbm, ⟨30, _⟩ => ⟨S10000x64, .f32⟩
  | .hbm, ⟨31, _⟩ => ⟨S_, .f32⟩
  | .hbm, ⟨32, _⟩ => ⟨S10000x64, .f32⟩
  | .hbm, ⟨33, _⟩ => ⟨S10000x64, .f32⟩
  | .hbm, ⟨34, _⟩ => ⟨S10000x32, .f32⟩
  | .hbm, ⟨35, _⟩ => ⟨S1x32, .f32⟩
  | .hbm, ⟨36, _⟩ => ⟨S10000x32, .f32⟩
  | .hbm, ⟨37, _⟩ => ⟨S10000x32, .f32⟩
  | .hbm, ⟨38, _⟩ => ⟨S10000x32, .f32⟩
  | .hbm, ⟨39, _⟩ => ⟨S10000x32, .f32⟩
  | .hbm, ⟨40, _⟩ => ⟨S_, .f32⟩
  | .hbm, ⟨41, _⟩ => ⟨S10000x32, .f32⟩
  | .hbm, ⟨42, _⟩ => ⟨S10000x32, .f32⟩
  | .hbm, ⟨43, _⟩ => ⟨S_, .f32⟩
  | .hbm, ⟨44, _⟩ => ⟨S10000x32, .f32⟩
  | .hbm, ⟨45, _⟩ => ⟨S10000x32, .f32⟩
  | .hbm, ⟨46, _⟩ => ⟨S10000x32, .f32⟩
  | .hbm, ⟨47, _⟩ => ⟨S_, .f32⟩
  | .hbm, ⟨48, _⟩ => ⟨S10000x32, .f32⟩
  | .hbm, ⟨49, _⟩ => ⟨S10000x32, .f32⟩
  | .hbm, ⟨50, _⟩ => ⟨S10000x32, .f32⟩
  | .hbm, ⟨51, _⟩ => ⟨S10000x32, .f32⟩
  | .hbm, ⟨52, _⟩ => ⟨S10000x64, .f32⟩
  | .hbm, ⟨53, _⟩ => ⟨S1x64, .f32⟩
  | .hbm, ⟨54, _⟩ => ⟨S10000x64, .f32⟩
  | .hbm, ⟨55, _⟩ => ⟨S10000x64, .f32⟩
  | .hbm, ⟨56, _⟩ => ⟨S1x2048, .f32⟩
  | .hbm, ⟨57, _⟩ => ⟨S10000x2048, .f32⟩
  | .hbm, ⟨58, _⟩ => ⟨S10000x2048, .f32⟩
  | .hbm, ⟨59, _⟩ => ⟨S_, .f32⟩
  | .hbm, ⟨60, _⟩ => ⟨S10000, .f32⟩
  | .hbm, ⟨61, _⟩ => ⟨S_, .f32⟩
  | .hbm, ⟨62, _⟩ => ⟨S2048, .f32⟩
  | .hbm, ⟨63, _⟩ => ⟨S_, .f32⟩
  | .hbm, ⟨64, _⟩ => ⟨S10000, .f32⟩
  | .hbm, ⟨65, _⟩ => ⟨S10000, .f32⟩
  | .hbm, ⟨66, _⟩ => ⟨S10000, .f32⟩
  | .hbm, ⟨67, _⟩ => ⟨S10000x1, .f32⟩
  | .hbm, ⟨68, _⟩ => ⟨S10000x64, .f32⟩
  | .hbm, ⟨69, _⟩ => ⟨S10000x64, .f32⟩
  | .hbm, ⟨70, _⟩ => ⟨S2048x10000, .f32⟩
  | .hbm, ⟨71, _⟩ => ⟨S2048x64, .f32⟩
  | .hbm, ⟨72, _⟩ => ⟨S_, .f32⟩
  | .hbm, ⟨73, _⟩ => ⟨S2048, .f32⟩
  | .hbm, ⟨74, _⟩ => ⟨S2048, .f32⟩
  | .hbm, ⟨75, _⟩ => ⟨S2048, .f32⟩
  | .hbm, ⟨76, _⟩ => ⟨S2048x1, .f32⟩
  | .hbm, ⟨77, _⟩ => ⟨S2048x64, .f32⟩
  | .hbm, ⟨78, _⟩ => ⟨S2048x64, .f32⟩
  | .hbm, ⟨79, _⟩ => ⟨S10000x64, .f32⟩
  | .hbm, ⟨80, _⟩ => ⟨S10000x1, .f32⟩
  | .hbm, ⟨81, _⟩ => ⟨S10000x64, .f32⟩
  | .hbm, ⟨82, _⟩ => ⟨S10000x64, .f32⟩
  | .hbm, ⟨83, _⟩ => ⟨S_, .f32⟩
  | .hbm, ⟨84, _⟩ => ⟨S10000x64, .f32⟩
  | .hbm, ⟨85, _⟩ => ⟨S10000x64, .f32⟩
  | .hbm, ⟨86, _⟩ => ⟨S10000x64, .f32⟩
  | .hbm, ⟨87, _⟩ => ⟨S1x64, .f32⟩
  | .hbm, ⟨88, _⟩ => ⟨S10000x64, .f32⟩
  | .hbm, ⟨89, _⟩ => ⟨S10000x64, .f32⟩
  | .hbm, ⟨90, _⟩ => ⟨S1x2048, .f32⟩
  | .hbm, ⟨91, _⟩ => ⟨S10000x2048, .f32⟩
  | .hbm, ⟨92, _⟩ => ⟨S10000x2048, .f32⟩
  | .hbm, ⟨93, _⟩ => ⟨S_, .f32⟩
  | .hbm, ⟨94, _⟩ => ⟨S10000, .f32⟩
  | .hbm, ⟨95, _⟩ => ⟨S_, .f32⟩
  | .hbm, ⟨96, _⟩ => ⟨S2048, .f32⟩
  | .hbm, ⟨97, _⟩ => ⟨S_, .f32⟩
  | .hbm, ⟨98, _⟩ => ⟨S10000, .f32⟩
  | .hbm, ⟨99, _⟩ => ⟨S10000, .f32⟩
  | .hbm, ⟨100, _⟩ => ⟨S10000, .f32⟩
  | .hbm, ⟨101, _⟩ => ⟨S10000x1, .f32⟩
  | .hbm, ⟨102, _⟩ => ⟨S10000x64, .f32⟩
  | .hbm, ⟨103, _⟩ => ⟨S10000x64, .f32⟩
  | .hbm, ⟨104, _⟩ => ⟨S2048x10000, .f32⟩
  | .hbm, ⟨105, _⟩ => ⟨S2048x64, .f32⟩
  | .hbm, ⟨106, _⟩ => ⟨S_, .f32⟩
  | .hbm, ⟨107, _⟩ => ⟨S2048, .f32⟩
  | .hbm, ⟨108, _⟩ => ⟨S2048, .f32⟩
  | .hbm, ⟨109, _⟩ => ⟨S2048, .f32⟩
  | .hbm, ⟨110, _⟩ => ⟨S2048x1, .f32⟩
  | .hbm, ⟨111, _⟩ => ⟨S2048x64, .f32⟩
  | .hbm, ⟨112, _⟩ => ⟨S2048x64, .f32⟩
  | .hbm, ⟨113, _⟩ => ⟨S10000x64, .f32⟩
  | .hbm, ⟨114, _⟩ => ⟨S10000x1, .f32⟩
  | .hbm, ⟨115, _⟩ => ⟨S10000x64, .f32⟩
  | .hbm, ⟨116, _⟩ => ⟨S10000x64, .f32⟩
  | .hbm, ⟨117, _⟩ => ⟨S_, .f32⟩
  | .hbm, ⟨118, _⟩ => ⟨S10000x64, .f32⟩
  | .hbm, ⟨119, _⟩ => ⟨S10000x64, .f32⟩
  | .hbm, ⟨120, _⟩ => ⟨S10000x2, .f32⟩
  | .hbm, ⟨121, _⟩ => ⟨S1x2, .f32⟩
  | .hbm, ⟨122, _⟩ => ⟨S10000x2, .f32⟩
  | .hbm, ⟨123, _⟩ => ⟨S10000x2, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call0_cst : Ref sig .tc := ⟨.hbm, 31, rfl⟩
abbrev main_call0_v0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst : Ref sig .tc := ⟨.hbm, 40, rfl⟩
abbrev main_v20 : Ref sig .tc := ⟨.hbm, 41, rfl⟩
abbrev main_v21 : Ref sig .tc := ⟨.hbm, 42, rfl⟩
abbrev main_cst_0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_1 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_2 : Ref sig .tc := ⟨.hbm, 59, rfl⟩
abbrev main_v36 : Ref sig .tc := ⟨.hbm, 60, rfl⟩
abbrev main_cst_3 : Ref sig .tc := ⟨.hbm, 61, rfl⟩
abbrev main_v37 : Ref sig .tc := ⟨.hbm, 62, rfl⟩
abbrev main_cst_4 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_5 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_call1_cst : Ref sig .tc := ⟨.hbm, 83, rfl⟩
abbrev main_call1_v0 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_6 : Ref sig .tc := ⟨.hbm, 93, rfl⟩
abbrev main_v64 : Ref sig .tc := ⟨.hbm, 94, rfl⟩
abbrev main_cst_7 : Ref sig .tc := ⟨.hbm, 95, rfl⟩
abbrev main_v65 : Ref sig .tc := ⟨.hbm, 96, rfl⟩
abbrev main_cst_8 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_9 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_call2_cst : Ref sig .tc := ⟨.hbm, 117, rfl⟩
abbrev main_call2_v0 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  concatenates_S10000x32_S10000x32_S10000x64_d1 : Shape.Concatenates [S10000x32, S10000x32] S10000x64 1
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S_S10000x32 : S_.BroadcastsInDim S10000x32 (![] : Fin 0 → Fin S10000x32.rank)
  bcast_S2048_S1x2048_1 : S2048.BroadcastsInDim S1x2048 (![1] : Fin 1 → Fin S1x2048.rank)
  bcast_S1x2048_S10000x2048_0_1 : S1x2048.BroadcastsInDim S10000x2048 (![0, 1] : Fin 2 → Fin S10000x2048.rank)
  reducesTo_S10000x2048_S10000_d1 : S10000x2048.ReducesTo [1] S10000
  h_S_ : 0 < S_.numel
  reducesTo_S10000x2048_S2048_d0 : S10000x2048.ReducesTo [0] S2048
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  transposes_S10000x2048_S2048x10000_1_0 : S10000x2048.Transposes [1, 0] S2048x10000
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  bcast_S2_S1x2_1 : S2.BroadcastsInDim S1x2 (![1] : Fin 1 → Fin S1x2.rank)
  bcast_S1x2_S10000x2_0_1 : S1x2.BroadcastsInDim S10000x2 (![0, 1] : Fin 2 → Fin S10000x2.rank)
  dot_S10000x128_S128x32_S10000x32_1_0_0_1_n_n_wf : DotDims.WF S10000x128 S128x32 S10000x32 [1] [0] [0] [1] [] []
  dot_S10000x16_S16x32_S10000x32_1_0_0_1_n_n_wf : DotDims.WF S10000x16 S16x32 S10000x32 [1] [0] [0] [1] [] []
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  dot_S10000x32_S32x64_S10000x64_1_0_0_1_n_n_wf : DotDims.WF S10000x32 S32x64 S10000x64 [1] [0] [0] [1] [] []
  dot_S2048x10000_S10000x64_S2048x64_1_0_0_1_n_n_wf : DotDims.WF S2048x10000 S10000x64 S2048x64 [1] [0] [0] [1] [] []
  dot_S10000x2048_S2048x64_S10000x64_1_0_0_1_n_n_wf : DotDims.WF S10000x2048 S2048x64 S10000x64 [1] [0] [0] [1] [] []
  dot_S10000x64_S64x2_S10000x2_1_0_0_1_n_n_wf : DotDims.WF S10000x64 S64x2 S10000x2 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S2048x10000_S10000x64_S2048x64_1_0_0_1_n_n : DotDims S2048x10000 S10000x64 S2048x64 where
  lhsContracting := [1]
  rhsContracting := [0]
  lhsNonContracting := [0]
  rhsNonContracting := [1]
  lhsBatch := []
  rhsBatch := []
  wf := dot_S2048x10000_S10000x64_S2048x64_1_0_0_1_n_n_wf
def dot_S10000x2048_S2048x64_S10000x64_1_0_0_1_n_n : DotDims S10000x2048 S2048x64 S10000x64 where
  lhsContracting := [1]
  rhsContracting := [0]
  lhsNonContracting := [0]
  rhsNonContracting := [1]
  lhsBatch := []
  rhsBatch := []
  wf := dot_S10000x2048_S2048x64_S10000x64_1_0_0_1_n_n_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf

class Facts : Prop extends Facts₀ where

variable [Facts]
-- ==== Proof.K.Conds.lean ====
/-
  The body's six branches over the 75 grid points, and where the two output windows are live.

  Point t is in phase 0 for t < 25, in phase 1 for 25 ≤ t < 50, in phase 2 for 50 ≤ t; the scratch is reset at
  t = 0 and the per-hyperedge normalisation runs at t = 25 and at t = 50.  A phase-0 point touches rows 400t ..,
  a phase-1 point rows 400(t − 25) .., a phase-2 point rows 400(t − 50) .. of the resident copy.
  The gate's window is stored into in phase 0 only and written back after points 0 .. 23 and after the last point;
  the logits' window is stored into in phase 2 only and written back after points 50 .. 74.
-/
import proofs.«104241_g40587440947829_cont_sun_m_1101_21_alg».proof.Proof.Gen.Kernel.Frame
import proofs.«104241_g40587440947829_cont_sun_m_1101_21_alg».proof.Proof.Gen.Kernel.Skeleton

set_option maxRecDepth 16384

noncomputable section

namespace Cert.Kernel.Gen

open Idealize.ShloMosaic Idealize.ShloMosaic.TcCoe

/-- The six branch conditions at a grid point, as the body's skeleton spells them. -/
abbrev isFirst (i : grid0.Coords) : Prop := Scalar.cmpi .ne (Scalar.extui (Scalar.cmpi .eq (BitVec.ofNat 32 (i 0).val) 0#32)) 0#32 = 1#1
abbrev inPhase0 (i : grid0.Coords) : Prop := k0_cond2 i = 1#1
abbrev isNorm1 (i : grid0.Coords) : Prop := Scalar.cmpi .ne (Scalar.extui (Scalar.cmpi .eq (BitVec.ofNat 32 (i 0).val) 25#32)) 0#32 = 1#1
abbrev inPhase1 (i : grid0.Coords) : Prop := k0_cond4 i = 1#1
abbrev isNorm2 (i : grid0.Coords) : Prop := Scalar.cmpi .ne (Scalar.extui (Scalar.cmpi .eq (BitVec.ofNat 32 (i 0).val) 50#32)) 0#32 = 1#1
abbrev inPhase2 (i : grid0.Coords) : Prop := k0_cond6 i = 1#1

theorem isFirst_iff : ∀ t : Fin cfg0.N, isFirst (grid0.coords t) ↔ t.val = 0 :=
  (by decide +kernel : ∀ t : Fin grid0.N, isFirst (grid0.coords t) ↔ t.val = 0)
theorem inPhase0_iff : ∀ t : Fin cfg0.N, inPhase0 (grid0.coords t) ↔ t.val < 25 :=
  (by decide +kernel : ∀ t : Fin grid0.N, inPhase0 (grid0.coords t) ↔ t.val < 25)
theorem isNorm1_iff : ∀ t : Fin cfg0.N, isNorm1 (grid0.coords t) ↔ t.val = 25 :=
  (by decide +kernel : ∀ t : Fin grid0.N, isNorm1 (grid0.coords t) ↔ t.val = 25)
theorem inPhase1_iff : ∀ t : Fin cfg0.N, inPhase1 (grid0.coords t) ↔ (25 ≤ t.val ∧ t.val < 50) :=
  (by decide +kernel : ∀ t : Fin grid0.N, inPhase1 (grid0.coords t) ↔ (25 ≤ t.val ∧ t.val < 50))
theorem isNorm2_iff : ∀ t : Fin cfg0.N, isNorm2 (grid0.coords t) ↔ t.val = 50 :=
  (by decide +kernel : ∀ t : Fin grid0.N, isNorm2 (grid0.coords t) ↔ t.val = 50)
theorem inPhase2_iff : ∀ t : Fin cfg0.N, inPhase2 (grid0.coords t) ↔ 50 ≤ t.val :=
  (by decide +kernel : ∀ t : Fin grid0.N, inPhase2 (grid0.coords t) ↔ 50 ≤ t.val)

/-- The first row a point touches in the resident copy. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])
theorem off2_eq : ∀ t : Fin cfg0.N, 25 ≤ t.val → t.val < 50 → k0_off2 (grid0.coords t) = ![400 * (t.val - 25), 0] :=
  (by decide +kernel : ∀ t : Fin grid0.N, 25 ≤ t.val → t.val < 50 → k0_off2 (grid0.coords t) = ![400 * (t.val - 25), 0])
theorem off3_eq : ∀ t : Fin cfg0.N, 50 ≤ t.val → k0_off3 (grid0.coords t) = ![400 * (t.val - 50), 0] :=
  (by decide +kernel : ∀ t : Fin grid0.N, 50 ≤ t.val → k0_off3 (grid0.coords t) = ![400 * (t.val - 50), 0])

/-- The gate's window (19): idle exactly outside phase 0; written back after points 0 .. 23 and after point 74. -/
theorem idle19_iff : ∀ t : Fin cfg0.N, cfg0.idle 19 (grid0.coords t) = true ↔ 25 ≤ t.val :=
  (by decide +kernel : ∀ t : Fin grid0.N, cfg0.idle 19 (grid0.coords t) = true ↔ 25 ≤ t.val)
theorem flush19_iff : ∀ t : Fin cfg0.N, (cfg0.win 19).flush t = true ↔ (t.val < 24 ∨ t.val = 74) :=
  (by decide +kernel : ∀ t : Fin grid0.N, win0_19.flush t = true ↔ (t.val < 24 ∨ t.val = 74))
/-- The logits' window (20): idle exactly before phase 2; written back after points 50 .. 74. -/
theorem idle20_iff : ∀ t : Fin cfg0.N, cfg0.idle 20 (grid0.coords t) = true ↔ t.val < 50 :=
  (by decide +kernel : ∀ t : Fin grid0.N, cfg0.idle 20 (grid0.coords t) = true ↔ t.val < 50)
theorem flush20_iff : ∀ t : Fin cfg0.N, (cfg0.win 20).flush t = true ↔ 50 ≤ t.val :=
  (by decide +kernel : ∀ t : Fin grid0.N, win0_20.flush t = true ↔ 50 ≤ t.val)

end Cert.Kernel.Gen

end
-- ==== Proof.K.Rows.lean ====
/-
  Row slabs of the resident 10000 × 2048 copy: replacing rows o .. o+399 by a 400 × 2048 block, and reading them.
  A store through the slab's rectangle into a whole buffer reads back as the replacement; a load through it reads the rows.
-/
import proofs.«104241_g40587440947829_cont_sun_m_1101_21_alg».proof.Proof.Gen.Kernel
import Idealize.ShloMosaic.Lib.WritesUnit
import Idealize.ShloMosaic.Lib.WholeRead
import Idealize.ShloMosaic.Lib.ValueIdx
import Idealize.ShloMosaic.Lib.Pipeline.FrameBody
import Idealize.ShloMosaic.Lib.Pipeline.Value

noncomputable section

namespace Cert.Kernel.Gen

open Idealize.ShloMosaic Idealize.ShloMosaic.ValueIdx

variable {F : FTy → Type} [FloatOps F]

/-- X with rows o .. o+399 replaced by the block B. -/
def putRows (X : Vec F S10000x2048 .bf16) (o : ℕ) (B : Vec F S400x2048 .bf16) : Vec F S10000x2048 .bf16 :=
  fun y => if h : o ≤ (y 0).val ∧ (y 0).val < o + 400 then
      B (ix2 (⟨(y 0).val - o, by omega⟩ : Fin 400) (⟨(y 1).val, idx2_lt1 y⟩ : Fin 2048))
    else X y

/-- Rows o .. o+399 of X. -/
def getRows (X : Vec F S10000x2048 .bf16) (o : ℕ) (ho : o + 400 ≤ 10000) : Vec F S400x2048 .bf16 :=
  fun y => X (ix2 (⟨o + (y 0).val, by have := idx2_lt0 y; omega⟩ : Fin 10000) (⟨(y 1).val, idx2_lt1 y⟩ : Fin 2048))

/-- One store of the block B through the rectangle of rows o .. o+399 into a whole buffer holding X reads back as the replacement. -/
theorem read_put (arg : Memref sig .tc .vmem S10000x2048 .bf16) (harg : arg.IsWhole) (X : Vec F S10000x2048 .bf16)
    (off : Fin 2 → ℕ) (inb : ∀ a, off a + S400x2048.size a ≤ S10000x2048.size a) (o : ℕ) (hoff : off = ![o, 0])
    (B : Vec F S400x2048 .bf16) :
    arg.view.read (Elt F) (arg.view.writes (Elt F) (harg.unread X) [⟨Rect.unit (s := S10000x2048) off S400x2048.size inb, B⟩])
      = putRows X o B := by
  funext y
  rw [View.read_writes_cons_rows (d := ![10000, 2048]) arg.view (harg.unread X) inb B [] y hoff (W := 400) rfl rfl]
  unfold putRows
  by_cases h : o ≤ (y 0).val ∧ (y 0).val < o + 400
  · rw [dif_pos h, dif_pos h]
    congr 1
    funext a; apply Fin.ext
    match a with
    | ⟨0, _⟩ => rw [Rect.unitLocal_val]; rfl
    | ⟨1, _⟩ => rw [Rect.unitLocal_val]; show (y 1).val - 0 = (y 1).val; omega
  · rw [dif_neg h, dif_neg h, View.writes_nil, harg.read_unread]

/-- A load through that rectangle from a whole buffer holding X reads rows o .. o+399. -/
theorem readAt_get (arg : Memref sig .tc .vmem S10000x2048 .bf16) (harg : arg.IsWhole) (X : Vec F S10000x2048 .bf16)
    (off : Fin 2 → ℕ) (inb : ∀ a, off a + S400x2048.size a ≤ S10000x2048.size a) (o : ℕ) (hoff : off = ![o, 0]) (ho : o + 400 ≤ 10000) :
    arg.view.readAt (Elt F) (Rect.unit (s := S10000x2048) off S400x2048.size inb).toLoadRect (harg.unread X)
      = getRows X o ho := by
  subst hoff
  rw [View.readAt_eq_ld, harg.read_unread]
  funext x
  unfold getRows
  show X ((Rect.unit (s := S10000x2048) ![o, 0] S400x2048.size inb).idx x) = _
  congr 1
  funext a; apply Fin.ext
  match a with
  | ⟨0, _⟩ => show o + 1 * (x 0).val = o + (x 0).val; omega
  | ⟨1, _⟩ => show 0 + 1 * (x 1).val = (x 1).val; omega

/-- One store of B through the whole-buffer rectangle (offsets all zero, however spelt) reads back as B, whatever was there. -/
theorem read_whole {S : Shape} {e : EltTy} (arg : Memref sig .tc .vmem S e) (f : arg.view.ty.Contents (Elt F))
    {off : Fin S.rank → ℕ} (hz : off = fun _ => 0) (inb : ∀ a, off a + S.size a ≤ S.size a) (B : S.Idx → Elt F e) :
    arg.view.read (Elt F) (arg.view.writes (Elt F) f [⟨Rect.unit off S.size inb, B⟩]) = B := by
  rw [View.read_writes_eq_canon _ _ _ (fun y => ⟨_, List.mem_singleton_self _, View.mem_set_unit_zero hz inb y⟩),
    View.canon_unit_zero hz]

/-- A load through the whole-buffer rectangle from a whole buffer holding X reads X. -/
theorem readAt_whole {S : Shape} {e : EltTy} (arg : Memref sig .tc .vmem S e) (harg : arg.IsWhole) (X : S.Idx → Elt F e)
    {off : Fin S.rank → ℕ} (hz : off = fun _ => 0) (inb : ∀ a, off a + S.size a ≤ S.size a) :
    arg.view.readAt (Elt F) (Rect.unit off S.size inb).toLoadRect (harg.unread X) = X := by
  rw [View.readAt_eq_ld, harg.read_unread, View.ld_unit_zero hz]

/-- The zero offsets of a rank-2 buffer, as the body spells them. -/
theorem zero2 : (![0, 0] : Fin 2 → ℕ) = fun _ => 0 := by
  funext a; match a with | ⟨0, _⟩ => rfl | ⟨1, _⟩ => rfl

end Cert.Kernel.Gen

end
-- ==== Proof.K.State.lean ====
/-
  What the kernel's buffers hold after each grid point, in the body's own payload terms, and the pipeline's proof data.

  Window w's block at point t is B(w+1) t.  After point n:
    the hyperedge degrees  deAt n  = the zero row plus the column sums of H's blocks 0 .. min n 24;
    the first aggregate    m1At n  = zero plus the phase-0 contributions of blocks 0 .. min n 24;
    the normalised features after point 25 are mn1 (from deAt 24 and m1At 24), after point 50 mn2 (from deAt 49, m2At 49);
    the second aggregate   m2At n  = zero plus the phase-1 contributions of points 25 .. min n 49;
    the resident copy holds the bf16 copy of H on rows below 400·min (n+1) 25 and what it held before elsewhere.
  The gate's window holds gBlk t after a phase-0 point t and keeps gBlk 24 afterwards; the logits' window holds
  lBlk t after a phase-2 point t.
-/
import proofs.«104241_g40587440947829_cont_sun_m_1101_21_alg».proof.Proof.K.Conds
import proofs.«104241_g40587440947829_cont_sun_m_1101_21_alg».proof.Proof.K.Rows

set_option maxRecDepth 16384

noncomputable section

namespace Cert.Kernel.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD)

theorem N75 : cfg0.N = 75 := N_0

/-! ## The windows' blocks at a point, at their literal types -/

abbrev B1 (t : Fin cfg0.N) : Vec F S400x2048 .f32 := iblk m c 0 t
abbrev B2 (t : Fin cfg0.N) : Vec F S400x128 .f32 := iblk m c 1 t
abbrev B3 (t : Fin cfg0.N) : Vec F S400x16 .f32 := iblk m c 2 t
abbrev B4 (t : Fin cfg0.N) : Vec F S2048x1 .bf16 := iblk m c 3 t
abbrev B5 (t : Fin cfg0.N) : Vec F S1x2048 .f32 := iblk m c 4 t
abbrev B6 (t : Fin cfg0.N) : Vec F S128x32 .f32 := iblk m c 5 t
abbrev B7 (t : Fin cfg0.N) : Vec F S1x32 .f32 := iblk m c 6 t
abbrev B8 (t : Fin cfg0.N) : Vec F S16x32 .f32 := iblk m c 7 t
abbrev B9 (t : Fin cfg0.N) : Vec F S1x32 .f32 := iblk m c 8 t
abbrev B10 (t : Fin cfg0.N) : Vec F S64x64 .f32 := iblk m c 9 t
abbrev B11 (t : Fin cfg0.N) : Vec F S1x64 .f32 := iblk m c 10 t
abbrev B12 (t : Fin cfg0.N) : Vec F S64x32 .f32 := iblk m c 11 t
abbrev B13 (t : Fin cfg0.N) : Vec F S1x32 .f32 := iblk m c 12 t
abbrev B14 (t : Fin cfg0.N) : Vec F S32x64 .f32 := iblk m c 13 t
abbrev B15 (t : Fin cfg0.N) : Vec F S1x64 .f32 := iblk m c 14 t
abbrev B16 (t : Fin cfg0.N) : Vec F S64x64 .f32 := iblk m c 15 t
abbrev B17 (t : Fin cfg0.N) : Vec F S1x64 .f32 := iblk m c 16 t
abbrev B18 (t : Fin cfg0.N) : Vec F S64x2 .f32 := iblk m c 17 t
abbrev B19 (t : Fin cfg0.N) : Vec F S1x2 .f32 := iblk m c 18 t

/-! ## What the body computes at a point -/

/-- The gate block a phase-0 point stores. -/
def gBlk (t : Fin cfg0.N) : Vec F S400x32 .f32 :=
  k0_pay16 (k0_pay13 (B2 m c t) (B6 m c t) (B7 m c t)) (k0_pay14 (B3 m c t) (B8 m c t)) (B9 m c t) (B10 m c t) (B11 m c t) (B12 m c t) (B13 m c t)

/-- A phase-0 point's contribution to the first aggregate. -/
def agg1 (t : Fin cfg0.N) : Vec F S64x2048 .f32 :=
  k0_pay17 (k0_pay9 (B1 m c t)) (k0_pay11 (B1 m c t) (B4 m c t)) (k0_pay13 (B2 m c t) (B6 m c t) (B7 m c t)) (k0_pay14 (B3 m c t) (B8 m c t))
    (B9 m c t) (B10 m c t) (B11 m c t) (B12 m c t) (B13 m c t) (B14 m c t) (B15 m c t)

/-- The hyperedge degrees after point n. -/
def deAt : (n : ℕ) → n < cfg0.N → Vec F S1x2048 .f32
  | 0, hn => k0_pay12 (B1 m c ⟨0, hn⟩) k0_pay1
  | n + 1, hn => if n + 1 < 25 then k0_pay12 (B1 m c ⟨n + 1, hn⟩) (deAt n (Nat.lt_of_succ_lt hn)) else deAt n (Nat.lt_of_succ_lt hn)

/-- The first aggregate after point n. -/
def m1At : (n : ℕ) → n < cfg0.N → Vec F S64x2048 .f32
  | 0, hn => k0_pay4 k0_pay2 (agg1 m c ⟨0, hn⟩)
  | n + 1, hn => if n + 1 < 25 then k0_pay4 (m1At n (Nat.lt_of_succ_lt hn)) (agg1 m c ⟨n + 1, hn⟩) else m1At n (Nat.lt_of_succ_lt hn)

/-- The bf16 copy of H's block k, as the phase-0 point k stores it. -/
def hqBlk (k : ℕ) (hk : k < cfg0.N) : Vec F S400x2048 .bf16 := k0_pay10 (B1 m c ⟨k, hk⟩)

/-- The whole bf16 copy of H, row by row from the blocks. -/
def hqFull : Vec F S10000x2048 .bf16 := fun y =>
  hqBlk m c ((y 0).val / 400) (by have := idx2_lt0 y; have := N75; omega)
    (ix2 (⟨(y 0).val % 400, Nat.mod_lt _ (by decide)⟩ : Fin 400) (⟨(y 1).val, idx2_lt1 y⟩ : Fin 2048))

/-- The resident copy once k blocks are in: the copy of H on rows below 400·k, the earlier contents d elsewhere. -/
def hqAt (d : Vec F S10000x2048 .bf16) (k : ℕ) : Vec F S10000x2048 .bf16 :=
  fun y => if (y 0).val < 400 * k then hqFull m c y else d y

/-- The normalised hyperedge features after the first normalisation (point 25). -/
def mn1 : Vec F S2048x64 .bf16 :=
  k0_pay5 (B5 m c ⟨25, by have := N75; omega⟩) (deAt m c 24 (by have := N75; omega)) (m1At m c 24 (by have := N75; omega))

/-- The second aggregate after point n. -/
def m2At : (n : ℕ) → n < cfg0.N → Vec F S64x2048 .f32
  | 0, _ => k0_pay3
  | n + 1, hn =>
    if h : 25 ≤ n + 1 ∧ n + 1 < 50 then
      k0_pay6 (hqBlk m c (n + 1 - 25) (by omega)) (B4 m c ⟨n + 1, hn⟩) (mn1 m c) (B16 m c ⟨n + 1, hn⟩) (B17 m c ⟨n + 1, hn⟩) (m2At n (Nat.lt_of_succ_lt hn))
    else m2At n (Nat.lt_of_succ_lt hn)

/-- The normalised hyperedge features after the second normalisation (point 50). -/
def mn2 : Vec F S2048x64 .bf16 :=
  k0_pay7 (B5 m c ⟨50, by have := N75; omega⟩) (deAt m c 49 (by have := N75; omega)) (m2At m c 49 (by have := N75; omega))

/-- The features buffer after point n: untouched (d) before the first normalisation, then mn1, then mn2. -/
def mnAt (d : Vec F S2048x64 .bf16) (n : ℕ) : Vec F S2048x64 .bf16 :=
  if n < 25 then d else if n < 50 then mn1 m c else mn2 m c

/-- The logits block a phase-2 point stores. -/
def lBlk (t : Fin cfg0.N) : Vec F S400x2 .f32 :=
  k0_pay8 (hqBlk m c (t.val - 50) (by have := t.isLt; omega)) (B4 m c t) (mn2 m c) (B18 m c t) (B19 m c t)

/-! ## The recursions, one step at a time -/

theorem deAt_succ_lt (n : ℕ) (hn : n + 1 < cfg0.N) (h : n + 1 < 25) :
    deAt m c (n + 1) hn = k0_pay12 (B1 m c ⟨n + 1, hn⟩) (deAt m c n (Nat.lt_of_succ_lt hn)) := by
  rw [deAt, if_pos h]
theorem deAt_succ_ge (n : ℕ) (hn : n + 1 < cfg0.N) (h : ¬ n + 1 < 25) : deAt m c (n + 1) hn = deAt m c n (Nat.lt_of_succ_lt hn) := by
  rw [deAt, if_neg h]
theorem m1At_succ_lt (n : ℕ) (hn : n + 1 < cfg0.N) (h : n + 1 < 25) :
    m1At m c (n + 1) hn = k0_pay4 (m1At m c n (Nat.lt_of_succ_lt hn)) (agg1 m c ⟨n + 1, hn⟩) := by
  rw [m1At, if_pos h]
theorem m1At_succ_ge (n : ℕ) (hn : n + 1 < cfg0.N) (h : ¬ n + 1 < 25) : m1At m c (n + 1) hn = m1At m c n (Nat.lt_of_succ_lt hn) := by
  rw [m1At, if_neg h]
theorem m2At_succ_in (n : ℕ) (hn : n + 1 < cfg0.N) (h : 25 ≤ n + 1 ∧ n + 1 < 50) :
    m2At m c (n + 1) hn = k0_pay6 (hqBlk m c (n + 1 - 25) (by omega)) (B4 m c ⟨n + 1, hn⟩) (mn1 m c) (B16 m c ⟨n + 1, hn⟩) (B17 m c ⟨n + 1, hn⟩)
      (m2At m c n (Nat.lt_of_succ_lt hn)) := by
  rw [m2At, dif_pos h]
theorem m2At_succ_out (n : ℕ) (hn : n + 1 < cfg0.N) (h : ¬ (25 ≤ n + 1 ∧ n + 1 < 50)) : m2At m c (n + 1) hn = m2At m c n (Nat.lt_of_succ_lt hn) := by
  rw [m2At, dif_neg h]

/-- After phase 0 the degrees and the first aggregate stay. -/
theorem deAt_const : ∀ (n : ℕ) (hn : n < cfg0.N), 24 ≤ n → deAt m c n hn = deAt m c 24 (by have := N75; omega)
  | 0, _, h => absurd h (by omega)
  | n + 1, hn, h => by
    by_cases h24 : n + 1 = 24
    · subst_vars; congr
    · rw [deAt_succ_ge m c n hn (by omega)]; exact deAt_const n _ (by omega)
theorem m1At_const : ∀ (n : ℕ) (hn : n < cfg0.N), 24 ≤ n → m1At m c n hn = m1At m c 24 (by have := N75; omega)
  | 0, _, h => absurd h (by omega)
  | n + 1, hn, h => by
    by_cases h24 : n + 1 = 24
    · subst_vars; congr
    · rw [m1At_succ_ge m c n hn (by omega)]; exact m1At_const n _ (by omega)
/-- Before phase 1 the second aggregate is the zero block; after it, it stays. -/
theorem m2At_early : ∀ (n : ℕ) (hn : n < cfg0.N), n < 25 → m2At m c n hn = k0_pay3
  | 0, _, _ => rfl
  | n + 1, hn, h => by rw [m2At_succ_out m c n hn (by omega)]; exact m2At_early n _ (by omega)
theorem m2At_const : ∀ (n : ℕ) (hn : n < cfg0.N), 49 ≤ n → m2At m c n hn = m2At m c 49 (by have := N75; omega)
  | 0, _, h => absurd h (by omega)
  | n + 1, hn, h => by
    by_cases h49 : n + 1 = 49
    · subst_vars; congr
    · rw [m2At_succ_out m c n hn (by omega)]; exact m2At_const n _ (by omega)

/-! ## The resident copy, slab by slab -/

/-- Putting block k into rows 400k .. 400k+399 of the copy with k blocks in gives the copy with k + 1 blocks in. -/
theorem putRows_hqAt (d : Vec F S10000x2048 .bf16) (k : ℕ) (hk : k < cfg0.N) (hk25 : k < 25) :
    putRows (hqAt m c d k) (400 * k) (hqBlk m c k hk) = hqAt m c d (k + 1) := by
  funext y
  unfold putRows hqAt
  by_cases h : 400 * k ≤ (y 0).val ∧ (y 0).val < 400 * k + 400
  · rw [dif_pos h, if_pos (by omega)]
    unfold hqFull
    have hq : (y 0).val / 400 = k := by omega
    have hr : (y 0).val % 400 = (y 0).val - 400 * k := by omega
    congr 1
    · congr 1; exact hq.symm
    · funext a; apply Fin.ext
      match a with
      | ⟨0, _⟩ => exact hr.symm
      | ⟨1, _⟩ => rfl
  · rw [dif_neg h]
    by_cases h2 : (y 0).val < 400 * k
    · rw [if_pos h2, if_pos (by omega)]
    · rw [if_neg h2, if_neg (by omega)]

/-- Rows 400j .. 400j+399 of the full copy are block j. -/
theorem getRows_hqAt (d : Vec F S10000x2048 .bf16) (j : ℕ) (hj : j < cfg0.N) (hj25 : j < 25) (ho : 400 * j + 400 ≤ 10000) :
    getRows (hqAt m c d 25) (400 * j) ho = hqBlk m c j hj := by
  funext y
  unfold getRows hqAt
  have hy := idx2_lt0 y
  rw [if_pos (show (ix2 (⟨400 * j + (y 0).val, by omega⟩ : Fin 10000) (⟨(y 1).val, idx2_lt1 y⟩ : Fin 2048) 0).val < 400 * 25 from by
    show 400 * j + (y 0).val < 400 * 25; omega)]
  unfold hqFull
  have hq : (400 * j + (y 0).val) / 400 = j := by omega
  have hr : (400 * j + (y 0).val) % 400 = (y 0).val := by omega
  show hqBlk m c ((400 * j + (y 0).val) / 400) _ _ = _
  have key : ∀ (k : ℕ) (hk : k < cfg0.N) (idx : S400x2048.Idx), k = j → idx = y → hqBlk m c k hk idx = hqBlk m c j hj y := by
    intro k hk idx e1 e2; subst e1; subst e2; rfl
  refine key _ _ _ hq ?_
  funext a; apply Fin.ext
  match a with
  | ⟨0, _⟩ => exact hr
  | ⟨1, _⟩ => rfl

end Cert.Kernel.Gen

end
-- ==== Proof.K.BodyDefs.lean ====
/-
  The pipeline's proof data and the body obligation's two sides.

  After the body at point t every input window holds its block; the gate's window holds the point's gate block during
  phase 0 and block 24's afterwards (the body leaves it alone, and it is written back once more after the last point);
  the logits' window holds the point's logits block.  The invariant carried between points holds the five scratch
  buffers at the state of State.lean, the resident copy and (before the first normalisation) the features buffer up to
  contents nobody names.
-/
import proofs.«104241_g40587440947829_cont_sun_m_1101_21_alg».proof.Proof.K.State

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with -/

abbrev ms0 (t : Fin cfg0.N) : Memref sig .tc .vmem S400x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S400x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x1 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x32 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x32 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S16x32 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x32 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S64x64 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x64 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S64x32 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x32 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S32x64 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S1x64 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S64x64 .f32 := win0_15.stage (cfg0.slots t 15)
abbrev hs15 (t : Fin cfg0.N) : (ms15 t).IsWhole := hstage0_15 ((cfg0.slots t 15).cast nbuf0_15)
abbrev ms16 (t : Fin cfg0.N) : Memref sig .tc .vmem S1x64 .f32 := win0_16.stage (cfg0.slots t 16)
abbrev hs16 (t : Fin cfg0.N) : (ms16 t).IsWhole := hstage0_16 ((cfg0.slots t 16).cast nbuf0_16)
abbrev ms17 (t : Fin cfg0.N) : Memref sig .tc .vmem S64x2 .f32 := win0_17.stage (cfg0.slots t 17)
abbrev hs17 (t : Fin cfg0.N) : (ms17 t).IsWhole := hstage0_17 ((cfg0.slots t 17).cast nbuf0_17)
abbrev ms18 (t : Fin cfg0.N) : Memref sig .tc .vmem S1x2 .f32 := win0_18.stage (cfg0.slots t 18)
abbrev hs18 (t : Fin cfg0.N) : (ms18 t).IsWhole := hstage0_18 ((cfg0.slots t 18).cast nbuf0_18)
abbrev ms19 (t : Fin cfg0.N) : Memref sig .tc .vmem S400x32 .f32 := win0_19.stage (cfg0.slots t 19)
abbrev hs19 (t : Fin cfg0.N) : (ms19 t).IsWhole := hstage0_19 ((cfg0.slots t 19).cast nbuf0_19)
abbrev ms20 (t : Fin cfg0.N) : Memref sig .tc .vmem S400x2 .f32 := win0_20.stage (cfg0.slots t 20)
abbrev hs20 (t : Fin cfg0.N) : (ms20 t).IsWhole := hstage0_20 ((cfg0.slots t 20).cast nbuf0_20)
/-- The five scratch buffers: the resident copy, the hyperedge degrees, the two aggregates, the hyperedge features. -/
abbrev scM22 : Memref sig .tc .vmem S10000x2048 .bf16 := Memref.whole cc0_scratch0
abbrev scM23 : Memref sig .tc .vmem S1x2048 .f32 := Memref.whole cc0_scratch1
abbrev scM24 : Memref sig .tc .vmem S64x2048 .f32 := Memref.whole cc0_scratch2
abbrev scM25 : Memref sig .tc .vmem S64x2048 .f32 := Memref.whole cc0_scratch3
abbrev scM26 : Memref sig .tc .vmem S2048x64 .bf16 := Memref.whole cc0_scratch4

/-- The class invariant with the scratch buffers as memrefs owned at some contents. -/
theorem PhiA0_eq (c : Dev nD) :
    (Pipeline.ΦA spec0 c : sProp 𝕄)
      = iprop(iprop((∃ d, owns (c : Thread nD τ) scM22 fullShare d) ∗ (∃ d, owns (c : Thread nD τ) scM23 fullShare d) ∗ (∃ d, owns (c : Thread nD τ) scM24 fullShare d)
          ∗ (∃ d, owns (c : Thread nD τ) scM25 fullShare d) ∗ (∃ d, owns (c : Thread nD τ) scM26 fullShare d)) ∗ (∃ r, prngReg c r)) := by
  unfold Pipeline.ΦA; rw [scopedRest0_eq]; simp only [scM22, scM23, scM24, scM25, scM26, owns_whole]; try rfl

/-! ## The invariant -/

/-- The invariant after point n: the scratch at the state after point n. -/
def PhiPos (c : Dev nD) (n : ℕ) (hn : n < cfg0.N) : sProp 𝕄 :=
  iprop(iprop(∃ dhq dmn, owns (c : Thread nD τ) scM22 fullShare (hqAt m c dhq (min (n + 1) 25)) ∗ owns (c : Thread nD τ) scM23 fullShare (deAt m c n hn)
      ∗ owns (c : Thread nD τ) scM24 fullShare (m1At m c n hn) ∗ owns (c : Thread nD τ) scM25 fullShare (m2At m c n hn)
      ∗ owns (c : Thread nD τ) scM26 fullShare (mnAt m c dmn n)) ∗ (∃ r, prngReg c r))

/-- The invariant before position n: the class's before the first point, then the state after the point before. -/
def PhiS (c : Dev nD) : (n : ℕ) → n ≤ cfg0.N → sProp 𝕄
  | 0, _ => Pipeline.ΦA spec0 c
  | n + 1, hn => PhiPos m c n hn

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => if t.val < 25 then gBlk m c t else gBlk m c ⟨24, by have := N75; omega⟩
    | ⟨20, _⟩ => lBlk m c t
    | ⟨_ + 21, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc_zero (c : Dev nD) (h : 0 < cfg0.N) : (dats m 0 c).Φ (Fin.castSucc ⟨0, h⟩) = Pipeline.ΦA spec0 c := rfl
theorem Phi_castSucc_succ (c : Dev nD) (k : ℕ) (hn : k + 1 < cfg0.N) :
    (dats m 0 c).Φ (Fin.castSucc ⟨k + 1, hn⟩) = PhiPos m c k (Nat.lt_of_succ_lt hn) := rfl
theorem Phi_succ (c : Dev nD) (n : ℕ) (hn : n < cfg0.N) : (dats m 0 c).Φ (Fin.succ ⟨n, hn⟩) = PhiPos m c n hn := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after19_live (c : Dev nD) (t : Fin cfg0.N) (h : t.val < 25) : (dats m 0 c).after 19 t = gBlk m c t := by
  dsimp only [dats]; rw [if_pos h]
theorem after19_late (c : Dev nD) (t : Fin cfg0.N) (h : ¬ t.val < 25) : (dats m 0 c).after 19 t = gBlk m c ⟨24, by have := N75; omega⟩ := by
  dsimp only [dats]; rw [if_neg h]
theorem after20 (c : Dev nD) (t : Fin cfg0.N) : (dats m 0 c).after 20 t = lBlk m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d

/-- Each input's buffer is handed back at its block. -/
theorem leaves0_0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after0_0]
theorem leaves0_1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after0_1]
theorem leaves0_2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after0_2]
theorem leaves0_3 (c : Dev nD) (t : Fin cfg0.N) : (dats m 0 c).leavesExact 3 t = owns (c : Thread nD τ) (ms3 t) fullShare (iblk m c 3 t) := by
  unfold Dat.leavesExact; rw [show cfg0.idle 3 (cfg0.grid.coords t) = false from rfl, after0_3]
theorem leaves0_4 (c : Dev nD) (t : Fin cfg0.N) : (dats m 0 c).leavesExact 4 t = owns (c : Thread nD τ) (ms4 t) fullShare (iblk m c 4 t) := by
  unfold Dat.leavesExact; rw [show cfg0.idle 4 (cfg0.grid.coords t) = false from rfl, after0_4]
theorem leaves0_5 (c : Dev nD) (t : Fin cfg0.N) : (dats m 0 c).leavesExact 5 t = owns (c : Thread nD τ) (ms5 t) fullShare (iblk m c 5 t) := by
  unfold Dat.leavesExact; rw [show cfg0.idle 5 (cfg0.grid.coords t) = false from rfl, after0_5]
theorem leaves0_6 (c : Dev nD) (t : Fin cfg0.N) : (dats m 0 c).leavesExact 6 t = owns (c : Thread nD τ) (ms6 t) fullShare (iblk m c 6 t) := by
  unfold Dat.leavesExact; rw [show cfg0.idle 6 (cfg0.grid.coords t) = false from rfl, after0_6]
theorem leaves0_7 (c : Dev nD) (t : Fin cfg0.N) : (dats m 0 c).leavesExact 7 t = owns (c : Thread nD τ) (ms7 t) fullShare (iblk m c 7 t) := by
  unfold Dat.leavesExact; rw [show cfg0.idle 7 (cfg0.grid.coords t) = false from rfl, after0_7]
theorem leaves0_8 (c : Dev nD) (t : Fin cfg0.N) : (dats m 0 c).leavesExact 8 t = owns (c : Thread nD τ) (ms8 t) fullShare (iblk m c 8 t) := by
  unfold Dat.leavesExact; rw [show cfg0.idle 8 (cfg0.grid.coords t) = false from rfl, after0_8]
theorem leaves0_9 (c : Dev nD) (t : Fin cfg0.N) : (dats m 0 c).leavesExact 9 t = owns (c : Thread nD τ) (ms9 t) fullShare (iblk m c 9 t) := by
  unfold Dat.leavesExact; rw [show cfg0.idle 9 (cfg0.grid.coords t) = false from rfl, after0_9]
theorem leaves0_10 (c : Dev nD) (t : Fin cfg0.N) : (dats m 0 c).leavesExact 10 t = owns (c : Thread nD τ) (ms10 t) fullShare (iblk m c 10 t) := by
  unfold Dat.leavesExact; rw [show cfg0.idle 10 (cfg0.grid.coords t) = false from rfl, after0_10]
theorem leaves0_11 (c : Dev nD) (t : Fin cfg0.N) : (dats m 0 c).leavesExact 11 t = owns (c : Thread nD τ) (ms11 t) fullShare (iblk m c 11 t) := by
  unfold Dat.leavesExact; rw [show cfg0.idle 11 (cfg0.grid.coords t) = false from rfl, after0_11]
theorem leaves0_12 (c : Dev nD) (t : Fin cfg0.N) : (dats m 0 c).leavesExact 12 t = owns (c : Thread nD τ) (ms12 t) fullShare (iblk m c 12 t) := by
  unfold Dat.leavesExact; rw [show cfg0.idle 12 (cfg0.grid.coords t) = false from rfl, after0_12]
theorem leaves0_13 (c : Dev nD) (t : Fin cfg0.N) : (dats m 0 c).leavesExact 13 t = owns (c : Thread nD τ) (ms13 t) fullShare (iblk m c 13 t) := by
  unfold Dat.leavesExact; rw [show cfg0.idle 13 (cfg0.grid.coords t) = false from rfl, after0_13]
theorem leaves0_14 (c : Dev nD) (t : Fin cfg0.N) : (dats m 0 c).leavesExact 14 t = owns (c : Thread nD τ) (ms14 t) fullShare (iblk m c 14 t) := by
  unfold Dat.leavesExact; rw [show cfg0.idle 14 (cfg0.grid.coords t) = false from rfl, after0_14]
theorem leaves0_15 (c : Dev nD) (t : Fin cfg0.N) : (dats m 0 c).leavesExact 15 t = owns (c : Thread nD τ) (ms15 t) fullShare (iblk m c 15 t) := by
  unfold Dat.leavesExact; rw [show cfg0.idle 15 (cfg0.grid.coords t) = false from rfl, after0_15]
theorem leaves0_16 (c : Dev nD) (t : Fin cfg0.N) : (dats m 0 c).leavesExact 16 t = owns (c : Thread nD τ) (ms16 t) fullShare (iblk m c 16 t) := by
  unfold Dat.leavesExact; rw [show cfg0.idle 16 (cfg0.grid.coords t) = false from rfl, after0_16]
theorem leaves0_17 (c : Dev nD) (t : Fin cfg0.N) : (dats m 0 c).leavesExact 17 t = owns (c : Thread nD τ) (ms17 t) fullShare (iblk m c 17 t) := by
  unfold Dat.leavesExact; rw [show cfg0.idle 17 (cfg0.grid.coords t) = false from rfl, after0_17]
theorem leaves0_18 (c : Dev nD) (t : Fin cfg0.N) : (dats m 0 c).leavesExact 18 t = owns (c : Thread nD τ) (ms18 t) fullShare (iblk m c 18 t) := by
  unfold Dat.leavesExact; rw [show cfg0.idle 18 (cfg0.grid.coords t) = false from rfl, after0_18]

/-! ## The two output windows, point by point -/

theorem idle19_false (t : Fin cfg0.N) (h : t.val < 25) : cfg0.idle 19 (cfg0.grid.coords t) = false :=
  Bool.eq_false_iff.mpr fun hi => absurd ((idle19_iff t).mp hi) (by omega)
theorem idle19_true (t : Fin cfg0.N) (h : 25 ≤ t.val) : cfg0.idle 19 (cfg0.grid.coords t) = true := (idle19_iff t).mpr h
theorem flush19_false (t : Fin cfg0.N) (h : 24 ≤ t.val) (h' : t.val ≠ 74) : (cfg0.win 19).flush t = false :=
  Bool.eq_false_iff.mpr fun hf => by have := (flush19_iff t).mp hf; omega
theorem idle20_false (t : Fin cfg0.N) (h : 50 ≤ t.val) : cfg0.idle 20 (cfg0.grid.coords t) = false :=
  Bool.eq_false_iff.mpr fun hi => absurd ((idle20_iff t).mp hi) (by omega)
theorem idle20_true (t : Fin cfg0.N) (h : t.val < 50) : cfg0.idle 20 (cfg0.grid.coords t) = true := (idle20_iff t).mpr h
theorem flush20_false (t : Fin cfg0.N) (h : t.val < 50) : (cfg0.win 20).flush t = false :=
  Bool.eq_false_iff.mpr fun hf => by have := (flush20_iff t).mp hf; omega

/-- During phase 0 the gate's window is handed back at the point's gate block. -/
theorem leaves19_live (c : Dev nD) (t : Fin cfg0.N) (h : t.val < 25) :
    (dats m 0 c).leavesExact 19 t = owns (c : Thread nD τ) (ms19 t) fullShare (gBlk m c t) := by
  unfold Dat.leavesExact; rw [idle19_false t h, after19_live m c t h]
/-- Afterwards, until the last point, it is handed back as it was found. -/
theorem leaves19_idle (c : Dev nD) (t : Fin cfg0.N) (h : 25 ≤ t.val) (h' : t.val ≠ 74) :
    (dats m 0 c).leavesExact 19 t = iprop(∃ d, owns (c : Thread nD τ) (ms19 t) fullShare ((dats m 0 c).before 19 t d)) :=
  Dat.leavesExact_idle (dats m 0 c) 19 t (idle19_true t h) (flush19_false t (by omega) h')
/-- At the last point, which writes it back, it must hold block 24's gate. -/
theorem leaves19_last (c : Dev nD) (t : Fin cfg0.N) (h : t.val = 74) :
    (dats m 0 c).leavesExact 19 t = owns (c : Thread nD τ) (ms19 t) fullShare (gBlk m c ⟨24, by have := N75; omega⟩) := by
  unfold Dat.leavesExact; rw [idle19_true t (by omega), (flush19_iff t).mpr (Or.inr h), after19_late m c t (by omega)]
/-- Before phase 2 the logits' window is handed back as it was found; in phase 2 at the point's logits block. -/
theorem leaves20_idle (c : Dev nD) (t : Fin cfg0.N) (h : t.val < 50) :
    (dats m 0 c).leavesExact 20 t = iprop(∃ d, owns (c : Thread nD τ) (ms20 t) fullShare ((dats m 0 c).before 20 t d)) :=
  Dat.leavesExact_idle (dats m 0 c) 20 t (idle20_true t h) (flush20_false t h)
theorem leaves20_live (c : Dev nD) (t : Fin cfg0.N) (h : 50 ≤ t.val) :
    (dats m 0 c).leavesExact 20 t = owns (c : Thread nD τ) (ms20 t) fullShare (lBlk m c t) := by
  unfold Dat.leavesExact; rw [idle20_false t h, after20]

/-- From point 25 on the gate's window still holds block 24's gate: nothing stored into it, nothing written back. -/
theorem before19_late (c : Dev nD) : ∀ (n : ℕ) (hn : n < cfg0.N), 25 ≤ n → ∀ d,
    (dats m 0 c).before 19 ⟨n, hn⟩ d = gBlk m c ⟨24, by have := N75; omega⟩
  | 0, _, h, _ => absurd h (by omega)
  | n + 1, hn, h, d => by
    have hN := N75
    rw [(dats m 0 c).before_of_pos 19 ⟨n + 1, hn⟩ (Nat.succ_ne_zero n) ((cfg0.win 19).fetch_out rfl _) d]
    rw [show (cfg0.win 19).flush ⟨(⟨n + 1, hn⟩ : Fin cfg0.N).val - 1, Nat.lt_of_le_of_lt (Nat.sub_le _ _) hn⟩ = false from
      flush19_false _ (by show 24 ≤ n + 1 - 1; omega) (by show n + 1 - 1 ≠ 74; omega), if_neg Bool.false_ne_true]
    unfold Dat.left
    by_cases h25 : n + 1 = 25
    · rw [show cfg0.idle 19 (cfg0.grid.coords ⟨(⟨n + 1, hn⟩ : Fin cfg0.N).val - 1, Nat.lt_of_le_of_lt (Nat.sub_le _ _) hn⟩) = false from
        idle19_false _ (by show n + 1 - 1 < 25; omega)]
      dsimp only
      unfold Dat.kept
      rw [Pipeline.fill_of_clip_none (cfg := cfg0) 19 _ (fun _ => rfl) d ((dats m 0 c).after 19 _), Window.fill_cut,
        after19_live m c _ (by show n + 1 - 1 < 25; omega)]
      congr 1; apply Fin.ext; show n + 1 - 1 = 24; omega
    · rw [show cfg0.idle 19 (cfg0.grid.coords ⟨(⟨n + 1, hn⟩ : Fin cfg0.N).val - 1, Nat.lt_of_le_of_lt (Nat.sub_le _ _) hn⟩) = true from
        idle19_true _ (by show 25 ≤ n + 1 - 1; omega)]
      dsimp only
      have := before19_late c n (Nat.lt_of_succ_lt hn) (by omega) d
      rw [show (⟨(⟨n + 1, hn⟩ : Fin cfg0.N).val - 1, Nat.lt_of_le_of_lt (Nat.sub_le _ _) hn⟩ : Fin cfg0.N) = ⟨n, Nat.lt_of_succ_lt hn⟩ from Fin.ext (by show n + 1 - 1 = n; omega)]
      exact this

/-! ## The body obligation's two sides -/

/-- What the body is called with at point t. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d))
    ∗ (∃ d, owns (c : Thread nD τ) (ms18 t) fullShare ((dats m 0 c).before 18 t d))
    ∗ (∃ d, owns (c : Thread nD τ) (ms19 t) fullShare ((dats m 0 c).before 19 t d))
    ∗ (∃ d, owns (c : Thread nD τ) (ms20 t) fullShare ((dats m 0 c).before 20 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t)

/-- Equal contents, equal ownership. -/
theorem owns_congr {S : Shape} {e : EltTy} (c : Dev nD) (a : Memref sig .tc .vmem S e) {X Y : S.Idx → Elt F e} (h : X = Y) :
    (owns (c : Thread nD τ) a fullShare X : sProp 𝕄) ⊢ owns (c : Thread nD τ) a fullShare Y := by
  subst h; exact .rfl

end Cert.Kernel.Gen

end
-- ==== Proof.K.RunA.lean ====
/-
  The body at the first grid point (t = 0), run symbolically on whole memrefs.

  It zeroes the hyperedge degrees and both aggregates, then does what every phase-0 point does: stores the bf16 copy
  of the H block into rows o .. o+399 of the resident copy, adds the block's column sums to the (zeroed) degrees,
  stores the gate block, and adds the block's contribution to the (zeroed) first aggregate.
-/
import proofs.«104241_g40587440947829_cont_sun_m_1101_21_alg».proof.Proof.K.Conds
import proofs.«104241_g40587440947829_cont_sun_m_1101_21_alg».proof.Proof.K.Rows

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A store of B through the whole-buffer rectangle (offsets all zero, however spelt), made LAST, reads back as B, whatever
    the earlier stores into the buffer were. -/
private theorem read_whole_cons {S : Shape} {e : EltTy} (arg : Memref sig .tc .vmem S e) (f : arg.view.ty.Contents (Elt F))
    {off : Fin S.rank → ℕ} (hz : off = fun _ => 0) (inb : ∀ a, off a + S.size a ≤ S.size a) (B : S.Idx → Elt F e)
    (L : List (View.Piece (Elt F) S e)) :
    arg.view.read (Elt F) (arg.view.writes (Elt F) f (⟨Rect.unit off S.size inb, B⟩ :: L)) = B := by
  rw [View.read_writes_eq_canon _ _ _ (fun y => ⟨_, List.mem_cons_self, View.mem_set_unit_zero hz inb y⟩),
    View.canon_cons_unit_zero hz]

-- the core, the grid point, and the body's twenty-six memrefs: the nineteen input windows' staging buffers, the two
-- output windows' (arg20 the gate's, arg21 the logits'), and the five scratch buffers (arg22 the resident copy of H,
-- arg23 the hyperedge degrees, arg24 and arg25 the two aggregates, arg26 the normalised hyperedge features)
variable (c : Dev nD) (i : grid0.Coords)
  (arg1 : Memref sig .tc .vmem S400x2048 .f32) (harg1 : arg1.IsWhole)
  (arg2 : Memref sig .tc .vmem S400x128 .f32) (harg2 : arg2.IsWhole)
  (arg3 : Memref sig .tc .vmem S400x16 .f32) (harg3 : arg3.IsWhole)
  (arg4 : Memref sig .tc .vmem S2048x1 .bf16) (harg4 : arg4.IsWhole)
  (arg5 : Memref sig .tc .vmem S1x2048 .f32) (harg5 : arg5.IsWhole)
  (arg6 : Memref sig .tc .vmem S128x32 .f32) (harg6 : arg6.IsWhole)
  (arg7 : Memref sig .tc .vmem S1x32 .f32) (harg7 : arg7.IsWhole)
  (arg8 : Memref sig .tc .vmem S16x32 .f32) (harg8 : arg8.IsWhole)
  (arg9 : Memref sig .tc .vmem S1x32 .f32) (harg9 : arg9.IsWhole)
  (arg10 : Memref sig .tc .vmem S64x64 .f32) (harg10 : arg10.IsWhole)
  (arg11 : Memref sig .tc .vmem S1x64 .f32) (harg11 : arg11.IsWhole)
  (arg12 : Memref sig .tc .vmem S64x32 .f32) (harg12 : arg12.IsWhole)
  (arg13 : Memref sig .tc .vmem S1x32 .f32) (harg13 : arg13.IsWhole)
  (arg14 : Memref sig .tc .vmem S32x64 .f32) (harg14 : arg14.IsWhole)
  (arg15 : Memref sig .tc .vmem S1x64 .f32) (harg15 : arg15.IsWhole)
  (arg16 : Memref sig .tc .vmem S64x64 .f32) (harg16 : arg16.IsWhole)
  (arg17 : Memref sig .tc .vmem S1x64 .f32) (harg17 : arg17.IsWhole)
  (arg18 : Memref sig .tc .vmem S64x2 .f32) (harg18 : arg18.IsWhole)
  (arg19 : Memref sig .tc .vmem S1x2 .f32) (harg19 : arg19.IsWhole)
  (arg20 : Memref sig .tc .vmem S400x32 .f32) (harg20 : arg20.IsWhole)
  (arg21 : Memref sig .tc .vmem S400x2 .f32) (harg21 : arg21.IsWhole)
  (arg22 : Memref sig .tc .vmem S10000x2048 .bf16) (harg22 : arg22.IsWhole)
  (arg23 : Memref sig .tc .vmem S1x2048 .f32) (harg23 : arg23.IsWhole)
  (arg24 : Memref sig .tc .vmem S64x2048 .f32) (harg24 : arg24.IsWhole)
  (arg25 : Memref sig .tc .vmem S64x2048 .f32) (harg25 : arg25.IsWhole)
  (arg26 : Memref sig .tc .vmem S2048x64 .bf16) (harg26 : arg26.IsWhole)

set_option maxHeartbeats 4000000 in
theorem runA (h1 : isFirst i) (h2 : inPhase0 i) (h3 : ¬isNorm1 i) (h4 : ¬inPhase1 i) (h5 : ¬isNorm2 i) (h6 : ¬inPhase2 i)
    (o : ℕ) (hoff : k0_off1 i = ![o, 0])
    (x1 : Vec F S400x2048 .f32) (x2 : Vec F S400x128 .f32) (x3 : Vec F S400x16 .f32) (x4 : Vec F S2048x1 .bf16) (x6 : Vec F S128x32 .f32) (x7 : Vec F S1x32 .f32) (x8 : Vec F S16x32 .f32) (x9 : Vec F S1x32 .f32) (x10 : Vec F S64x64 .f32) (x11 : Vec F S1x64 .f32) (x12 : Vec F S64x32 .f32) (x13 : Vec F S1x32 .f32) (x14 : Vec F S32x64 .f32) (x15 : Vec F S1x64 .f32) (xo20 : Vec F S400x32 .f32) (xs22 : Vec F S10000x2048 .bf16) (xs23 : Vec F S1x2048 .f32) (xs24 : Vec F S64x2048 .f32) (xs25 : Vec F S64x2048 .f32)
    (E : Set ℕ) (K : PUnit → sProp 𝕄) :
    iprop(owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg6 fullShare x6
      ∗ owns (c : Thread nD τ) arg7 fullShare x7
      ∗ owns (c : Thread nD τ) arg8 fullShare x8
      ∗ owns (c : Thread nD τ) arg9 fullShare x9
      ∗ owns (c : Thread nD τ) arg10 fullShare x10
      ∗ owns (c : Thread nD τ) arg11 fullShare x11
      ∗ owns (c : Thread nD τ) arg12 fullShare x12
      ∗ owns (c : Thread nD τ) arg13 fullShare x13
      ∗ owns (c : Thread nD τ) arg14 fullShare x14
      ∗ owns (c : Thread nD τ) arg15 fullShare x15
      ∗ owns (c : Thread nD τ) arg20 fullShare xo20
      ∗ owns (c : Thread nD τ) arg22 fullShare xs22
      ∗ owns (c : Thread nD τ) arg23 fullShare xs23
      ∗ owns (c : Thread nD τ) arg24 fullShare xs24
      ∗ owns (c : Thread nD τ) arg25 fullShare xs25
      ∗ (iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg6 fullShare x6
          ∗ owns (c : Thread nD τ) arg7 fullShare x7
          ∗ owns (c : Thread nD τ) arg8 fullShare x8
          ∗ owns (c : Thread nD τ) arg9 fullShare x9
          ∗ owns (c : Thread nD τ) arg10 fullShare x10
          ∗ owns (c : Thread nD τ) arg11 fullShare x11
          ∗ owns (c : Thread nD τ) arg12 fullShare x12
          ∗ owns (c : Thread nD τ) arg13 fullShare x13
          ∗ owns (c : Thread nD τ) arg14 fullShare x14
          ∗ owns (c : Thread nD τ) arg15 fullShare x15
          ∗ owns (c : Thread nD τ) arg20 fullShare (k0_pay16 (k0_pay13 x2 x6 x7) (k0_pay14 x3 x8) x9 x10 x11 x12 x13)
          ∗ owns (c : Thread nD τ) arg22 fullShare (putRows xs22 o (k0_pay10 x1))
          ∗ owns (c : Thread nD τ) arg23 fullShare (k0_pay12 x1 k0_pay1)
          ∗ owns (c : Thread nD τ) arg24 fullShare (k0_pay4 k0_pay2 (k0_pay17 (k0_pay9 x1) (k0_pay11 x1 x4) (k0_pay13 x2 x6 x7) (k0_pay14 x3 x8) x9 x10 x11 x12 x13 x14 x15))
          ∗ owns (c : Thread nD τ) arg25 fullShare k0_pay3) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__kernel_eq_skeleton]; unfold cc0__kernel_skel
  unfold owns
  iintro ⟨⟨%f1, %hf1, H1⟩, ⟨%f2, %hf2, H2⟩, ⟨%f3, %hf3, H3⟩, ⟨%f4, %hf4, H4⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f20, %hf20, H20⟩, ⟨%f22, %hf22, H22⟩, ⟨%f23, %hf23, H23⟩, ⟨%f24, %hf24, H24⟩, ⟨%f25, %hf25, H25⟩, Hk⟩
  obtain rfl := harg1.eq_unread hf1; obtain rfl := harg2.eq_unread hf2; obtain rfl := harg3.eq_unread hf3; obtain rfl := harg4.eq_unread hf4; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg20.eq_unread hf20; obtain rfl := harg22.eq_unread hf22; obtain rfl := harg23.eq_unread hf23; obtain rfl := harg24.eq_unread hf24; obtain rfl := harg25.eq_unread hf25
  sl_exec (disch := first | exact h1 | exact h2 | exact h3 | exact h4 | exact h5 | exact h6)
  sl_step
  iapply Hk
  -- the inputs are handed back as they were
  isplitl [H1]; · iexists _; isplitr; · ipureintro; exact harg1.read_unread _
                  iexact H1
  isplitl [H2]; · iexists _; isplitr; · ipureintro; exact harg2.read_unread _
                  iexact H2
  isplitl [H3]; · iexists _; isplitr; · ipureintro; exact harg3.read_unread _
                  iexact H3
  isplitl [H4]; · iexists _; isplitr; · ipureintro; exact harg4.read_unread _
                  iexact H4
  isplitl [H6]; · iexists _; isplitr; · ipureintro; exact harg6.read_unread _
                  iexact H6
  isplitl [H7]; · iexists _; isplitr; · ipureintro; exact harg7.read_unread _
                  iexact H7
  isplitl [H8]; · iexists _; isplitr; · ipureintro; exact harg8.read_unread _
                  iexact H8
  isplitl [H9]; · iexists _; isplitr; · ipureintro; exact harg9.read_unread _
                  iexact H9
  isplitl [H10]; · iexists _; isplitr; · ipureintro; exact harg10.read_unread _
                   iexact H10
  isplitl [H11]; · iexists _; isplitr; · ipureintro; exact harg11.read_unread _
                   iexact H11
  isplitl [H12]; · iexists _; isplitr; · ipureintro; exact harg12.read_unread _
                   iexact H12
  isplitl [H13]; · iexists _; isplitr; · ipureintro; exact harg13.read_unread _
                   iexact H13
  isplitl [H14]; · iexists _; isplitr; · ipureintro; exact harg14.read_unread _
                   iexact H14
  isplitl [H15]; · iexists _; isplitr; · ipureintro; exact harg15.read_unread _
                   iexact H15
  -- the gate block: one store through the whole-buffer rectangle
  isplitl [H20]
  · iexists _; isplitr
    swap; · iexact H20
    ipureintro
    sl_unfold_run_names
    simp only [readAt_whole _ harg2 _ zero2, readAt_whole _ harg3 _ zero2, readAt_whole _ harg6 _ zero2, readAt_whole _ harg7 _ zero2,
      readAt_whole _ harg8 _ zero2, readAt_whole _ harg9 _ zero2, readAt_whole _ harg10 _ zero2, readAt_whole _ harg11 _ zero2,
      readAt_whole _ harg12 _ zero2, readAt_whole _ harg13 _ zero2]
    exact read_whole _ _ zero2 _ _
  -- the resident copy: rows o .. o+399 replaced
  isplitl [H22]
  · iexists _; isplitr
    swap; · iexact H22
    ipureintro
    simp only [readAt_whole _ harg1 _ zero2]
    exact read_put arg22 harg22 xs22 _ _ o hoff _
  -- the hyperedge degrees: the zeros just stored are read back, the block's column sums are added, and the sum is stored last
  isplitl [H23]
  · iexists _; isplitr
    swap; · iexact H23
    ipureintro
    sl_unfold_run_names
    simp only [readAt_whole _ harg1 _ zero2, View.readCov_unit_zero (S := S1x2048) _ zero2]
    exact read_whole_cons _ _ zero2 _ _ _
  -- the first aggregate: the zeros just stored are read back, the block's contribution is added, and the sum is stored last
  isplitl [H24]
  · iexists _; isplitr
    swap; · iexact H24
    ipureintro
    sl_unfold_run_names
    simp only [readAt_whole _ harg1 _ zero2, readAt_whole _ harg2 _ zero2, readAt_whole _ harg3 _ zero2, readAt_whole _ harg4 _ zero2,
      readAt_whole _ harg6 _ zero2, readAt_whole _ harg7 _ zero2,
      readAt_whole _ harg8 _ zero2, readAt_whole _ harg9 _ zero2, readAt_whole _ harg10 _ zero2, readAt_whole _ harg11 _ zero2,
      readAt_whole _ harg12 _ zero2, readAt_whole _ harg13 _ zero2, readAt_whole _ harg14 _ zero2, readAt_whole _ harg15 _ zero2,
      View.readCov_unit_zero (S := S64x2048) _ zero2]
    exact read_whole_cons _ _ zero2 _ _ _
  -- the second aggregate: the reset's one store through the whole-buffer rectangle
  · iexists _; isplitr
    swap; · iexact H25
    ipureintro
    exact read_whole _ _ zero2 _ _

end Cert.Kernel.Gen

end
-- ==== Proof.K.SoundA.lean ====
/-
  The body obligation at the first grid point (t = 0).

  The class invariant hands over the five scratch buffers at contents nobody names; the run of the first-point case
  gives them back at the state after point 0 (the resident copy with block 0 in, over what it held; the features
  buffer untouched); the idle logits' window passes through.
-/
import proofs.«104241_g40587440947829_cont_sun_m_1101_21_alg».proof.Proof.K.BodyDefs
import proofs.«104241_g40587440947829_cont_sun_m_1101_21_alg».proof.Proof.K.RunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (c : Dev nD) in
/-- With no block in, the resident copy is what it held before: no row is below row 0. -/
private theorem hqAt_zero (d : Vec F S10000x2048 .bf16) : hqAt m c d 0 = d := by
  funext y; unfold hqAt; rw [if_neg (by omega)]

variable (c : Dev nD) in
/-- The first point puts block 0 into rows 0 .. 399 of whatever the resident copy held: the copy with one block in. -/
private theorem hqAt_first (d : Vec F S10000x2048 .bf16) (hn : 0 < cfg0.N) :
    putRows d (400 * 0) (k0_pay10 (B1 m c ⟨0, hn⟩)) = hqAt m c d (min (0 + 1) 25) := by
  have e := putRows_hqAt m c d 0 hn (by omega)
  rw [hqAt_zero] at e
  rw [show min (0 + 1) 25 = 0 + 1 by omega]
  exact e

variable (c : Dev nD) in
/-- The degrees, the two aggregates after the first point: the recursions' base cases. -/
private theorem deAt_zero (hn : 0 < cfg0.N) : k0_pay12 (B1 m c ⟨0, hn⟩) k0_pay1 = deAt m c 0 hn := rfl
variable (c : Dev nD) in
private theorem m1At_zero (hn : 0 < cfg0.N) :
    k0_pay4 k0_pay2 (k0_pay17 (k0_pay9 (B1 m c ⟨0, hn⟩)) (k0_pay11 (B1 m c ⟨0, hn⟩) (B4 m c ⟨0, hn⟩)) (k0_pay13 (B2 m c ⟨0, hn⟩) (B6 m c ⟨0, hn⟩) (B7 m c ⟨0, hn⟩))
        (k0_pay14 (B3 m c ⟨0, hn⟩) (B8 m c ⟨0, hn⟩)) (B9 m c ⟨0, hn⟩) (B10 m c ⟨0, hn⟩) (B11 m c ⟨0, hn⟩) (B12 m c ⟨0, hn⟩) (B13 m c ⟨0, hn⟩) (B14 m c ⟨0, hn⟩) (B15 m c ⟨0, hn⟩))
      = m1At m c 0 hn := rfl
variable (c : Dev nD) in
private theorem m2At_zero (hn : 0 < cfg0.N) : k0_pay3 (F := F) = m2At m c 0 hn := rfl

variable (c : Dev nD) in
/-- Before the first normalisation the features buffer is what it held. -/
private theorem mnAt_zero (d : Vec F S2048x64 .bf16) : d = mnAt m c d 0 := by
  unfold mnAt; rw [if_pos (by omega)]

set_option maxHeartbeats 4000000 in
theorem soundA (c : Dev nD) (hn : 0 < cfg0.N) :
    bodyPre m c ⟨0, hn⟩ ⊢ wp frame (wpE (defs₀ (F := F)) Variants.none c none) Set.univ (bodyAt0 ⟨0, hn⟩) (fun _ => bodyPost m c ⟨0, hn⟩) := by
  -- the point, and which branches it takes
  generalize ht : (⟨0, hn⟩ : Fin cfg0.N) = t
  have htv : t.val = 0 := by rw [← ht]
  have h1 : isFirst (grid0.coords t) := (isFirst_iff t).mpr htv
  have h2 : inPhase0 (grid0.coords t) := (inPhase0_iff t).mpr (by omega)
  have h3 : ¬isNorm1 (grid0.coords t) := fun h => by have := (isNorm1_iff t).mp h; omega
  have h4 : ¬inPhase1 (grid0.coords t) := fun h => by have := (inPhase1_iff t).mp h; omega
  have h5 : ¬isNorm2 (grid0.coords t) := fun h => by have := (isNorm2_iff t).mp h; omega
  have h6 : ¬inPhase2 (grid0.coords t) := fun h => by have := (inPhase2_iff t).mp h; omega
  have hoff : k0_off1 (grid0.coords t) = ![400 * 0, 0] := by rw [off1_eq t (by omega), htv]
  unfold bodyPre bodyPost bodyAt0
  simp only [before0_0, before0_1, before0_2, before0_3, before0_4, before0_5, before0_6, before0_7, before0_8, before0_9, before0_10, before0_11, before0_12, before0_13, before0_14, before0_15, before0_16, before0_17, before0_18]
  simp only [leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18]
  rw [leaves19_live m c t (by omega), leaves20_idle m c t (by omega)]
  rw [show (dats m 0 c).owesAt () t.succ = (dats m 0 c).owesAt () t.castSucc from rfl]
  subst ht
  rw [Phi_castSucc_zero, PhiA0_eq, Phi_succ]
  unfold PhiPos
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  icases HΦ with ⟨⟨⟨%e22, HS22⟩, ⟨%e23, HS23⟩, ⟨%e24, HS24⟩, ⟨%e25, HS25⟩, ⟨%e26, HS26⟩⟩, Hg⟩
  iapply (runA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) (ms10 ⟨0, hn⟩) (hs10 ⟨0, hn⟩) (ms11 ⟨0, hn⟩) (hs11 ⟨0, hn⟩) (ms12 ⟨0, hn⟩) (hs12 ⟨0, hn⟩) (ms13 ⟨0, hn⟩) (hs13 ⟨0, hn⟩) (ms14 ⟨0, hn⟩) (hs14 ⟨0, hn⟩) (ms15 ⟨0, hn⟩) (hs15 ⟨0, hn⟩) (ms16 ⟨0, hn⟩) (hs16 ⟨0, hn⟩) (ms17 ⟨0, hn⟩) (hs17 ⟨0, hn⟩) (ms18 ⟨0, hn⟩) (hs18 ⟨0, hn⟩) (ms19 ⟨0, hn⟩) (hs19 ⟨0, hn⟩) (ms20 ⟨0, hn⟩) (hs20 ⟨0, hn⟩) scM22 (Memref.isWhole_whole _) scM23 (Memref.isWhole_whole _) scM24 (Memref.isWhole_whole _) scM25 (Memref.isWhole_whole _) scM26 (Memref.isWhole_whole _) h1 h2 h3 h4 h5 h6 (400 * 0) hoff
    _ _ _ _ _ _ _ _ _ _ _ _ _ _ _ _ _ _ _ Set.univ _)
  isplitl [H0]; · iexact H0
  isplitl [H1]; · iexact H1
  isplitl [H2]; · iexact H2
  isplitl [H3]; · iexact H3
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H19]; · iexact H19
  isplitl [HS22]; · iexact HS22
  isplitl [HS23]; · iexact HS23
  isplitl [HS24]; · iexact HS24
  isplitl [HS25]; · iexact HS25
  iintro ⟨H0, H1, H2, H3, H5, H6, H7, H8, H9, H10, H11, H12, H13, H14, H19, HS22, HS23, HS24, HS25⟩
  -- the invariant after this point: the resident copy over what it held, the features buffer as it was
  isplitl [HS22 HS23 HS24 HS25 HS26 Hg]
  · isplitr [Hg]
    · iexists e22; iexists e26
      isplitl [HS22]
      · iapply (owns_congr c scM22 (hqAt_first m c e22 hn))
        iexact HS22
      isplitl [HS23]
      · iapply (owns_congr c scM23 (deAt_zero m c hn))
        iexact HS23
      isplitl [HS24]
      · iapply (owns_congr c scM24 (m1At_zero m c hn))
        iexact HS24
      isplitl [HS25]
      · iapply (owns_congr c scM25 (m2At_zero m c hn))
        iexact HS25
      · iapply (owns_congr c scM26 (mnAt_zero m c e26))
        iexact HS26
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  -- the logits' window is idle: handed back as found
  iexists _; iexact H20

end Cert.Kernel.Gen

end
-- ==== Proof.K.RunB.lean ====
/-
  The body at a phase-0 point other than the first (0 < t < 25), run symbolically on whole memrefs.

  It reads the point's blocks of H, x and z and the small arrays, stores the bf16 copy of the H block into rows
  o .. o+399 of the resident copy, adds the block's column sums to the hyperedge degrees, stores the gate block, and
  adds the block's contribution to the first aggregate.  Every buffer it touches is handed back at contents named by
  the body's payload terms; the buffers it does not touch are not mentioned.
-/
import proofs.«104241_g40587440947829_cont_sun_m_1101_21_alg».proof.Proof.K.Conds
import proofs.«104241_g40587440947829_cont_sun_m_1101_21_alg».proof.Proof.K.Rows

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core, the grid point, and the body's twenty-six memrefs: the nineteen input windows' staging buffers, the two
-- output windows' (arg20 the gate's, arg21 the logits'), and the five scratch buffers (arg22 the resident copy of H,
-- arg23 the hyperedge degrees, arg24 and arg25 the two aggregates, arg26 the normalised hyperedge features)
variable (c : Dev nD) (i : grid0.Coords)
  (arg1 : Memref sig .tc .vmem S400x2048 .f32) (harg1 : arg1.IsWhole)
  (arg2 : Memref sig .tc .vmem S400x128 .f32) (harg2 : arg2.IsWhole)
  (arg3 : Memref sig .tc .vmem S400x16 .f32) (harg3 : arg3.IsWhole)
  (arg4 : Memref sig .tc .vmem S2048x1 .bf16) (harg4 : arg4.IsWhole)
  (arg5 : Memref sig .tc .vmem S1x2048 .f32) (harg5 : arg5.IsWhole)
  (arg6 : Memref sig .tc .vmem S128x32 .f32) (harg6 : arg6.IsWhole)
  (arg7 : Memref sig .tc .vmem S1x32 .f32) (harg7 : arg7.IsWhole)
  (arg8 : Memref sig .tc .vmem S16x32 .f32) (harg8 : arg8.IsWhole)
  (arg9 : Memref sig .tc .vmem S1x32 .f32) (harg9 : arg9.IsWhole)
  (arg10 : Memref sig .tc .vmem S64x64 .f32) (harg10 : arg10.IsWhole)
  (arg11 : Memref sig .tc .vmem S1x64 .f32) (harg11 : arg11.IsWhole)
  (arg12 : Memref sig .tc .vmem S64x32 .f32) (harg12 : arg12.IsWhole)
  (arg13 : Memref sig .tc .vmem S1x32 .f32) (harg13 : arg13.IsWhole)
  (arg14 : Memref sig .tc .vmem S32x64 .f32) (harg14 : arg14.IsWhole)
  (arg15 : Memref sig .tc .vmem S1x64 .f32) (harg15 : arg15.IsWhole)
  (arg16 : Memref sig .tc .vmem S64x64 .f32) (harg16 : arg16.IsWhole)
  (arg17 : Memref sig .tc .vmem S1x64 .f32) (harg17 : arg17.IsWhole)
  (arg18 : Memref sig .tc .vmem S64x2 .f32) (harg18 : arg18.IsWhole)
  (arg19 : Memref sig .tc .vmem S1x2 .f32) (harg19 : arg19.IsWhole)
  (arg20 : Memref sig .tc .vmem S400x32 .f32) (harg20 : arg20.IsWhole)
  (arg21 : Memref sig .tc .vmem S400x2 .f32) (harg21 : arg21.IsWhole)
  (arg22 : Memref sig .tc .vmem S10000x2048 .bf16) (harg22 : arg22.IsWhole)
  (arg23 : Memref sig .tc .vmem S1x2048 .f32) (harg23 : arg23.IsWhole)
  (arg24 : Memref sig .tc .vmem S64x2048 .f32) (harg24 : arg24.IsWhole)
  (arg25 : Memref sig .tc .vmem S64x2048 .f32) (harg25 : arg25.IsWhole)
  (arg26 : Memref sig .tc .vmem S2048x64 .bf16) (harg26 : arg26.IsWhole)

set_option maxHeartbeats 4000000 in
theorem runB (h1 : ¬isFirst i) (h2 : inPhase0 i) (h3 : ¬isNorm1 i) (h4 : ¬inPhase1 i) (h5 : ¬isNorm2 i) (h6 : ¬inPhase2 i)
    (o : ℕ) (hoff : k0_off1 i = ![o, 0])
    (x1 : Vec F S400x2048 .f32) (x2 : Vec F S400x128 .f32) (x3 : Vec F S400x16 .f32) (x4 : Vec F S2048x1 .bf16)
    (x6 : Vec F S128x32 .f32) (x7 : Vec F S1x32 .f32) (x8 : Vec F S16x32 .f32) (x9 : Vec F S1x32 .f32) (x10 : Vec F S64x64 .f32) (x11 : Vec F S1x64 .f32)
    (x12 : Vec F S64x32 .f32) (x13 : Vec F S1x32 .f32) (x14 : Vec F S32x64 .f32) (x15 : Vec F S1x64 .f32)
    (xo20 : Vec F S400x32 .f32) (xs22 : Vec F S10000x2048 .bf16) (xs23 : Vec F S1x2048 .f32) (xs24 : Vec F S64x2048 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
      ∗ owns (c : Thread nD τ) arg6 fullShare x6 ∗ owns (c : Thread nD τ) arg7 fullShare x7 ∗ owns (c : Thread nD τ) arg8 fullShare x8 ∗ owns (c : Thread nD τ) arg9 fullShare x9
      ∗ owns (c : Thread nD τ) arg10 fullShare x10 ∗ owns (c : Thread nD τ) arg11 fullShare x11 ∗ owns (c : Thread nD τ) arg12 fullShare x12 ∗ owns (c : Thread nD τ) arg13 fullShare x13
      ∗ owns (c : Thread nD τ) arg14 fullShare x14 ∗ owns (c : Thread nD τ) arg15 fullShare x15
      ∗ owns (c : Thread nD τ) arg20 fullShare xo20 ∗ owns (c : Thread nD τ) arg22 fullShare xs22 ∗ owns (c : Thread nD τ) arg23 fullShare xs23 ∗ owns (c : Thread nD τ) arg24 fullShare xs24
      ∗ (iprop(owns (c : Thread nD τ) arg1 fullShare x1 ∗ owns (c : Thread nD τ) arg2 fullShare x2 ∗ owns (c : Thread nD τ) arg3 fullShare x3 ∗ owns (c : Thread nD τ) arg4 fullShare x4
          ∗ owns (c : Thread nD τ) arg6 fullShare x6 ∗ owns (c : Thread nD τ) arg7 fullShare x7 ∗ owns (c : Thread nD τ) arg8 fullShare x8 ∗ owns (c : Thread nD τ) arg9 fullShare x9
          ∗ owns (c : Thread nD τ) arg10 fullShare x10 ∗ owns (c : Thread nD τ) arg11 fullShare x11 ∗ owns (c : Thread nD τ) arg12 fullShare x12 ∗ owns (c : Thread nD τ) arg13 fullShare x13
          ∗ owns (c : Thread nD τ) arg14 fullShare x14 ∗ owns (c : Thread nD τ) arg15 fullShare x15
          ∗ owns (c : Thread nD τ) arg20 fullShare (k0_pay16 (k0_pay13 x2 x6 x7) (k0_pay14 x3 x8) x9 x10 x11 x12 x13)
          ∗ owns (c : Thread nD τ) arg22 fullShare (putRows xs22 o (k0_pay10 x1))
          ∗ owns (c : Thread nD τ) arg23 fullShare (k0_pay12 x1 xs23)
          ∗ owns (c : Thread nD τ) arg24 fullShare (k0_pay4 xs24 (k0_pay17 (k0_pay9 x1) (k0_pay11 x1 x4) (k0_pay13 x2 x6 x7) (k0_pay14 x3 x8) x9 x10 x11 x12 x13 x14 x15))) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__kernel_eq_skeleton]; unfold cc0__kernel_skel
  unfold owns
  iintro ⟨⟨%f1, %hf1, H1⟩, ⟨%f2, %hf2, H2⟩, ⟨%f3, %hf3, H3⟩, ⟨%f4, %hf4, H4⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f20, %hf20, H20⟩, ⟨%f22, %hf22, H22⟩, ⟨%f23, %hf23, H23⟩, ⟨%f24, %hf24, H24⟩, Hk⟩
  obtain rfl := harg1.eq_unread hf1; obtain rfl := harg2.eq_unread hf2; obtain rfl := harg3.eq_unread hf3; obtain rfl := harg4.eq_unread hf4
  obtain rfl := harg6.eq_unread hf6; obtain rfl := harg7.eq_unread hf7; obtain rfl := harg8.eq_unread hf8; obtain rfl := harg9.eq_unread hf9
  obtain rfl := harg10.eq_unread hf10; obtain rfl := harg11.eq_unread hf11; obtain rfl := harg12.eq_unread hf12; obtain rfl := harg13.eq_unread hf13
  obtain rfl := harg14.eq_unread hf14; obtain rfl := harg15.eq_unread hf15
  obtain rfl := harg20.eq_unread hf20; obtain rfl := harg22.eq_unread hf22; obtain rfl := harg23.eq_unread hf23; obtain rfl := harg24.eq_unread hf24
  sl_exec (disch := first | exact h1 | exact h2 | exact h3 | exact h4 | exact h5 | exact h6)
  sl_step
  iapply Hk
  -- the inputs are handed back as they were
  isplitl [H1]; · iexists _; isplitr; · ipureintro; exact harg1.read_unread _
                  iexact H1
  isplitl [H2]; · iexists _; isplitr; · ipureintro; exact harg2.read_unread _
                  iexact H2
  isplitl [H3]; · iexists _; isplitr; · ipureintro; exact harg3.read_unread _
                  iexact H3
  isplitl [H4]; · iexists _; isplitr; · ipureintro; exact harg4.read_unread _
                  iexact H4
  isplitl [H6]; · iexists _; isplitr; · ipureintro; exact harg6.read_unread _
                  iexact H6
  isplitl [H7]; · iexists _; isplitr; · ipureintro; exact harg7.read_unread _
                  iexact H7
  isplitl [H8]; · iexists _; isplitr; · ipureintro; exact harg8.read_unread _
                  iexact H8
  isplitl [H9]; · iexists _; isplitr; · ipureintro; exact harg9.read_unread _
                  iexact H9
  isplitl [H10]; · iexists _; isplitr; · ipureintro; exact harg10.read_unread _
                   iexact H10
  isplitl [H11]; · iexists _; isplitr; · ipureintro; exact harg11.read_unread _
                   iexact H11
  isplitl [H12]; · iexists _; isplitr; · ipureintro; exact harg12.read_unread _
                   iexact H12
  isplitl [H13]; · iexists _; isplitr; · ipureintro; exact harg13.read_unread _
                   iexact H13
  isplitl [H14]; · iexists _; isplitr; · ipureintro; exact harg14.read_unread _
                   iexact H14
  isplitl [H15]; · iexists _; isplitr; · ipureintro; exact harg15.read_unread _
                   iexact H15
  -- the gate block: one store through the whole-buffer rectangle
  isplitl [H20]
  · iexists _; isplitr
    swap; · iexact H20
    ipureintro
    sl_unfold_run_names
    simp only [readAt_whole _ harg2 _ zero2, readAt_whole _ harg3 _ zero2, readAt_whole _ harg6 _ zero2, readAt_whole _ harg7 _ zero2,
      readAt_whole _ harg8 _ zero2, readAt_whole _ harg9 _ zero2, readAt_whole _ harg10 _ zero2, readAt_whole _ harg11 _ zero2,
      readAt_whole _ harg12 _ zero2, readAt_whole _ harg13 _ zero2]
    exact read_whole _ _ zero2 _ _
  -- the resident copy: rows o .. o+399 replaced
  isplitl [H22]
  · iexists _; isplitr
    swap; · iexact H22
    ipureintro
    simp only [readAt_whole _ harg1 _ zero2]
    exact read_put arg22 harg22 xs22 _ _ o hoff _
  -- the hyperedge degrees
  isplitl [H23]
  · iexists _; isplitr
    swap; · iexact H23
    ipureintro
    simp only [readAt_whole _ harg1 _ zero2, readAt_whole _ harg23 _ zero2]
    exact read_whole _ _ zero2 _ _
  -- the first aggregate
  · iexists _; isplitr
    swap; · iexact H24
    ipureintro
    sl_unfold_run_names
    simp only [readAt_whole _ harg1 _ zero2, readAt_whole _ harg2 _ zero2, readAt_whole _ harg3 _ zero2, readAt_whole _ harg4 _ zero2,
      readAt_whole _ harg6 _ zero2, readAt_whole _ harg7 _ zero2,
      readAt_whole _ harg8 _ zero2, readAt_whole _ harg9 _ zero2, readAt_whole _ harg10 _ zero2, readAt_whole _ harg11 _ zero2,
      readAt_whole _ harg12 _ zero2, readAt_whole _ harg13 _ zero2, readAt_whole _ harg14 _ zero2, readAt_whole _ harg15 _ zero2,
      readAt_whole _ harg24 _ zero2]
    exact read_whole _ _ zero2 _ _

end Cert.Kernel.Gen

end
-- ==== Proof.K.SoundB.lean ====
/-
  The body obligation at a phase-0 point other than the first (0 < t < 25).

  The invariant hands over the scratch at the state after the point before; the run of the phase-0 case gives the
  buffers back at payload terms, which are the state after this point, one recursion step each; the buffers the
  point does not touch pass through (the second aggregate, the features buffer, the idle logits' window).
-/
import proofs.«104241_g40587440947829_cont_sun_m_1101_21_alg».proof.Proof.K.BodyDefs
import proofs.«104241_g40587440947829_cont_sun_m_1101_21_alg».proof.Proof.K.RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
theorem soundB (c : Dev nD) (k : ℕ) (hn : k + 1 < cfg0.N) (hk : k + 1 < 25) :
    bodyPre m c ⟨k + 1, hn⟩ ⊢ wp frame (wpE (defs₀ (F := F)) Variants.none c none) Set.univ (bodyAt0 ⟨k + 1, hn⟩) (fun _ => bodyPost m c ⟨k + 1, hn⟩) := by
  -- the point, and which branches it takes
  generalize ht : (⟨k + 1, hn⟩ : Fin cfg0.N) = t
  have htv : t.val = k + 1 := by rw [← ht]
  have h1 : ¬isFirst (grid0.coords t) := fun h => by have := (isFirst_iff t).mp h; omega
  have h2 : inPhase0 (grid0.coords t) := (inPhase0_iff t).mpr (by omega)
  have h3 : ¬isNorm1 (grid0.coords t) := fun h => by have := (isNorm1_iff t).mp h; omega
  have h4 : ¬inPhase1 (grid0.coords t) := fun h => by have := (inPhase1_iff t).mp h; omega
  have h5 : ¬isNorm2 (grid0.coords t) := fun h => by have := (isNorm2_iff t).mp h; omega
  have h6 : ¬inPhase2 (grid0.coords t) := fun h => by have := (inPhase2_iff t).mp h; omega
  have hoff : k0_off1 (grid0.coords t) = ![400 * (k + 1), 0] := by rw [off1_eq t (by omega), htv]
  unfold bodyPre bodyPost bodyAt0
  simp only [before0_0, before0_1, before0_2, before0_3, before0_4, before0_5, before0_6, before0_7, before0_8, before0_9, before0_10, before0_11, before0_12, before0_13, before0_14, before0_15, before0_16, before0_17, before0_18]
  simp only [leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18]
  rw [leaves19_live m c t (by omega), leaves20_idle m c t (by omega)]
  rw [show (dats m 0 c).owesAt () t.succ = (dats m 0 c).owesAt () t.castSucc from rfl]
  subst ht
  rw [Phi_castSucc_succ, Phi_succ]
  unfold PhiPos
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  icases HΦ with ⟨⟨%dhq, %dmn, HS22, HS23, HS24, HS25, HS26⟩, Hg⟩
  iapply (runB c (grid0.coords ⟨k + 1, hn⟩) (ms0 ⟨k + 1, hn⟩) (hs0 ⟨k + 1, hn⟩) (ms1 ⟨k + 1, hn⟩) (hs1 ⟨k + 1, hn⟩) (ms2 ⟨k + 1, hn⟩) (hs2 ⟨k + 1, hn⟩) (ms3 ⟨k + 1, hn⟩) (hs3 ⟨k + 1, hn⟩) (ms4 ⟨k + 1, hn⟩) (hs4 ⟨k + 1, hn⟩) (ms5 ⟨k + 1, hn⟩) (hs5 ⟨k + 1, hn⟩) (ms6 ⟨k + 1, hn⟩) (hs6 ⟨k + 1, hn⟩) (ms7 ⟨k + 1, hn⟩) (hs7 ⟨k + 1, hn⟩) (ms8 ⟨k + 1, hn⟩) (hs8 ⟨k + 1, hn⟩) (ms9 ⟨k + 1, hn⟩) (hs9 ⟨k + 1, hn⟩) (ms10 ⟨k + 1, hn⟩) (hs10 ⟨k + 1, hn⟩) (ms11 ⟨k + 1, hn⟩) (hs11 ⟨k + 1, hn⟩) (ms12 ⟨k + 1, hn⟩) (hs12 ⟨k + 1, hn⟩) (ms13 ⟨k + 1, hn⟩) (hs13 ⟨k + 1, hn⟩) (ms14 ⟨k + 1, hn⟩) (hs14 ⟨k + 1, hn⟩) (ms15 ⟨k + 1, hn⟩) (hs15 ⟨k + 1, hn⟩) (ms16 ⟨k + 1, hn⟩) (hs16 ⟨k + 1, hn⟩) (ms17 ⟨k + 1, hn⟩) (hs17 ⟨k + 1, hn⟩) (ms18 ⟨k + 1, hn⟩) (hs18 ⟨k + 1, hn⟩) (ms19 ⟨k + 1, hn⟩) (hs19 ⟨k + 1, hn⟩) (ms20 ⟨k + 1, hn⟩) (hs20 ⟨k + 1, hn⟩) scM22 (Memref.isWhole_whole _) scM23 (Memref.isWhole_whole _) scM24 (Memref.isWhole_whole _) scM25 (Memref.isWhole_whole _) scM26 (Memref.isWhole_whole _) h1 h2 h3 h4 h5 h6 (400 * (k + 1)) hoff
    _ _ _ _ _ _ _ _ _ _ _ _ _ _ _ _ _ _ Set.univ _)
  isplitl [H0]; · iexact H0
  isplitl [H1]; · iexact H1
  isplitl [H2]; · iexact H2
  isplitl [H3]; · iexact H3
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H19]; · iexact H19
  isplitl [HS22]; · iexact HS22
  isplitl [HS23]; · iexact HS23
  isplitl [HS24]; · iexact HS24
  iintro ⟨H0, H1, H2, H3, H5, H6, H7, H8, H9, H10, H11, H12, H13, H14, H19, HS22, HS23, HS24⟩
  -- the invariant after this point
  isplitl [HS22 HS23 HS24 HS25 HS26 Hg]
  · isplitr [Hg]
    · iexists dhq; iexists dmn
      isplitl [HS22]
      · iapply (owns_congr c scM22 (show putRows (hqAt m c dhq (min (k + 1) 25)) (400 * (k + 1)) (k0_pay10 (B1 m c ⟨k + 1, hn⟩)) = hqAt m c dhq (min (k + 1 + 1) 25) from by
          rw [Nat.min_eq_left (by omega), Nat.min_eq_left (by omega)]; exact putRows_hqAt m c dhq (k + 1) hn hk))
        iexact HS22
      isplitl [HS23]
      · iapply (owns_congr c scM23 (deAt_succ_lt m c k hn hk).symm)
        iexact HS23
      isplitl [HS24]
      · iapply (owns_congr c scM24 (m1At_succ_lt m c k hn hk).symm)
        iexact HS24
      isplitl [HS25]
      · iapply (owns_congr c scM25 (m2At_succ_out m c k hn (by omega)).symm)
        iexact HS25
      · iapply (owns_congr c scM26 (show mnAt m c dmn k = mnAt m c dmn (k + 1) from by unfold mnAt; rw [if_pos (by omega), if_pos (by omega)]))
        iexact HS26
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexists _; iexact H20

end Cert.Kernel.Gen

end
-- ==== Proof.K.RunC.lean ====
/-
  The body at the first phase-1 point (t = 25), run symbolically on whole memrefs.

  It first turns the first aggregate into the normalised hyperedge features (scaled per hyperedge, transposed), then
  does what every phase-1 point does: reads rows o .. o+399 of the resident copy, computes that block's layer output
  and second-layer input, and adds the block's contribution to the second aggregate.
-/
import proofs.«104241_g40587440947829_cont_sun_m_1101_21_alg».proof.Proof.K.Conds
import proofs.«104241_g40587440947829_cont_sun_m_1101_21_alg».proof.Proof.K.Rows

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core, the grid point, and the body's twenty-six memrefs: the nineteen input windows' staging buffers, the two
-- output windows' (arg20 the gate's, arg21 the logits'), and the five scratch buffers (arg22 the resident copy of H,
-- arg23 the hyperedge degrees, arg24 and arg25 the two aggregates, arg26 the normalised hyperedge features)
variable (c : Dev nD) (i : grid0.Coords)
  (arg1 : Memref sig .tc .vmem S400x2048 .f32) (harg1 : arg1.IsWhole)
  (arg2 : Memref sig .tc .vmem S400x128 .f32) (harg2 : arg2.IsWhole)
  (arg3 : Memref sig .tc .vmem S400x16 .f32) (harg3 : arg3.IsWhole)
  (arg4 : Memref sig .tc .vmem S2048x1 .bf16) (harg4 : arg4.IsWhole)
  (arg5 : Memref sig .tc .vmem S1x2048 .f32) (harg5 : arg5.IsWhole)
  (arg6 : Memref sig .tc .vmem S128x32 .f32) (harg6 : arg6.IsWhole)
  (arg7 : Memref sig .tc .vmem S1x32 .f32) (harg7 : arg7.IsWhole)
  (arg8 : Memref sig .tc .vmem S16x32 .f32) (harg8 : arg8.IsWhole)
  (arg9 : Memref sig .tc .vmem S1x32 .f32) (harg9 : arg9.IsWhole)
  (arg10 : Memref sig .tc .vmem S64x64 .f32) (harg10 : arg10.IsWhole)
  (arg11 : Memref sig .tc .vmem S1x64 .f32) (harg11 : arg11.IsWhole)
  (arg12 : Memref sig .tc .vmem S64x32 .f32) (harg12 : arg12.IsWhole)
  (arg13 : Memref sig .tc .vmem S1x32 .f32) (harg13 : arg13.IsWhole)
  (arg14 : Memref sig .tc .vmem S32x64 .f32) (harg14 : arg14.IsWhole)
  (arg15 : Memref sig .tc .vmem S1x64 .f32) (harg15 : arg15.IsWhole)
  (arg16 : Memref sig .tc .vmem S64x64 .f32) (harg16 : arg16.IsWhole)
  (arg17 : Memref sig .tc .vmem S1x64 .f32) (harg17 : arg17.IsWhole)
  (arg18 : Memref sig .tc .vmem S64x2 .f32) (harg18 : arg18.IsWhole)
  (arg19 : Memref sig .tc .vmem S1x2 .f32) (harg19 : arg19.IsWhole)
  (arg20 : Memref sig .tc .vmem S400x32 .f32) (harg20 : arg20.IsWhole)
  (arg21 : Memref sig .tc .vmem S400x2 .f32) (harg21 : arg21.IsWhole)
  (arg22 : Memref sig .tc .vmem S10000x2048 .bf16) (harg22 : arg22.IsWhole)
  (arg23 : Memref sig .tc .vmem S1x2048 .f32) (harg23 : arg23.IsWhole)
  (arg24 : Memref sig .tc .vmem S64x2048 .f32) (harg24 : arg24.IsWhole)
  (arg25 : Memref sig .tc .vmem S64x2048 .f32) (harg25 : arg25.IsWhole)
  (arg26 : Memref sig .tc .vmem S2048x64 .bf16) (harg26 : arg26.IsWhole)

set_option maxHeartbeats 4000000 in
theorem runC (h1 : ¬isFirst i) (h2 : ¬inPhase0 i) (h3 : isNorm1 i) (h4 : inPhase1 i) (h5 : ¬isNorm2 i) (h6 : ¬inPhase2 i)
    (o : ℕ) (hoff : k0_off2 i = ![o, 0]) (ho : o + 400 ≤ 10000)
    (x4 : Vec F S2048x1 .bf16) (x5 : Vec F S1x2048 .f32) (x16 : Vec F S64x64 .f32) (x17 : Vec F S1x64 .f32) (xs22 : Vec F S10000x2048 .bf16) (xs23 : Vec F S1x2048 .f32) (xs24 : Vec F S64x2048 .f32) (xs25 : Vec F S64x2048 .f32) (xs26 : Vec F S2048x64 .bf16)
    (E : Set ℕ) (K : PUnit → sProp 𝕄) :
    iprop(owns (c : Thread nD τ) arg4 fullShare x4
      ∗ owns (c : Thread nD τ) arg5 fullShare x5
      ∗ owns (c : Thread nD τ) arg16 fullShare x16
      ∗ owns (c : Thread nD τ) arg17 fullShare x17
      ∗ owns (c : Thread nD τ) arg22 fullShare xs22
      ∗ owns (c : Thread nD τ) arg23 fullShare xs23
      ∗ owns (c : Thread nD τ) arg24 fullShare xs24
      ∗ owns (c : Thread nD τ) arg25 fullShare xs25
      ∗ owns (c : Thread nD τ) arg26 fullShare xs26
      ∗ (iprop(owns (c : Thread nD τ) arg4 fullShare x4
          ∗ owns (c : Thread nD τ) arg5 fullShare x5
          ∗ owns (c : Thread nD τ) arg16 fullShare x16
          ∗ owns (c : Thread nD τ) arg17 fullShare x17
          ∗ owns (c : Thread nD τ) arg22 fullShare xs22
          ∗ owns (c : Thread nD τ) arg23 fullShare xs23
          ∗ owns (c : Thread nD τ) arg24 fullShare xs24
          ∗ owns (c : Thread nD τ) arg25 fullShare (k0_pay6 (getRows xs22 o ho) x4 (k0_pay5 x5 xs23 xs24) x16 x17 xs25)
          ∗ owns (c : Thread nD τ) arg26 fullShare (k0_pay5 x5 xs23 xs24)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__kernel_eq_skeleton]; unfold cc0__kernel_skel
  unfold owns
  iintro ⟨⟨%f4, %hf4, H4⟩, ⟨%f5, %hf5, H5⟩, ⟨%f16, %hf16, H16⟩, ⟨%f17, %hf17, H17⟩, ⟨%f22, %hf22, H22⟩, ⟨%f23, %hf23, H23⟩, ⟨%f24, %hf24, H24⟩, ⟨%f25, %hf25, H25⟩, ⟨%f26, %hf26, H26⟩, Hk⟩
  obtain rfl := harg4.eq_unread hf4; obtain rfl := harg5.eq_unread hf5; obtain rfl := harg16.eq_unread hf16; obtain rfl := harg17.eq_unread hf17
  obtain rfl := harg22.eq_unread hf22; obtain rfl := harg23.eq_unread hf23; obtain rfl := harg24.eq_unread hf24; obtain rfl := harg25.eq_unread hf25
  obtain rfl := harg26.eq_unread hf26
  sl_exec (disch := first | exact h1 | exact h2 | exact h3 | exact h4 | exact h5 | exact h6)
  sl_step
  iapply Hk
  -- the inputs and the untouched scratch buffers are handed back as they were
  isplitl [H4]; · iexists _; isplitr; · ipureintro; exact harg4.read_unread _
                  iexact H4
  isplitl [H5]; · iexists _; isplitr; · ipureintro; exact harg5.read_unread _
                  iexact H5
  isplitl [H16]; · iexists _; isplitr; · ipureintro; exact harg16.read_unread _
                   iexact H16
  isplitl [H17]; · iexists _; isplitr; · ipureintro; exact harg17.read_unread _
                   iexact H17
  isplitl [H22]; · iexists _; isplitr; · ipureintro; exact harg22.read_unread _
                   iexact H22
  isplitl [H23]; · iexists _; isplitr; · ipureintro; exact harg23.read_unread _
                   iexact H23
  isplitl [H24]; · iexists _; isplitr; · ipureintro; exact harg24.read_unread _
                   iexact H24
  -- the second aggregate: the features just stored are read back, rows o .. o+399 of the resident copy are read
  isplitl [H25]
  · iexists _; isplitr
    swap; · iexact H25
    ipureintro
    sl_unfold_run_names
    simp only [readAt_get arg22 harg22 xs22 _ _ o hoff ho, readAt_whole _ harg4 _ zero2, readAt_whole _ harg5 _ zero2,
      readAt_whole _ harg16 _ zero2, readAt_whole _ harg17 _ zero2, readAt_whole _ harg23 _ zero2, readAt_whole _ harg24 _ zero2,
      readAt_whole _ harg25 _ zero2, View.readCov_unit_zero (S := S2048x64) _ zero2]
    exact read_whole _ _ zero2 _ _
  -- the normalised hyperedge features: one store through the whole-buffer rectangle
  · iexists _; isplitr
    swap; · iexact H26
    ipureintro
    sl_unfold_run_names
    simp only [readAt_whole _ harg5 _ zero2, readAt_whole _ harg23 _ zero2, readAt_whole _ harg24 _ zero2]
    exact read_whole _ _ zero2 _ _

end Cert.Kernel.Gen

end
-- ==== Proof.K.SoundC.lean ====
/-
  The body obligation at the first phase-1 point (t = 25).

  The invariant hands over the state after phase 0; the run normalises the first aggregate into the hyperedge features
  and adds block 0's contribution to the second aggregate: the state after point 25.  Both output windows are idle.
-/
import proofs.«104241_g40587440947829_cont_sun_m_1101_21_alg».proof.Proof.K.BodyDefs
import proofs.«104241_g40587440947829_cont_sun_m_1101_21_alg».proof.Proof.K.RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (c : Dev nD) in
/-- At the first phase-1 point the run's second aggregate is the state's: rows 0 .. 399 of the full resident copy are
    block 0 of the copy, and the features it multiplies by are the first normalisation's. -/
private theorem m2At_first (d : Vec F S10000x2048 .bf16) (k : ℕ) (hn : k + 1 < cfg0.N) (hk : k + 1 = 25)
    (ho : 400 * (k + 1 - 25) + 400 ≤ 10000) :
    k0_pay6 (getRows (hqAt m c d (min (k + 1) 25)) (400 * (k + 1 - 25)) ho) (B4 m c ⟨k + 1, hn⟩)
        (k0_pay5 (B5 m c ⟨k + 1, hn⟩) (deAt m c k (Nat.lt_of_succ_lt hn)) (m1At m c k (Nat.lt_of_succ_lt hn)))
        (B16 m c ⟨k + 1, hn⟩) (B17 m c ⟨k + 1, hn⟩) (m2At m c k (Nat.lt_of_succ_lt hn))
      = m2At m c (k + 1) hn := by
  obtain rfl : k = 24 := by omega
  rw [m2At_succ_in m c 24 hn (by omega)]
  have e : getRows (hqAt m c d (min (24 + 1) 25)) (400 * (24 + 1 - 25)) ho = hqBlk m c (24 + 1 - 25) (by have := N75; omega) :=
    getRows_hqAt m c d 0 (by have := N75; omega) (by omega) (by omega)
  rw [e]; rfl

variable (c : Dev nD) in
/-- The features the first normalisation stores are the features buffer's state after point 25. -/
private theorem mnAt_first (d : Vec F S2048x64 .bf16) (k : ℕ) (hn : k + 1 < cfg0.N) (hk : k + 1 = 25) :
    k0_pay5 (B5 m c ⟨k + 1, hn⟩) (deAt m c k (Nat.lt_of_succ_lt hn)) (m1At m c k (Nat.lt_of_succ_lt hn)) = mnAt m c d (k + 1) := by
  obtain rfl : k = 24 := by omega
  unfold mnAt; rw [if_neg (by omega), if_pos (by omega)]; rfl

set_option maxHeartbeats 4000000 in
theorem soundC (c : Dev nD) (k : ℕ) (hn : k + 1 < cfg0.N) (hk : k + 1 = 25) :
    bodyPre m c ⟨k + 1, hn⟩ ⊢ wp frame (wpE (defs₀ (F := F)) Variants.none c none) Set.univ (bodyAt0 ⟨k + 1, hn⟩) (fun _ => bodyPost m c ⟨k + 1, hn⟩) := by
  -- the point, and which branches it takes
  generalize ht : (⟨k + 1, hn⟩ : Fin cfg0.N) = t
  have htv : t.val = k + 1 := by rw [← ht]
  have h1 : ¬isFirst (grid0.coords t) := fun h => by have := (isFirst_iff t).mp h; omega
  have h2 : ¬inPhase0 (grid0.coords t) := fun h => by have := (inPhase0_iff t).mp h; omega
  have h3 : isNorm1 (grid0.coords t) := (isNorm1_iff t).mpr (by omega)
  have h4 : inPhase1 (grid0.coords t) := (inPhase1_iff t).mpr (by omega)
  have h5 : ¬isNorm2 (grid0.coords t) := fun h => by have := (isNorm2_iff t).mp h; omega
  have h6 : ¬inPhase2 (grid0.coords t) := fun h => by have := (inPhase2_iff t).mp h; omega
  have hoff : k0_off2 (grid0.coords t) = ![400 * (k + 1 - 25), 0] := by rw [off2_eq t (by omega) (by omega), htv]
  have ho : 400 * (k + 1 - 25) + 400 ≤ 10000 := by omega
  unfold bodyPre bodyPost bodyAt0
  simp only [before0_0, before0_1, before0_2, before0_3, before0_4, before0_5, before0_6, before0_7, before0_8, before0_9, before0_10, before0_11, before0_12, before0_13, before0_14, before0_15, before0_16, before0_17, before0_18]
  simp only [leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18]
  rw [leaves19_idle m c t (by omega) (by omega), leaves20_idle m c t (by omega)]
  rw [show (dats m 0 c).owesAt () t.succ = (dats m 0 c).owesAt () t.castSucc from rfl]
  subst ht
  rw [Phi_castSucc_succ, Phi_succ]
  unfold PhiPos
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  icases HΦ with ⟨⟨%dhq, %dmn, HS22, HS23, HS24, HS25, HS26⟩, Hg⟩
  iapply (runC c (grid0.coords ⟨k + 1, hn⟩) (ms0 ⟨k + 1, hn⟩) (hs0 ⟨k + 1, hn⟩) (ms1 ⟨k + 1, hn⟩) (hs1 ⟨k + 1, hn⟩) (ms2 ⟨k + 1, hn⟩) (hs2 ⟨k + 1, hn⟩) (ms3 ⟨k + 1, hn⟩) (hs3 ⟨k + 1, hn⟩) (ms4 ⟨k + 1, hn⟩) (hs4 ⟨k + 1, hn⟩) (ms5 ⟨k + 1, hn⟩) (hs5 ⟨k + 1, hn⟩) (ms6 ⟨k + 1, hn⟩) (hs6 ⟨k + 1, hn⟩) (ms7 ⟨k + 1, hn⟩) (hs7 ⟨k + 1, hn⟩) (ms8 ⟨k + 1, hn⟩) (hs8 ⟨k + 1, hn⟩) (ms9 ⟨k + 1, hn⟩) (hs9 ⟨k + 1, hn⟩) (ms10 ⟨k + 1, hn⟩) (hs10 ⟨k + 1, hn⟩) (ms11 ⟨k + 1, hn⟩) (hs11 ⟨k + 1, hn⟩) (ms12 ⟨k + 1, hn⟩) (hs12 ⟨k + 1, hn⟩) (ms13 ⟨k + 1, hn⟩) (hs13 ⟨k + 1, hn⟩) (ms14 ⟨k + 1, hn⟩) (hs14 ⟨k + 1, hn⟩) (ms15 ⟨k + 1, hn⟩) (hs15 ⟨k + 1, hn⟩) (ms16 ⟨k + 1, hn⟩) (hs16 ⟨k + 1, hn⟩) (ms17 ⟨k + 1, hn⟩) (hs17 ⟨k + 1, hn⟩) (ms18 ⟨k + 1, hn⟩) (hs18 ⟨k + 1, hn⟩) (ms19 ⟨k + 1, hn⟩) (hs19 ⟨k + 1, hn⟩) (ms20 ⟨k + 1, hn⟩) (hs20 ⟨k + 1, hn⟩) scM22 (Memref.isWhole_whole _) scM23 (Memref.isWhole_whole _) scM24 (Memref.isWhole_whole _) scM25 (Memref.isWhole_whole _) scM26 (Memref.isWhole_whole _) h1 h2 h3 h4 h5 h6 (400 * (k + 1 - 25)) hoff ho
    _ _ _ _ _ _ _ _ _ Set.univ _)
  isplitl [H3]; · iexact H3
  isplitl [H4]; · iexact H4
  isplitl [H15]; · iexact H15
  isplitl [H16]; · iexact H16
  isplitl [HS22]; · iexact HS22
  isplitl [HS23]; · iexact HS23
  isplitl [HS24]; · iexact HS24
  isplitl [HS25]; · iexact HS25
  isplitl [HS26]; · iexact HS26
  iintro ⟨H3, H4, H15, H16, HS22, HS23, HS24, HS25, HS26⟩
  -- the invariant after this point
  isplitl [HS22 HS23 HS24 HS25 HS26 Hg]
  · isplitr [Hg]
    · iexists dhq; iexists dmn
      isplitl [HS22]
      · iapply (owns_congr c scM22 (congrArg (hqAt m c dhq) (show min (k + 1) 25 = min (k + 1 + 1) 25 by omega)))
        iexact HS22
      isplitl [HS23]
      · iapply (owns_congr c scM23 (deAt_succ_ge m c k hn (by omega)).symm)
        iexact HS23
      isplitl [HS24]
      · iapply (owns_congr c scM24 (m1At_succ_ge m c k hn (by omega)).symm)
        iexact HS24
      isplitl [HS25]
      · iapply (owns_congr c scM25 (m2At_first m c dhq k hn hk ho))
        iexact HS25
      · iapply (owns_congr c scM26 (mnAt_first m c dmn k hn hk))
        iexact HS26
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  -- both output windows are idle: handed back as found
  isplitl [H19]; · iexists _; iexact H19
  iexists _; iexact H20

end Cert.Kernel.Gen

end
-- ==== Proof.K.RunD.lean ====
/-
  The body at a phase-1 point other than the first (25 < t < 50), run symbolically on whole memrefs.

  It reads rows o .. o+399 of the resident copy and the normalised hyperedge features, computes that block's layer
  output and second-layer input, and adds the block's contribution to the second aggregate.
-/
import proofs.«104241_g40587440947829_cont_sun_m_1101_21_alg».proof.Proof.K.Conds
import proofs.«104241_g40587440947829_cont_sun_m_1101_21_alg».proof.Proof.K.Rows

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core, the grid point, and the body's twenty-six memrefs: the nineteen input windows' staging buffers, the two
-- output windows' (arg20 the gate's, arg21 the logits'), and the five scratch buffers (arg22 the resident copy of H,
-- arg23 the hyperedge degrees, arg24 and arg25 the two aggregates, arg26 the normalised hyperedge features)
variable (c : Dev nD) (i : grid0.Coords)
  (arg1 : Memref sig .tc .vmem S400x2048 .f32) (harg1 : arg1.IsWhole)
  (arg2 : Memref sig .tc .vmem S400x128 .f32) (harg2 : arg2.IsWhole)
  (arg3 : Memref sig .tc .vmem S400x16 .f32) (harg3 : arg3.IsWhole)
  (arg4 : Memref sig .tc .vmem S2048x1 .bf16) (harg4 : arg4.IsWhole)
  (arg5 : Memref sig .tc .vmem S1x2048 .f32) (harg5 : arg5.IsWhole)
  (arg6 : Memref sig .tc .vmem S128x32 .f32) (harg6 : arg6.IsWhole)
  (arg7 : Memref sig .tc .vmem S1x32 .f32) (harg7 : arg7.IsWhole)
  (arg8 : Memref sig .tc .vmem S16x32 .f32) (harg8 : arg8.IsWhole)
  (arg9 : Memref sig .tc .vmem S1x32 .f32) (harg9 : arg9.IsWhole)
  (arg10 : Memref sig .tc .vmem S64x64 .f32) (harg10 : arg10.IsWhole)
  (arg11 : Memref sig .tc .vmem S1x64 .f32) (harg11 : arg11.IsWhole)
  (arg12 : Memref sig .tc .vmem S64x32 .f32) (harg12 : arg12.IsWhole)
  (arg13 : Memref sig .tc .vmem S1x32 .f32) (harg13 : arg13.IsWhole)
  (arg14 : Memref sig .tc .vmem S32x64 .f32) (harg14 : arg14.IsWhole)
  (arg15 : Memref sig .tc .vmem S1x64 .f32) (harg15 : arg15.IsWhole)
  (arg16 : Memref sig .tc .vmem S64x64 .f32) (harg16 : arg16.IsWhole)
  (arg17 : Memref sig .tc .vmem S1x64 .f32) (harg17 : arg17.IsWhole)
  (arg18 : Memref sig .tc .vmem S64x2 .f32) (harg18 : arg18.IsWhole)
  (arg19 : Memref sig .tc .vmem S1x2 .f32) (harg19 : arg19.IsWhole)
  (arg20 : Memref sig .tc .vmem S400x32 .f32) (harg20 : arg20.IsWhole)
  (arg21 : Memref sig .tc .vmem S400x2 .f32) (harg21 : arg21.IsWhole)
  (arg22 : Memref sig .tc .vmem S10000x2048 .bf16) (harg22 : arg22.IsWhole)
  (arg23 : Memref sig .tc .vmem S1x2048 .f32) (harg23 : arg23.IsWhole)
  (arg24 : Memref sig .tc .vmem S64x2048 .f32) (harg24 : arg24.IsWhole)
  (arg25 : Memref sig .tc .vmem S64x2048 .f32) (harg25 : arg25.IsWhole)
  (arg26 : Memref sig .tc .vmem S2048x64 .bf16) (harg26 : arg26.IsWhole)

set_option maxHeartbeats 4000000 in
theorem runD (h1 : ¬isFirst i) (h2 : ¬inPhase0 i) (h3 : ¬isNorm1 i) (h4 : inPhase1 i) (h5 : ¬isNorm2 i) (h6 : ¬inPhase2 i)
    (o : ℕ) (hoff : k0_off2 i = ![o, 0]) (ho : o + 400 ≤ 10000)
    (x4 : Vec F S2048x1 .bf16) (x16 : Vec F S64x64 .f32) (x17 : Vec F S1x64 .f32) (xs22 : Vec F S10000x2048 .bf16) (xs25 : Vec F S64x2048 .f32) (xs26 : Vec F S2048x64 .bf16)
    (E : Set ℕ) (K : PUnit → sProp 𝕄) :
    iprop(owns (c : Thread nD τ) arg4 fullShare x4
      ∗ owns (c : Thread nD τ) arg16 fullShare x16
      ∗ owns (c : Thread nD τ) arg17 fullShare x17
      ∗ owns (c : Thread nD τ) arg22 fullShare xs22
      ∗ owns (c : Thread nD τ) arg25 fullShare xs25
      ∗ owns (c : Thread nD τ) arg26 fullShare xs26
      ∗ (iprop(owns (c : Thread nD τ) arg4 fullShare x4
          ∗ owns (c : Thread nD τ) arg16 fullShare x16
          ∗ owns (c : Thread nD τ) arg17 fullShare x17
          ∗ owns (c : Thread nD τ) arg22 fullShare xs22
          ∗ owns (c : Thread nD τ) arg25 fullShare (k0_pay6 (getRows xs22 o ho) x4 xs26 x16 x17 xs25)
          ∗ owns (c : Thread nD τ) arg26 fullShare xs26) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__kernel_eq_skeleton]; unfold cc0__kernel_skel
  unfold owns
  iintro ⟨⟨%f4, %hf4, H4⟩, ⟨%f16, %hf16, H16⟩, ⟨%f17, %hf17, H17⟩, ⟨%f22, %hf22, H22⟩, ⟨%f25, %hf25, H25⟩, ⟨%f26, %hf26, H26⟩, Hk⟩
  obtain rfl := harg4.eq_unread hf4; obtain rfl := harg16.eq_unread hf16; obtain rfl := harg17.eq_unread hf17
  obtain rfl := harg22.eq_unread hf22; obtain rfl := harg25.eq_unread hf25; obtain rfl := harg26.eq_unread hf26
  sl_exec (disch := first | exact h1 | exact h2 | exact h3 | exact h4 | exact h5 | exact h6)
  sl_step
  iapply Hk
  -- the small arrays and the resident copy are handed back as they were
  isplitl [H4]; · iexists _; isplitr; · ipureintro; exact harg4.read_unread _
                  iexact H4
  isplitl [H16]; · iexists _; isplitr; · ipureintro; exact harg16.read_unread _
                   iexact H16
  isplitl [H17]; · iexists _; isplitr; · ipureintro; exact harg17.read_unread _
                   iexact H17
  isplitl [H22]; · iexists _; isplitr; · ipureintro; exact harg22.read_unread _
                   iexact H22
  -- the second aggregate: one store through the whole-buffer rectangle
  isplitl [H25]
  · iexists _; isplitr
    swap; · iexact H25
    ipureintro
    simp only [readAt_whole _ harg4 _ zero2, readAt_whole _ harg16 _ zero2, readAt_whole _ harg17 _ zero2,
      readAt_whole _ harg25 _ zero2, readAt_whole _ harg26 _ zero2, readAt_get arg22 harg22 xs22 _ _ o hoff ho]
    exact read_whole _ _ zero2 _ _
  -- the normalised hyperedge features are handed back as they were
  · iexists _; isplitr; · ipureintro; exact harg26.read_unread _
    iexact H26

end Cert.Kernel.Gen

end
-- ==== Proof.K.SoundD.lean ====
/-
  The body obligation at a phase-1 point other than the first (25 < t < 50).

  The run adds block t − 25's contribution to the second aggregate; everything else passes through; both output
  windows are idle.
-/
import proofs.«104241_g40587440947829_cont_sun_m_1101_21_alg».proof.Proof.K.BodyDefs
import proofs.«104241_g40587440947829_cont_sun_m_1101_21_alg».proof.Proof.K.RunD

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
theorem soundD (c : Dev nD) (k : ℕ) (hn : k + 1 < cfg0.N) (hk : 25 < k + 1) (hk' : k + 1 < 50) :
    bodyPre m c ⟨k + 1, hn⟩ ⊢ wp frame (wpE (defs₀ (F := F)) Variants.none c none) Set.univ (bodyAt0 ⟨k + 1, hn⟩) (fun _ => bodyPost m c ⟨k + 1, hn⟩) := by
  -- the point, and which branches it takes
  have hN : cfg0.N = 75 := N75
  generalize ht : (⟨k + 1, hn⟩ : Fin cfg0.N) = t
  have htv : t.val = k + 1 := by rw [← ht]
  have h1 : ¬isFirst (grid0.coords t) := fun h => by have := (isFirst_iff t).mp h; omega
  have h2 : ¬inPhase0 (grid0.coords t) := fun h => by have := (inPhase0_iff t).mp h; omega
  have h3 : ¬isNorm1 (grid0.coords t) := fun h => by have := (isNorm1_iff t).mp h; omega
  have h4 : inPhase1 (grid0.coords t) := (inPhase1_iff t).mpr (by omega)
  have h5 : ¬isNorm2 (grid0.coords t) := fun h => by have := (isNorm2_iff t).mp h; omega
  have h6 : ¬inPhase2 (grid0.coords t) := fun h => by have := (inPhase2_iff t).mp h; omega
  have hoff : k0_off2 (grid0.coords t) = ![400 * (k + 1 - 25), 0] := by rw [off2_eq t (by omega) (by omega), htv]
  have ho : 400 * (k + 1 - 25) + 400 ≤ 10000 := by omega
  unfold bodyPre bodyPost bodyAt0
  simp only [before0_0, before0_1, before0_2, before0_3, before0_4, before0_5, before0_6, before0_7, before0_8, before0_9, before0_10, before0_11, before0_12, before0_13, before0_14, before0_15, before0_16, before0_17, before0_18]
  simp only [leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18]
  rw [leaves19_idle m c t (by omega) (by omega), leaves20_idle m c t (by omega)]
  rw [show (dats m 0 c).owesAt () t.succ = (dats m 0 c).owesAt () t.castSucc from rfl]
  subst ht
  rw [Phi_castSucc_succ, Phi_succ]
  unfold PhiPos
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  icases HΦ with ⟨⟨%dhq, %dmn, HS22, HS23, HS24, HS25, HS26⟩, Hg⟩
  iapply (runD c (grid0.coords ⟨k + 1, hn⟩) (ms0 ⟨k + 1, hn⟩) (hs0 ⟨k + 1, hn⟩) (ms1 ⟨k + 1, hn⟩) (hs1 ⟨k + 1, hn⟩) (ms2 ⟨k + 1, hn⟩) (hs2 ⟨k + 1, hn⟩) (ms3 ⟨k + 1, hn⟩) (hs3 ⟨k + 1, hn⟩) (ms4 ⟨k + 1, hn⟩) (hs4 ⟨k + 1, hn⟩) (ms5 ⟨k + 1, hn⟩) (hs5 ⟨k + 1, hn⟩) (ms6 ⟨k + 1, hn⟩) (hs6 ⟨k + 1, hn⟩) (ms7 ⟨k + 1, hn⟩) (hs7 ⟨k + 1, hn⟩) (ms8 ⟨k + 1, hn⟩) (hs8 ⟨k + 1, hn⟩) (ms9 ⟨k + 1, hn⟩) (hs9 ⟨k + 1, hn⟩) (ms10 ⟨k + 1, hn⟩) (hs10 ⟨k + 1, hn⟩) (ms11 ⟨k + 1, hn⟩) (hs11 ⟨k + 1, hn⟩) (ms12 ⟨k + 1, hn⟩) (hs12 ⟨k + 1, hn⟩) (ms13 ⟨k + 1, hn⟩) (hs13 ⟨k + 1, hn⟩) (ms14 ⟨k + 1, hn⟩) (hs14 ⟨k + 1, hn⟩) (ms15 ⟨k + 1, hn⟩) (hs15 ⟨k + 1, hn⟩) (ms16 ⟨k + 1, hn⟩) (hs16 ⟨k + 1, hn⟩) (ms17 ⟨k + 1, hn⟩) (hs17 ⟨k + 1, hn⟩) (ms18 ⟨k + 1, hn⟩) (hs18 ⟨k + 1, hn⟩) (ms19 ⟨k + 1, hn⟩) (hs19 ⟨k + 1, hn⟩) (ms20 ⟨k + 1, hn⟩) (hs20 ⟨k + 1, hn⟩) scM22 (Memref.isWhole_whole _) scM23 (Memref.isWhole_whole _) scM24 (Memref.isWhole_whole _) scM25 (Memref.isWhole_whole _) scM26 (Memref.isWhole_whole _) h1 h2 h3 h4 h5 h6 (400 * (k + 1 - 25)) hoff ho
    _ _ _ _ _ _ Set.univ _)
  isplitl [H3]; · iexact H3
  isplitl [H15]; · iexact H15
  isplitl [H16]; · iexact H16
  isplitl [HS22]; · iexact HS22
  isplitl [HS25]; · iexact HS25
  isplitl [HS26]; · iexact HS26
  iintro ⟨H3, H15, H16, HS22, HS25, HS26⟩
  -- the invariant after this point
  isplitl [HS22 HS23 HS24 HS25 HS26 Hg]
  · isplitr [Hg]
    · iexists dhq; iexists dmn
      -- the resident copy is complete and stays
      isplitl [HS22]
      · iapply (owns_congr c scM22 (show hqAt m c dhq (min (k + 1) 25) = hqAt m c dhq (min (k + 1 + 1) 25) from by
          rw [Nat.min_eq_right (show 25 ≤ k + 1 by omega), Nat.min_eq_right (show 25 ≤ k + 1 + 1 by omega)]))
        iexact HS22
      isplitl [HS23]
      · iapply (owns_congr c scM23 (deAt_succ_ge m c k hn (by omega)).symm)
        iexact HS23
      isplitl [HS24]
      · iapply (owns_congr c scM24 (m1At_succ_ge m c k hn (by omega)).symm)
        iexact HS24
      -- the second aggregate: one recursion step, on block k + 1 − 25 of the copy and the first normalisation's features
      isplitl [HS25]
      · iapply (owns_congr c scM25 (show k0_pay6 (getRows (hqAt m c dhq (min (k + 1) 25)) (400 * (k + 1 - 25)) ho) (B4 m c ⟨k + 1, hn⟩) (mnAt m c dmn k)
            (B16 m c ⟨k + 1, hn⟩) (B17 m c ⟨k + 1, hn⟩) (m2At m c k (Nat.lt_of_succ_lt hn)) = m2At m c (k + 1) hn from by
          have e1 : getRows (hqAt m c dhq (min (k + 1) 25)) (400 * (k + 1 - 25)) ho = hqBlk m c (k + 1 - 25) (by omega) := by
            rw [Nat.min_eq_right (show 25 ≤ k + 1 by omega)]; exact getRows_hqAt m c dhq (k + 1 - 25) _ (by omega) ho
          have e2 : mnAt m c dmn k = mn1 m c := by
            unfold mnAt; rw [if_neg (show ¬ k < 25 by omega), if_pos (show k < 50 by omega)]
          rw [m2At_succ_in m c k hn ⟨by omega, hk'⟩, e1, e2]))
        iexact HS25
      · iapply (owns_congr c scM26 (show mnAt m c dmn k = mnAt m c dmn (k + 1) from by
          unfold mnAt; rw [if_neg (show ¬ k < 25 by omega), if_pos (show k < 50 by omega), if_neg (show ¬ k + 1 < 25 by omega), if_pos (show k + 1 < 50 by omega)]))
        iexact HS26
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  -- both output windows are idle: handed back as found
  isplitl [H19]; · iexists _; iexact H19
  iexists _; iexact H20

end Cert.Kernel.Gen

end
-- ==== Proof.K.RunE.lean ====
/-
  The body at the first phase-2 point (t = 50), run symbolically on whole memrefs.

  It first turns the second aggregate into the normalised hyperedge features, then does what every phase-2 point
  does: reads rows o .. o+399 of the resident copy, computes that block's layer output and stores its logits block.
-/
import proofs.«104241_g40587440947829_cont_sun_m_1101_21_alg».proof.Proof.K.Conds
import proofs.«104241_g40587440947829_cont_sun_m_1101_21_alg».proof.Proof.K.Rows

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core, the grid point, and the body's twenty-six memrefs: the nineteen input windows' staging buffers, the two
-- output windows' (arg20 the gate's, arg21 the logits'), and the five scratch buffers (arg22 the resident copy of H,
-- arg23 the hyperedge degrees, arg24 and arg25 the two aggregates, arg26 the normalised hyperedge features)
variable (c : Dev nD) (i : grid0.Coords)
  (arg1 : Memref sig .tc .vmem S400x2048 .f32) (harg1 : arg1.IsWhole)
  (arg2 : Memref sig .tc .vmem S400x128 .f32) (harg2 : arg2.IsWhole)
  (arg3 : Memref sig .tc .vmem S400x16 .f32) (harg3 : arg3.IsWhole)
  (arg4 : Memref sig .tc .vmem S2048x1 .bf16) (harg4 : arg4.IsWhole)
  (arg5 : Memref sig .tc .vmem S1x2048 .f32) (harg5 : arg5.IsWhole)
  (arg6 : Memref sig .tc .vmem S128x32 .f32) (harg6 : arg6.IsWhole)
  (arg7 : Memref sig .tc .vmem S1x32 .f32) (harg7 : arg7.IsWhole)
  (arg8 : Memref sig .tc .vmem S16x32 .f32) (harg8 : arg8.IsWhole)
  (arg9 : Memref sig .tc .vmem S1x32 .f32) (harg9 : arg9.IsWhole)
  (arg10 : Memref sig .tc .vmem S64x64 .f32) (harg10 : arg10.IsWhole)
  (arg11 : Memref sig .tc .vmem S1x64 .f32) (harg11 : arg11.IsWhole)
  (arg12 : Memref sig .tc .vmem S64x32 .f32) (harg12 : arg12.IsWhole)
  (arg13 : Memref sig .tc .vmem S1x32 .f32) (harg13 : arg13.IsWhole)
  (arg14 : Memref sig .tc .vmem S32x64 .f32) (harg14 : arg14.IsWhole)
  (arg15 : Memref sig .tc .vmem S1x64 .f32) (harg15 : arg15.IsWhole)
  (arg16 : Memref sig .tc .vmem S64x64 .f32) (harg16 : arg16.IsWhole)
  (arg17 : Memref sig .tc .vmem S1x64 .f32) (harg17 : arg17.IsWhole)
  (arg18 : Memref sig .tc .vmem S64x2 .f32) (harg18 : arg18.IsWhole)
  (arg19 : Memref sig .tc .vmem S1x2 .f32) (harg19 : arg19.IsWhole)
  (arg20 : Memref sig .tc .vmem S400x32 .f32) (harg20 : arg20.IsWhole)
  (arg21 : Memref sig .tc .vmem S400x2 .f32) (harg21 : arg21.IsWhole)
  (arg22 : Memref sig .tc .vmem S10000x2048 .bf16) (harg22 : arg22.IsWhole)
  (arg23 : Memref sig .tc .vmem S1x2048 .f32) (harg23 : arg23.IsWhole)
  (arg24 : Memref sig .tc .vmem S64x2048 .f32) (harg24 : arg24.IsWhole)
  (arg25 : Memref sig .tc .vmem S64x2048 .f32) (harg25 : arg25.IsWhole)
  (arg26 : Memref sig .tc .vmem S2048x64 .bf16) (harg26 : arg26.IsWhole)

set_option maxHeartbeats 4000000 in
theorem runE (h1 : ¬isFirst i) (h2 : ¬inPhase0 i) (h3 : ¬isNorm1 i) (h4 : ¬inPhase1 i) (h5 : isNorm2 i) (h6 : inPhase2 i)
    (o : ℕ) (hoff : k0_off3 i = ![o, 0]) (ho : o + 400 ≤ 10000)
    (x4 : Vec F S2048x1 .bf16) (x5 : Vec F S1x2048 .f32) (x18 : Vec F S64x2 .f32) (x19 : Vec F S1x2 .f32) (xo21 : Vec F S400x2 .f32) (xs22 : Vec F S10000x2048 .bf16) (xs23 : Vec F S1x2048 .f32) (xs25 : Vec F S64x2048 .f32) (xs26 : Vec F S2048x64 .bf16)
    (E : Set ℕ) (K : PUnit → sProp 𝕄) :
    iprop(owns (c : Thread nD τ) arg4 fullShare x4
      ∗ owns (c : Thread nD τ) arg5 fullShare x5
      ∗ owns (c : Thread nD τ) arg18 fullShare x18
      ∗ owns (c : Thread nD τ) arg19 fullShare x19
      ∗ owns (c : Thread nD τ) arg21 fullShare xo21
      ∗ owns (c : Thread nD τ) arg22 fullShare xs22
      ∗ owns (c : Thread nD τ) arg23 fullShare xs23
      ∗ owns (c : Thread nD τ) arg25 fullShare xs25
      ∗ owns (c : Thread nD τ) arg26 fullShare xs26
      ∗ (iprop(owns (c : Thread nD τ) arg4 fullShare x4
          ∗ owns (c : Thread nD τ) arg5 fullShare x5
          ∗ owns (c : Thread nD τ) arg18 fullShare x18
          ∗ owns (c : Thread nD τ) arg19 fullShare x19
          ∗ owns (c : Thread nD τ) arg21 fullShare (k0_pay8 (getRows xs22 o ho) x4 (k0_pay7 x5 xs23 xs25) x18 x19)
          ∗ owns (c : Thread nD τ) arg22 fullShare xs22
          ∗ owns (c : Thread nD τ) arg23 fullShare xs23
          ∗ owns (c : Thread nD τ) arg25 fullShare xs25
          ∗ owns (c : Thread nD τ) arg26 fullShare (k0_pay7 x5 xs23 xs25)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__kernel_eq_skeleton]; unfold cc0__kernel_skel
  unfold owns
  iintro ⟨⟨%f4, %hf4, H4⟩, ⟨%f5, %hf5, H5⟩, ⟨%f18, %hf18, H18⟩, ⟨%f19, %hf19, H19⟩, ⟨%f21, %hf21, H21⟩, ⟨%f22, %hf22, H22⟩, ⟨%f23, %hf23, H23⟩, ⟨%f25, %hf25, H25⟩, ⟨%f26, %hf26, H26⟩, Hk⟩
  obtain rfl := harg4.eq_unread hf4; obtain rfl := harg5.eq_unread hf5; obtain rfl := harg18.eq_unread hf18; obtain rfl := harg19.eq_unread hf19
  obtain rfl := harg21.eq_unread hf21; obtain rfl := harg22.eq_unread hf22; obtain rfl := harg23.eq_unread hf23; obtain rfl := harg25.eq_unread hf25
  obtain rfl := harg26.eq_unread hf26
  sl_exec (disch := first | exact h1 | exact h2 | exact h3 | exact h4 | exact h5 | exact h6)
  sl_step
  iapply Hk
  -- the small arrays are handed back as they were
  isplitl [H4]; · iexists _; isplitr; · ipureintro; exact harg4.read_unread _
                  iexact H4
  isplitl [H5]; · iexists _; isplitr; · ipureintro; exact harg5.read_unread _
                  iexact H5
  isplitl [H18]; · iexists _; isplitr; · ipureintro; exact harg18.read_unread _
                   iexact H18
  isplitl [H19]; · iexists _; isplitr; · ipureintro; exact harg19.read_unread _
                   iexact H19
  -- the logits block: one store through the whole-buffer rectangle, computed from the features just stored
  isplitl [H21]
  · iexists _; isplitr
    swap; · iexact H21
    ipureintro
    sl_unfold_run_names
    simp only [readAt_whole _ harg4 _ zero2, readAt_whole _ harg5 _ zero2, readAt_whole _ harg18 _ zero2, readAt_whole _ harg19 _ zero2,
      readAt_whole _ harg23 _ zero2, readAt_whole _ harg25 _ zero2, readAt_get arg22 harg22 xs22 _ _ o hoff ho,
      View.readCov_unit_zero (S := S2048x64) _ zero2]
    exact read_whole _ _ zero2 _ _
  -- the resident copy, the hyperedge degrees and the second aggregate are handed back as they were
  isplitl [H22]; · iexists _; isplitr; · ipureintro; exact harg22.read_unread _
                   iexact H22
  isplitl [H23]; · iexists _; isplitr; · ipureintro; exact harg23.read_unread _
                   iexact H23
  isplitl [H25]; · iexists _; isplitr; · ipureintro; exact harg25.read_unread _
                   iexact H25
  -- the normalised hyperedge features: one store through the whole-buffer rectangle
  · iexists _; isplitr
    swap; · iexact H26
    ipureintro
    sl_unfold_run_names
    simp only [readAt_whole _ harg5 _ zero2, readAt_whole _ harg23 _ zero2, readAt_whole _ harg25 _ zero2]
    exact read_whole _ _ zero2 _ _

end Cert.Kernel.Gen

end
-- ==== Proof.K.SoundE.lean ====
/-
  The body obligation at the first phase-2 point (t = 50).

  The run normalises the second aggregate into the hyperedge features and stores block 0's logits; the gate's window
  is idle.
-/
import proofs.«104241_g40587440947829_cont_sun_m_1101_21_alg».proof.Proof.K.BodyDefs
import proofs.«104241_g40587440947829_cont_sun_m_1101_21_alg».proof.Proof.K.RunE

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At point 50 the features the normalisation stores, from the degrees and the second aggregate after point 49, are the
    second normalisation's. -/
private theorem mn2_eq (c : Dev nD) (k : ℕ) (hn : k + 1 < cfg0.N) (hk : k + 1 = 50) :
    k0_pay7 (B5 m c ⟨k + 1, hn⟩) (deAt m c k (Nat.lt_of_succ_lt hn)) (m2At m c k (Nat.lt_of_succ_lt hn)) = mn2 m c := by
  obtain rfl : k = 49 := by omega
  rfl

set_option maxHeartbeats 4000000 in
theorem soundE (c : Dev nD) (k : ℕ) (hn : k + 1 < cfg0.N) (hk : k + 1 = 50) :
    bodyPre m c ⟨k + 1, hn⟩ ⊢ wp frame (wpE (defs₀ (F := F)) Variants.none c none) Set.univ (bodyAt0 ⟨k + 1, hn⟩) (fun _ => bodyPost m c ⟨k + 1, hn⟩) := by
  -- the point is 50, and which branches it takes
  have hN : cfg0.N = 75 := N75
  generalize ht : (⟨k + 1, hn⟩ : Fin cfg0.N) = t
  have htv : t.val = k + 1 := by rw [← ht]
  have h1 : ¬isFirst (grid0.coords t) := fun h => by have := (isFirst_iff t).mp h; omega
  have h2 : ¬inPhase0 (grid0.coords t) := fun h => by have := (inPhase0_iff t).mp h; omega
  have h3 : ¬isNorm1 (grid0.coords t) := fun h => by have := (isNorm1_iff t).mp h; omega
  have h4 : ¬inPhase1 (grid0.coords t) := fun h => by have := (inPhase1_iff t).mp h; omega
  have h5 : isNorm2 (grid0.coords t) := (isNorm2_iff t).mpr (by omega)
  have h6 : inPhase2 (grid0.coords t) := (inPhase2_iff t).mpr (by omega)
  have hoff : k0_off3 (grid0.coords t) = ![400 * (k + 1 - 50), 0] := by rw [off3_eq t (by omega), htv]
  have ho : 400 * (k + 1 - 50) + 400 ≤ 10000 := by omega
  unfold bodyPre bodyPost bodyAt0
  simp only [before0_0, before0_1, before0_2, before0_3, before0_4, before0_5, before0_6, before0_7, before0_8, before0_9, before0_10, before0_11, before0_12, before0_13, before0_14, before0_15, before0_16, before0_17, before0_18]
  simp only [leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18]
  rw [leaves19_idle m c t (by omega) (by omega), leaves20_live m c t (by omega)]
  rw [show (dats m 0 c).owesAt () t.succ = (dats m 0 c).owesAt () t.castSucc from rfl]
  subst ht
  rw [Phi_castSucc_succ, Phi_succ]
  unfold PhiPos
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  icases HΦ with ⟨⟨%dhq, %dmn, HS22, HS23, HS24, HS25, HS26⟩, Hg⟩
  iapply (runE c (grid0.coords ⟨k + 1, hn⟩) (ms0 ⟨k + 1, hn⟩) (hs0 ⟨k + 1, hn⟩) (ms1 ⟨k + 1, hn⟩) (hs1 ⟨k + 1, hn⟩) (ms2 ⟨k + 1, hn⟩) (hs2 ⟨k + 1, hn⟩) (ms3 ⟨k + 1, hn⟩) (hs3 ⟨k + 1, hn⟩) (ms4 ⟨k + 1, hn⟩) (hs4 ⟨k + 1, hn⟩) (ms5 ⟨k + 1, hn⟩) (hs5 ⟨k + 1, hn⟩) (ms6 ⟨k + 1, hn⟩) (hs6 ⟨k + 1, hn⟩) (ms7 ⟨k + 1, hn⟩) (hs7 ⟨k + 1, hn⟩) (ms8 ⟨k + 1, hn⟩) (hs8 ⟨k + 1, hn⟩) (ms9 ⟨k + 1, hn⟩) (hs9 ⟨k + 1, hn⟩) (ms10 ⟨k + 1, hn⟩) (hs10 ⟨k + 1, hn⟩) (ms11 ⟨k + 1, hn⟩) (hs11 ⟨k + 1, hn⟩) (ms12 ⟨k + 1, hn⟩) (hs12 ⟨k + 1, hn⟩) (ms13 ⟨k + 1, hn⟩) (hs13 ⟨k + 1, hn⟩) (ms14 ⟨k + 1, hn⟩) (hs14 ⟨k + 1, hn⟩) (ms15 ⟨k + 1, hn⟩) (hs15 ⟨k + 1, hn⟩) (ms16 ⟨k + 1, hn⟩) (hs16 ⟨k + 1, hn⟩) (ms17 ⟨k + 1, hn⟩) (hs17 ⟨k + 1, hn⟩) (ms18 ⟨k + 1, hn⟩) (hs18 ⟨k + 1, hn⟩) (ms19 ⟨k + 1, hn⟩) (hs19 ⟨k + 1, hn⟩) (ms20 ⟨k + 1, hn⟩) (hs20 ⟨k + 1, hn⟩) scM22 (Memref.isWhole_whole _) scM23 (Memref.isWhole_whole _) scM24 (Memref.isWhole_whole _) scM25 (Memref.isWhole_whole _) scM26 (Memref.isWhole_whole _) h1 h2 h3 h4 h5 h6 (400 * (k + 1 - 50)) hoff ho
    _ _ _ _ _ _ _ _ _ Set.univ _)
  isplitl [H3]; · iexact H3
  isplitl [H4]; · iexact H4
  isplitl [H17]; · iexact H17
  isplitl [H18]; · iexact H18
  isplitl [H20]; · iexact H20
  isplitl [HS22]; · iexact HS22
  isplitl [HS23]; · iexact HS23
  isplitl [HS25]; · iexact HS25
  isplitl [HS26]; · iexact HS26
  iintro ⟨H3, H4, H17, H18, H20, HS22, HS23, HS25, HS26⟩
  -- the invariant after this point
  isplitl [HS22 HS23 HS24 HS25 HS26 Hg]
  · isplitr [Hg]
    · iexists dhq; iexists dmn
      isplitl [HS22]
      · iapply (owns_congr c scM22 (show hqAt m c dhq (min (k + 1) 25) = hqAt m c dhq (min (k + 1 + 1) 25) from by
          rw [Nat.min_eq_right (show 25 ≤ k + 1 by omega), Nat.min_eq_right (show 25 ≤ k + 1 + 1 by omega)]))
        iexact HS22
      isplitl [HS23]
      · iapply (owns_congr c scM23 (deAt_succ_ge m c k hn (by omega)).symm)
        iexact HS23
      isplitl [HS24]
      · iapply (owns_congr c scM24 (m1At_succ_ge m c k hn (by omega)).symm)
        iexact HS24
      isplitl [HS25]
      · iapply (owns_congr c scM25 (m2At_succ_out m c k hn (by omega)).symm)
        iexact HS25
      -- the features just stored are the second normalisation's
      · iapply (owns_congr c scM26 (show k0_pay7 (B5 m c ⟨k + 1, hn⟩) (deAt m c k (Nat.lt_of_succ_lt hn)) (m2At m c k (Nat.lt_of_succ_lt hn)) = mnAt m c dmn (k + 1) from by
          unfold mnAt; rw [if_neg (show ¬ k + 1 < 25 by omega), if_neg (show ¬ k + 1 < 50 by omega)]; exact mn2_eq m c k hn hk))
        iexact HS26
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  -- the gate's window is idle: handed back as found
  isplitl [H19]; · iexists _; iexact H19
  -- the logits' window: block 0 of the copy against the features just stored
  iapply (owns_congr c (ms20 _) (show k0_pay8 (getRows (hqAt m c dhq (min (k + 1) 25)) (400 * (k + 1 - 50)) ho) (B4 m c ⟨k + 1, hn⟩)
      (k0_pay7 (B5 m c ⟨k + 1, hn⟩) (deAt m c k (Nat.lt_of_succ_lt hn)) (m2At m c k (Nat.lt_of_succ_lt hn))) (B18 m c ⟨k + 1, hn⟩) (B19 m c ⟨k + 1, hn⟩) = lBlk m c ⟨k + 1, hn⟩ from by
    have e1 : getRows (hqAt m c dhq (min (k + 1) 25)) (400 * (k + 1 - 50)) ho = hqBlk m c (k + 1 - 50) (by omega) := by
      rw [Nat.min_eq_right (show 25 ≤ k + 1 by omega)]; exact getRows_hqAt m c dhq (k + 1 - 50) _ (by omega) ho
    unfold lBlk; rw [e1, mn2_eq m c k hn hk]))
  iexact H20

end Cert.Kernel.Gen

end
-- ==== Proof.K.RunF.lean ====
/-
  The body at a phase-2 point other than the first (t > 50), run symbolically on whole memrefs.

  It reads rows o .. o+399 of the resident copy and the normalised hyperedge features, computes that block's layer
  output and stores its logits block.
-/
import proofs.«104241_g40587440947829_cont_sun_m_1101_21_alg».proof.Proof.K.Conds
import proofs.«104241_g40587440947829_cont_sun_m_1101_21_alg».proof.Proof.K.Rows

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core, the grid point, and the body's twenty-six memrefs: the nineteen input windows' staging buffers, the two
-- output windows' (arg20 the gate's, arg21 the logits'), and the five scratch buffers (arg22 the resident copy of H,
-- arg23 the hyperedge degrees, arg24 and arg25 the two aggregates, arg26 the normalised hyperedge features)
variable (c : Dev nD) (i : grid0.Coords)
  (arg1 : Memref sig .tc .vmem S400x2048 .f32) (harg1 : arg1.IsWhole)
  (arg2 : Memref sig .tc .vmem S400x128 .f32) (harg2 : arg2.IsWhole)
  (arg3 : Memref sig .tc .vmem S400x16 .f32) (harg3 : arg3.IsWhole)
  (arg4 : Memref sig .tc .vmem S2048x1 .bf16) (harg4 : arg4.IsWhole)
  (arg5 : Memref sig .tc .vmem S1x2048 .f32) (harg5 : arg5.IsWhole)
  (arg6 : Memref sig .tc .vmem S128x32 .f32) (harg6 : arg6.IsWhole)
  (arg7 : Memref sig .tc .vmem S1x32 .f32) (harg7 : arg7.IsWhole)
  (arg8 : Memref sig .tc .vmem S16x32 .f32) (harg8 : arg8.IsWhole)
  (arg9 : Memref sig .tc .vmem S1x32 .f32) (harg9 : arg9.IsWhole)
  (arg10 : Memref sig .tc .vmem S64x64 .f32) (harg10 : arg10.IsWhole)
  (arg11 : Memref sig .tc .vmem S1x64 .f32) (harg11 : arg11.IsWhole)
  (arg12 : Memref sig .tc .vmem S64x32 .f32) (harg12 : arg12.IsWhole)
  (arg13 : Memref sig .tc .vmem S1x32 .f32) (harg13 : arg13.IsWhole)
  (arg14 : Memref sig .tc .vmem S32x64 .f32) (harg14 : arg14.IsWhole)
  (arg15 : Memref sig .tc .vmem S1x64 .f32) (harg15 : arg15.IsWhole)
  (arg16 : Memref sig .tc .vmem S64x64 .f32) (harg16 : arg16.IsWhole)
  (arg17 : Memref sig .tc .vmem S1x64 .f32) (harg17 : arg17.IsWhole)
  (arg18 : Memref sig .tc .vmem S64x2 .f32) (harg18 : arg18.IsWhole)
  (arg19 : Memref sig .tc .vmem S1x2 .f32) (harg19 : arg19.IsWhole)
  (arg20 : Memref sig .tc .vmem S400x32 .f32) (harg20 : arg20.IsWhole)
  (arg21 : Memref sig .tc .vmem S400x2 .f32) (harg21 : arg21.IsWhole)
  (arg22 : Memref sig .tc .vmem S10000x2048 .bf16) (harg22 : arg22.IsWhole)
  (arg23 : Memref sig .tc .vmem S1x2048 .f32) (harg23 : arg23.IsWhole)
  (arg24 : Memref sig .tc .vmem S64x2048 .f32) (harg24 : arg24.IsWhole)
  (arg25 : Memref sig .tc .vmem S64x2048 .f32) (harg25 : arg25.IsWhole)
  (arg26 : Memref sig .tc .vmem S2048x64 .bf16) (harg26 : arg26.IsWhole)

set_option maxHeartbeats 4000000 in
theorem runF (h1 : ¬isFirst i) (h2 : ¬inPhase0 i) (h3 : ¬isNorm1 i) (h4 : ¬inPhase1 i) (h5 : ¬isNorm2 i) (h6 : inPhase2 i)
    (o : ℕ) (hoff : k0_off3 i = ![o, 0]) (ho : o + 400 ≤ 10000)
    (x4 : Vec F S2048x1 .bf16) (x18 : Vec F S64x2 .f32) (x19 : Vec F S1x2 .f32) (xo21 : Vec F S400x2 .f32) (xs22 : Vec F S10000x2048 .bf16) (xs26 : Vec F S2048x64 .bf16)
    (E : Set ℕ) (K : PUnit → sProp 𝕄) :
    iprop(owns (c : Thread nD τ) arg4 fullShare x4
      ∗ owns (c : Thread nD τ) arg18 fullShare x18
      ∗ owns (c : Thread nD τ) arg19 fullShare x19
      ∗ owns (c : Thread nD τ) arg21 fullShare xo21
      ∗ owns (c : Thread nD τ) arg22 fullShare xs22
      ∗ owns (c : Thread nD τ) arg26 fullShare xs26
      ∗ (iprop(owns (c : Thread nD τ) arg4 fullShare x4
          ∗ owns (c : Thread nD τ) arg18 fullShare x18
          ∗ owns (c : Thread nD τ) arg19 fullShare x19
          ∗ owns (c : Thread nD τ) arg21 fullShare (k0_pay8 (getRows xs22 o ho) x4 xs26 x18 x19)
          ∗ owns (c : Thread nD τ) arg22 fullShare xs22
          ∗ owns (c : Thread nD τ) arg26 fullShare xs26) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__kernel_eq_skeleton]; unfold cc0__kernel_skel
  unfold owns
  iintro ⟨⟨%f4, %hf4, H4⟩, ⟨%f18, %hf18, H18⟩, ⟨%f19, %hf19, H19⟩, ⟨%f21, %hf21, H21⟩, ⟨%f22, %hf22, H22⟩, ⟨%f26, %hf26, H26⟩, Hk⟩
  obtain rfl := harg4.eq_unread hf4; obtain rfl := harg18.eq_unread hf18; obtain rfl := harg19.eq_unread hf19
  obtain rfl := harg21.eq_unread hf21; obtain rfl := harg22.eq_unread hf22; obtain rfl := harg26.eq_unread hf26
  sl_exec (disch := first | exact h1 | exact h2 | exact h3 | exact h4 | exact h5 | exact h6)
  sl_step
  iapply Hk
  -- the small arrays are handed back as they were
  isplitl [H4]; · iexists _; isplitr; · ipureintro; exact harg4.read_unread _
                  iexact H4
  isplitl [H18]; · iexists _; isplitr; · ipureintro; exact harg18.read_unread _
                   iexact H18
  isplitl [H19]; · iexists _; isplitr; · ipureintro; exact harg19.read_unread _
                   iexact H19
  -- the logits block: one store through the whole-buffer rectangle
  isplitl [H21]
  · iexists _; isplitr
    swap; · iexact H21
    ipureintro
    simp only [readAt_whole _ harg4 _ zero2, readAt_whole _ harg18 _ zero2, readAt_whole _ harg19 _ zero2,
      readAt_whole _ harg26 _ zero2, readAt_get arg22 harg22 xs22 _ _ o hoff ho]
    exact read_whole _ _ zero2 _ _
  -- the resident copy and the normalised hyperedge features are handed back as they were
  isplitl [H22]; · iexists _; isplitr; · ipureintro; exact harg22.read_unread _
                   iexact H22
  · iexists _; isplitr; · ipureintro; exact harg26.read_unread _
    iexact H26

end Cert.Kernel.Gen

end
-- ==== Proof.K.SoundF.lean ====
/-
  The body obligation at a phase-2 point other than the first (t > 50).

  The run stores block t − 50's logits.  The gate's window is idle and is handed back as found, except at the last
  point, which writes it back: there it must hold, and does hold, block 24's gate.
-/
import proofs.«104241_g40587440947829_cont_sun_m_1101_21_alg».proof.Proof.K.BodyDefs
import proofs.«104241_g40587440947829_cont_sun_m_1101_21_alg».proof.Proof.K.RunF

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- From point 25 on, the gate's window handed over as found is what the point must leave: nothing is asked of it before
    the last point, and at the last point, which writes it back, it still holds block 24's gate. -/
private theorem hand19 (c : Dev nD) (n : ℕ) (hn : n < cfg0.N) (h : 25 ≤ n) (d) :
    (owns (c : Thread nD τ) (ms19 ⟨n, hn⟩) fullShare ((dats m 0 c).before 19 ⟨n, hn⟩ d) : sProp 𝕄) ⊢ (dats m 0 c).leavesExact 19 ⟨n, hn⟩ := by
  by_cases h74 : n = 74
  · rw [leaves19_last m c ⟨n, hn⟩ h74, before19_late m c n hn h d]
  · rw [leaves19_idle m c ⟨n, hn⟩ h h74]
    iintro H; iexists d; iexact H

set_option maxHeartbeats 4000000 in
theorem soundF (c : Dev nD) (k : ℕ) (hn : k + 1 < cfg0.N) (hk : 50 < k + 1) :
    bodyPre m c ⟨k + 1, hn⟩ ⊢ wp frame (wpE (defs₀ (F := F)) Variants.none c none) Set.univ (bodyAt0 ⟨k + 1, hn⟩) (fun _ => bodyPost m c ⟨k + 1, hn⟩) := by
  -- the point, and which branches it takes
  have hN : cfg0.N = 75 := N75
  generalize ht : (⟨k + 1, hn⟩ : Fin cfg0.N) = t
  have htv : t.val = k + 1 := by rw [← ht]
  have h1 : ¬isFirst (grid0.coords t) := fun h => by have := (isFirst_iff t).mp h; omega
  have h2 : ¬inPhase0 (grid0.coords t) := fun h => by have := (inPhase0_iff t).mp h; omega
  have h3 : ¬isNorm1 (grid0.coords t) := fun h => by have := (isNorm1_iff t).mp h; omega
  have h4 : ¬inPhase1 (grid0.coords t) := fun h => by have := (inPhase1_iff t).mp h; omega
  have h5 : ¬isNorm2 (grid0.coords t) := fun h => by have := (isNorm2_iff t).mp h; omega
  have h6 : inPhase2 (grid0.coords t) := (inPhase2_iff t).mpr (by omega)
  have hoff : k0_off3 (grid0.coords t) = ![400 * (k + 1 - 50), 0] := by rw [off3_eq t (by omega), htv]
  have ho : 400 * (k + 1 - 50) + 400 ≤ 10000 := by omega
  unfold bodyPre bodyPost bodyAt0
  simp only [before0_0, before0_1, before0_2, before0_3, before0_4, before0_5, before0_6, before0_7, before0_8, before0_9, before0_10, before0_11, before0_12, before0_13, before0_14, before0_15, before0_16, before0_17, before0_18]
  simp only [leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18]
  rw [leaves20_live m c t (by omega)]
  rw [show (dats m 0 c).owesAt () t.succ = (dats m 0 c).owesAt () t.castSucc from rfl]
  subst ht
  rw [Phi_castSucc_succ, Phi_succ]
  unfold PhiPos
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  icases HΦ with ⟨⟨%dhq, %dmn, HS22, HS23, HS24, HS25, HS26⟩, Hg⟩
  iapply (runF c (grid0.coords ⟨k + 1, hn⟩) (ms0 ⟨k + 1, hn⟩) (hs0 ⟨k + 1, hn⟩) (ms1 ⟨k + 1, hn⟩) (hs1 ⟨k + 1, hn⟩) (ms2 ⟨k + 1, hn⟩) (hs2 ⟨k + 1, hn⟩) (ms3 ⟨k + 1, hn⟩) (hs3 ⟨k + 1, hn⟩) (ms4 ⟨k + 1, hn⟩) (hs4 ⟨k + 1, hn⟩) (ms5 ⟨k + 1, hn⟩) (hs5 ⟨k + 1, hn⟩) (ms6 ⟨k + 1, hn⟩) (hs6 ⟨k + 1, hn⟩) (ms7 ⟨k + 1, hn⟩) (hs7 ⟨k + 1, hn⟩) (ms8 ⟨k + 1, hn⟩) (hs8 ⟨k + 1, hn⟩) (ms9 ⟨k + 1, hn⟩) (hs9 ⟨k + 1, hn⟩) (ms10 ⟨k + 1, hn⟩) (hs10 ⟨k + 1, hn⟩) (ms11 ⟨k + 1, hn⟩) (hs11 ⟨k + 1, hn⟩) (ms12 ⟨k + 1, hn⟩) (hs12 ⟨k + 1, hn⟩) (ms13 ⟨k + 1, hn⟩) (hs13 ⟨k + 1, hn⟩) (ms14 ⟨k + 1, hn⟩) (hs14 ⟨k + 1, hn⟩) (ms15 ⟨k + 1, hn⟩) (hs15 ⟨k + 1, hn⟩) (ms16 ⟨k + 1, hn⟩) (hs16 ⟨k + 1, hn⟩) (ms17 ⟨k + 1, hn⟩) (hs17 ⟨k + 1, hn⟩) (ms18 ⟨k + 1, hn⟩) (hs18 ⟨k + 1, hn⟩) (ms19 ⟨k + 1, hn⟩) (hs19 ⟨k + 1, hn⟩) (ms20 ⟨k + 1, hn⟩) (hs20 ⟨k + 1, hn⟩) scM22 (Memref.isWhole_whole _) scM23 (Memref.isWhole_whole _) scM24 (Memref.isWhole_whole _) scM25 (Memref.isWhole_whole _) scM26 (Memref.isWhole_whole _) h1 h2 h3 h4 h5 h6 (400 * (k + 1 - 50)) hoff ho
    _ _ _ _ _ _ Set.univ _)
  isplitl [H3]; · iexact H3
  isplitl [H17]; · iexact H17
  isplitl [H18]; · iexact H18
  isplitl [H20]; · iexact H20
  isplitl [HS22]; · iexact HS22
  isplitl [HS26]; · iexact HS26
  iintro ⟨H3, H17, H18, H20, HS22, HS26⟩
  -- the invariant after this point: nothing in the scratch changes
  isplitl [HS22 HS23 HS24 HS25 HS26 Hg]
  · isplitr [Hg]
    · iexists dhq; iexists dmn
      isplitl [HS22]
      · iapply (owns_congr c scM22 (show hqAt m c dhq (min (k + 1) 25) = hqAt m c dhq (min (k + 1 + 1) 25) from by
          rw [Nat.min_eq_right (show 25 ≤ k + 1 by omega), Nat.min_eq_right (show 25 ≤ k + 1 + 1 by omega)]))
        iexact HS22
      isplitl [HS23]
      · iapply (owns_congr c scM23 (deAt_succ_ge m c k hn (by omega)).symm)
        iexact HS23
      isplitl [HS24]
      · iapply (owns_congr c scM24 (m1At_succ_ge m c k hn (by omega)).symm)
        iexact HS24
      isplitl [HS25]
      · iapply (owns_congr c scM25 (m2At_succ_out m c k hn (by omega)).symm)
        iexact HS25
      · iapply (owns_congr c scM26 (show mnAt m c dmn k = mnAt m c dmn (k + 1) from by
          unfold mnAt; rw [if_neg (show ¬ k < 25 by omega), if_neg (show ¬ k < 50 by omega), if_neg (show ¬ k + 1 < 25 by omega), if_neg (show ¬ k + 1 < 50 by omega)]))
        iexact HS26
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  -- the gate's window is idle: handed back as found, which at the last point is block 24's gate
  isplitl [H19]; · iapply (hand19 m c (k + 1) hn (by omega) d19); iexact H19
  -- the logits' window: block k + 1 − 50 of the copy against the second normalisation's features
  iapply (owns_congr c (ms20 _) (show k0_pay8 (getRows (hqAt m c dhq (min (k + 1) 25)) (400 * (k + 1 - 50)) ho) (B4 m c ⟨k + 1, hn⟩) (mnAt m c dmn k)
      (B18 m c ⟨k + 1, hn⟩) (B19 m c ⟨k + 1, hn⟩) = lBlk m c ⟨k + 1, hn⟩ from by
    have e1 : getRows (hqAt m c dhq (min (k + 1) 25)) (400 * (k + 1 - 50)) ho = hqBlk m c (k + 1 - 50) (by omega) := by
      rw [Nat.min_eq_right (show 25 ≤ k + 1 by omega)]; exact getRows_hqAt m c dhq (k + 1 - 50) _ (by omega) ho
    have e2 : mnAt m c dmn k = mn2 m c := by
      unfold mnAt; rw [if_neg (show ¬ k < 25 by omega), if_neg (show ¬ k < 50 by omega)]
    unfold lBlk; rw [e1, e2]))
  iexact H20

end Cert.Kernel.Gen

end
-- ==== Proof.K.FrameRun.lean ====
/-
  The body obligation at every grid point, the launch, and the frame.

  Each point falls in one of six cases by its number; the invariant before the first point is the class's, and after
  the last point it gives the class's back, the scratch's named contents forgotten.  The launch theorem then runs the
  pipeline: every weakly fair execution terminates without a fault, each output array ends holding what the proof
  data's write-backs wrote, and every argument array is unchanged.
-/
import proofs.«104241_g40587440947829_cont_sun_m_1101_21_alg».proof.Proof.K.BodyDefs
import proofs.«104241_g40587440947829_cont_sun_m_1101_21_alg».proof.Proof.K.SoundA
import proofs.«104241_g40587440947829_cont_sun_m_1101_21_alg».proof.Proof.K.SoundB
import proofs.«104241_g40587440947829_cont_sun_m_1101_21_alg».proof.Proof.K.SoundC
import proofs.«104241_g40587440947829_cont_sun_m_1101_21_alg».proof.Proof.K.SoundD
import proofs.«104241_g40587440947829_cont_sun_m_1101_21_alg».proof.Proof.K.SoundE
import proofs.«104241_g40587440947829_cont_sun_m_1101_21_alg».proof.Proof.K.SoundF

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- The body at any point: by the point's number, one of the six cases. -/
theorem sound_body (c : Dev nD) (t : Fin cfg0.N) :
    bodyPre m c t ⊢ wp frame (wpE (defs₀ (F := F)) Variants.none c none) Set.univ (bodyAt0 t) (fun _ => bodyPost m c t) := by
  have hN := N75
  rcases t with ⟨n, hn⟩
  rcases n with _ | k
  · exact soundA m c hn
  · by_cases hB : k + 1 < 25
    · exact soundB m c k hn hB
    · by_cases hC : k + 1 = 25
      · exact soundC m c k hn hC
      · by_cases hD : k + 1 < 50
        · exact soundD m c k hn (by omega) hD
        · by_cases hE : k + 1 = 50
          · exact soundE m c k hn hE
          · exact soundF m c k hn (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]

theorem PhiS_pos (c : Dev nD) : ∀ (n : ℕ) (h : n ≤ cfg0.N) (hz : n ≠ 0), PhiS m c n h = PhiPos m c (n - 1) (by omega)
  | 0, _, hz => absurd rfl hz
  | n + 1, _, _ => rfl

/-- After the last point the invariant gives the class's back: the scratch's named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have := N75; omega), PhiA0_eq]
  unfold PhiPos
  iintro ⟨⟨%dhq, %dmn, H22, H23, H24, H25, H26⟩, Hg⟩
  isplitr [Hg]
  · isplitl [H22]; · iexists _; iexact H22
    isplitl [H23]; · iexists _; iexact H23
    isplitl [H24]; · iexists _; iexact H24
    isplitl [H25]; · iexists _; iexact H25
    iexists _; iexact H26
  · iexact Hg

-- the launch theorem's implicit arguments are found by unifying its conclusion with this one, which takes unfolding plain
-- definitions in a metavariable's type
set_option backward.isDefEq.respectTransparency.types false in
/-- Every weakly fair execution of @main terminates, and every final state has every array of the pipeline at what the
    proof data's write-backs left and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its argument arrays unchanged. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

end Cert.Kernel.Gen

end
-- ==== Proof.KI.Conds.lean ====
/-
  The body's six branches over the 75 grid points, and where the two output windows are live.

  Point t is in phase 0 for t < 25, in phase 1 for 25 ≤ t < 50, in phase 2 for 50 ≤ t; the scratch is reset at
  t = 0 and the per-hyperedge normalisation runs at t = 25 and at t = 50.  A phase-0 point touches rows 400t ..,
  a phase-1 point rows 400(t − 25) .., a phase-2 point rows 400(t − 50) .. of the resident copy.
  The gate's window is stored into in phase 0 only and written back after points 0 .. 23 and after the last point;
  the logits' window is stored into in phase 2 only and written back after points 50 .. 74.
-/
import proofs.«104241_g40587440947829_cont_sun_m_1101_21_alg».proof.Proof.Gen.KernelIdeal.Frame
import proofs.«104241_g40587440947829_cont_sun_m_1101_21_alg».proof.Proof.Gen.KernelIdeal.Skeleton

set_option maxRecDepth 16384

noncomputable section

namespace Cert.KernelIdeal.Gen

open Idealize.ShloMosaic Idealize.ShloMosaic.TcCoe

/-- The six branch conditions at a grid point, as the body's skeleton spells them. -/
abbrev isFirst (i : grid0.Coords) : Prop := Scalar.cmpi .ne (Scalar.extui (Scalar.cmpi .eq (BitVec.ofNat 32 (i 0).val) 0#32)) 0#32 = 1#1
abbrev inPhase0 (i : grid0.Coords) : Prop := k0_cond2 i = 1#1
abbrev isNorm1 (i : grid0.Coords) : Prop := Scalar.cmpi .ne (Scalar.extui (Scalar.cmpi .eq (BitVec.ofNat 32 (i 0).val) 25#32)) 0#32 = 1#1
abbrev inPhase1 (i : grid0.Coords) : Prop := k0_cond4 i = 1#1
abbrev isNorm2 (i : grid0.Coords) : Prop := Scalar.cmpi .ne (Scalar.extui (Scalar.cmpi .eq (BitVec.ofNat 32 (i 0).val) 50#32)) 0#32 = 1#1
abbrev inPhase2 (i : grid0.Coords) : Prop := k0_cond6 i = 1#1

theorem isFirst_iff : ∀ t : Fin cfg0.N, isFirst (grid0.coords t) ↔ t.val = 0 :=
  (by decide +kernel : ∀ t : Fin grid0.N, isFirst (grid0.coords t) ↔ t.val = 0)
theorem inPhase0_iff : ∀ t : Fin cfg0.N, inPhase0 (grid0.coords t) ↔ t.val < 25 :=
  (by decide +kernel : ∀ t : Fin grid0.N, inPhase0 (grid0.coords t) ↔ t.val < 25)
theorem isNorm1_iff : ∀ t : Fin cfg0.N, isNorm1 (grid0.coords t) ↔ t.val = 25 :=
  (by decide +kernel : ∀ t : Fin grid0.N, isNorm1 (grid0.coords t) ↔ t.val = 25)
theorem inPhase1_iff : ∀ t : Fin cfg0.N, inPhase1 (grid0.coords t) ↔ (25 ≤ t.val ∧ t.val < 50) :=
  (by decide +kernel : ∀ t : Fin grid0.N, inPhase1 (grid0.coords t) ↔ (25 ≤ t.val ∧ t.val < 50))
theorem isNorm2_iff : ∀ t : Fin cfg0.N, isNorm2 (grid0.coords t) ↔ t.val = 50 :=
  (by decide +kernel : ∀ t : Fin grid0.N, isNorm2 (grid0.coords t) ↔ t.val = 50)
theorem inPhase2_iff : ∀ t : Fin cfg0.N, inPhase2 (grid0.coords t) ↔ 50 ≤ t.val :=
  (by decide +kernel : ∀ t : Fin grid0.N, inPhase2 (grid0.coords t) ↔ 50 ≤ t.val)

/-- The first row a point touches in the resident copy. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])
theorem off2_eq : ∀ t : Fin cfg0.N, 25 ≤ t.val → t.val < 50 → k0_off2 (grid0.coords t) = ![400 * (t.val - 25), 0] :=
  (by decide +kernel : ∀ t : Fin grid0.N, 25 ≤ t.val → t.val < 50 → k0_off2 (grid0.coords t) = ![400 * (t.val - 25), 0])
theorem off3_eq : ∀ t : Fin cfg0.N, 50 ≤ t.val → k0_off3 (grid0.coords t) = ![400 * (t.val - 50), 0] :=
  (by decide +kernel : ∀ t : Fin grid0.N, 50 ≤ t.val → k0_off3 (grid0.coords t) = ![400 * (t.val - 50), 0])

/-- The gate's window (19): idle exactly outside phase 0; written back after points 0 .. 23 and after point 74. -/
theorem idle19_iff : ∀ t : Fin cfg0.N, cfg0.idle 19 (grid0.coords t) = true ↔ 25 ≤ t.val :=
  (by decide +kernel : ∀ t : Fin grid0.N, cfg0.idle 19 (grid0.coords t) = true ↔ 25 ≤ t.val)
theorem flush19_iff : ∀ t : Fin cfg0.N, (cfg0.win 19).flush t = true ↔ (t.val < 24 ∨ t.val = 74) :=
  (by decide +kernel : ∀ t : Fin grid0.N, win0_19.flush t = true ↔ (t.val < 24 ∨ t.val = 74))
/-- The logits' window (20): idle exactly before phase 2; written back after points 50 .. 74. -/
theorem idle20_iff : ∀ t : Fin cfg0.N, cfg0.idle 20 (grid0.coords t) = true ↔ t.val < 50 :=
  (by decide +kernel : ∀ t : Fin grid0.N, cfg0.idle 20 (grid0.coords t) = true ↔ t.val < 50)
theorem flush20_iff : ∀ t : Fin cfg0.N, (cfg0.win 20).flush t = true ↔ 50 ≤ t.val :=
  (by decide +kernel : ∀ t : Fin grid0.N, win0_20.flush t = true ↔ 50 ≤ t.val)

end Cert.KernelIdeal.Gen

end
-- ==== Proof.KI.Rows.lean ====
/-
  Row slabs of the resident 10000 × 2048 copy: replacing rows o .. o+399 by a 400 × 2048 block, and reading them.
  A store through the slab's rectangle into a whole buffer reads back as the replacement; a load through it reads the rows.
-/
import proofs.«104241_g40587440947829_cont_sun_m_1101_21_alg».proof.Proof.Gen.KernelIdeal
import Idealize.ShloMosaic.Lib.WritesUnit
import Idealize.ShloMosaic.Lib.WholeRead
import Idealize.ShloMosaic.Lib.ValueIdx
import Idealize.ShloMosaic.Lib.Pipeline.FrameBody
import Idealize.ShloMosaic.Lib.Pipeline.Value

noncomputable section

namespace Cert.KernelIdeal.Gen

open Idealize.ShloMosaic Idealize.ShloMosaic.ValueIdx

variable {F : FTy → Type} [FloatOps F]

/-- X with rows o .. o+399 replaced by the block B. -/
def putRows (X : Vec F S10000x2048 .bf16) (o : ℕ) (B : Vec F S400x2048 .bf16) : Vec F S10000x2048 .bf16 :=
  fun y => if h : o ≤ (y 0).val ∧ (y 0).val < o + 400 then
      B (ix2 (⟨(y 0).val - o, by omega⟩ : Fin 400) (⟨(y 1).val, idx2_lt1 y⟩ : Fin 2048))
    else X y

/-- Rows o .. o+399 of X. -/
def getRows (X : Vec F S10000x2048 .bf16) (o : ℕ) (ho : o + 400 ≤ 10000) : Vec F S400x2048 .bf16 :=
  fun y => X (ix2 (⟨o + (y 0).val, by have := idx2_lt0 y; omega⟩ : Fin 10000) (⟨(y 1).val, idx2_lt1 y⟩ : Fin 2048))

/-- One store of the block B through the rectangle of rows o .. o+399 into a whole buffer holding X reads back as the replacement. -/
theorem read_put (arg : Memref sig .tc .vmem S10000x2048 .bf16) (harg : arg.IsWhole) (X : Vec F S10000x2048 .bf16)
    (off : Fin 2 → ℕ) (inb : ∀ a, off a + S400x2048.size a ≤ S10000x2048.size a) (o : ℕ) (hoff : off = ![o, 0])
    (B : Vec F S400x2048 .bf16) :
    arg.view.read (Elt F) (arg.view.writes (Elt F) (harg.unread X) [⟨Rect.unit (s := S10000x2048) off S400x2048.size inb, B⟩])
      = putRows X o B := by
  funext y
  rw [View.read_writes_cons_rows (d := ![10000, 2048]) arg.view (harg.unread X) inb B [] y hoff (W := 400) rfl rfl]
  unfold putRows
  by_cases h : o ≤ (y 0).val ∧ (y 0).val < o + 400
  · rw [dif_pos h, dif_pos h]
    congr 1
    funext a; apply Fin.ext
    match a with
    | ⟨0, _⟩ => rw [Rect.unitLocal_val]; rfl
    | ⟨1, _⟩ => rw [Rect.unitLocal_val]; show (y 1).val - 0 = (y 1).val; omega
  · rw [dif_neg h, dif_neg h, View.writes_nil, harg.read_unread]

/-- A load through that rectangle from a whole buffer holding X reads rows o .. o+399. -/
theorem readAt_get (arg : Memref sig .tc .vmem S10000x2048 .bf16) (harg : arg.IsWhole) (X : Vec F S10000x2048 .bf16)
    (off : Fin 2 → ℕ) (inb : ∀ a, off a + S400x2048.size a ≤ S10000x2048.size a) (o : ℕ) (hoff : off = ![o, 0]) (ho : o + 400 ≤ 10000) :
    arg.view.readAt (Elt F) (Rect.unit (s := S10000x2048) off S400x2048.size inb).toLoadRect (harg.unread X)
      = getRows X o ho := by
  subst hoff
  rw [View.readAt_eq_ld, harg.read_unread]
  funext x
  unfold getRows
  show X ((Rect.unit (s := S10000x2048) ![o, 0] S400x2048.size inb).idx x) = _
  congr 1
  funext a; apply Fin.ext
  match a with
  | ⟨0, _⟩ => show o + 1 * (x 0).val = o + (x 0).val; omega
  | ⟨1, _⟩ => show 0 + 1 * (x 1).val = (x 1).val; omega

/-- One store of B through the whole-buffer rectangle (offsets all zero, however spelt) reads back as B, whatever was there. -/
theorem read_whole {S : Shape} {e : EltTy} (arg : Memref sig .tc .vmem S e) (f : arg.view.ty.Contents (Elt F))
    {off : Fin S.rank → ℕ} (hz : off = fun _ => 0) (inb : ∀ a, off a + S.size a ≤ S.size a) (B : S.Idx → Elt F e) :
    arg.view.read (Elt F) (arg.view.writes (Elt F) f [⟨Rect.unit off S.size inb, B⟩]) = B := by
  rw [View.read_writes_eq_canon _ _ _ (fun y => ⟨_, List.mem_singleton_self _, View.mem_set_unit_zero hz inb y⟩),
    View.canon_unit_zero hz]

/-- A load through the whole-buffer rectangle from a whole buffer holding X reads X. -/
theorem readAt_whole {S : Shape} {e : EltTy} (arg : Memref sig .tc .vmem S e) (harg : arg.IsWhole) (X : S.Idx → Elt F e)
    {off : Fin S.rank → ℕ} (hz : off = fun _ => 0) (inb : ∀ a, off a + S.size a ≤ S.size a) :
    arg.view.readAt (Elt F) (Rect.unit off S.size inb).toLoadRect (harg.unread X) = X := by
  rw [View.readAt_eq_ld, harg.read_unread, View.ld_unit_zero hz]

/-- The zero offsets of a rank-2 buffer, as the body spells them. -/
theorem zero2 : (![0, 0] : Fin 2 → ℕ) = fun _ => 0 := by
  funext a; match a with | ⟨0, _⟩ => rfl | ⟨1, _⟩ => rfl

end Cert.KernelIdeal.Gen

end
-- ==== Proof.KI.State.lean ====
/-
  What the kernel's buffers hold after each grid point, in the body's own payload terms, and the pipeline's proof data.

  Window w's block at point t is B(w+1) t.  After point n:
    the hyperedge degrees  deAt n  = the zero row plus the column sums of H's blocks 0 .. min n 24;
    the first aggregate    m1At n  = zero plus the phase-0 contributions of blocks 0 .. min n 24;
    the normalised features after point 25 are mn1 (from deAt 24 and m1At 24), after point 50 mn2 (from deAt 49, m2At 49);
    the second aggregate   m2At n  = zero plus the phase-1 contributions of points 25 .. min n 49;
    the resident copy holds the bf16 copy of H on rows below 400·min (n+1) 25 and what it held before elsewhere.
  The gate's window holds gBlk t after a phase-0 point t and keeps gBlk 24 afterwards; the logits' window holds
  lBlk t after a phase-2 point t.
-/
import proofs.«104241_g40587440947829_cont_sun_m_1101_21_alg».proof.Proof.KI.Conds
import proofs.«104241_g40587440947829_cont_sun_m_1101_21_alg».proof.Proof.KI.Rows

set_option maxRecDepth 16384

noncomputable section

namespace Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD)

theorem N75 : cfg0.N = 75 := N_0

/-! ## The windows' blocks at a point, at their literal types -/

abbrev B1 (t : Fin cfg0.N) : Vec F S400x2048 .f32 := iblk m c 0 t
abbrev B2 (t : Fin cfg0.N) : Vec F S400x128 .f32 := iblk m c 1 t
abbrev B3 (t : Fin cfg0.N) : Vec F S400x16 .f32 := iblk m c 2 t
abbrev B4 (t : Fin cfg0.N) : Vec F S2048x1 .bf16 := iblk m c 3 t
abbrev B5 (t : Fin cfg0.N) : Vec F S1x2048 .f32 := iblk m c 4 t
abbrev B6 (t : Fin cfg0.N) : Vec F S128x32 .f32 := iblk m c 5 t
abbrev B7 (t : Fin cfg0.N) : Vec F S1x32 .f32 := iblk m c 6 t
abbrev B8 (t : Fin cfg0.N) : Vec F S16x32 .f32 := iblk m c 7 t
abbrev B9 (t : Fin cfg0.N) : Vec F S1x32 .f32 := iblk m c 8 t
abbrev B10 (t : Fin cfg0.N) : Vec F S64x64 .f32 := iblk m c 9 t
abbrev B11 (t : Fin cfg0.N) : Vec F S1x64 .f32 := iblk m c 10 t
abbrev B12 (t : Fin cfg0.N) : Vec F S64x32 .f32 := iblk m c 11 t
abbrev B13 (t : Fin cfg0.N) : Vec F S1x32 .f32 := iblk m c 12 t
abbrev B14 (t : Fin cfg0.N) : Vec F S32x64 .f32 := iblk m c 13 t
abbrev B15 (t : Fin cfg0.N) : Vec F S1x64 .f32 := iblk m c 14 t
abbrev B16 (t : Fin cfg0.N) : Vec F S64x64 .f32 := iblk m c 15 t
abbrev B17 (t : Fin cfg0.N) : Vec F S1x64 .f32 := iblk m c 16 t
abbrev B18 (t : Fin cfg0.N) : Vec F S64x2 .f32 := iblk m c 17 t
abbrev B19 (t : Fin cfg0.N) : Vec F S1x2 .f32 := iblk m c 18 t

/-! ## What the body computes at a point -/

/-- The gate block a phase-0 point stores. -/
def gBlk (t : Fin cfg0.N) : Vec F S400x32 .f32 :=
  k0_pay16 (k0_pay13 (B2 m c t) (B6 m c t) (B7 m c t)) (k0_pay14 (B3 m c t) (B8 m c t)) (B9 m c t) (B10 m c t) (B11 m c t) (B12 m c t) (B13 m c t)

/-- A phase-0 point's contribution to the first aggregate. -/
def agg1 (t : Fin cfg0.N) : Vec F S64x2048 .f32 :=
  k0_pay17 (k0_pay9 (B1 m c t)) (k0_pay11 (B1 m c t) (B4 m c t)) (k0_pay13 (B2 m c t) (B6 m c t) (B7 m c t)) (k0_pay14 (B3 m c t) (B8 m c t))
    (B9 m c t) (B10 m c t) (B11 m c t) (B12 m c t) (B13 m c t) (B14 m c t) (B15 m c t)

/-- The hyperedge degrees after point n. -/
def deAt : (n : ℕ) → n < cfg0.N → Vec F S1x2048 .f32
  | 0, hn => k0_pay12 (B1 m c ⟨0, hn⟩) k0_pay1
  | n + 1, hn => if n + 1 < 25 then k0_pay12 (B1 m c ⟨n + 1, hn⟩) (deAt n (Nat.lt_of_succ_lt hn)) else deAt n (Nat.lt_of_succ_lt hn)

/-- The first aggregate after point n. -/
def m1At : (n : ℕ) → n < cfg0.N → Vec F S64x2048 .f32
  | 0, hn => k0_pay4 k0_pay2 (agg1 m c ⟨0, hn⟩)
  | n + 1, hn => if n + 1 < 25 then k0_pay4 (m1At n (Nat.lt_of_succ_lt hn)) (agg1 m c ⟨n + 1, hn⟩) else m1At n (Nat.lt_of_succ_lt hn)

/-- The bf16 copy of H's block k, as the phase-0 point k stores it. -/
def hqBlk (k : ℕ) (hk : k < cfg0.N) : Vec F S400x2048 .bf16 := k0_pay10 (B1 m c ⟨k, hk⟩)

/-- The whole bf16 copy of H, row by row from the blocks. -/
def hqFull : Vec F S10000x2048 .bf16 := fun y =>
  hqBlk m c ((y 0).val / 400) (by have := idx2_lt0 y; have := N75; omega)
    (ix2 (⟨(y 0).val % 400, Nat.mod_lt _ (by decide)⟩ : Fin 400) (⟨(y 1).val, idx2_lt1 y⟩ : Fin 2048))

/-- The resident copy once k blocks are in: the copy of H on rows below 400·k, the earlier contents d elsewhere. -/
def hqAt (d : Vec F S10000x2048 .bf16) (k : ℕ) : Vec F S10000x2048 .bf16 :=
  fun y => if (y 0).val < 400 * k then hqFull m c y else d y

/-- The normalised hyperedge features after the first normalisation (point 25). -/
def mn1 : Vec F S2048x64 .bf16 :=
  k0_pay5 (B5 m c ⟨25, by have := N75; omega⟩) (deAt m c 24 (by have := N75; omega)) (m1At m c 24 (by have := N75; omega))

/-- The second aggregate after point n. -/
def m2At : (n : ℕ) → n < cfg0.N → Vec F S64x2048 .f32
  | 0, _ => k0_pay3
  | n + 1, hn =>
    if h : 25 ≤ n + 1 ∧ n + 1 < 50 then
      k0_pay6 (hqBlk m c (n + 1 - 25) (by omega)) (B4 m c ⟨n + 1, hn⟩) (mn1 m c) (B16 m c ⟨n + 1, hn⟩) (B17 m c ⟨n + 1, hn⟩) (m2At n (Nat.lt_of_succ_lt hn))
    else m2At n (Nat.lt_of_succ_lt hn)

/-- The normalised hyperedge features after the second normalisation (point 50). -/
def mn2 : Vec F S2048x64 .bf16 :=
  k0_pay7 (B5 m c ⟨50, by have := N75; omega⟩) (deAt m c 49 (by have := N75; omega)) (m2At m c 49 (by have := N75; omega))

/-- The features buffer after point n: untouched (d) before the first normalisation, then mn1, then mn2. -/
def mnAt (d : Vec F S2048x64 .bf16) (n : ℕ) : Vec F S2048x64 .bf16 :=
  if n < 25 then d else if n < 50 then mn1 m c else mn2 m c

/-- The logits block a phase-2 point stores. -/
def lBlk (t : Fin cfg0.N) : Vec F S400x2 .f32 :=
  k0_pay8 (hqBlk m c (t.val - 50) (by have := t.isLt; omega)) (B4 m c t) (mn2 m c) (B18 m c t) (B19 m c t)

/-! ## The recursions, one step at a time -/

theorem deAt_succ_lt (n : ℕ) (hn : n + 1 < cfg0.N) (h : n + 1 < 25) :
    deAt m c (n + 1) hn = k0_pay12 (B1 m c ⟨n + 1, hn⟩) (deAt m c n (Nat.lt_of_succ_lt hn)) := by
  rw [deAt, if_pos h]
theorem deAt_succ_ge (n : ℕ) (hn : n + 1 < cfg0.N) (h : ¬ n + 1 < 25) : deAt m c (n + 1) hn = deAt m c n (Nat.lt_of_succ_lt hn) := by
  rw [deAt, if_neg h]
theorem m1At_succ_lt (n : ℕ) (hn : n + 1 < cfg0.N) (h : n + 1 < 25) :
    m1At m c (n + 1) hn = k0_pay4 (m1At m c n (Nat.lt_of_succ_lt hn)) (agg1 m c ⟨n + 1, hn⟩) := by
  rw [m1At, if_pos h]
theorem m1At_succ_ge (n : ℕ) (hn : n + 1 < cfg0.N) (h : ¬ n + 1 < 25) : m1At m c (n + 1) hn = m1At m c n (Nat.lt_of_succ_lt hn) := by
  rw [m1At, if_neg h]
theorem m2At_succ_in (n : ℕ) (hn : n + 1 < cfg0.N) (h : 25 ≤ n + 1 ∧ n + 1 < 50) :
    m2At m c (n + 1) hn = k0_pay6 (hqBlk m c (n + 1 - 25) (by omega)) (B4 m c ⟨n + 1, hn⟩) (mn1 m c) (B16 m c ⟨n + 1, hn⟩) (B17 m c ⟨n + 1, hn⟩)
      (m2At m c n (Nat.lt_of_succ_lt hn)) := by
  rw [m2At, dif_pos h]
theorem m2At_succ_out (n : ℕ) (hn : n + 1 < cfg0.N) (h : ¬ (25 ≤ n + 1 ∧ n + 1 < 50)) : m2At m c (n + 1) hn = m2At m c n (Nat.lt_of_succ_lt hn) := by
  rw [m2At, dif_neg h]

/-- After phase 0 the degrees and the first aggregate stay. -/
theorem deAt_const : ∀ (n : ℕ) (hn : n < cfg0.N), 24 ≤ n → deAt m c n hn = deAt m c 24 (by have := N75; omega)
  | 0, _, h => absurd h (by omega)
  | n + 1, hn, h => by
    by_cases h24 : n + 1 = 24
    · subst_vars; congr
    · rw [deAt_succ_ge m c n hn (by omega)]; exact deAt_const n _ (by omega)
theorem m1At_const : ∀ (n : ℕ) (hn : n < cfg0.N), 24 ≤ n → m1At m c n hn = m1At m c 24 (by have := N75; omega)
  | 0, _, h => absurd h (by omega)
  | n + 1, hn, h => by
    by_cases h24 : n + 1 = 24
    · subst_vars; congr
    · rw [m1At_succ_ge m c n hn (by omega)]; exact m1At_const n _ (by omega)
/-- Before phase 1 the second aggregate is the zero block; after it, it stays. -/
theorem m2At_early : ∀ (n : ℕ) (hn : n < cfg0.N), n < 25 → m2At m c n hn = k0_pay3
  | 0, _, _ => rfl
  | n + 1, hn, h => by rw [m2At_succ_out m c n hn (by omega)]; exact m2At_early n _ (by omega)
theorem m2At_const : ∀ (n : ℕ) (hn : n < cfg0.N), 49 ≤ n → m2At m c n hn = m2At m c 49 (by have := N75; omega)
  | 0, _, h => absurd h (by omega)
  | n + 1, hn, h => by
    by_cases h49 : n + 1 = 49
    · subst_vars; congr
    · rw [m2At_succ_out m c n hn (by omega)]; exact m2At_const n _ (by omega)

/-! ## The resident copy, slab by slab -/

/-- Putting block k into rows 400k .. 400k+399 of the copy with k blocks in gives the copy with k + 1 blocks in. -/
theorem putRows_hqAt (d : Vec F S10000x2048 .bf16) (k : ℕ) (hk : k < cfg0.N) (hk25 : k < 25) :
    putRows (hqAt m c d k) (400 * k) (hqBlk m c k hk) = hqAt m c d (k + 1) := by
  funext y
  unfold putRows hqAt
  by_cases h : 400 * k ≤ (y 0).val ∧ (y 0).val < 400 * k + 400
  · rw [dif_pos h, if_pos (by omega)]
    unfold hqFull
    have hq : (y 0).val / 400 = k := by omega
    have hr : (y 0).val % 400 = (y 0).val - 400 * k := by omega
    congr 1
    · congr 1; exact hq.symm
    · funext a; apply Fin.ext
      match a with
      | ⟨0, _⟩ => exact hr.symm
      | ⟨1, _⟩ => rfl
  · rw [dif_neg h]
    by_cases h2 : (y 0).val < 400 * k
    · rw [if_pos h2, if_pos (by omega)]
    · rw [if_neg h2, if_neg (by omega)]

/-- Rows 400j .. 400j+399 of the full copy are block j. -/
theorem getRows_hqAt (d : Vec F S10000x2048 .bf16) (j : ℕ) (hj : j < cfg0.N) (hj25 : j < 25) (ho : 400 * j + 400 ≤ 10000) :
    getRows (hqAt m c d 25) (400 * j) ho = hqBlk m c j hj := by
  funext y
  unfold getRows hqAt
  have hy := idx2_lt0 y
  rw [if_pos (show (ix2 (⟨400 * j + (y 0).val, by omega⟩ : Fin 10000) (⟨(y 1).val, idx2_lt1 y⟩ : Fin 2048) 0).val < 400 * 25 from by
    show 400 * j + (y 0).val < 400 * 25; omega)]
  unfold hqFull
  have hq : (400 * j + (y 0).val) / 400 = j := by omega
  have hr : (400 * j + (y 0).val) % 400 = (y 0).val := by omega
  show hqBlk m c ((400 * j + (y 0).val) / 400) _ _ = _
  have key : ∀ (k : ℕ) (hk : k < cfg0.N) (idx : S400x2048.Idx), k = j → idx = y → hqBlk m c k hk idx = hqBlk m c j hj y := by
    intro k hk idx e1 e2; subst e1; subst e2; rfl
  refine key _ _ _ hq ?_
  funext a; apply Fin.ext
  match a with
  | ⟨0, _⟩ => exact hr
  | ⟨1, _⟩ => rfl

end Cert.KernelIdeal.Gen

end
-- ==== Proof.KI.BodyDefs.lean ====
/-
  The pipeline's proof data and the body obligation's two sides.

  After the body at point t every input window holds its block; the gate's window holds the point's gate block during
  phase 0 and block 24's afterwards (the body leaves it alone, and it is written back once more after the last point);
  the logits' window holds the point's logits block.  The invariant carried between points holds the five scratch
  buffers at the state of State.lean, the resident copy and (before the first normalisation) the features buffer up to
  contents nobody names.
-/
import proofs.«104241_g40587440947829_cont_sun_m_1101_21_alg».proof.Proof.KI.State

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with -/

abbrev ms0 (t : Fin cfg0.N) : Memref sig .tc .vmem S400x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S400x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x1 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x32 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x32 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S16x32 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x32 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S64x64 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x64 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S64x32 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x32 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S32x64 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S1x64 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S64x64 .f32 := win0_15.stage (cfg0.slots t 15)
abbrev hs15 (t : Fin cfg0.N) : (ms15 t).IsWhole := hstage0_15 ((cfg0.slots t 15).cast nbuf0_15)
abbrev ms16 (t : Fin cfg0.N) : Memref sig .tc .vmem S1x64 .f32 := win0_16.stage (cfg0.slots t 16)
abbrev hs16 (t : Fin cfg0.N) : (ms16 t).IsWhole := hstage0_16 ((cfg0.slots t 16).cast nbuf0_16)
abbrev ms17 (t : Fin cfg0.N) : Memref sig .tc .vmem S64x2 .f32 := win0_17.stage (cfg0.slots t 17)
abbrev hs17 (t : Fin cfg0.N) : (ms17 t).IsWhole := hstage0_17 ((cfg0.slots t 17).cast nbuf0_17)
abbrev ms18 (t : Fin cfg0.N) : Memref sig .tc .vmem S1x2 .f32 := win0_18.stage (cfg0.slots t 18)
abbrev hs18 (t : Fin cfg0.N) : (ms18 t).IsWhole := hstage0_18 ((cfg0.slots t 18).cast nbuf0_18)
abbrev ms19 (t : Fin cfg0.N) : Memref sig .tc .vmem S400x32 .f32 := win0_19.stage (cfg0.slots t 19)
abbrev hs19 (t : Fin cfg0.N) : (ms19 t).IsWhole := hstage0_19 ((cfg0.slots t 19).cast nbuf0_19)
abbrev ms20 (t : Fin cfg0.N) : Memref sig .tc .vmem S400x2 .f32 := win0_20.stage (cfg0.slots t 20)
abbrev hs20 (t : Fin cfg0.N) : (ms20 t).IsWhole := hstage0_20 ((cfg0.slots t 20).cast nbuf0_20)
/-- The five scratch buffers: the resident copy, the hyperedge degrees, the two aggregates, the hyperedge features. -/
abbrev scM22 : Memref sig .tc .vmem S10000x2048 .bf16 := Memref.whole cc0_scratch0
abbrev scM23 : Memref sig .tc .vmem S1x2048 .f32 := Memref.whole cc0_scratch1
abbrev scM24 : Memref sig .tc .vmem S64x2048 .f32 := Memref.whole cc0_scratch2
abbrev scM25 : Memref sig .tc .vmem S64x2048 .f32 := Memref.whole cc0_scratch3
abbrev scM26 : Memref sig .tc .vmem S2048x64 .bf16 := Memref.whole cc0_scratch4

/-- The class invariant with the scratch buffers as memrefs owned at some contents. -/
theorem PhiA0_eq (c : Dev nD) :
    (Pipeline.ΦA spec0 c : sProp 𝕄)
      = iprop(iprop((∃ d, owns (c : Thread nD τ) scM22 fullShare d) ∗ (∃ d, owns (c : Thread nD τ) scM23 fullShare d) ∗ (∃ d, owns (c : Thread nD τ) scM24 fullShare d)
          ∗ (∃ d, owns (c : Thread nD τ) scM25 fullShare d) ∗ (∃ d, owns (c : Thread nD τ) scM26 fullShare d)) ∗ (∃ r, prngReg c r)) := by
  unfold Pipeline.ΦA; rw [scopedRest0_eq]; simp only [scM22, scM23, scM24, scM25, scM26, owns_whole]; try rfl

/-! ## The invariant -/

/-- The invariant after point n: the scratch at the state after point n. -/
def PhiPos (c : Dev nD) (n : ℕ) (hn : n < cfg0.N) : sProp 𝕄 :=
  iprop(iprop(∃ dhq dmn, owns (c : Thread nD τ) scM22 fullShare (hqAt m c dhq (min (n + 1) 25)) ∗ owns (c : Thread nD τ) scM23 fullShare (deAt m c n hn)
      ∗ owns (c : Thread nD τ) scM24 fullShare (m1At m c n hn) ∗ owns (c : Thread nD τ) scM25 fullShare (m2At m c n hn)
      ∗ owns (c : Thread nD τ) scM26 fullShare (mnAt m c dmn n)) ∗ (∃ r, prngReg c r))

/-- The invariant before position n: the class's before the first point, then the state after the point before. -/
def PhiS (c : Dev nD) : (n : ℕ) → n ≤ cfg0.N → sProp 𝕄
  | 0, _ => Pipeline.ΦA spec0 c
  | n + 1, hn => PhiPos m c n hn

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => if t.val < 25 then gBlk m c t else gBlk m c ⟨24, by have := N75; omega⟩
    | ⟨20, _⟩ => lBlk m c t
    | ⟨_ + 21, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc_zero (c : Dev nD) (h : 0 < cfg0.N) : (dats m 0 c).Φ (Fin.castSucc ⟨0, h⟩) = Pipeline.ΦA spec0 c := rfl
theorem Phi_castSucc_succ (c : Dev nD) (k : ℕ) (hn : k + 1 < cfg0.N) :
    (dats m 0 c).Φ (Fin.castSucc ⟨k + 1, hn⟩) = PhiPos m c k (Nat.lt_of_succ_lt hn) := rfl
theorem Phi_succ (c : Dev nD) (n : ℕ) (hn : n < cfg0.N) : (dats m 0 c).Φ (Fin.succ ⟨n, hn⟩) = PhiPos m c n hn := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after19_live (c : Dev nD) (t : Fin cfg0.N) (h : t.val < 25) : (dats m 0 c).after 19 t = gBlk m c t := by
  dsimp only [dats]; rw [if_pos h]
theorem after19_late (c : Dev nD) (t : Fin cfg0.N) (h : ¬ t.val < 25) : (dats m 0 c).after 19 t = gBlk m c ⟨24, by have := N75; omega⟩ := by
  dsimp only [dats]; rw [if_neg h]
theorem after20 (c : Dev nD) (t : Fin cfg0.N) : (dats m 0 c).after 20 t = lBlk m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d

/-- Each input's buffer is handed back at its block. -/
theorem leaves0_0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after0_0]
theorem leaves0_1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after0_1]
theorem leaves0_2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after0_2]
theorem leaves0_3 (c : Dev nD) (t : Fin cfg0.N) : (dats m 0 c).leavesExact 3 t = owns (c : Thread nD τ) (ms3 t) fullShare (iblk m c 3 t) := by
  unfold Dat.leavesExact; rw [show cfg0.idle 3 (cfg0.grid.coords t) = false from rfl, after0_3]
theorem leaves0_4 (c : Dev nD) (t : Fin cfg0.N) : (dats m 0 c).leavesExact 4 t = owns (c : Thread nD τ) (ms4 t) fullShare (iblk m c 4 t) := by
  unfold Dat.leavesExact; rw [show cfg0.idle 4 (cfg0.grid.coords t) = false from rfl, after0_4]
theorem leaves0_5 (c : Dev nD) (t : Fin cfg0.N) : (dats m 0 c).leavesExact 5 t = owns (c : Thread nD τ) (ms5 t) fullShare (iblk m c 5 t) := by
  unfold Dat.leavesExact; rw [show cfg0.idle 5 (cfg0.grid.coords t) = false from rfl, after0_5]
theorem leaves0_6 (c : Dev nD) (t : Fin cfg0.N) : (dats m 0 c).leavesExact 6 t = owns (c : Thread nD τ) (ms6 t) fullShare (iblk m c 6 t) := by
  unfold Dat.leavesExact; rw [show cfg0.idle 6 (cfg0.grid.coords t) = false from rfl, after0_6]
theorem leaves0_7 (c : Dev nD) (t : Fin cfg0.N) : (dats m 0 c).leavesExact 7 t = owns (c : Thread nD τ) (ms7 t) fullShare (iblk m c 7 t) := by
  unfold Dat.leavesExact; rw [show cfg0.idle 7 (cfg0.grid.coords t) = false from rfl, after0_7]
theorem leaves0_8 (c : Dev nD) (t : Fin cfg0.N) : (dats m 0 c).leavesExact 8 t = owns (c : Thread nD τ) (ms8 t) fullShare (iblk m c 8 t) := by
  unfold Dat.leavesExact; rw [show cfg0.idle 8 (cfg0.grid.coords t) = false from rfl, after0_8]
theorem leaves0_9 (c : Dev nD) (t : Fin cfg0.N) : (dats m 0 c).leavesExact 9 t = owns (c : Thread nD τ) (ms9 t) fullShare (iblk m c 9 t) := by
  unfold Dat.leavesExact; rw [show cfg0.idle 9 (cfg0.grid.coords t) = false from rfl, after0_9]
theorem leaves0_10 (c : Dev nD) (t : Fin cfg0.N) : (dats m 0 c).leavesExact 10 t = owns (c : Thread nD τ) (ms10 t) fullShare (iblk m c 10 t) := by
  unfold Dat.leavesExact; rw [show cfg0.idle 10 (cfg0.grid.coords t) = false from rfl, after0_10]
theorem leaves0_11 (c : Dev nD) (t : Fin cfg0.N) : (dats m 0 c).leavesExact 11 t = owns (c : Thread nD τ) (ms11 t) fullShare (iblk m c 11 t) := by
  unfold Dat.leavesExact; rw [show cfg0.idle 11 (cfg0.grid.coords t) = false from rfl, after0_11]
theorem leaves0_12 (c : Dev nD) (t : Fin cfg0.N) : (dats m 0 c).leavesExact 12 t = owns (c : Thread nD τ) (ms12 t) fullShare (iblk m c 12 t) := by
  unfold Dat.leavesExact; rw [show cfg0.idle 12 (cfg0.grid.coords t) = false from rfl, after0_12]
theorem leaves0_13 (c : Dev nD) (t : Fin cfg0.N) : (dats m 0 c).leavesExact 13 t = owns (c : Thread nD τ) (ms13 t) fullShare (iblk m c 13 t) := by
  unfold Dat.leavesExact; rw [show cfg0.idle 13 (cfg0.grid.coords t) = false from rfl, after0_13]
theorem leaves0_14 (c : Dev nD) (t : Fin cfg0.N) : (dats m 0 c).leavesExact 14 t = owns (c : Thread nD τ) (ms14 t) fullShare (iblk m c 14 t) := by
  unfold Dat.leavesExact; rw [show cfg0.idle 14 (cfg0.grid.coords t) = false from rfl, after0_14]
theorem leaves0_15 (c : Dev nD) (t : Fin cfg0.N) : (dats m 0 c).leavesExact 15 t = owns (c : Thread nD τ) (ms15 t) fullShare (iblk m c 15 t) := by
  unfold Dat.leavesExact; rw [show cfg0.idle 15 (cfg0.grid.coords t) = false from rfl, after0_15]
theorem leaves0_16 (c : Dev nD) (t : Fin cfg0.N) : (dats m 0 c).leavesExact 16 t = owns (c : Thread nD τ) (ms16 t) fullShare (iblk m c 16 t) := by
  unfold Dat.leavesExact; rw [show cfg0.idle 16 (cfg0.grid.coords t) = false from rfl, after0_16]
theorem leaves0_17 (c : Dev nD) (t : Fin cfg0.N) : (dats m 0 c).leavesExact 17 t = owns (c : Thread nD τ) (ms17 t) fullShare (iblk m c 17 t) := by
  unfold Dat.leavesExact; rw [show cfg0.idle 17 (cfg0.grid.coords t) = false from rfl, after0_17]
theorem leaves0_18 (c : Dev nD) (t : Fin cfg0.N) : (dats m 0 c).leavesExact 18 t = owns (c : Thread nD τ) (ms18 t) fullShare (iblk m c 18 t) := by
  unfold Dat.leavesExact; rw [show cfg0.idle 18 (cfg0.grid.coords t) = false from rfl, after0_18]

/-! ## The two output windows, point by point -/

theorem idle19_false (t : Fin cfg0.N) (h : t.val < 25) : cfg0.idle 19 (cfg0.grid.coords t) = false :=
  Bool.eq_false_iff.mpr fun hi => absurd ((idle19_iff t).mp hi) (by omega)
theorem idle19_true (t : Fin cfg0.N) (h : 25 ≤ t.val) : cfg0.idle 19 (cfg0.grid.coords t) = true := (idle19_iff t).mpr h
theorem flush19_false (t : Fin cfg0.N) (h : 24 ≤ t.val) (h' : t.val ≠ 74) : (cfg0.win 19).flush t = false :=
  Bool.eq_false_iff.mpr fun hf => by have := (flush19_iff t).mp hf; omega
theorem idle20_false (t : Fin cfg0.N) (h : 50 ≤ t.val) : cfg0.idle 20 (cfg0.grid.coords t) = false :=
  Bool.eq_false_iff.mpr fun hi => absurd ((idle20_iff t).mp hi) (by omega)
theorem idle20_true (t : Fin cfg0.N) (h : t.val < 50) : cfg0.idle 20 (cfg0.grid.coords t) = true := (idle20_iff t).mpr h
theorem flush20_false (t : Fin cfg0.N) (h : t.val < 50) : (cfg0.win 20).flush t = false :=
  Bool.eq_false_iff.mpr fun hf => by have := (flush20_iff t).mp hf; omega

/-- During phase 0 the gate's window is handed back at the point's gate block. -/
theorem leaves19_live (c : Dev nD) (t : Fin cfg0.N) (h : t.val < 25) :
    (dats m 0 c).leavesExact 19 t = owns (c : Thread nD τ) (ms19 t) fullShare (gBlk m c t) := by
  unfold Dat.leavesExact; rw [idle19_false t h, after19_live m c t h]
/-- Afterwards, until the last point, it is handed back as it was found. -/
theorem leaves19_idle (c : Dev nD) (t : Fin cfg0.N) (h : 25 ≤ t.val) (h' : t.val ≠ 74) :
    (dats m 0 c).leavesExact 19 t = iprop(∃ d, owns (c : Thread nD τ) (ms19 t) fullShare ((dats m 0 c).before 19 t d)) :=
  Dat.leavesExact_idle (dats m 0 c) 19 t (idle19_true t h) (flush19_false t (by omega) h')
/-- At the last point, which writes it back, it must hold block 24's gate. -/
theorem leaves19_last (c : Dev nD) (t : Fin cfg0.N) (h : t.val = 74) :
    (dats m 0 c).leavesExact 19 t = owns (c : Thread nD τ) (ms19 t) fullShare (gBlk m c ⟨24, by have := N75; omega⟩) := by
  unfold Dat.leavesExact; rw [idle19_true t (by omega), (flush19_iff t).mpr (Or.inr h), after19_late m c t (by omega)]
/-- Before phase 2 the logits' window is handed back as it was found; in phase 2 at the point's logits block. -/
theorem leaves20_idle (c : Dev nD) (t : Fin cfg0.N) (h : t.val < 50) :
    (dats m 0 c).leavesExact 20 t = iprop(∃ d, owns (c : Thread nD τ) (ms20 t) fullShare ((dats m 0 c).before 20 t d)) :=
  Dat.leavesExact_idle (dats m 0 c) 20 t (idle20_true t h) (flush20_false t h)
theorem leaves20_live (c : Dev nD) (t : Fin cfg0.N) (h : 50 ≤ t.val) :
    (dats m 0 c).leavesExact 20 t = owns (c : Thread nD τ) (ms20 t) fullShare (lBlk m c t) := by
  unfold Dat.leavesExact; rw [idle20_false t h, after20]

/-- From point 25 on the gate's window still holds block 24's gate: nothing stored into it, nothing written back. -/
theorem before19_late (c : Dev nD) : ∀ (n : ℕ) (hn : n < cfg0.N), 25 ≤ n → ∀ d,
    (dats m 0 c).before 19 ⟨n, hn⟩ d = gBlk m c ⟨24, by have := N75; omega⟩
  | 0, _, h, _ => absurd h (by omega)
  | n + 1, hn, h, d => by
    have hN := N75
    rw [(dats m 0 c).before_of_pos 19 ⟨n + 1, hn⟩ (Nat.succ_ne_zero n) ((cfg0.win 19).fetch_out rfl _) d]
    rw [show (cfg0.win 19).flush ⟨(⟨n + 1, hn⟩ : Fin cfg0.N).val - 1, Nat.lt_of_le_of_lt (Nat.sub_le _ _) hn⟩ = false from
      flush19_false _ (by show 24 ≤ n + 1 - 1; omega) (by show n + 1 - 1 ≠ 74; omega), if_neg Bool.false_ne_true]
    unfold Dat.left
    by_cases h25 : n + 1 = 25
    · rw [show cfg0.idle 19 (cfg0.grid.coords ⟨(⟨n + 1, hn⟩ : Fin cfg0.N).val - 1, Nat.lt_of_le_of_lt (Nat.sub_le _ _) hn⟩) = false from
        idle19_false _ (by show n + 1 - 1 < 25; omega)]
      dsimp only
      unfold Dat.kept
      rw [Pipeline.fill_of_clip_none (cfg := cfg0) 19 _ (fun _ => rfl) d ((dats m 0 c).after 19 _), Window.fill_cut,
        after19_live m c _ (by show n + 1 - 1 < 25; omega)]
      congr 1; apply Fin.ext; show n + 1 - 1 = 24; omega
    · rw [show cfg0.idle 19 (cfg0.grid.coords ⟨(⟨n + 1, hn⟩ : Fin cfg0.N).val - 1, Nat.lt_of_le_of_lt (Nat.sub_le _ _) hn⟩) = true from
        idle19_true _ (by show 25 ≤ n + 1 - 1; omega)]
      dsimp only
      have := before19_late c n (Nat.lt_of_succ_lt hn) (by omega) d
      rw [show (⟨(⟨n + 1, hn⟩ : Fin cfg0.N).val - 1, Nat.lt_of_le_of_lt (Nat.sub_le _ _) hn⟩ : Fin cfg0.N) = ⟨n, Nat.lt_of_succ_lt hn⟩ from Fin.ext (by show n + 1 - 1 = n; omega)]
      exact this

/-! ## The body obligation's two sides -/

/-- What the body is called with at point t. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d))
    ∗ (∃ d, owns (c : Thread nD τ) (ms18 t) fullShare ((dats m 0 c).before 18 t d))
    ∗ (∃ d, owns (c : Thread nD τ) (ms19 t) fullShare ((dats m 0 c).before 19 t d))
    ∗ (∃ d, owns (c : Thread nD τ) (ms20 t) fullShare ((dats m 0 c).before 20 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t)

/-- Equal contents, equal ownership. -/
theorem owns_congr {S : Shape} {e : EltTy} (c : Dev nD) (a : Memref sig .tc .vmem S e) {X Y : S.Idx → Elt F e} (h : X = Y) :
    (owns (c : Thread nD τ) a fullShare X : sProp 𝕄) ⊢ owns (c : Thread nD τ) a fullShare Y := by
  subst h; exact .rfl

end Cert.KernelIdeal.Gen

end
-- ==== Proof.KI.RunA.lean ====
/-
  The body at the first grid point (t = 0), run symbolically on whole memrefs.

  It zeroes the hyperedge degrees and both aggregates, then does what every phase-0 point does: stores the bf16 copy
  of the H block into rows o .. o+399 of the resident copy, adds the block's column sums to the (zeroed) degrees,
  stores the gate block, and adds the block's contribution to the (zeroed) first aggregate.
-/
import proofs.«104241_g40587440947829_cont_sun_m_1101_21_alg».proof.Proof.KI.Conds
import proofs.«104241_g40587440947829_cont_sun_m_1101_21_alg».proof.Proof.KI.Rows

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A store of B through the whole-buffer rectangle (offsets all zero, however spelt), made LAST, reads back as B, whatever
    the earlier stores into the buffer were. -/
private theorem read_whole_cons {S : Shape} {e : EltTy} (arg : Memref sig .tc .vmem S e) (f : arg.view.ty.Contents (Elt F))
    {off : Fin S.rank → ℕ} (hz : off = fun _ => 0) (inb : ∀ a, off a + S.size a ≤ S.size a) (B : S.Idx → Elt F e)
    (L : List (View.Piece (Elt F) S e)) :
    arg.view.read (Elt F) (arg.view.writes (Elt F) f (⟨Rect.unit off S.size inb, B⟩ :: L)) = B := by
  rw [View.read_writes_eq_canon _ _ _ (fun y => ⟨_, List.mem_cons_self, View.mem_set_unit_zero hz inb y⟩),
    View.canon_cons_unit_zero hz]

-- the core, the grid point, and the body's twenty-six memrefs: the nineteen input windows' staging buffers, the two
-- output windows' (arg20 the gate's, arg21 the logits'), and the five scratch buffers (arg22 the resident copy of H,
-- arg23 the hyperedge degrees, arg24 and arg25 the two aggregates, arg26 the normalised hyperedge features)
variable (c : Dev nD) (i : grid0.Coords)
  (arg1 : Memref sig .tc .vmem S400x2048 .f32) (harg1 : arg1.IsWhole)
  (arg2 : Memref sig .tc .vmem S400x128 .f32) (harg2 : arg2.IsWhole)
  (arg3 : Memref sig .tc .vmem S400x16 .f32) (harg3 : arg3.IsWhole)
  (arg4 : Memref sig .tc .vmem S2048x1 .bf16) (harg4 : arg4.IsWhole)
  (arg5 : Memref sig .tc .vmem S1x2048 .f32) (harg5 : arg5.IsWhole)
  (arg6 : Memref sig .tc .vmem S128x32 .f32) (harg6 : arg6.IsWhole)
  (arg7 : Memref sig .tc .vmem S1x32 .f32) (harg7 : arg7.IsWhole)
  (arg8 : Memref sig .tc .vmem S16x32 .f32) (harg8 : arg8.IsWhole)
  (arg9 : Memref sig .tc .vmem S1x32 .f32) (harg9 : arg9.IsWhole)
  (arg10 : Memref sig .tc .vmem S64x64 .f32) (harg10 : arg10.IsWhole)
  (arg11 : Memref sig .tc .vmem S1x64 .f32) (harg11 : arg11.IsWhole)
  (arg12 : Memref sig .tc .vmem S64x32 .f32) (harg12 : arg12.IsWhole)
  (arg13 : Memref sig .tc .vmem S1x32 .f32) (harg13 : arg13.IsWhole)
  (arg14 : Memref sig .tc .vmem S32x64 .f32) (harg14 : arg14.IsWhole)
  (arg15 : Memref sig .tc .vmem S1x64 .f32) (harg15 : arg15.IsWhole)
  (arg16 : Memref sig .tc .vmem S64x64 .f32) (harg16 : arg16.IsWhole)
  (arg17 : Memref sig .tc .vmem S1x64 .f32) (harg17 : arg17.IsWhole)
  (arg18 : Memref sig .tc .vmem S64x2 .f32) (harg18 : arg18.IsWhole)
  (arg19 : Memref sig .tc .vmem S1x2 .f32) (harg19 : arg19.IsWhole)
  (arg20 : Memref sig .tc .vmem S400x32 .f32) (harg20 : arg20.IsWhole)
  (arg21 : Memref sig .tc .vmem S400x2 .f32) (harg21 : arg21.IsWhole)
  (arg22 : Memref sig .tc .vmem S10000x2048 .bf16) (harg22 : arg22.IsWhole)
  (arg23 : Memref sig .tc .vmem S1x2048 .f32) (harg23 : arg23.IsWhole)
  (arg24 : Memref sig .tc .vmem S64x2048 .f32) (harg24 : arg24.IsWhole)
  (arg25 : Memref sig .tc .vmem S64x2048 .f32) (harg25 : arg25.IsWhole)
  (arg26 : Memref sig .tc .vmem S2048x64 .bf16) (harg26 : arg26.IsWhole)

set_option maxHeartbeats 4000000 in
theorem runA (h1 : isFirst i) (h2 : inPhase0 i) (h3 : ¬isNorm1 i) (h4 : ¬inPhase1 i) (h5 : ¬isNorm2 i) (h6 : ¬inPhase2 i)
    (o : ℕ) (hoff : k0_off1 i = ![o, 0])
    (x1 : Vec F S400x2048 .f32) (x2 : Vec F S400x128 .f32) (x3 : Vec F S400x16 .f32) (x4 : Vec F S2048x1 .bf16) (x6 : Vec F S128x32 .f32) (x7 : Vec F S1x32 .f32) (x8 : Vec F S16x32 .f32) (x9 : Vec F S1x32 .f32) (x10 : Vec F S64x64 .f32) (x11 : Vec F S1x64 .f32) (x12 : Vec F S64x32 .f32) (x13 : Vec F S1x32 .f32) (x14 : Vec F S32x64 .f32) (x15 : Vec F S1x64 .f32) (xo20 : Vec F S400x32 .f32) (xs22 : Vec F S10000x2048 .bf16) (xs23 : Vec F S1x2048 .f32) (xs24 : Vec F S64x2048 .f32) (xs25 : Vec F S64x2048 .f32)
    (E : Set ℕ) (K : PUnit → sProp 𝕄) :
    iprop(owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg6 fullShare x6
      ∗ owns (c : Thread nD τ) arg7 fullShare x7
      ∗ owns (c : Thread nD τ) arg8 fullShare x8
      ∗ owns (c : Thread nD τ) arg9 fullShare x9
      ∗ owns (c : Thread nD τ) arg10 fullShare x10
      ∗ owns (c : Thread nD τ) arg11 fullShare x11
      ∗ owns (c : Thread nD τ) arg12 fullShare x12
      ∗ owns (c : Thread nD τ) arg13 fullShare x13
      ∗ owns (c : Thread nD τ) arg14 fullShare x14
      ∗ owns (c : Thread nD τ) arg15 fullShare x15
      ∗ owns (c : Thread nD τ) arg20 fullShare xo20
      ∗ owns (c : Thread nD τ) arg22 fullShare xs22
      ∗ owns (c : Thread nD τ) arg23 fullShare xs23
      ∗ owns (c : Thread nD τ) arg24 fullShare xs24
      ∗ owns (c : Thread nD τ) arg25 fullShare xs25
      ∗ (iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg6 fullShare x6
          ∗ owns (c : Thread nD τ) arg7 fullShare x7
          ∗ owns (c : Thread nD τ) arg8 fullShare x8
          ∗ owns (c : Thread nD τ) arg9 fullShare x9
          ∗ owns (c : Thread nD τ) arg10 fullShare x10
          ∗ owns (c : Thread nD τ) arg11 fullShare x11
          ∗ owns (c : Thread nD τ) arg12 fullShare x12
          ∗ owns (c : Thread nD τ) arg13 fullShare x13
          ∗ owns (c : Thread nD τ) arg14 fullShare x14
          ∗ owns (c : Thread nD τ) arg15 fullShare x15
          ∗ owns (c : Thread nD τ) arg20 fullShare (k0_pay16 (k0_pay13 x2 x6 x7) (k0_pay14 x3 x8) x9 x10 x11 x12 x13)
          ∗ owns (c : Thread nD τ) arg22 fullShare (putRows xs22 o (k0_pay10 x1))
          ∗ owns (c : Thread nD τ) arg23 fullShare (k0_pay12 x1 k0_pay1)
          ∗ owns (c : Thread nD τ) arg24 fullShare (k0_pay4 k0_pay2 (k0_pay17 (k0_pay9 x1) (k0_pay11 x1 x4) (k0_pay13 x2 x6 x7) (k0_pay14 x3 x8) x9 x10 x11 x12 x13 x14 x15))
          ∗ owns (c : Thread nD τ) arg25 fullShare k0_pay3) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__kernel_eq_skeleton]; unfold cc0__kernel_skel
  unfold owns
  iintro ⟨⟨%f1, %hf1, H1⟩, ⟨%f2, %hf2, H2⟩, ⟨%f3, %hf3, H3⟩, ⟨%f4, %hf4, H4⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f20, %hf20, H20⟩, ⟨%f22, %hf22, H22⟩, ⟨%f23, %hf23, H23⟩, ⟨%f24, %hf24, H24⟩, ⟨%f25, %hf25, H25⟩, Hk⟩
  obtain rfl := harg1.eq_unread hf1; obtain rfl := harg2.eq_unread hf2; obtain rfl := harg3.eq_unread hf3; obtain rfl := harg4.eq_unread hf4; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg20.eq_unread hf20; obtain rfl := harg22.eq_unread hf22; obtain rfl := harg23.eq_unread hf23; obtain rfl := harg24.eq_unread hf24; obtain rfl := harg25.eq_unread hf25
  sl_exec (disch := first | exact h1 | exact h2 | exact h3 | exact h4 | exact h5 | exact h6)
  sl_step
  iapply Hk
  -- the inputs are handed back as they were
  isplitl [H1]; · iexists _; isplitr; · ipureintro; exact harg1.read_unread _
                  iexact H1
  isplitl [H2]; · iexists _; isplitr; · ipureintro; exact harg2.read_unread _
                  iexact H2
  isplitl [H3]; · iexists _; isplitr; · ipureintro; exact harg3.read_unread _
                  iexact H3
  isplitl [H4]; · iexists _; isplitr; · ipureintro; exact harg4.read_unread _
                  iexact H4
  isplitl [H6]; · iexists _; isplitr; · ipureintro; exact harg6.read_unread _
                  iexact H6
  isplitl [H7]; · iexists _; isplitr; · ipureintro; exact harg7.read_unread _
                  iexact H7
  isplitl [H8]; · iexists _; isplitr; · ipureintro; exact harg8.read_unread _
                  iexact H8
  isplitl [H9]; · iexists _; isplitr; · ipureintro; exact harg9.read_unread _
                  iexact H9
  isplitl [H10]; · iexists _; isplitr; · ipureintro; exact harg10.read_unread _
                   iexact H10
  isplitl [H11]; · iexists _; isplitr; · ipureintro; exact harg11.read_unread _
                   iexact H11
  isplitl [H12]; · iexists _; isplitr; · ipureintro; exact harg12.read_unread _
                   iexact H12
  isplitl [H13]; · iexists _; isplitr; · ipureintro; exact harg13.read_unread _
                   iexact H13
  isplitl [H14]; · iexists _; isplitr; · ipureintro; exact harg14.read_unread _
                   iexact H14
  isplitl [H15]; · iexists _; isplitr; · ipureintro; exact harg15.read_unread _
                   iexact H15
  -- the gate block: one store through the whole-buffer rectangle
  isplitl [H20]
  · iexists _; isplitr
    swap; · iexact H20
    ipureintro
    sl_unfold_run_names
    simp only [readAt_whole _ harg2 _ zero2, readAt_whole _ harg3 _ zero2, readAt_whole _ harg6 _ zero2, readAt_whole _ harg7 _ zero2,
      readAt_whole _ harg8 _ zero2, readAt_whole _ harg9 _ zero2, readAt_whole _ harg10 _ zero2, readAt_whole _ harg11 _ zero2,
      readAt_whole _ harg12 _ zero2, readAt_whole _ harg13 _ zero2]
    exact read_whole _ _ zero2 _ _
  -- the resident copy: rows o .. o+399 replaced
  isplitl [H22]
  · iexists _; isplitr
    swap; · iexact H22
    ipureintro
    simp only [readAt_whole _ harg1 _ zero2]
    exact read_put arg22 harg22 xs22 _ _ o hoff _
  -- the hyperedge degrees: the zeros just stored are read back, the block's column sums are added, and the sum is stored last
  isplitl [H23]
  · iexists _; isplitr
    swap; · iexact H23
    ipureintro
    sl_unfold_run_names
    simp only [readAt_whole _ harg1 _ zero2, View.readCov_unit_zero (S := S1x2048) _ zero2]
    exact read_whole_cons _ _ zero2 _ _ _
  -- the first aggregate: the zeros just stored are read back, the block's contribution is added, and the sum is stored last
  isplitl [H24]
  · iexists _; isplitr
    swap; · iexact H24
    ipureintro
    sl_unfold_run_names
    simp only [readAt_whole _ harg1 _ zero2, readAt_whole _ harg2 _ zero2, readAt_whole _ harg3 _ zero2, readAt_whole _ harg4 _ zero2,
      readAt_whole _ harg6 _ zero2, readAt_whole _ harg7 _ zero2,
      readAt_whole _ harg8 _ zero2, readAt_whole _ harg9 _ zero2, readAt_whole _ harg10 _ zero2, readAt_whole _ harg11 _ zero2,
      readAt_whole _ harg12 _ zero2, readAt_whole _ harg13 _ zero2, readAt_whole _ harg14 _ zero2, readAt_whole _ harg15 _ zero2,
      View.readCov_unit_zero (S := S64x2048) _ zero2]
    exact read_whole_cons _ _ zero2 _ _ _
  -- the second aggregate: the reset's one store through the whole-buffer rectangle
  · iexists _; isplitr
    swap; · iexact H25
    ipureintro
    exact read_whole _ _ zero2 _ _

end Cert.KernelIdeal.Gen

end
-- ==== Proof.KI.SoundA.lean ====
/-
  The body obligation at the first grid point (t = 0).

  The class invariant hands over the five scratch buffers at contents nobody names; the run of the first-point case
  gives them back at the state after point 0 (the resident copy with block 0 in, over what it held; the features
  buffer untouched); the idle logits' window passes through.
-/
import proofs.«104241_g40587440947829_cont_sun_m_1101_21_alg».proof.Proof.KI.BodyDefs
import proofs.«104241_g40587440947829_cont_sun_m_1101_21_alg».proof.Proof.KI.RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (c : Dev nD) in
/-- With no block in, the resident copy is what it held before: no row is below row 0. -/
private theorem hqAt_zero (d : Vec F S10000x2048 .bf16) : hqAt m c d 0 = d := by
  funext y; unfold hqAt; rw [if_neg (by omega)]

variable (c : Dev nD) in
/-- The first point puts block 0 into rows 0 .. 399 of whatever the resident copy held: the copy with one block in. -/
private theorem hqAt_first (d : Vec F S10000x2048 .bf16) (hn : 0 < cfg0.N) :
    putRows d (400 * 0) (k0_pay10 (B1 m c ⟨0, hn⟩)) = hqAt m c d (min (0 + 1) 25) := by
  have e := putRows_hqAt m c d 0 hn (by omega)
  rw [hqAt_zero] at e
  rw [show min (0 + 1) 25 = 0 + 1 by omega]
  exact e

variable (c : Dev nD) in
/-- The degrees, the two aggregates after the first point: the recursions' base cases. -/
private theorem deAt_zero (hn : 0 < cfg0.N) : k0_pay12 (B1 m c ⟨0, hn⟩) k0_pay1 = deAt m c 0 hn := rfl
variable (c : Dev nD) in
private theorem m1At_zero (hn : 0 < cfg0.N) :
    k0_pay4 k0_pay2 (k0_pay17 (k0_pay9 (B1 m c ⟨0, hn⟩)) (k0_pay11 (B1 m c ⟨0, hn⟩) (B4 m c ⟨0, hn⟩)) (k0_pay13 (B2 m c ⟨0, hn⟩) (B6 m c ⟨0, hn⟩) (B7 m c ⟨0, hn⟩))
        (k0_pay14 (B3 m c ⟨0, hn⟩) (B8 m c ⟨0, hn⟩)) (B9 m c ⟨0, hn⟩) (B10 m c ⟨0, hn⟩) (B11 m c ⟨0, hn⟩) (B12 m c ⟨0, hn⟩) (B13 m c ⟨0, hn⟩) (B14 m c ⟨0, hn⟩) (B15 m c ⟨0, hn⟩))
      = m1At m c 0 hn := rfl
variable (c : Dev nD) in
private theorem m2At_zero (hn : 0 < cfg0.N) : k0_pay3 (F := F) = m2At m c 0 hn := rfl

variable (c : Dev nD) in
/-- Before the first normalisation the features buffer is what it held. -/
private theorem mnAt_zero (d : Vec F S2048x64 .bf16) : d = mnAt m c d 0 := by
  unfold mnAt; rw [if_pos (by omega)]

set_option maxHeartbeats 4000000 in
theorem soundA (c : Dev nD) (hn : 0 < cfg0.N) :
    bodyPre m c ⟨0, hn⟩ ⊢ wp frame (wpE (defs₀ (F := F)) Variants.none c none) Set.univ (bodyAt0 ⟨0, hn⟩) (fun _ => bodyPost m c ⟨0, hn⟩) := by
  -- the point, and which branches it takes
  generalize ht : (⟨0, hn⟩ : Fin cfg0.N) = t
  have htv : t.val = 0 := by rw [← ht]
  have h1 : isFirst (grid0.coords t) := (isFirst_iff t).mpr htv
  have h2 : inPhase0 (grid0.coords t) := (inPhase0_iff t).mpr (by omega)
  have h3 : ¬isNorm1 (grid0.coords t) := fun h => by have := (isNorm1_iff t).mp h; omega
  have h4 : ¬inPhase1 (grid0.coords t) := fun h => by have := (inPhase1_iff t).mp h; omega
  have h5 : ¬isNorm2 (grid0.coords t) := fun h => by have := (isNorm2_iff t).mp h; omega
  have h6 : ¬inPhase2 (grid0.coords t) := fun h => by have := (inPhase2_iff t).mp h; omega
  have hoff : k0_off1 (grid0.coords t) = ![400 * 0, 0] := by rw [off1_eq t (by omega), htv]
  unfold bodyPre bodyPost bodyAt0
  simp only [before0_0, before0_1, before0_2, before0_3, before0_4, before0_5, before0_6, before0_7, before0_8, before0_9, before0_10, before0_11, before0_12, before0_13, before0_14, before0_15, before0_16, before0_17, before0_18]
  simp only [leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18]
  rw [leaves19_live m c t (by omega), leaves20_idle m c t (by omega)]
  rw [show (dats m 0 c).owesAt () t.succ = (dats m 0 c).owesAt () t.castSucc from rfl]
  subst ht
  rw [Phi_castSucc_zero, PhiA0_eq, Phi_succ]
  unfold PhiPos
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  icases HΦ with ⟨⟨⟨%e22, HS22⟩, ⟨%e23, HS23⟩, ⟨%e24, HS24⟩, ⟨%e25, HS25⟩, ⟨%e26, HS26⟩⟩, Hg⟩
  iapply (runA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) (ms10 ⟨0, hn⟩) (hs10 ⟨0, hn⟩) (ms11 ⟨0, hn⟩) (hs11 ⟨0, hn⟩) (ms12 ⟨0, hn⟩) (hs12 ⟨0, hn⟩) (ms13 ⟨0, hn⟩) (hs13 ⟨0, hn⟩) (ms14 ⟨0, hn⟩) (hs14 ⟨0, hn⟩) (ms15 ⟨0, hn⟩) (hs15 ⟨0, hn⟩) (ms16 ⟨0, hn⟩) (hs16 ⟨0, hn⟩) (ms17 ⟨0, hn⟩) (hs17 ⟨0, hn⟩) (ms18 ⟨0, hn⟩) (hs18 ⟨0, hn⟩) (ms19 ⟨0, hn⟩) (hs19 ⟨0, hn⟩) (ms20 ⟨0, hn⟩) (hs20 ⟨0, hn⟩) scM22 (Memref.isWhole_whole _) scM23 (Memref.isWhole_whole _) scM24 (Memref.isWhole_whole _) scM25 (Memref.isWhole_whole _) scM26 (Memref.isWhole_whole _) h1 h2 h3 h4 h5 h6 (400 * 0) hoff
    _ _ _ _ _ _ _ _ _ _ _ _ _ _ _ _ _ _ _ Set.univ _)
  isplitl [H0]; · iexact H0
  isplitl [H1]; · iexact H1
  isplitl [H2]; · iexact H2
  isplitl [H3]; · iexact H3
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H19]; · iexact H19
  isplitl [HS22]; · iexact HS22
  isplitl [HS23]; · iexact HS23
  isplitl [HS24]; · iexact HS24
  isplitl [HS25]; · iexact HS25
  iintro ⟨H0, H1, H2, H3, H5, H6, H7, H8, H9, H10, H11, H12, H13, H14, H19, HS22, HS23, HS24, HS25⟩
  -- the invariant after this point: the resident copy over what it held, the features buffer as it was
  isplitl [HS22 HS23 HS24 HS25 HS26 Hg]
  · isplitr [Hg]
    · iexists e22; iexists e26
      isplitl [HS22]
      · iapply (owns_congr c scM22 (hqAt_first m c e22 hn))
        iexact HS22
      isplitl [HS23]
      · iapply (owns_congr c scM23 (deAt_zero m c hn))
        iexact HS23
      isplitl [HS24]
      · iapply (owns_congr c scM24 (m1At_zero m c hn))
        iexact HS24
      isplitl [HS25]
      · iapply (owns_congr c scM25 (m2At_zero m c hn))
        iexact HS25
      · iapply (owns_congr c scM26 (mnAt_zero m c e26))
        iexact HS26
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  -- the logits' window is idle: handed back as found
  iexists _; iexact H20

end Cert.KernelIdeal.Gen

end
-- ==== Proof.KI.RunB.lean ====
/-
  The body at a phase-0 point other than the first (0 < t < 25), run symbolically on whole memrefs.

  It reads the point's blocks of H, x and z and the small arrays, stores the bf16 copy of the H block into rows
  o .. o+399 of the resident copy, adds the block's column sums to the hyperedge degrees, stores the gate block, and
  adds the block's contribution to the first aggregate.  Every buffer it touches is handed back at contents named by
  the body's payload terms; the buffers it does not touch are not mentioned.
-/
import proofs.«104241_g40587440947829_cont_sun_m_1101_21_alg».proof.Proof.KI.Conds
import proofs.«104241_g40587440947829_cont_sun_m_1101_21_alg».proof.Proof.KI.Rows

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core, the grid point, and the body's twenty-six memrefs: the nineteen input windows' staging buffers, the two
-- output windows' (arg20 the gate's, arg21 the logits'), and the five scratch buffers (arg22 the resident copy of H,
-- arg23 the hyperedge degrees, arg24 and arg25 the two aggregates, arg26 the normalised hyperedge features)
variable (c : Dev nD) (i : grid0.Coords)
  (arg1 : Memref sig .tc .vmem S400x2048 .f32) (harg1 : arg1.IsWhole)
  (arg2 : Memref sig .tc .vmem S400x128 .f32) (harg2 : arg2.IsWhole)
  (arg3 : Memref sig .tc .vmem S400x16 .f32) (harg3 : arg3.IsWhole)
  (arg4 : Memref sig .tc .vmem S2048x1 .bf16) (harg4 : arg4.IsWhole)
  (arg5 : Memref sig .tc .vmem S1x2048 .f32) (harg5 : arg5.IsWhole)
  (arg6 : Memref sig .tc .vmem S128x32 .f32) (harg6 : arg6.IsWhole)
  (arg7 : Memref sig .tc .vmem S1x32 .f32) (harg7 : arg7.IsWhole)
  (arg8 : Memref sig .tc .vmem S16x32 .f32) (harg8 : arg8.IsWhole)
  (arg9 : Memref sig .tc .vmem S1x32 .f32) (harg9 : arg9.IsWhole)
  (arg10 : Memref sig .tc .vmem S64x64 .f32) (harg10 : arg10.IsWhole)
  (arg11 : Memref sig .tc .vmem S1x64 .f32) (harg11 : arg11.IsWhole)
  (arg12 : Memref sig .tc .vmem S64x32 .f32) (harg12 : arg12.IsWhole)
  (arg13 : Memref sig .tc .vmem S1x32 .f32) (harg13 : arg13.IsWhole)
  (arg14 : Memref sig .tc .vmem S32x64 .f32) (harg14 : arg14.IsWhole)
  (arg15 : Memref sig .tc .vmem S1x64 .f32) (harg15 : arg15.IsWhole)
  (arg16 : Memref sig .tc .vmem S64x64 .f32) (harg16 : arg16.IsWhole)
  (arg17 : Memref sig .tc .vmem S1x64 .f32) (harg17 : arg17.IsWhole)
  (arg18 : Memref sig .tc .vmem S64x2 .f32) (harg18 : arg18.IsWhole)
  (arg19 : Memref sig .tc .vmem S1x2 .f32) (harg19 : arg19.IsWhole)
  (arg20 : Memref sig .tc .vmem S400x32 .f32) (harg20 : arg20.IsWhole)
  (arg21 : Memref sig .tc .vmem S400x2 .f32) (harg21 : arg21.IsWhole)
  (arg22 : Memref sig .tc .vmem S10000x2048 .bf16) (harg22 : arg22.IsWhole)
  (arg23 : Memref sig .tc .vmem S1x2048 .f32) (harg23 : arg23.IsWhole)
  (arg24 : Memref sig .tc .vmem S64x2048 .f32) (harg24 : arg24.IsWhole)
  (arg25 : Memref sig .tc .vmem S64x2048 .f32) (harg25 : arg25.IsWhole)
  (arg26 : Memref sig .tc .vmem S2048x64 .bf16) (harg26 : arg26.IsWhole)

set_option maxHeartbeats 4000000 in
theorem runB (h1 : ¬isFirst i) (h2 : inPhase0 i) (h3 : ¬isNorm1 i) (h4 : ¬inPhase1 i) (h5 : ¬isNorm2 i) (h6 : ¬inPhase2 i)
    (o : ℕ) (hoff : k0_off1 i = ![o, 0])
    (x1 : Vec F S400x2048 .f32) (x2 : Vec F S400x128 .f32) (x3 : Vec F S400x16 .f32) (x4 : Vec F S2048x1 .bf16)
    (x6 : Vec F S128x32 .f32) (x7 : Vec F S1x32 .f32) (x8 : Vec F S16x32 .f32) (x9 : Vec F S1x32 .f32) (x10 : Vec F S64x64 .f32) (x11 : Vec F S1x64 .f32)
    (x12 : Vec F S64x32 .f32) (x13 : Vec F S1x32 .f32) (x14 : Vec F S32x64 .f32) (x15 : Vec F S1x64 .f32)
    (xo20 : Vec F S400x32 .f32) (xs22 : Vec F S10000x2048 .bf16) (xs23 : Vec F S1x2048 .f32) (xs24 : Vec F S64x2048 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
      ∗ owns (c : Thread nD τ) arg6 fullShare x6 ∗ owns (c : Thread nD τ) arg7 fullShare x7 ∗ owns (c : Thread nD τ) arg8 fullShare x8 ∗ owns (c : Thread nD τ) arg9 fullShare x9
      ∗ owns (c : Thread nD τ) arg10 fullShare x10 ∗ owns (c : Thread nD τ) arg11 fullShare x11 ∗ owns (c : Thread nD τ) arg12 fullShare x12 ∗ owns (c : Thread nD τ) arg13 fullShare x13
      ∗ owns (c : Thread nD τ) arg14 fullShare x14 ∗ owns (c : Thread nD τ) arg15 fullShare x15
      ∗ owns (c : Thread nD τ) arg20 fullShare xo20 ∗ owns (c : Thread nD τ) arg22 fullShare xs22 ∗ owns (c : Thread nD τ) arg23 fullShare xs23 ∗ owns (c : Thread nD τ) arg24 fullShare xs24
      ∗ (iprop(owns (c : Thread nD τ) arg1 fullShare x1 ∗ owns (c : Thread nD τ) arg2 fullShare x2 ∗ owns (c : Thread nD τ) arg3 fullShare x3 ∗ owns (c : Thread nD τ) arg4 fullShare x4
          ∗ owns (c : Thread nD τ) arg6 fullShare x6 ∗ owns (c : Thread nD τ) arg7 fullShare x7 ∗ owns (c : Thread nD τ) arg8 fullShare x8 ∗ owns (c : Thread nD τ) arg9 fullShare x9
          ∗ owns (c : Thread nD τ) arg10 fullShare x10 ∗ owns (c : Thread nD τ) arg11 fullShare x11 ∗ owns (c : Thread nD τ) arg12 fullShare x12 ∗ owns (c : Thread nD τ) arg13 fullShare x13
          ∗ owns (c : Thread nD τ) arg14 fullShare x14 ∗ owns (c : Thread nD τ) arg15 fullShare x15
          ∗ owns (c : Thread nD τ) arg20 fullShare (k0_pay16 (k0_pay13 x2 x6 x7) (k0_pay14 x3 x8) x9 x10 x11 x12 x13)
          ∗ owns (c : Thread nD τ) arg22 fullShare (putRows xs22 o (k0_pay10 x1))
          ∗ owns (c : Thread nD τ) arg23 fullShare (k0_pay12 x1 xs23)
          ∗ owns (c : Thread nD τ) arg24 fullShare (k0_pay4 xs24 (k0_pay17 (k0_pay9 x1) (k0_pay11 x1 x4) (k0_pay13 x2 x6 x7) (k0_pay14 x3 x8) x9 x10 x11 x12 x13 x14 x15))) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__kernel_eq_skeleton]; unfold cc0__kernel_skel
  unfold owns
  iintro ⟨⟨%f1, %hf1, H1⟩, ⟨%f2, %hf2, H2⟩, ⟨%f3, %hf3, H3⟩, ⟨%f4, %hf4, H4⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f20, %hf20, H20⟩, ⟨%f22, %hf22, H22⟩, ⟨%f23, %hf23, H23⟩, ⟨%f24, %hf24, H24⟩, Hk⟩
  obtain rfl := harg1.eq_unread hf1; obtain rfl := harg2.eq_unread hf2; obtain rfl := harg3.eq_unread hf3; obtain rfl := harg4.eq_unread hf4
  obtain rfl := harg6.eq_unread hf6; obtain rfl := harg7.eq_unread hf7; obtain rfl := harg8.eq_unread hf8; obtain rfl := harg9.eq_unread hf9
  obtain rfl := harg10.eq_unread hf10; obtain rfl := harg11.eq_unread hf11; obtain rfl := harg12.eq_unread hf12; obtain rfl := harg13.eq_unread hf13
  obtain rfl := harg14.eq_unread hf14; obtain rfl := harg15.eq_unread hf15
  obtain rfl := harg20.eq_unread hf20; obtain rfl := harg22.eq_unread hf22; obtain rfl := harg23.eq_unread hf23; obtain rfl := harg24.eq_unread hf24
  sl_exec (disch := first | exact h1 | exact h2 | exact h3 | exact h4 | exact h5 | exact h6)
  sl_step
  iapply Hk
  -- the inputs are handed back as they were
  isplitl [H1]; · iexists _; isplitr; · ipureintro; exact harg1.read_unread _
                  iexact H1
  isplitl [H2]; · iexists _; isplitr; · ipureintro; exact harg2.read_unread _
                  iexact H2
  isplitl [H3]; · iexists _; isplitr; · ipureintro; exact harg3.read_unread _
                  iexact H3
  isplitl [H4]; · iexists _; isplitr; · ipureintro; exact harg4.read_unread _
                  iexact H4
  isplitl [H6]; · iexists _; isplitr; · ipureintro; exact harg6.read_unread _
                  iexact H6
  isplitl [H7]; · iexists _; isplitr; · ipureintro; exact harg7.read_unread _
                  iexact H7
  isplitl [H8]; · iexists _; isplitr; · ipureintro; exact harg8.read_unread _
                  iexact H8
  isplitl [H9]; · iexists _; isplitr; · ipureintro; exact harg9.read_unread _
                  iexact H9
  isplitl [H10]; · iexists _; isplitr; · ipureintro; exact harg10.read_unread _
                   iexact H10
  isplitl [H11]; · iexists _; isplitr; · ipureintro; exact harg11.read_unread _
                   iexact H11
  isplitl [H12]; · iexists _; isplitr; · ipureintro; exact harg12.read_unread _
                   iexact H12
  isplitl [H13]; · iexists _; isplitr; · ipureintro; exact harg13.read_unread _
                   iexact H13
  isplitl [H14]; · iexists _; isplitr; · ipureintro; exact harg14.read_unread _
                   iexact H14
  isplitl [H15]; · iexists _; isplitr; · ipureintro; exact harg15.read_unread _
                   iexact H15
  -- the gate block: one store through the whole-buffer rectangle
  isplitl [H20]
  · iexists _; isplitr
    swap; · iexact H20
    ipureintro
    sl_unfold_run_names
    simp only [readAt_whole _ harg2 _ zero2, readAt_whole _ harg3 _ zero2, readAt_whole _ harg6 _ zero2, readAt_whole _ harg7 _ zero2,
      readAt_whole _ harg8 _ zero2, readAt_whole _ harg9 _ zero2, readAt_whole _ harg10 _ zero2, readAt_whole _ harg11 _ zero2,
      readAt_whole _ harg12 _ zero2, readAt_whole _ harg13 _ zero2]
    exact read_whole _ _ zero2 _ _
  -- the resident copy: rows o .. o+399 replaced
  isplitl [H22]
  · iexists _; isplitr
    swap; · iexact H22
    ipureintro
    simp only [readAt_whole _ harg1 _ zero2]
    exact read_put arg22 harg22 xs22 _ _ o hoff _
  -- the hyperedge degrees
  isplitl [H23]
  · iexists _; isplitr
    swap; · iexact H23
    ipureintro
    simp only [readAt_whole _ harg1 _ zero2, readAt_whole _ harg23 _ zero2]
    exact read_whole _ _ zero2 _ _
  -- the first aggregate
  · iexists _; isplitr
    swap; · iexact H24
    ipureintro
    sl_unfold_run_names
    simp only [readAt_whole _ harg1 _ zero2, readAt_whole _ harg2 _ zero2, readAt_whole _ harg3 _ zero2, readAt_whole _ harg4 _ zero2,
      readAt_whole _ harg6 _ zero2, readAt_whole _ harg7 _ zero2,
      readAt_whole _ harg8 _ zero2, readAt_whole _ harg9 _ zero2, readAt_whole _ harg10 _ zero2, readAt_whole _ harg11 _ zero2,
      readAt_whole _ harg12 _ zero2, readAt_whole _ harg13 _ zero2, readAt_whole _ harg14 _ zero2, readAt_whole _ harg15 _ zero2,
      readAt_whole _ harg24 _ zero2]
    exact read_whole _ _ zero2 _ _

end Cert.KernelIdeal.Gen

end
-- ==== Proof.KI.SoundB.lean ====
/-
  The body obligation at a phase-0 point other than the first (0 < t < 25).

  The invariant hands over the scratch at the state after the point before; the run of the phase-0 case gives the
  buffers back at payload terms, which are the state after this point, one recursion step each; the buffers the
  point does not touch pass through (the second aggregate, the features buffer, the idle logits' window).
-/
import proofs.«104241_g40587440947829_cont_sun_m_1101_21_alg».proof.Proof.KI.BodyDefs
import proofs.«104241_g40587440947829_cont_sun_m_1101_21_alg».proof.Proof.KI.RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
theorem soundB (c : Dev nD) (k : ℕ) (hn : k + 1 < cfg0.N) (hk : k + 1 < 25) :
    bodyPre m c ⟨k + 1, hn⟩ ⊢ wp frame (wpE (defs₀ (F := F)) Variants.none c none) Set.univ (bodyAt0 ⟨k + 1, hn⟩) (fun _ => bodyPost m c ⟨k + 1, hn⟩) := by
  -- the point, and which branches it takes
  generalize ht : (⟨k + 1, hn⟩ : Fin cfg0.N) = t
  have htv : t.val = k + 1 := by rw [← ht]
  have h1 : ¬isFirst (grid0.coords t) := fun h => by have := (isFirst_iff t).mp h; omega
  have h2 : inPhase0 (grid0.coords t) := (inPhase0_iff t).mpr (by omega)
  have h3 : ¬isNorm1 (grid0.coords t) := fun h => by have := (isNorm1_iff t).mp h; omega
  have h4 : ¬inPhase1 (grid0.coords t) := fun h => by have := (inPhase1_iff t).mp h; omega
  have h5 : ¬isNorm2 (grid0.coords t) := fun h => by have := (isNorm2_iff t).mp h; omega
  have h6 : ¬inPhase2 (grid0.coords t) := fun h => by have := (inPhase2_iff t).mp h; omega
  have hoff : k0_off1 (grid0.coords t) = ![400 * (k + 1), 0] := by rw [off1_eq t (by omega), htv]
  unfold bodyPre bodyPost bodyAt0
  simp only [before0_0, before0_1, before0_2, before0_3, before0_4, before0_5, before0_6, before0_7, before0_8, before0_9, before0_10, before0_11, before0_12, before0_13, before0_14, before0_15, before0_16, before0_17, before0_18]
  simp only [leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18]
  rw [leaves19_live m c t (by omega), leaves20_idle m c t (by omega)]
  rw [show (dats m 0 c).owesAt () t.succ = (dats m 0 c).owesAt () t.castSucc from rfl]
  subst ht
  rw [Phi_castSucc_succ, Phi_succ]
  unfold PhiPos
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  icases HΦ with ⟨⟨%dhq, %dmn, HS22, HS23, HS24, HS25, HS26⟩, Hg⟩
  iapply (runB c (grid0.coords ⟨k + 1, hn⟩) (ms0 ⟨k + 1, hn⟩) (hs0 ⟨k + 1, hn⟩) (ms1 ⟨k + 1, hn⟩) (hs1 ⟨k + 1, hn⟩) (ms2 ⟨k + 1, hn⟩) (hs2 ⟨k + 1, hn⟩) (ms3 ⟨k + 1, hn⟩) (hs3 ⟨k + 1, hn⟩) (ms4 ⟨k + 1, hn⟩) (hs4 ⟨k + 1, hn⟩) (ms5 ⟨k + 1, hn⟩) (hs5 ⟨k + 1, hn⟩) (ms6 ⟨k + 1, hn⟩) (hs6 ⟨k + 1, hn⟩) (ms7 ⟨k + 1, hn⟩) (hs7 ⟨k + 1, hn⟩) (ms8 ⟨k + 1, hn⟩) (hs8 ⟨k + 1, hn⟩) (ms9 ⟨k + 1, hn⟩) (hs9 ⟨k + 1, hn⟩) (ms10 ⟨k + 1, hn⟩) (hs10 ⟨k + 1, hn⟩) (ms11 ⟨k + 1, hn⟩) (hs11 ⟨k + 1, hn⟩) (ms12 ⟨k + 1, hn⟩) (hs12 ⟨k + 1, hn⟩) (ms13 ⟨k + 1, hn⟩) (hs13 ⟨k + 1, hn⟩) (ms14 ⟨k + 1, hn⟩) (hs14 ⟨k + 1, hn⟩) (ms15 ⟨k + 1, hn⟩) (hs15 ⟨k + 1, hn⟩) (ms16 ⟨k + 1, hn⟩) (hs16 ⟨k + 1, hn⟩) (ms17 ⟨k + 1, hn⟩) (hs17 ⟨k + 1, hn⟩) (ms18 ⟨k + 1, hn⟩) (hs18 ⟨k + 1, hn⟩) (ms19 ⟨k + 1, hn⟩) (hs19 ⟨k + 1, hn⟩) (ms20 ⟨k + 1, hn⟩) (hs20 ⟨k + 1, hn⟩) scM22 (Memref.isWhole_whole _) scM23 (Memref.isWhole_whole _) scM24 (Memref.isWhole_whole _) scM25 (Memref.isWhole_whole _) scM26 (Memref.isWhole_whole _) h1 h2 h3 h4 h5 h6 (400 * (k + 1)) hoff
    _ _ _ _ _ _ _ _ _ _ _ _ _ _ _ _ _ _ Set.univ _)
  isplitl [H0]; · iexact H0
  isplitl [H1]; · iexact H1
  isplitl [H2]; · iexact H2
  isplitl [H3]; · iexact H3
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H19]; · iexact H19
  isplitl [HS22]; · iexact HS22
  isplitl [HS23]; · iexact HS23
  isplitl [HS24]; · iexact HS24
  iintro ⟨H0, H1, H2, H3, H5, H6, H7, H8, H9, H10, H11, H12, H13, H14, H19, HS22, HS23, HS24⟩
  -- the invariant after this point
  isplitl [HS22 HS23 HS24 HS25 HS26 Hg]
  · isplitr [Hg]
    · iexists dhq; iexists dmn
      isplitl [HS22]
      · iapply (owns_congr c scM22 (show putRows (hqAt m c dhq (min (k + 1) 25)) (400 * (k + 1)) (k0_pay10 (B1 m c ⟨k + 1, hn⟩)) = hqAt m c dhq (min (k + 1 + 1) 25) from by
          rw [Nat.min_eq_left (by omega), Nat.min_eq_left (by omega)]; exact putRows_hqAt m c dhq (k + 1) hn hk))
        iexact HS22
      isplitl [HS23]
      · iapply (owns_congr c scM23 (deAt_succ_lt m c k hn hk).symm)
        iexact HS23
      isplitl [HS24]
      · iapply (owns_congr c scM24 (m1At_succ_lt m c k hn hk).symm)
        iexact HS24
      isplitl [HS25]
      · iapply (owns_congr c scM25 (m2At_succ_out m c k hn (by omega)).symm)
        iexact HS25
      · iapply (owns_congr c scM26 (show mnAt m c dmn k = mnAt m c dmn (k + 1) from by unfold mnAt; rw [if_pos (by omega), if_pos (by omega)]))
        iexact HS26
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexists _; iexact H20

end Cert.KernelIdeal.Gen

end
-- ==== Proof.KI.RunC.lean ====
/-
  The body at the first phase-1 point (t = 25), run symbolically on whole memrefs.

  It first turns the first aggregate into the normalised hyperedge features (scaled per hyperedge, transposed), then
  does what every phase-1 point does: reads rows o .. o+399 of the resident copy, computes that block's layer output
  and second-layer input, and adds the block's contribution to the second aggregate.
-/
import proofs.«104241_g40587440947829_cont_sun_m_1101_21_alg».proof.Proof.KI.Conds
import proofs.«104241_g40587440947829_cont_sun_m_1101_21_alg».proof.Proof.KI.Rows

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core, the grid point, and the body's twenty-six memrefs: the nineteen input windows' staging buffers, the two
-- output windows' (arg20 the gate's, arg21 the logits'), and the five scratch buffers (arg22 the resident copy of H,
-- arg23 the hyperedge degrees, arg24 and arg25 the two aggregates, arg26 the normalised hyperedge features)
variable (c : Dev nD) (i : grid0.Coords)
  (arg1 : Memref sig .tc .vmem S400x2048 .f32) (harg1 : arg1.IsWhole)
  (arg2 : Memref sig .tc .vmem S400x128 .f32) (harg2 : arg2.IsWhole)
  (arg3 : Memref sig .tc .vmem S400x16 .f32) (harg3 : arg3.IsWhole)
  (arg4 : Memref sig .tc .vmem S2048x1 .bf16) (harg4 : arg4.IsWhole)
  (arg5 : Memref sig .tc .vmem S1x2048 .f32) (harg5 : arg5.IsWhole)
  (arg6 : Memref sig .tc .vmem S128x32 .f32) (harg6 : arg6.IsWhole)
  (arg7 : Memref sig .tc .vmem S1x32 .f32) (harg7 : arg7.IsWhole)
  (arg8 : Memref sig .tc .vmem S16x32 .f32) (harg8 : arg8.IsWhole)
  (arg9 : Memref sig .tc .vmem S1x32 .f32) (harg9 : arg9.IsWhole)
  (arg10 : Memref sig .tc .vmem S64x64 .f32) (harg10 : arg10.IsWhole)
  (arg11 : Memref sig .tc .vmem S1x64 .f32) (harg11 : arg11.IsWhole)
  (arg12 : Memref sig .tc .vmem S64x32 .f32) (harg12 : arg12.IsWhole)
  (arg13 : Memref sig .tc .vmem S1x32 .f32) (harg13 : arg13.IsWhole)
  (arg14 : Memref sig .tc .vmem S32x64 .f32) (harg14 : arg14.IsWhole)
  (arg15 : Memref sig .tc .vmem S1x64 .f32) (harg15 : arg15.IsWhole)
  (arg16 : Memref sig .tc .vmem S64x64 .f32) (harg16 : arg16.IsWhole)
  (arg17 : Memref sig .tc .vmem S1x64 .f32) (harg17 : arg17.IsWhole)
  (arg18 : Memref sig .tc .vmem S64x2 .f32) (harg18 : arg18.IsWhole)
  (arg19 : Memref sig .tc .vmem S1x2 .f32) (harg19 : arg19.IsWhole)
  (arg20 : Memref sig .tc .vmem S400x32 .f32) (harg20 : arg20.IsWhole)
  (arg21 : Memref sig .tc .vmem S400x2 .f32) (harg21 : arg21.IsWhole)
  (arg22 : Memref sig .tc .vmem S10000x2048 .bf16) (harg22 : arg22.IsWhole)
  (arg23 : Memref sig .tc .vmem S1x2048 .f32) (harg23 : arg23.IsWhole)
  (arg24 : Memref sig .tc .vmem S64x2048 .f32) (harg24 : arg24.IsWhole)
  (arg25 : Memref sig .tc .vmem S64x2048 .f32) (harg25 : arg25.IsWhole)
  (arg26 : Memref sig .tc .vmem S2048x64 .bf16) (harg26 : arg26.IsWhole)

set_option maxHeartbeats 4000000 in
theorem runC (h1 : ¬isFirst i) (h2 : ¬inPhase0 i) (h3 : isNorm1 i) (h4 : inPhase1 i) (h5 : ¬isNorm2 i) (h6 : ¬inPhase2 i)
    (o : ℕ) (hoff : k0_off2 i = ![o, 0]) (ho : o + 400 ≤ 10000)
    (x4 : Vec F S2048x1 .bf16) (x5 : Vec F S1x2048 .f32) (x16 : Vec F S64x64 .f32) (x17 : Vec F S1x64 .f32) (xs22 : Vec F S10000x2048 .bf16) (xs23 : Vec F S1x2048 .f32) (xs24 : Vec F S64x2048 .f32) (xs25 : Vec F S64x2048 .f32) (xs26 : Vec F S2048x64 .bf16)
    (E : Set ℕ) (K : PUnit → sProp 𝕄) :
    iprop(owns (c : Thread nD τ) arg4 fullShare x4
      ∗ owns (c : Thread nD τ) arg5 fullShare x5
      ∗ owns (c : Thread nD τ) arg16 fullShare x16
      ∗ owns (c : Thread nD τ) arg17 fullShare x17
      ∗ owns (c : Thread nD τ) arg22 fullShare xs22
      ∗ owns (c : Thread nD τ) arg23 fullShare xs23
      ∗ owns (c : Thread nD τ) arg24 fullShare xs24
      ∗ owns (c : Thread nD τ) arg25 fullShare xs25
      ∗ owns (c : Thread nD τ) arg26 fullShare xs26
      ∗ (iprop(owns (c : Thread nD τ) arg4 fullShare x4
          ∗ owns (c : Thread nD τ) arg5 fullShare x5
          ∗ owns (c : Thread nD τ) arg16 fullShare x16
          ∗ owns (c : Thread nD τ) arg17 fullShare x17
          ∗ owns (c : Thread nD τ) arg22 fullShare xs22
          ∗ owns (c : Thread nD τ) arg23 fullShare xs23
          ∗ owns (c : Thread nD τ) arg24 fullShare xs24
          ∗ owns (c : Thread nD τ) arg25 fullShare (k0_pay6 (getRows xs22 o ho) x4 (k0_pay5 x5 xs23 xs24) x16 x17 xs25)
          ∗ owns (c : Thread nD τ) arg26 fullShare (k0_pay5 x5 xs23 xs24)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__kernel_eq_skeleton]; unfold cc0__kernel_skel
  unfold owns
  iintro ⟨⟨%f4, %hf4, H4⟩, ⟨%f5, %hf5, H5⟩, ⟨%f16, %hf16, H16⟩, ⟨%f17, %hf17, H17⟩, ⟨%f22, %hf22, H22⟩, ⟨%f23, %hf23, H23⟩, ⟨%f24, %hf24, H24⟩, ⟨%f25, %hf25, H25⟩, ⟨%f26, %hf26, H26⟩, Hk⟩
  obtain rfl := harg4.eq_unread hf4; obtain rfl := harg5.eq_unread hf5; obtain rfl := harg16.eq_unread hf16; obtain rfl := harg17.eq_unread hf17
  obtain rfl := harg22.eq_unread hf22; obtain rfl := harg23.eq_unread hf23; obtain rfl := harg24.eq_unread hf24; obtain rfl := harg25.eq_unread hf25
  obtain rfl := harg26.eq_unread hf26
  sl_exec (disch := first | exact h1 | exact h2 | exact h3 | exact h4 | exact h5 | exact h6)
  sl_step
  iapply Hk
  -- the inputs and the untouched scratch buffers are handed back as they were
  isplitl [H4]; · iexists _; isplitr; · ipureintro; exact harg4.read_unread _
                  iexact H4
  isplitl [H5]; · iexists _; isplitr; · ipureintro; exact harg5.read_unread _
                  iexact H5
  isplitl [H16]; · iexists _; isplitr; · ipureintro; exact harg16.read_unread _
                   iexact H16
  isplitl [H17]; · iexists _; isplitr; · ipureintro; exact harg17.read_unread _
                   iexact H17
  isplitl [H22]; · iexists _; isplitr; · ipureintro; exact harg22.read_unread _
                   iexact H22
  isplitl [H23]; · iexists _; isplitr; · ipureintro; exact harg23.read_unread _
                   iexact H23
  isplitl [H24]; · iexists _; isplitr; · ipureintro; exact harg24.read_unread _
                   iexact H24
  -- the second aggregate: the features just stored are read back, rows o .. o+399 of the resident copy are read
  isplitl [H25]
  · iexists _; isplitr
    swap; · iexact H25
    ipureintro
    sl_unfold_run_names
    simp only [readAt_get arg22 harg22 xs22 _ _ o hoff ho, readAt_whole _ harg4 _ zero2, readAt_whole _ harg5 _ zero2,
      readAt_whole _ harg16 _ zero2, readAt_whole _ harg17 _ zero2, readAt_whole _ harg23 _ zero2, readAt_whole _ harg24 _ zero2,
      readAt_whole _ harg25 _ zero2, View.readCov_unit_zero (S := S2048x64) _ zero2]
    exact read_whole _ _ zero2 _ _
  -- the normalised hyperedge features: one store through the whole-buffer rectangle
  · iexists _; isplitr
    swap; · iexact H26
    ipureintro
    sl_unfold_run_names
    simp only [readAt_whole _ harg5 _ zero2, readAt_whole _ harg23 _ zero2, readAt_whole _ harg24 _ zero2]
    exact read_whole _ _ zero2 _ _

end Cert.KernelIdeal.Gen

end
-- ==== Proof.KI.SoundC.lean ====
/-
  The body obligation at the first phase-1 point (t = 25).

  The invariant hands over the state after phase 0; the run normalises the first aggregate into the hyperedge features
  and adds block 0's contribution to the second aggregate: the state after point 25.  Both output windows are idle.
-/
import proofs.«104241_g40587440947829_cont_sun_m_1101_21_alg».proof.Proof.KI.BodyDefs
import proofs.«104241_g40587440947829_cont_sun_m_1101_21_alg».proof.Proof.KI.RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (c : Dev nD) in
/-- At the first phase-1 point the run's second aggregate is the state's: rows 0 .. 399 of the full resident copy are
    block 0 of the copy, and the features it multiplies by are the first normalisation's. -/
private theorem m2At_first (d : Vec F S10000x2048 .bf16) (k : ℕ) (hn : k + 1 < cfg0.N) (hk : k + 1 = 25)
    (ho : 400 * (k + 1 - 25) + 400 ≤ 10000) :
    k0_pay6 (getRows (hqAt m c d (min (k + 1) 25)) (400 * (k + 1 - 25)) ho) (B4 m c ⟨k + 1, hn⟩)
        (k0_pay5 (B5 m c ⟨k + 1, hn⟩) (deAt m c k (Nat.lt_of_succ_lt hn)) (m1At m c k (Nat.lt_of_succ_lt hn)))
        (B16 m c ⟨k + 1, hn⟩) (B17 m c ⟨k + 1, hn⟩) (m2At m c k (Nat.lt_of_succ_lt hn))
      = m2At m c (k + 1) hn := by
  obtain rfl : k = 24 := by omega
  rw [m2At_succ_in m c 24 hn (by omega)]
  have e : getRows (hqAt m c d (min (24 + 1) 25)) (400 * (24 + 1 - 25)) ho = hqBlk m c (24 + 1 - 25) (by have := N75; omega) :=
    getRows_hqAt m c d 0 (by have := N75; omega) (by omega) (by omega)
  rw [e]; rfl

variable (c : Dev nD) in
/-- The features the first normalisation stores are the features buffer's state after point 25. -/
private theorem mnAt_first (d : Vec F S2048x64 .bf16) (k : ℕ) (hn : k + 1 < cfg0.N) (hk : k + 1 = 25) :
    k0_pay5 (B5 m c ⟨k + 1, hn⟩) (deAt m c k (Nat.lt_of_succ_lt hn)) (m1At m c k (Nat.lt_of_succ_lt hn)) = mnAt m c d (k + 1) := by
  obtain rfl : k = 24 := by omega
  unfold mnAt; rw [if_neg (by omega), if_pos (by omega)]; rfl

set_option maxHeartbeats 4000000 in
theorem soundC (c : Dev nD) (k : ℕ) (hn : k + 1 < cfg0.N) (hk : k + 1 = 25) :
    bodyPre m c ⟨k + 1, hn⟩ ⊢ wp frame (wpE (defs₀ (F := F)) Variants.none c none) Set.univ (bodyAt0 ⟨k + 1, hn⟩) (fun _ => bodyPost m c ⟨k + 1, hn⟩) := by
  -- the point, and which branches it takes
  generalize ht : (⟨k + 1, hn⟩ : Fin cfg0.N) = t
  have htv : t.val = k + 1 := by rw [← ht]
  have h1 : ¬isFirst (grid0.coords t) := fun h => by have := (isFirst_iff t).mp h; omega
  have h2 : ¬inPhase0 (grid0.coords t) := fun h => by have := (inPhase0_iff t).mp h; omega
  have h3 : isNorm1 (grid0.coords t) := (isNorm1_iff t).mpr (by omega)
  have h4 : inPhase1 (grid0.coords t) := (inPhase1_iff t).mpr (by omega)
  have h5 : ¬isNorm2 (grid0.coords t) := fun h => by have := (isNorm2_iff t).mp h; omega
  have h6 : ¬inPhase2 (grid0.coords t) := fun h => by have := (inPhase2_iff t).mp h; omega
  have hoff : k0_off2 (grid0.coords t) = ![400 * (k + 1 - 25), 0] := by rw [off2_eq t (by omega) (by omega), htv]
  have ho : 400 * (k + 1 - 25) + 400 ≤ 10000 := by omega
  unfold bodyPre bodyPost bodyAt0
  simp only [before0_0, before0_1, before0_2, before0_3, before0_4, before0_5, before0_6, before0_7, before0_8, before0_9, before0_10, before0_11, before0_12, before0_13, before0_14, before0_15, before0_16, before0_17, before0_18]
  simp only [leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18]
  rw [leaves19_idle m c t (by omega) (by omega), leaves20_idle m c t (by omega)]
  rw [show (dats m 0 c).owesAt () t.succ = (dats m 0 c).owesAt () t.castSucc from rfl]
  subst ht
  rw [Phi_castSucc_succ, Phi_succ]
  unfold PhiPos
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  icases HΦ with ⟨⟨%dhq, %dmn, HS22, HS23, HS24, HS25, HS26⟩, Hg⟩
  iapply (runC c (grid0.coords ⟨k + 1, hn⟩) (ms0 ⟨k + 1, hn⟩) (hs0 ⟨k + 1, hn⟩) (ms1 ⟨k + 1, hn⟩) (hs1 ⟨k + 1, hn⟩) (ms2 ⟨k + 1, hn⟩) (hs2 ⟨k + 1, hn⟩) (ms3 ⟨k + 1, hn⟩) (hs3 ⟨k + 1, hn⟩) (ms4 ⟨k + 1, hn⟩) (hs4 ⟨k + 1, hn⟩) (ms5 ⟨k + 1, hn⟩) (hs5 ⟨k + 1, hn⟩) (ms6 ⟨k + 1, hn⟩) (hs6 ⟨k + 1, hn⟩) (ms7 ⟨k + 1, hn⟩) (hs7 ⟨k + 1, hn⟩) (ms8 ⟨k + 1, hn⟩) (hs8 ⟨k + 1, hn⟩) (ms9 ⟨k + 1, hn⟩) (hs9 ⟨k + 1, hn⟩) (ms10 ⟨k + 1, hn⟩) (hs10 ⟨k + 1, hn⟩) (ms11 ⟨k + 1, hn⟩) (hs11 ⟨k + 1, hn⟩) (ms12 ⟨k + 1, hn⟩) (hs12 ⟨k + 1, hn⟩) (ms13 ⟨k + 1, hn⟩) (hs13 ⟨k + 1, hn⟩) (ms14 ⟨k + 1, hn⟩) (hs14 ⟨k + 1, hn⟩) (ms15 ⟨k + 1, hn⟩) (hs15 ⟨k + 1, hn⟩) (ms16 ⟨k + 1, hn⟩) (hs16 ⟨k + 1, hn⟩) (ms17 ⟨k + 1, hn⟩) (hs17 ⟨k + 1, hn⟩) (ms18 ⟨k + 1, hn⟩) (hs18 ⟨k + 1, hn⟩) (ms19 ⟨k + 1, hn⟩) (hs19 ⟨k + 1, hn⟩) (ms20 ⟨k + 1, hn⟩) (hs20 ⟨k + 1, hn⟩) scM22 (Memref.isWhole_whole _) scM23 (Memref.isWhole_whole _) scM24 (Memref.isWhole_whole _) scM25 (Memref.isWhole_whole _) scM26 (Memref.isWhole_whole _) h1 h2 h3 h4 h5 h6 (400 * (k + 1 - 25)) hoff ho
    _ _ _ _ _ _ _ _ _ Set.univ _)
  isplitl [H3]; · iexact H3
  isplitl [H4]; · iexact H4
  isplitl [H15]; · iexact H15
  isplitl [H16]; · iexact H16
  isplitl [HS22]; · iexact HS22
  isplitl [HS23]; · iexact HS23
  isplitl [HS24]; · iexact HS24
  isplitl [HS25]; · iexact HS25
  isplitl [HS26]; · iexact HS26
  iintro ⟨H3, H4, H15, H16, HS22, HS23, HS24, HS25, HS26⟩
  -- the invariant after this point
  isplitl [HS22 HS23 HS24 HS25 HS26 Hg]
  · isplitr [Hg]
    · iexists dhq; iexists dmn
      isplitl [HS22]
      · iapply (owns_congr c scM22 (congrArg (hqAt m c dhq) (show min (k + 1) 25 = min (k + 1 + 1) 25 by omega)))
        iexact HS22
      isplitl [HS23]
      · iapply (owns_congr c scM23 (deAt_succ_ge m c k hn (by omega)).symm)
        iexact HS23
      isplitl [HS24]
      · iapply (owns_congr c scM24 (m1At_succ_ge m c k hn (by omega)).symm)
        iexact HS24
      isplitl [HS25]
      · iapply (owns_congr c scM25 (m2At_first m c dhq k hn hk ho))
        iexact HS25
      · iapply (owns_congr c scM26 (mnAt_first m c dmn k hn hk))
        iexact HS26
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  -- both output windows are idle: handed back as found
  isplitl [H19]; · iexists _; iexact H19
  iexists _; iexact H20

end Cert.KernelIdeal.Gen

end
-- ==== Proof.KI.RunD.lean ====
/-
  The body at a phase-1 point other than the first (25 < t < 50), run symbolically on whole memrefs.

  It reads rows o .. o+399 of the resident copy and the normalised hyperedge features, computes that block's layer
  output and second-layer input, and adds the block's contribution to the second aggregate.
-/
import proofs.«104241_g40587440947829_cont_sun_m_1101_21_alg».proof.Proof.KI.Conds
import proofs.«104241_g40587440947829_cont_sun_m_1101_21_alg».proof.Proof.KI.Rows

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core, the grid point, and the body's twenty-six memrefs: the nineteen input windows' staging buffers, the two
-- output windows' (arg20 the gate's, arg21 the logits'), and the five scratch buffers (arg22 the resident copy of H,
-- arg23 the hyperedge degrees, arg24 and arg25 the two aggregates, arg26 the normalised hyperedge features)
variable (c : Dev nD) (i : grid0.Coords)
  (arg1 : Memref sig .tc .vmem S400x2048 .f32) (harg1 : arg1.IsWhole)
  (arg2 : Memref sig .tc .vmem S400x128 .f32) (harg2 : arg2.IsWhole)
  (arg3 : Memref sig .tc .vmem S400x16 .f32) (harg3 : arg3.IsWhole)
  (arg4 : Memref sig .tc .vmem S2048x1 .bf16) (harg4 : arg4.IsWhole)
  (arg5 : Memref sig .tc .vmem S1x2048 .f32) (harg5 : arg5.IsWhole)
  (arg6 : Memref sig .tc .vmem S128x32 .f32) (harg6 : arg6.IsWhole)
  (arg7 : Memref sig .tc .vmem S1x32 .f32) (harg7 : arg7.IsWhole)
  (arg8 : Memref sig .tc .vmem S16x32 .f32) (harg8 : arg8.IsWhole)
  (arg9 : Memref sig .tc .vmem S1x32 .f32) (harg9 : arg9.IsWhole)
  (arg10 : Memref sig .tc .vmem S64x64 .f32) (harg10 : arg10.IsWhole)
  (arg11 : Memref sig .tc .vmem S1x64 .f32) (harg11 : arg11.IsWhole)
  (arg12 : Memref sig .tc .vmem S64x32 .f32) (harg12 : arg12.IsWhole)
  (arg13 : Memref sig .tc .vmem S1x32 .f32) (harg13 : arg13.IsWhole)
  (arg14 : Memref sig .tc .vmem S32x64 .f32) (harg14 : arg14.IsWhole)
  (arg15 : Memref sig .tc .vmem S1x64 .f32) (harg15 : arg15.IsWhole)
  (arg16 : Memref sig .tc .vmem S64x64 .f32) (harg16 : arg16.IsWhole)
  (arg17 : Memref sig .tc .vmem S1x64 .f32) (harg17 : arg17.IsWhole)
  (arg18 : Memref sig .tc .vmem S64x2 .f32) (harg18 : arg18.IsWhole)
  (arg19 : Memref sig .tc .vmem S1x2 .f32) (harg19 : arg19.IsWhole)
  (arg20 : Memref sig .tc .vmem S400x32 .f32) (harg20 : arg20.IsWhole)
  (arg21 : Memref sig .tc .vmem S400x2 .f32) (harg21 : arg21.IsWhole)
  (arg22 : Memref sig .tc .vmem S10000x2048 .bf16) (harg22 : arg22.IsWhole)
  (arg23 : Memref sig .tc .vmem S1x2048 .f32) (harg23 : arg23.IsWhole)
  (arg24 : Memref sig .tc .vmem S64x2048 .f32) (harg24 : arg24.IsWhole)
  (arg25 : Memref sig .tc .vmem S64x2048 .f32) (harg25 : arg25.IsWhole)
  (arg26 : Memref sig .tc .vmem S2048x64 .bf16) (harg26 : arg26.IsWhole)

set_option maxHeartbeats 4000000 in
theorem runD (h1 : ¬isFirst i) (h2 : ¬inPhase0 i) (h3 : ¬isNorm1 i) (h4 : inPhase1 i) (h5 : ¬isNorm2 i) (h6 : ¬inPhase2 i)
    (o : ℕ) (hoff : k0_off2 i = ![o, 0]) (ho : o + 400 ≤ 10000)
    (x4 : Vec F S2048x1 .bf16) (x16 : Vec F S64x64 .f32) (x17 : Vec F S1x64 .f32) (xs22 : Vec F S10000x2048 .bf16) (xs25 : Vec F S64x2048 .f32) (xs26 : Vec F S2048x64 .bf16)
    (E : Set ℕ) (K : PUnit → sProp 𝕄) :
    iprop(owns (c : Thread nD τ) arg4 fullShare x4
      ∗ owns (c : Thread nD τ) arg16 fullShare x16
      ∗ owns (c : Thread nD τ) arg17 fullShare x17
      ∗ owns (c : Thread nD τ) arg22 fullShare xs22
      ∗ owns (c : Thread nD τ) arg25 fullShare xs25
      ∗ owns (c : Thread nD τ) arg26 fullShare xs26
      ∗ (iprop(owns (c : Thread nD τ) arg4 fullShare x4
          ∗ owns (c : Thread nD τ) arg16 fullShare x16
          ∗ owns (c : Thread nD τ) arg17 fullShare x17
          ∗ owns (c : Thread nD τ) arg22 fullShare xs22
          ∗ owns (c : Thread nD τ) arg25 fullShare (k0_pay6 (getRows xs22 o ho) x4 xs26 x16 x17 xs25)
          ∗ owns (c : Thread nD τ) arg26 fullShare xs26) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__kernel_eq_skeleton]; unfold cc0__kernel_skel
  unfold owns
  iintro ⟨⟨%f4, %hf4, H4⟩, ⟨%f16, %hf16, H16⟩, ⟨%f17, %hf17, H17⟩, ⟨%f22, %hf22, H22⟩, ⟨%f25, %hf25, H25⟩, ⟨%f26, %hf26, H26⟩, Hk⟩
  obtain rfl := harg4.eq_unread hf4; obtain rfl := harg16.eq_unread hf16; obtain rfl := harg17.eq_unread hf17
  obtain rfl := harg22.eq_unread hf22; obtain rfl := harg25.eq_unread hf25; obtain rfl := harg26.eq_unread hf26
  sl_exec (disch := first | exact h1 | exact h2 | exact h3 | exact h4 | exact h5 | exact h6)
  sl_step
  iapply Hk
  -- the small arrays and the resident copy are handed back as they were
  isplitl [H4]; · iexists _; isplitr; · ipureintro; exact harg4.read_unread _
                  iexact H4
  isplitl [H16]; · iexists _; isplitr; · ipureintro; exact harg16.read_unread _
                   iexact H16
  isplitl [H17]; · iexists _; isplitr; · ipureintro; exact harg17.read_unread _
                   iexact H17
  isplitl [H22]; · iexists _; isplitr; · ipureintro; exact harg22.read_unread _
                   iexact H22
  -- the second aggregate: one store through the whole-buffer rectangle
  isplitl [H25]
  · iexists _; isplitr
    swap; · iexact H25
    ipureintro
    simp only [readAt_whole _ harg4 _ zero2, readAt_whole _ harg16 _ zero2, readAt_whole _ harg17 _ zero2,
      readAt_whole _ harg25 _ zero2, readAt_whole _ harg26 _ zero2, readAt_get arg22 harg22 xs22 _ _ o hoff ho]
    exact read_whole _ _ zero2 _ _
  -- the normalised hyperedge features are handed back as they were
  · iexists _; isplitr; · ipureintro; exact harg26.read_unread _
    iexact H26

end Cert.KernelIdeal.Gen

end
-- ==== Proof.KI.SoundD.lean ====
/-
  The body obligation at a phase-1 point other than the first (25 < t < 50).

  The run adds block t − 25's contribution to the second aggregate; everything else passes through; both output
  windows are idle.
-/
import proofs.«104241_g40587440947829_cont_sun_m_1101_21_alg».proof.Proof.KI.BodyDefs
import proofs.«104241_g40587440947829_cont_sun_m_1101_21_alg».proof.Proof.KI.RunD

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
theorem soundD (c : Dev nD) (k : ℕ) (hn : k + 1 < cfg0.N) (hk : 25 < k + 1) (hk' : k + 1 < 50) :
    bodyPre m c ⟨k + 1, hn⟩ ⊢ wp frame (wpE (defs₀ (F := F)) Variants.none c none) Set.univ (bodyAt0 ⟨k + 1, hn⟩) (fun _ => bodyPost m c ⟨k + 1, hn⟩) := by
  -- the point, and which branches it takes
  have hN : cfg0.N = 75 := N75
  generalize ht : (⟨k + 1, hn⟩ : Fin cfg0.N) = t
  have htv : t.val = k + 1 := by rw [← ht]
  have h1 : ¬isFirst (grid0.coords t) := fun h => by have := (isFirst_iff t).mp h; omega
  have h2 : ¬inPhase0 (grid0.coords t) := fun h => by have := (inPhase0_iff t).mp h; omega
  have h3 : ¬isNorm1 (grid0.coords t) := fun h => by have := (isNorm1_iff t).mp h; omega
  have h4 : inPhase1 (grid0.coords t) := (inPhase1_iff t).mpr (by omega)
  have h5 : ¬isNorm2 (grid0.coords t) := fun h => by have := (isNorm2_iff t).mp h; omega
  have h6 : ¬inPhase2 (grid0.coords t) := fun h => by have := (inPhase2_iff t).mp h; omega
  have hoff : k0_off2 (grid0.coords t) = ![400 * (k + 1 - 25), 0] := by rw [off2_eq t (by omega) (by omega), htv]
  have ho : 400 * (k + 1 - 25) + 400 ≤ 10000 := by omega
  unfold bodyPre bodyPost bodyAt0
  simp only [before0_0, before0_1, before0_2, before0_3, before0_4, before0_5, before0_6, before0_7, before0_8, before0_9, before0_10, before0_11, before0_12, before0_13, before0_14, before0_15, before0_16, before0_17, before0_18]
  simp only [leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18]
  rw [leaves19_idle m c t (by omega) (by omega), leaves20_idle m c t (by omega)]
  rw [show (dats m 0 c).owesAt () t.succ = (dats m 0 c).owesAt () t.castSucc from rfl]
  subst ht
  rw [Phi_castSucc_succ, Phi_succ]
  unfold PhiPos
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  icases HΦ with ⟨⟨%dhq, %dmn, HS22, HS23, HS24, HS25, HS26⟩, Hg⟩
  iapply (runD c (grid0.coords ⟨k + 1, hn⟩) (ms0 ⟨k + 1, hn⟩) (hs0 ⟨k + 1, hn⟩) (ms1 ⟨k + 1, hn⟩) (hs1 ⟨k + 1, hn⟩) (ms2 ⟨k + 1, hn⟩) (hs2 ⟨k + 1, hn⟩) (ms3 ⟨k + 1, hn⟩) (hs3 ⟨k + 1, hn⟩) (ms4 ⟨k + 1, hn⟩) (hs4 ⟨k + 1, hn⟩) (ms5 ⟨k + 1, hn⟩) (hs5 ⟨k + 1, hn⟩) (ms6 ⟨k + 1, hn⟩) (hs6 ⟨k + 1, hn⟩) (ms7 ⟨k + 1, hn⟩) (hs7 ⟨k + 1, hn⟩) (ms8 ⟨k + 1, hn⟩) (hs8 ⟨k + 1, hn⟩) (ms9 ⟨k + 1, hn⟩) (hs9 ⟨k + 1, hn⟩) (ms10 ⟨k + 1, hn⟩) (hs10 ⟨k + 1, hn⟩) (ms11 ⟨k + 1, hn⟩) (hs11 ⟨k + 1, hn⟩) (ms12 ⟨k + 1, hn⟩) (hs12 ⟨k + 1, hn⟩) (ms13 ⟨k + 1, hn⟩) (hs13 ⟨k + 1, hn⟩) (ms14 ⟨k + 1, hn⟩) (hs14 ⟨k + 1, hn⟩) (ms15 ⟨k + 1, hn⟩) (hs15 ⟨k + 1, hn⟩) (ms16 ⟨k + 1, hn⟩) (hs16 ⟨k + 1, hn⟩) (ms17 ⟨k + 1, hn⟩) (hs17 ⟨k + 1, hn⟩) (ms18 ⟨k + 1, hn⟩) (hs18 ⟨k + 1, hn⟩) (ms19 ⟨k + 1, hn⟩) (hs19 ⟨k + 1, hn⟩) (ms20 ⟨k + 1, hn⟩) (hs20 ⟨k + 1, hn⟩) scM22 (Memref.isWhole_whole _) scM23 (Memref.isWhole_whole _) scM24 (Memref.isWhole_whole _) scM25 (Memref.isWhole_whole _) scM26 (Memref.isWhole_whole _) h1 h2 h3 h4 h5 h6 (400 * (k + 1 - 25)) hoff ho
    _ _ _ _ _ _ Set.univ _)
  isplitl [H3]; · iexact H3
  isplitl [H15]; · iexact H15
  isplitl [H16]; · iexact H16
  isplitl [HS22]; · iexact HS22
  isplitl [HS25]; · iexact HS25
  isplitl [HS26]; · iexact HS26
  iintro ⟨H3, H15, H16, HS22, HS25, HS26⟩
  -- the invariant after this point
  isplitl [HS22 HS23 HS24 HS25 HS26 Hg]
  · isplitr [Hg]
    · iexists dhq; iexists dmn
      -- the resident copy is complete and stays
      isplitl [HS22]
      · iapply (owns_congr c scM22 (show hqAt m c dhq (min (k + 1) 25) = hqAt m c dhq (min (k + 1 + 1) 25) from by
          rw [Nat.min_eq_right (show 25 ≤ k + 1 by omega), Nat.min_eq_right (show 25 ≤ k + 1 + 1 by omega)]))
        iexact HS22
      isplitl [HS23]
      · iapply (owns_congr c scM23 (deAt_succ_ge m c k hn (by omega)).symm)
        iexact HS23
      isplitl [HS24]
      · iapply (owns_congr c scM24 (m1At_succ_ge m c k hn (by omega)).symm)
        iexact HS24
      -- the second aggregate: one recursion step, on block k + 1 − 25 of the copy and the first normalisation's features
      isplitl [HS25]
      · iapply (owns_congr c scM25 (show k0_pay6 (getRows (hqAt m c dhq (min (k + 1) 25)) (400 * (k + 1 - 25)) ho) (B4 m c ⟨k + 1, hn⟩) (mnAt m c dmn k)
            (B16 m c ⟨k + 1, hn⟩) (B17 m c ⟨k + 1, hn⟩) (m2At m c k (Nat.lt_of_succ_lt hn)) = m2At m c (k + 1) hn from by
          have e1 : getRows (hqAt m c dhq (min (k + 1) 25)) (400 * (k + 1 - 25)) ho = hqBlk m c (k + 1 - 25) (by omega) := by
            rw [Nat.min_eq_right (show 25 ≤ k + 1 by omega)]; exact getRows_hqAt m c dhq (k + 1 - 25) _ (by omega) ho
          have e2 : mnAt m c dmn k = mn1 m c := by
            unfold mnAt; rw [if_neg (show ¬ k < 25 by omega), if_pos (show k < 50 by omega)]
          rw [m2At_succ_in m c k hn ⟨by omega, hk'⟩, e1, e2]))
        iexact HS25
      · iapply (owns_congr c scM26 (show mnAt m c dmn k = mnAt m c dmn (k + 1) from by
          unfold mnAt; rw [if_neg (show ¬ k < 25 by omega), if_pos (show k < 50 by omega), if_neg (show ¬ k + 1 < 25 by omega), if_pos (show k + 1 < 50 by omega)]))
        iexact HS26
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  -- both output windows are idle: handed back as found
  isplitl [H19]; · iexists _; iexact H19
  iexists _; iexact H20

end Cert.KernelIdeal.Gen

end
-- ==== Proof.KI.RunE.lean ====
/-
  The body at the first phase-2 point (t = 50), run symbolically on whole memrefs.

  It first turns the second aggregate into the normalised hyperedge features, then does what every phase-2 point
  does: reads rows o .. o+399 of the resident copy, computes that block's layer output and stores its logits block.
-/
import proofs.«104241_g40587440947829_cont_sun_m_1101_21_alg».proof.Proof.KI.Conds
import proofs.«104241_g40587440947829_cont_sun_m_1101_21_alg».proof.Proof.KI.Rows

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core, the grid point, and the body's twenty-six memrefs: the nineteen input windows' staging buffers, the two
-- output windows' (arg20 the gate's, arg21 the logits'), and the five scratch buffers (arg22 the resident copy of H,
-- arg23 the hyperedge degrees, arg24 and arg25 the two aggregates, arg26 the normalised hyperedge features)
variable (c : Dev nD) (i : grid0.Coords)
  (arg1 : Memref sig .tc .vmem S400x2048 .f32) (harg1 : arg1.IsWhole)
  (arg2 : Memref sig .tc .vmem S400x128 .f32) (harg2 : arg2.IsWhole)
  (arg3 : Memref sig .tc .vmem S400x16 .f32) (harg3 : arg3.IsWhole)
  (arg4 : Memref sig .tc .vmem S2048x1 .bf16) (harg4 : arg4.IsWhole)
  (arg5 : Memref sig .tc .vmem S1x2048 .f32) (harg5 : arg5.IsWhole)
  (arg6 : Memref sig .tc .vmem S128x32 .f32) (harg6 : arg6.IsWhole)
  (arg7 : Memref sig .tc .vmem S1x32 .f32) (harg7 : arg7.IsWhole)
  (arg8 : Memref sig .tc .vmem S16x32 .f32) (harg8 : arg8.IsWhole)
  (arg9 : Memref sig .tc .vmem S1x32 .f32) (harg9 : arg9.IsWhole)
  (arg10 : Memref sig .tc .vmem S64x64 .f32) (harg10 : arg10.IsWhole)
  (arg11 : Memref sig .tc .vmem S1x64 .f32) (harg11 : arg11.IsWhole)
  (arg12 : Memref sig .tc .vmem S64x32 .f32) (harg12 : arg12.IsWhole)
  (arg13 : Memref sig .tc .vmem S1x32 .f32) (harg13 : arg13.IsWhole)
  (arg14 : Memref sig .tc .vmem S32x64 .f32) (harg14 : arg14.IsWhole)
  (arg15 : Memref sig .tc .vmem S1x64 .f32) (harg15 : arg15.IsWhole)
  (arg16 : Memref sig .tc .vmem S64x64 .f32) (harg16 : arg16.IsWhole)
  (arg17 : Memref sig .tc .vmem S1x64 .f32) (harg17 : arg17.IsWhole)
  (arg18 : Memref sig .tc .vmem S64x2 .f32) (harg18 : arg18.IsWhole)
  (arg19 : Memref sig .tc .vmem S1x2 .f32) (harg19 : arg19.IsWhole)
  (arg20 : Memref sig .tc .vmem S400x32 .f32) (harg20 : arg20.IsWhole)
  (arg21 : Memref sig .tc .vmem S400x2 .f32) (harg21 : arg21.IsWhole)
  (arg22 : Memref sig .tc .vmem S10000x2048 .bf16) (harg22 : arg22.IsWhole)
  (arg23 : Memref sig .tc .vmem S1x2048 .f32) (harg23 : arg23.IsWhole)
  (arg24 : Memref sig .tc .vmem S64x2048 .f32) (harg24 : arg24.IsWhole)
  (arg25 : Memref sig .tc .vmem S64x2048 .f32) (harg25 : arg25.IsWhole)
  (arg26 : Memref sig .tc .vmem S2048x64 .bf16) (harg26 : arg26.IsWhole)

set_option maxHeartbeats 4000000 in
theorem runE (h1 : ¬isFirst i) (h2 : ¬inPhase0 i) (h3 : ¬isNorm1 i) (h4 : ¬inPhase1 i) (h5 : isNorm2 i) (h6 : inPhase2 i)
    (o : ℕ) (hoff : k0_off3 i = ![o, 0]) (ho : o + 400 ≤ 10000)
    (x4 : Vec F S2048x1 .bf16) (x5 : Vec F S1x2048 .f32) (x18 : Vec F S64x2 .f32) (x19 : Vec F S1x2 .f32) (xo21 : Vec F S400x2 .f32) (xs22 : Vec F S10000x2048 .bf16) (xs23 : Vec F S1x2048 .f32) (xs25 : Vec F S64x2048 .f32) (xs26 : Vec F S2048x64 .bf16)
    (E : Set ℕ) (K : PUnit → sProp 𝕄) :
    iprop(owns (c : Thread nD τ) arg4 fullShare x4
      ∗ owns (c : Thread nD τ) arg5 fullShare x5
      ∗ owns (c : Thread nD τ) arg18 fullShare x18
      ∗ owns (c : Thread nD τ) arg19 fullShare x19
      ∗ owns (c : Thread nD τ) arg21 fullShare xo21
      ∗ owns (c : Thread nD τ) arg22 fullShare xs22
      ∗ owns (c : Thread nD τ) arg23 fullShare xs23
      ∗ owns (c : Thread nD τ) arg25 fullShare xs25
      ∗ owns (c : Thread nD τ) arg26 fullShare xs26
      ∗ (iprop(owns (c : Thread nD τ) arg4 fullShare x4
          ∗ owns (c : Thread nD τ) arg5 fullShare x5
          ∗ owns (c : Thread nD τ) arg18 fullShare x18
          ∗ owns (c : Thread nD τ) arg19 fullShare x19
          ∗ owns (c : Thread nD τ) arg21 fullShare (k0_pay8 (getRows xs22 o ho) x4 (k0_pay7 x5 xs23 xs25) x18 x19)
          ∗ owns (c : Thread nD τ) arg22 fullShare xs22
          ∗ owns (c : Thread nD τ) arg23 fullShare xs23
          ∗ owns (c : Thread nD τ) arg25 fullShare xs25
          ∗ owns (c : Thread nD τ) arg26 fullShare (k0_pay7 x5 xs23 xs25)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__kernel_eq_skeleton]; unfold cc0__kernel_skel
  unfold owns
  iintro ⟨⟨%f4, %hf4, H4⟩, ⟨%f5, %hf5, H5⟩, ⟨%f18, %hf18, H18⟩, ⟨%f19, %hf19, H19⟩, ⟨%f21, %hf21, H21⟩, ⟨%f22, %hf22, H22⟩, ⟨%f23, %hf23, H23⟩, ⟨%f25, %hf25, H25⟩, ⟨%f26, %hf26, H26⟩, Hk⟩
  obtain rfl := harg4.eq_unread hf4; obtain rfl := harg5.eq_unread hf5; obtain rfl := harg18.eq_unread hf18; obtain rfl := harg19.eq_unread hf19
  obtain rfl := harg21.eq_unread hf21; obtain rfl := harg22.eq_unread hf22; obtain rfl := harg23.eq_unread hf23; obtain rfl := harg25.eq_unread hf25
  obtain rfl := harg26.eq_unread hf26
  sl_exec (disch := first | exact h1 | exact h2 | exact h3 | exact h4 | exact h5 | exact h6)
  sl_step
  iapply Hk
  -- the small arrays are handed back as they were
  isplitl [H4]; · iexists _; isplitr; · ipureintro; exact harg4.read_unread _
                  iexact H4
  isplitl [H5]; · iexists _; isplitr; · ipureintro; exact harg5.read_unread _
                  iexact H5
  isplitl [H18]; · iexists _; isplitr; · ipureintro; exact harg18.read_unread _
                   iexact H18
  isplitl [H19]; · iexists _; isplitr; · ipureintro; exact harg19.read_unread _
                   iexact H19
  -- the logits block: one store through the whole-buffer rectangle, computed from the features just stored
  isplitl [H21]
  · iexists _; isplitr
    swap; · iexact H21
    ipureintro
    sl_unfold_run_names
    simp only [readAt_whole _ harg4 _ zero2, readAt_whole _ harg5 _ zero2, readAt_whole _ harg18 _ zero2, readAt_whole _ harg19 _ zero2,
      readAt_whole _ harg23 _ zero2, readAt_whole _ harg25 _ zero2, readAt_get arg22 harg22 xs22 _ _ o hoff ho,
      View.readCov_unit_zero (S := S2048x64) _ zero2]
    exact read_whole _ _ zero2 _ _
  -- the resident copy, the hyperedge degrees and the second aggregate are handed back as they were
  isplitl [H22]; · iexists _; isplitr; · ipureintro; exact harg22.read_unread _
                   iexact H22
  isplitl [H23]; · iexists _; isplitr; · ipureintro; exact harg23.read_unread _
                   iexact H23
  isplitl [H25]; · iexists _; isplitr; · ipureintro; exact harg25.read_unread _
                   iexact H25
  -- the normalised hyperedge features: one store through the whole-buffer rectangle
  · iexists _; isplitr
    swap; · iexact H26
    ipureintro
    sl_unfold_run_names
    simp only [readAt_whole _ harg5 _ zero2, readAt_whole _ harg23 _ zero2, readAt_whole _ harg25 _ zero2]
    exact read_whole _ _ zero2 _ _

end Cert.KernelIdeal.Gen

end
-- ==== Proof.KI.SoundE.lean ====
/-
  The body obligation at the first phase-2 point (t = 50).

  The run normalises the second aggregate into the hyperedge features and stores block 0's logits; the gate's window
  is idle.
-/
import proofs.«104241_g40587440947829_cont_sun_m_1101_21_alg».proof.Proof.KI.BodyDefs
import proofs.«104241_g40587440947829_cont_sun_m_1101_21_alg».proof.Proof.KI.RunE

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At point 50 the features the normalisation stores, from the degrees and the second aggregate after point 49, are the
    second normalisation's. -/
private theorem mn2_eq (c : Dev nD) (k : ℕ) (hn : k + 1 < cfg0.N) (hk : k + 1 = 50) :
    k0_pay7 (B5 m c ⟨k + 1, hn⟩) (deAt m c k (Nat.lt_of_succ_lt hn)) (m2At m c k (Nat.lt_of_succ_lt hn)) = mn2 m c := by
  obtain rfl : k = 49 := by omega
  rfl

set_option maxHeartbeats 4000000 in
theorem soundE (c : Dev nD) (k : ℕ) (hn : k + 1 < cfg0.N) (hk : k + 1 = 50) :
    bodyPre m c ⟨k + 1, hn⟩ ⊢ wp frame (wpE (defs₀ (F := F)) Variants.none c none) Set.univ (bodyAt0 ⟨k + 1, hn⟩) (fun _ => bodyPost m c ⟨k + 1, hn⟩) := by
  -- the point is 50, and which branches it takes
  have hN : cfg0.N = 75 := N75
  generalize ht : (⟨k + 1, hn⟩ : Fin cfg0.N) = t
  have htv : t.val = k + 1 := by rw [← ht]
  have h1 : ¬isFirst (grid0.coords t) := fun h => by have := (isFirst_iff t).mp h; omega
  have h2 : ¬inPhase0 (grid0.coords t) := fun h => by have := (inPhase0_iff t).mp h; omega
  have h3 : ¬isNorm1 (grid0.coords t) := fun h => by have := (isNorm1_iff t).mp h; omega
  have h4 : ¬inPhase1 (grid0.coords t) := fun h => by have := (inPhase1_iff t).mp h; omega
  have h5 : isNorm2 (grid0.coords t) := (isNorm2_iff t).mpr (by omega)
  have h6 : inPhase2 (grid0.coords t) := (inPhase2_iff t).mpr (by omega)
  have hoff : k0_off3 (grid0.coords t) = ![400 * (k + 1 - 50), 0] := by rw [off3_eq t (by omega), htv]
  have ho : 400 * (k + 1 - 50) + 400 ≤ 10000 := by omega
  unfold bodyPre bodyPost bodyAt0
  simp only [before0_0, before0_1, before0_2, before0_3, before0_4, before0_5, before0_6, before0_7, before0_8, before0_9, before0_10, before0_11, before0_12, before0_13, before0_14, before0_15, before0_16, before0_17, before0_18]
  simp only [leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18]
  rw [leaves19_idle m c t (by omega) (by omega), leaves20_live m c t (by omega)]
  rw [show (dats m 0 c).owesAt () t.succ = (dats m 0 c).owesAt () t.castSucc from rfl]
  subst ht
  rw [Phi_castSucc_succ, Phi_succ]
  unfold PhiPos
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  icases HΦ with ⟨⟨%dhq, %dmn, HS22, HS23, HS24, HS25, HS26⟩, Hg⟩
  iapply (runE c (grid0.coords ⟨k + 1, hn⟩) (ms0 ⟨k + 1, hn⟩) (hs0 ⟨k + 1, hn⟩) (ms1 ⟨k + 1, hn⟩) (hs1 ⟨k + 1, hn⟩) (ms2 ⟨k + 1, hn⟩) (hs2 ⟨k + 1, hn⟩) (ms3 ⟨k + 1, hn⟩) (hs3 ⟨k + 1, hn⟩) (ms4 ⟨k + 1, hn⟩) (hs4 ⟨k + 1, hn⟩) (ms5 ⟨k + 1, hn⟩) (hs5 ⟨k + 1, hn⟩) (ms6 ⟨k + 1, hn⟩) (hs6 ⟨k + 1, hn⟩) (ms7 ⟨k + 1, hn⟩) (hs7 ⟨k + 1, hn⟩) (ms8 ⟨k + 1, hn⟩) (hs8 ⟨k + 1, hn⟩) (ms9 ⟨k + 1, hn⟩) (hs9 ⟨k + 1, hn⟩) (ms10 ⟨k + 1, hn⟩) (hs10 ⟨k + 1, hn⟩) (ms11 ⟨k + 1, hn⟩) (hs11 ⟨k + 1, hn⟩) (ms12 ⟨k + 1, hn⟩) (hs12 ⟨k + 1, hn⟩) (ms13 ⟨k + 1, hn⟩) (hs13 ⟨k + 1, hn⟩) (ms14 ⟨k + 1, hn⟩) (hs14 ⟨k + 1, hn⟩) (ms15 ⟨k + 1, hn⟩) (hs15 ⟨k + 1, hn⟩) (ms16 ⟨k + 1, hn⟩) (hs16 ⟨k + 1, hn⟩) (ms17 ⟨k + 1, hn⟩) (hs17 ⟨k + 1, hn⟩) (ms18 ⟨k + 1, hn⟩) (hs18 ⟨k + 1, hn⟩) (ms19 ⟨k + 1, hn⟩) (hs19 ⟨k + 1, hn⟩) (ms20 ⟨k + 1, hn⟩) (hs20 ⟨k + 1, hn⟩) scM22 (Memref.isWhole_whole _) scM23 (Memref.isWhole_whole _) scM24 (Memref.isWhole_whole _) scM25 (Memref.isWhole_whole _) scM26 (Memref.isWhole_whole _) h1 h2 h3 h4 h5 h6 (400 * (k + 1 - 50)) hoff ho
    _ _ _ _ _ _ _ _ _ Set.univ _)
  isplitl [H3]; · iexact H3
  isplitl [H4]; · iexact H4
  isplitl [H17]; · iexact H17
  isplitl [H18]; · iexact H18
  isplitl [H20]; · iexact H20
  isplitl [HS22]; · iexact HS22
  isplitl [HS23]; · iexact HS23
  isplitl [HS25]; · iexact HS25
  isplitl [HS26]; · iexact HS26
  iintro ⟨H3, H4, H17, H18, H20, HS22, HS23, HS25, HS26⟩
  -- the invariant after this point
  isplitl [HS22 HS23 HS24 HS25 HS26 Hg]
  · isplitr [Hg]
    · iexists dhq; iexists dmn
      isplitl [HS22]
      · iapply (owns_congr c scM22 (show hqAt m c dhq (min (k + 1) 25) = hqAt m c dhq (min (k + 1 + 1) 25) from by
          rw [Nat.min_eq_right (show 25 ≤ k + 1 by omega), Nat.min_eq_right (show 25 ≤ k + 1 + 1 by omega)]))
        iexact HS22
      isplitl [HS23]
      · iapply (owns_congr c scM23 (deAt_succ_ge m c k hn (by omega)).symm)
        iexact HS23
      isplitl [HS24]
      · iapply (owns_congr c scM24 (m1At_succ_ge m c k hn (by omega)).symm)
        iexact HS24
      isplitl [HS25]
      · iapply (owns_congr c scM25 (m2At_succ_out m c k hn (by omega)).symm)
        iexact HS25
      -- the features just stored are the second normalisation's
      · iapply (owns_congr c scM26 (show k0_pay7 (B5 m c ⟨k + 1, hn⟩) (deAt m c k (Nat.lt_of_succ_lt hn)) (m2At m c k (Nat.lt_of_succ_lt hn)) = mnAt m c dmn (k + 1) from by
          unfold mnAt; rw [if_neg (show ¬ k + 1 < 25 by omega), if_neg (show ¬ k + 1 < 50 by omega)]; exact mn2_eq m c k hn hk))
        iexact HS26
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  -- the gate's window is idle: handed back as found
  isplitl [H19]; · iexists _; iexact H19
  -- the logits' window: block 0 of the copy against the features just stored
  iapply (owns_congr c (ms20 _) (show k0_pay8 (getRows (hqAt m c dhq (min (k + 1) 25)) (400 * (k + 1 - 50)) ho) (B4 m c ⟨k + 1, hn⟩)
      (k0_pay7 (B5 m c ⟨k + 1, hn⟩) (deAt m c k (Nat.lt_of_succ_lt hn)) (m2At m c k (Nat.lt_of_succ_lt hn))) (B18 m c ⟨k + 1, hn⟩) (B19 m c ⟨k + 1, hn⟩) = lBlk m c ⟨k + 1, hn⟩ from by
    have e1 : getRows (hqAt m c dhq (min (k + 1) 25)) (400 * (k + 1 - 50)) ho = hqBlk m c (k + 1 - 50) (by omega) := by
      rw [Nat.min_eq_right (show 25 ≤ k + 1 by omega)]; exact getRows_hqAt m c dhq (k + 1 - 50) _ (by omega) ho
    unfold lBlk; rw [e1, mn2_eq m c k hn hk]))
  iexact H20

end Cert.KernelIdeal.Gen

end
-- ==== Proof.KI.RunF.lean ====
/-
  The body at a phase-2 point other than the first (t > 50), run symbolically on whole memrefs.

  It reads rows o .. o+399 of the resident copy and the normalised hyperedge features, computes that block's layer
  output and stores its logits block.
-/
import proofs.«104241_g40587440947829_cont_sun_m_1101_21_alg».proof.Proof.KI.Conds
import proofs.«104241_g40587440947829_cont_sun_m_1101_21_alg».proof.Proof.KI.Rows

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core, the grid point, and the body's twenty-six memrefs: the nineteen input windows' staging buffers, the two
-- output windows' (arg20 the gate's, arg21 the logits'), and the five scratch buffers (arg22 the resident copy of H,
-- arg23 the hyperedge degrees, arg24 and arg25 the two aggregates, arg26 the normalised hyperedge features)
variable (c : Dev nD) (i : grid0.Coords)
  (arg1 : Memref sig .tc .vmem S400x2048 .f32) (harg1 : arg1.IsWhole)
  (arg2 : Memref sig .tc .vmem S400x128 .f32) (harg2 : arg2.IsWhole)
  (arg3 : Memref sig .tc .vmem S400x16 .f32) (harg3 : arg3.IsWhole)
  (arg4 : Memref sig .tc .vmem S2048x1 .bf16) (harg4 : arg4.IsWhole)
  (arg5 : Memref sig .tc .vmem S1x2048 .f32) (harg5 : arg5.IsWhole)
  (arg6 : Memref sig .tc .vmem S128x32 .f32) (harg6 : arg6.IsWhole)
  (arg7 : Memref sig .tc .vmem S1x32 .f32) (harg7 : arg7.IsWhole)
  (arg8 : Memref sig .tc .vmem S16x32 .f32) (harg8 : arg8.IsWhole)
  (arg9 : Memref sig .tc .vmem S1x32 .f32) (harg9 : arg9.IsWhole)
  (arg10 : Memref sig .tc .vmem S64x64 .f32) (harg10 : arg10.IsWhole)
  (arg11 : Memref sig .tc .vmem S1x64 .f32) (harg11 : arg11.IsWhole)
  (arg12 : Memref sig .tc .vmem S64x32 .f32) (harg12 : arg12.IsWhole)
  (arg13 : Memref sig .tc .vmem S1x32 .f32) (harg13 : arg13.IsWhole)
  (arg14 : Memref sig .tc .vmem S32x64 .f32) (harg14 : arg14.IsWhole)
  (arg15 : Memref sig .tc .vmem S1x64 .f32) (harg15 : arg15.IsWhole)
  (arg16 : Memref sig .tc .vmem S64x64 .f32) (harg16 : arg16.IsWhole)
  (arg17 : Memref sig .tc .vmem S1x64 .f32) (harg17 : arg17.IsWhole)
  (arg18 : Memref sig .tc .vmem S64x2 .f32) (harg18 : arg18.IsWhole)
  (arg19 : Memref sig .tc .vmem S1x2 .f32) (harg19 : arg19.IsWhole)
  (arg20 : Memref sig .tc .vmem S400x32 .f32) (harg20 : arg20.IsWhole)
  (arg21 : Memref sig .tc .vmem S400x2 .f32) (harg21 : arg21.IsWhole)
  (arg22 : Memref sig .tc .vmem S10000x2048 .bf16) (harg22 : arg22.IsWhole)
  (arg23 : Memref sig .tc .vmem S1x2048 .f32) (harg23 : arg23.IsWhole)
  (arg24 : Memref sig .tc .vmem S64x2048 .f32) (harg24 : arg24.IsWhole)
  (arg25 : Memref sig .tc .vmem S64x2048 .f32) (harg25 : arg25.IsWhole)
  (arg26 : Memref sig .tc .vmem S2048x64 .bf16) (harg26 : arg26.IsWhole)

set_option maxHeartbeats 4000000 in
theorem runF (h1 : ¬isFirst i) (h2 : ¬inPhase0 i) (h3 : ¬isNorm1 i) (h4 : ¬inPhase1 i) (h5 : ¬isNorm2 i) (h6 : inPhase2 i)
    (o : ℕ) (hoff : k0_off3 i = ![o, 0]) (ho : o + 400 ≤ 10000)
    (x4 : Vec F S2048x1 .bf16) (x18 : Vec F S64x2 .f32) (x19 : Vec F S1x2 .f32) (xo21 : Vec F S400x2 .f32) (xs22 : Vec F S10000x2048 .bf16) (xs26 : Vec F S2048x64 .bf16)
    (E : Set ℕ) (K : PUnit → sProp 𝕄) :
    iprop(owns (c : Thread nD τ) arg4 fullShare x4
      ∗ owns (c : Thread nD τ) arg18 fullShare x18
      ∗ owns (c : Thread nD τ) arg19 fullShare x19
      ∗ owns (c : Thread nD τ) arg21 fullShare xo21
      ∗ owns (c : Thread nD τ) arg22 fullShare xs22
      ∗ owns (c : Thread nD τ) arg26 fullShare xs26
      ∗ (iprop(owns (c : Thread nD τ) arg4 fullShare x4
          ∗ owns (c : Thread nD τ) arg18 fullShare x18
          ∗ owns (c : Thread nD τ) arg19 fullShare x19
          ∗ owns (c : Thread nD τ) arg21 fullShare (k0_pay8 (getRows xs22 o ho) x4 xs26 x18 x19)
          ∗ owns (c : Thread nD τ) arg22 fullShare xs22
          ∗ owns (c : Thread nD τ) arg26 fullShare xs26) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__kernel_eq_skeleton]; unfold cc0__kernel_skel
  unfold owns
  iintro ⟨⟨%f4, %hf4, H4⟩, ⟨%f18, %hf18, H18⟩, ⟨%f19, %hf19, H19⟩, ⟨%f21, %hf21, H21⟩, ⟨%f22, %hf22, H22⟩, ⟨%f26, %hf26, H26⟩, Hk⟩
  obtain rfl := harg4.eq_unread hf4; obtain rfl := harg18.eq_unread hf18; obtain rfl := harg19.eq_unread hf19
  obtain rfl := harg21.eq_unread hf21; obtain rfl := harg22.eq_unread hf22; obtain rfl := harg26.eq_unread hf26
  sl_exec (disch := first | exact h1 | exact h2 | exact h3 | exact h4 | exact h5 | exact h6)
  sl_step
  iapply Hk
  -- the small arrays are handed back as they were
  isplitl [H4]; · iexists _; isplitr; · ipureintro; exact harg4.read_unread _
                  iexact H4
  isplitl [H18]; · iexists _; isplitr; · ipureintro; exact harg18.read_unread _
                   iexact H18
  isplitl [H19]; · iexists _; isplitr; · ipureintro; exact harg19.read_unread _
                   iexact H19
  -- the logits block: one store through the whole-buffer rectangle
  isplitl [H21]
  · iexists _; isplitr
    swap; · iexact H21
    ipureintro
    simp only [readAt_whole _ harg4 _ zero2, readAt_whole _ harg18 _ zero2, readAt_whole _ harg19 _ zero2,
      readAt_whole _ harg26 _ zero2, readAt_get arg22 harg22 xs22 _ _ o hoff ho]
    exact read_whole _ _ zero2 _ _
  -- the resident copy and the normalised hyperedge features are handed back as they were
  isplitl [H22]; · iexists _; isplitr; · ipureintro; exact harg22.read_unread _
                   iexact H22
  · iexists _; isplitr; · ipureintro; exact harg26.read_unread _
    iexact H26

end Cert.KernelIdeal.Gen

end
-- ==== Proof.KI.SoundF.lean ====
/-
  The body obligation at a phase-2 point other than the first (t > 50).

  The run stores block t − 50's logits.  The gate's window is idle and is handed back as found, except at the last
  point, which writes it back: there it must hold, and does hold, block 24's gate.
-/
import proofs.«104241_g40587440947829_cont_sun_m_1101_21_alg».proof.Proof.KI.BodyDefs
import proofs.«104241_g40587440947829_cont_sun_m_1101_21_alg».proof.Proof.KI.RunF

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- From point 25 on, the gate's window handed over as found is what the point must leave: nothing is asked of it before
    the last point, and at the last point, which writes it back, it still holds block 24's gate. -/
private theorem hand19 (c : Dev nD) (n : ℕ) (hn : n < cfg0.N) (h : 25 ≤ n) (d) :
    (owns (c : Thread nD τ) (ms19 ⟨n, hn⟩) fullShare ((dats m 0 c).before 19 ⟨n, hn⟩ d) : sProp 𝕄) ⊢ (dats m 0 c).leavesExact 19 ⟨n, hn⟩ := by
  by_cases h74 : n = 74
  · rw [leaves19_last m c ⟨n, hn⟩ h74, before19_late m c n hn h d]
  · rw [leaves19_idle m c ⟨n, hn⟩ h h74]
    iintro H; iexists d; iexact H

set_option maxHeartbeats 4000000 in
theorem soundF (c : Dev nD) (k : ℕ) (hn : k + 1 < cfg0.N) (hk : 50 < k + 1) :
    bodyPre m c ⟨k + 1, hn⟩ ⊢ wp frame (wpE (defs₀ (F := F)) Variants.none c none) Set.univ (bodyAt0 ⟨k + 1, hn⟩) (fun _ => bodyPost m c ⟨k + 1, hn⟩) := by
  -- the point, and which branches it takes
  have hN : cfg0.N = 75 := N75
  generalize ht : (⟨k + 1, hn⟩ : Fin cfg0.N) = t
  have htv : t.val = k + 1 := by rw [← ht]
  have h1 : ¬isFirst (grid0.coords t) := fun h => by have := (isFirst_iff t).mp h; omega
  have h2 : ¬inPhase0 (grid0.coords t) := fun h => by have := (inPhase0_iff t).mp h; omega
  have h3 : ¬isNorm1 (grid0.coords t) := fun h => by have := (isNorm1_iff t).mp h; omega
  have h4 : ¬inPhase1 (grid0.coords t) := fun h => by have := (inPhase1_iff t).mp h; omega
  have h5 : ¬isNorm2 (grid0.coords t) := fun h => by have := (isNorm2_iff t).mp h; omega
  have h6 : inPhase2 (grid0.coords t) := (inPhase2_iff t).mpr (by omega)
  have hoff : k0_off3 (grid0.coords t) = ![400 * (k + 1 - 50), 0] := by rw [off3_eq t (by omega), htv]
  have ho : 400 * (k + 1 - 50) + 400 ≤ 10000 := by omega
  unfold bodyPre bodyPost bodyAt0
  simp only [before0_0, before0_1, before0_2, before0_3, before0_4, before0_5, before0_6, before0_7, before0_8, before0_9, before0_10, before0_11, before0_12, before0_13, before0_14, before0_15, before0_16, before0_17, before0_18]
  simp only [leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18]
  rw [leaves20_live m c t (by omega)]
  rw [show (dats m 0 c).owesAt () t.succ = (dats m 0 c).owesAt () t.castSucc from rfl]
  subst ht
  rw [Phi_castSucc_succ, Phi_succ]
  unfold PhiPos
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  icases HΦ with ⟨⟨%dhq, %dmn, HS22, HS23, HS24, HS25, HS26⟩, Hg⟩
  iapply (runF c (grid0.coords ⟨k + 1, hn⟩) (ms0 ⟨k + 1, hn⟩) (hs0 ⟨k + 1, hn⟩) (ms1 ⟨k + 1, hn⟩) (hs1 ⟨k + 1, hn⟩) (ms2 ⟨k + 1, hn⟩) (hs2 ⟨k + 1, hn⟩) (ms3 ⟨k + 1, hn⟩) (hs3 ⟨k + 1, hn⟩) (ms4 ⟨k + 1, hn⟩) (hs4 ⟨k + 1, hn⟩) (ms5 ⟨k + 1, hn⟩) (hs5 ⟨k + 1, hn⟩) (ms6 ⟨k + 1, hn⟩) (hs6 ⟨k + 1, hn⟩) (ms7 ⟨k + 1, hn⟩) (hs7 ⟨k + 1, hn⟩) (ms8 ⟨k + 1, hn⟩) (hs8 ⟨k + 1, hn⟩) (ms9 ⟨k + 1, hn⟩) (hs9 ⟨k + 1, hn⟩) (ms10 ⟨k + 1, hn⟩) (hs10 ⟨k + 1, hn⟩) (ms11 ⟨k + 1, hn⟩) (hs11 ⟨k + 1, hn⟩) (ms12 ⟨k + 1, hn⟩) (hs12 ⟨k + 1, hn⟩) (ms13 ⟨k + 1, hn⟩) (hs13 ⟨k + 1, hn⟩) (ms14 ⟨k + 1, hn⟩) (hs14 ⟨k + 1, hn⟩) (ms15 ⟨k + 1, hn⟩) (hs15 ⟨k + 1, hn⟩) (ms16 ⟨k + 1, hn⟩) (hs16 ⟨k + 1, hn⟩) (ms17 ⟨k + 1, hn⟩) (hs17 ⟨k + 1, hn⟩) (ms18 ⟨k + 1, hn⟩) (hs18 ⟨k + 1, hn⟩) (ms19 ⟨k + 1, hn⟩) (hs19 ⟨k + 1, hn⟩) (ms20 ⟨k + 1, hn⟩) (hs20 ⟨k + 1, hn⟩) scM22 (Memref.isWhole_whole _) scM23 (Memref.isWhole_whole _) scM24 (Memref.isWhole_whole _) scM25 (Memref.isWhole_whole _) scM26 (Memref.isWhole_whole _) h1 h2 h3 h4 h5 h6 (400 * (k + 1 - 50)) hoff ho
    _ _ _ _ _ _ Set.univ _)
  isplitl [H3]; · iexact H3
  isplitl [H17]; · iexact H17
  isplitl [H18]; · iexact H18
  isplitl [H20]; · iexact H20
  isplitl [HS22]; · iexact HS22
  isplitl [HS26]; · iexact HS26
  iintro ⟨H3, H17, H18, H20, HS22, HS26⟩
  -- the invariant after this point: nothing in the scratch changes
  isplitl [HS22 HS23 HS24 HS25 HS26 Hg]
  · isplitr [Hg]
    · iexists dhq; iexists dmn
      isplitl [HS22]
      · iapply (owns_congr c scM22 (show hqAt m c dhq (min (k + 1) 25) = hqAt m c dhq (min (k + 1 + 1) 25) from by
          rw [Nat.min_eq_right (show 25 ≤ k + 1 by omega), Nat.min_eq_right (show 25 ≤ k + 1 + 1 by omega)]))
        iexact HS22
      isplitl [HS23]
      · iapply (owns_congr c scM23 (deAt_succ_ge m c k hn (by omega)).symm)
        iexact HS23
      isplitl [HS24]
      · iapply (owns_congr c scM24 (m1At_succ_ge m c k hn (by omega)).symm)
        iexact HS24
      isplitl [HS25]
      · iapply (owns_congr c scM25 (m2At_succ_out m c k hn (by omega)).symm)
        iexact HS25
      · iapply (owns_congr c scM26 (show mnAt m c dmn k = mnAt m c dmn (k + 1) from by
          unfold mnAt; rw [if_neg (show ¬ k < 25 by omega), if_neg (show ¬ k < 50 by omega), if_neg (show ¬ k + 1 < 25 by omega), if_neg (show ¬ k + 1 < 50 by omega)]))
        iexact HS26
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  -- the gate's window is idle: handed back as found, which at the last point is block 24's gate
  isplitl [H19]; · iapply (hand19 m c (k + 1) hn (by omega) d19); iexact H19
  -- the logits' window: block k + 1 − 50 of the copy against the second normalisation's features
  iapply (owns_congr c (ms20 _) (show k0_pay8 (getRows (hqAt m c dhq (min (k + 1) 25)) (400 * (k + 1 - 50)) ho) (B4 m c ⟨k + 1, hn⟩) (mnAt m c dmn k)
      (B18 m c ⟨k + 1, hn⟩) (B19 m c ⟨k + 1, hn⟩) = lBlk m c ⟨k + 1, hn⟩ from by
    have e1 : getRows (hqAt m c dhq (min (k + 1) 25)) (400 * (k + 1 - 50)) ho = hqBlk m c (k + 1 - 50) (by omega) := by
      rw [Nat.min_eq_right (show 25 ≤ k + 1 by omega)]; exact getRows_hqAt m c dhq (k + 1 - 50) _ (by omega) ho
    have e2 : mnAt m c dmn k = mn2 m c := by
      unfold mnAt; rw [if_neg (show ¬ k < 25 by omega), if_neg (show ¬ k < 50 by omega)]
    unfold lBlk; rw [e1, e2]))
  iexact H20

end Cert.KernelIdeal.Gen

end
-- ==== Proof.KI.FrameRun.lean ====
/-
  The body obligation at every grid point, the launch, and the frame.

  Each point falls in one of six cases by its number; the invariant before the first point is the class's, and after
  the last point it gives the class's back, the scratch's named contents forgotten.  The launch theorem then runs the
  pipeline: every weakly fair execution terminates without a fault, each output array ends holding what the proof
  data's write-backs wrote, and every argument array is unchanged.
-/
import proofs.«104241_g40587440947829_cont_sun_m_1101_21_alg».proof.Proof.KI.BodyDefs
import proofs.«104241_g40587440947829_cont_sun_m_1101_21_alg».proof.Proof.KI.SoundA
import proofs.«104241_g40587440947829_cont_sun_m_1101_21_alg».proof.Proof.KI.SoundB
import proofs.«104241_g40587440947829_cont_sun_m_1101_21_alg».proof.Proof.KI.SoundC
import proofs.«104241_g40587440947829_cont_sun_m_1101_21_alg».proof.Proof.KI.SoundD
import proofs.«104241_g40587440947829_cont_sun_m_1101_21_alg».proof.Proof.KI.SoundE
import proofs.«104241_g40587440947829_cont_sun_m_1101_21_alg».proof.Proof.KI.SoundF

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- The body at any point: by the point's number, one of the six cases. -/
theorem sound_body (c : Dev nD) (t : Fin cfg0.N) :
    bodyPre m c t ⊢ wp frame (wpE (defs₀ (F := F)) Variants.none c none) Set.univ (bodyAt0 t) (fun _ => bodyPost m c t) := by
  have hN := N75
  rcases t with ⟨n, hn⟩
  rcases n with _ | k
  · exact soundA m c hn
  · by_cases hB : k + 1 < 25
    · exact soundB m c k hn hB
    · by_cases hC : k + 1 = 25
      · exact soundC m c k hn hC
      · by_cases hD : k + 1 < 50
        · exact soundD m c k hn (by omega) hD
        · by_cases hE : k + 1 = 50
          · exact soundE m c k hn hE
          · exact soundF m c k hn (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]

theorem PhiS_pos (c : Dev nD) : ∀ (n : ℕ) (h : n ≤ cfg0.N) (hz : n ≠ 0), PhiS m c n h = PhiPos m c (n - 1) (by omega)
  | 0, _, hz => absurd rfl hz
  | n + 1, _, _ => rfl

/-- After the last point the invariant gives the class's back: the scratch's named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have := N75; omega), PhiA0_eq]
  unfold PhiPos
  iintro ⟨⟨%dhq, %dmn, H22, H23, H24, H25, H26⟩, Hg⟩
  isplitr [Hg]
  · isplitl [H22]; · iexists _; iexact H22
    isplitl [H23]; · iexists _; iexact H23
    isplitl [H24]; · iexists _; iexact H24
    isplitl [H25]; · iexists _; iexact H25
    iexists _; iexact H26
  · iexact Hg

-- the launch theorem's implicit arguments are found by unifying its conclusion with this one, which takes unfolding plain
-- definitions in a metavariable's type
set_option backward.isDefEq.respectTransparency.types false in
/-- Every weakly fair execution of @main terminates, and every final state has every array of the pipeline at what the
    proof data's write-backs left and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its argument arrays unchanged. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

end Cert.KernelIdeal.Gen

end
-- ==== Proof.KI.Blocks.lean ====
/-
  Each window's block at a grid point, read at an entry, is an entry of an argument array.

  The three streamed windows (H, x, z) hold rows 400·min(t, 24) .. of their arrays at point t; the other sixteen
  windows hold a whole array: a weight matrix as it is, or a bias / the hyperedge weights reshaped to a row (the
  hyperedge weights also to a column, through a change of format that is the identity at the ideal values).
-/
import proofs.«104241_g40587440947829_cont_sun_m_1101_21_alg».proof.Proof.KI.State
import Idealize.ShloMosaic.PureOps.Ideal
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Gen

open Idealize.ShloMosaic Idealize.ShloMosaic.TcCoe Idealize.ShloMosaic.ValueIdx

variable (m : (ℓ : Loc nD τ sig) → Buf (Elt Ideal) ℓ) (c : Dev nD)

/-- The first row of the streamed windows' block at point t. -/
abbrev rowOff (t : Fin cfg0.N) : ℕ := 400 * min t.val 24

theorem rowOff_le (t : Fin cfg0.N) : rowOff t + 400 ≤ 10000 := by unfold rowOff; omega

/-- A vector of a entries reshaped to a column reads, at (i, u), the entry i, whatever the unit coordinate u. -/
private theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The streamed windows -/

theorem B1_at (t : Fin cfg0.N) (r : Fin 400) (j : Fin 2048) :
    B1 m c t (ix2 r j) = (m ((c : Thread nD τ).loc main_arg2) : Vec Ideal S10000x2048 .f32) (ix2 (⟨rowOff t + r.val, by have := rowOff_le t; have := r.isLt; omega⟩ : Fin 10000) j) := by
  have hi : ∀ t : Fin cfg0.N, win0_0.index t (0 : Fin 2) = min t.val 24 ∧ win0_0.index t (1 : Fin 2) = 0 := (by decide +kernel : ∀ t : Fin grid0.N, _)
  unfold B1 iblk
  rw [View.read_apply]
  show V m c main_arg2 _ = _
  refine (congrFun (V_main_arg2 m c) _).trans ?_
  congr 1
  funext ax
  apply Fin.ext
  match ax with
  | ⟨0, _⟩ => show win0_0.index t (0 : Fin 2) * 400 + 1 * r.val = rowOff t + r.val; rw [(hi t).1]; unfold rowOff; omega
  | ⟨1, _⟩ => show win0_0.index t (1 : Fin 2) * 2048 + 1 * j.val = j.val; rw [(hi t).2]; omega
theorem B2_at (t : Fin cfg0.N) (r : Fin 400) (k : Fin 128) :
    B2 m c t (ix2 r k) = (m ((c : Thread nD τ).loc main_arg0) : Vec Ideal S10000x128 .f32) (ix2 (⟨rowOff t + r.val, by have := rowOff_le t; have := r.isLt; omega⟩ : Fin 10000) k) := by
  have hi : ∀ t : Fin cfg0.N, win0_1.index t (0 : Fin 2) = min t.val 24 ∧ win0_1.index t (1 : Fin 2) = 0 := (by decide +kernel : ∀ t : Fin grid0.N, _)
  unfold B2 iblk
  rw [View.read_apply]
  show V m c main_arg0 _ = _
  refine (congrFun (V_main_arg0 m c) _).trans ?_
  congr 1
  funext ax
  apply Fin.ext
  match ax with
  | ⟨0, _⟩ => show win0_1.index t (0 : Fin 2) * 400 + 1 * r.val = rowOff t + r.val; rw [(hi t).1]; unfold rowOff; omega
  | ⟨1, _⟩ => show win0_1.index t (1 : Fin 2) * 128 + 1 * k.val = k.val; rw [(hi t).2]; omega
theorem B3_at (t : Fin cfg0.N) (r : Fin 400) (k : Fin 16) :
    B3 m c t (ix2 r k) = (m ((c : Thread nD τ).loc main_arg1) : Vec Ideal S10000x16 .f32) (ix2 (⟨rowOff t + r.val, by have := rowOff_le t; have := r.isLt; omega⟩ : Fin 10000) k) := by
  have hi : ∀ t : Fin cfg0.N, win0_2.index t (0 : Fin 2) = min t.val 24 ∧ win0_2.index t (1 : Fin 2) = 0 := (by decide +kernel : ∀ t : Fin grid0.N, _)
  unfold B3 iblk
  rw [View.read_apply]
  show V m c main_arg1 _ = _
  refine (congrFun (V_main_arg1 m c) _).trans ?_
  congr 1
  funext ax
  apply Fin.ext
  match ax with
  | ⟨0, _⟩ => show win0_2.index t (0 : Fin 2) * 400 + 1 * r.val = rowOff t + r.val; rw [(hi t).1]; unfold rowOff; omega
  | ⟨1, _⟩ => show win0_2.index t (1 : Fin 2) * 16 + 1 * k.val = k.val; rw [(hi t).2]; omega

/-! ## The whole windows -/

/-- The hyperedge weights as a column (window 3) and as a row (window 4). -/
theorem B4_at (t : Fin cfg0.N) (j : Fin 2048) : B4 m c t (ix2 j (0 : Fin 1)) = (m ((c : Thread nD τ).loc main_arg3) : Vec Ideal S2048 .f32) (ix1 j) := by
  have hi : ∀ t : Fin cfg0.N, win0_3.index t (0 : Fin 2) = 0 ∧ win0_3.index t (1 : Fin 2) = 0 := (by decide +kernel : ∀ t : Fin grid0.N, _)
  have e : (V m c main_v1 : Vec Ideal S2048x1 .bf16)
      = truncf (F := Ideal) .bf16 (shapeCast S2048x1 (m ((c : Thread nD τ).loc main_arg3) : Vec Ideal S2048 .f32) shapeCasts_S2048_S2048x1 : FVec Ideal S2048x1 .f32) bitsLt_bf16_f32 := by
    dsimp only [V, hostOps0]; after_results; rfl
  unfold B4 iblk
  rw [View.read_apply]
  show V m c main_v1 _ = _
  refine (congrFun e _).trans ?_
  refine (truncf_apply (ψ := .bf16) _ bitsLt_bf16_f32 _).trans ?_
  refine (congrArg _ (?_ : _ = ix2 j (0 : Fin 1))).trans (shapeCast_a_a1_apply _ shapeCasts_S2048_S2048x1 j (0 : Fin 1))
  funext ax
  apply Fin.ext
  match ax with
  | ⟨0, _⟩ => show win0_3.index t (0 : Fin 2) * 2048 + 1 * j.val = j.val; rw [(hi t).1]; omega
  | ⟨1, _⟩ => show win0_3.index t (1 : Fin 2) * 1 + 1 * 0 = 0; rw [(hi t).2]
theorem B5_at (t : Fin cfg0.N) (j : Fin 2048) : B5 m c t (ix2 (0 : Fin 1) j) = (m ((c : Thread nD τ).loc main_arg3) : Vec Ideal S2048 .f32) (ix1 j) := by
  have hi : ∀ t : Fin cfg0.N, win0_4.index t (0 : Fin 2) = 0 ∧ win0_4.index t (1 : Fin 2) = 0 := (by decide +kernel : ∀ t : Fin grid0.N, _)
  have e : (V m c main_v2 : Vec Ideal S1x2048 .f32) = shapeCast S1x2048 (m ((c : Thread nD τ).loc main_arg3) : Vec Ideal S2048 .f32) shapeCasts_S2048_S1x2048 := by
    dsimp only [V, hostOps0]; after_results; rfl
  unfold B5 iblk
  rw [View.read_apply]
  show V m c main_v2 _ = _
  refine (congrFun e _).trans ?_
  refine (congrArg _ (?_ : _ = ix2 (0 : Fin 1) j)).trans (shapeCast_a_1a_apply _ shapeCasts_S2048_S1x2048 (0 : Fin 1) j)
  funext ax
  apply Fin.ext
  match ax with
  | ⟨0, _⟩ => show win0_4.index t (0 : Fin 2) * 1 + 1 * 0 = 0; rw [(hi t).1]
  | ⟨1, _⟩ => show win0_4.index t (1 : Fin 2) * 2048 + 1 * j.val = j.val; rw [(hi t).2]; omega
theorem B6_at (t : Fin cfg0.N) (k : Fin 128) (a : Fin 32) : B6 m c t (ix2 k a) = (m ((c : Thread nD τ).loc main_arg4) : Vec Ideal S128x32 .f32) (ix2 k a) := by
  have hi : ∀ t : Fin cfg0.N, win0_5.index t (0 : Fin 2) = 0 ∧ win0_5.index t (1 : Fin 2) = 0 := (by decide +kernel : ∀ t : Fin grid0.N, _)
  unfold B6 iblk
  rw [View.read_apply]
  show V m c main_arg4 _ = _
  refine (congrFun (V_main_arg4 m c) _).trans ?_
  congr 1
  funext ax
  apply Fin.ext
  match ax with
  | ⟨0, _⟩ => show win0_5.index t (0 : Fin 2) * 128 + 1 * k.val = k.val; rw [(hi t).1]; omega
  | ⟨1, _⟩ => show win0_5.index t (1 : Fin 2) * 32 + 1 * a.val = a.val; rw [(hi t).2]; omega
theorem B7_at (t : Fin cfg0.N) (a : Fin 32) : B7 m c t (ix2 (0 : Fin 1) a) = (m ((c : Thread nD τ).loc main_arg5) : Vec Ideal S32 .f32) (ix1 a) := by
  have hi : ∀ t : Fin cfg0.N, win0_6.index t (0 : Fin 2) = 0 ∧ win0_6.index t (1 : Fin 2) = 0 := (by decide +kernel : ∀ t : Fin grid0.N, _)
  have e : (V m c main_v3 : Vec Ideal S1x32 .f32) = shapeCast S1x32 (m ((c : Thread nD τ).loc main_arg5) : Vec Ideal S32 .f32) shapeCasts_S32_S1x32 := by
    dsimp only [V, hostOps0]; after_results; rfl
  unfold B7 iblk
  rw [View.read_apply]
  show V m c main_v3 _ = _
  refine (congrFun e _).trans ?_
  refine (congrArg _ (?_ : _ = ix2 (0 : Fin 1) a)).trans (shapeCast_a_1a_apply _ shapeCasts_S32_S1x32 (0 : Fin 1) a)
  funext ax
  apply Fin.ext
  match ax with
  | ⟨0, _⟩ => show win0_6.index t (0 : Fin 2) * 1 + 1 * 0 = 0; rw [(hi t).1]
  | ⟨1, _⟩ => show win0_6.index t (1 : Fin 2) * 32 + 1 * a.val = a.val; rw [(hi t).2]; omega
theorem B8_at (t : Fin cfg0.N) (k : Fin 16) (a : Fin 32) : B8 m c t (ix2 k a) = (m ((c : Thread nD τ).loc main_arg6) : Vec Ideal S16x32 .f32) (ix2 k a) := by
  have hi : ∀ t : Fin cfg0.N, win0_7.index t (0 : Fin 2) = 0 ∧ win0_7.index t (1 : Fin 2) = 0 := (by decide +kernel : ∀ t : Fin grid0.N, _)
  unfold B8 iblk
  rw [View.read_apply]
  show V m c main_arg6 _ = _
  refine (congrFun (V_main_arg6 m c) _).trans ?_
  congr 1
  funext ax
  apply Fin.ext
  match ax with
  | ⟨0, _⟩ => show win0_7.index t (0 : Fin 2) * 16 + 1 * k.val = k.val; rw [(hi t).1]; omega
  | ⟨1, _⟩ => show win0_7.index t (1 : Fin 2) * 32 + 1 * a.val = a.val; rw [(hi t).2]; omega
theorem B9_at (t : Fin cfg0.N) (a : Fin 32) : B9 m c t (ix2 (0 : Fin 1) a) = (m ((c : Thread nD τ).loc main_arg7) : Vec Ideal S32 .f32) (ix1 a) := by
  have hi : ∀ t : Fin cfg0.N, win0_8.index t (0 : Fin 2) = 0 ∧ win0_8.index t (1 : Fin 2) = 0 := (by decide +kernel : ∀ t : Fin grid0.N, _)
  have e : (V m c main_v4 : Vec Ideal S1x32 .f32) = shapeCast S1x32 (m ((c : Thread nD τ).loc main_arg7) : Vec Ideal S32 .f32) shapeCasts_S32_S1x32 := by
    dsimp only [V, hostOps0]; after_results; rfl
  unfold B9 iblk
  rw [View.read_apply]
  show V m c main_v4 _ = _
  refine (congrFun e _).trans ?_
  refine (congrArg _ (?_ : _ = ix2 (0 : Fin 1) a)).trans (shapeCast_a_1a_apply _ shapeCasts_S32_S1x32 (0 : Fin 1) a)
  funext ax
  apply Fin.ext
  match ax with
  | ⟨0, _⟩ => show win0_8.index t (0 : Fin 2) * 1 + 1 * 0 = 0; rw [(hi t).1]
  | ⟨1, _⟩ => show win0_8.index t (1 : Fin 2) * 32 + 1 * a.val = a.val; rw [(hi t).2]; omega
theorem B10_at (t : Fin cfg0.N) (k : Fin 64) (b : Fin 64) : B10 m c t (ix2 k b) = (m ((c : Thread nD τ).loc main_arg8) : Vec Ideal S64x64 .f32) (ix2 k b) := by
  have hi : ∀ t : Fin cfg0.N, win0_9.index t (0 : Fin 2) = 0 ∧ win0_9.index t (1 : Fin 2) = 0 := (by decide +kernel : ∀ t : Fin grid0.N, _)
  unfold B10 iblk
  rw [View.read_apply]
  show V m c main_arg8 _ = _
  refine (congrFun (V_main_arg8 m c) _).trans ?_
  congr 1
  funext ax
  apply Fin.ext
  match ax with
  | ⟨0, _⟩ => show win0_9.index t (0 : Fin 2) * 64 + 1 * k.val = k.val; rw [(hi t).1]; omega
  | ⟨1, _⟩ => show win0_9.index t (1 : Fin 2) * 64 + 1 * b.val = b.val; rw [(hi t).2]; omega
theorem B11_at (t : Fin cfg0.N) (b : Fin 64) : B11 m c t (ix2 (0 : Fin 1) b) = (m ((c : Thread nD τ).loc main_arg9) : Vec Ideal S64 .f32) (ix1 b) := by
  have hi : ∀ t : Fin cfg0.N, win0_10.index t (0 : Fin 2) = 0 ∧ win0_10.index t (1 : Fin 2) = 0 := (by decide +kernel : ∀ t : Fin grid0.N, _)
  have e : (V m c main_v5 : Vec Ideal S1x64 .f32) = shapeCast S1x64 (m ((c : Thread nD τ).loc main_arg9) : Vec Ideal S64 .f32) shapeCasts_S64_S1x64 := by
    dsimp only [V, hostOps0]; after_results; rfl
  unfold B11 iblk
  rw [View.read_apply]
  show V m c main_v5 _ = _
  refine (congrFun e _).trans ?_
  refine (congrArg _ (?_ : _ = ix2 (0 : Fin 1) b)).trans (shapeCast_a_1a_apply _ shapeCasts_S64_S1x64 (0 : Fin 1) b)
  funext ax
  apply Fin.ext
  match ax with
  | ⟨0, _⟩ => show win0_10.index t (0 : Fin 2) * 1 + 1 * 0 = 0; rw [(hi t).1]
  | ⟨1, _⟩ => show win0_10.index t (1 : Fin 2) * 64 + 1 * b.val = b.val; rw [(hi t).2]; omega
theorem B12_at (t : Fin cfg0.N) (k : Fin 64) (a : Fin 32) : B12 m c t (ix2 k a) = (m ((c : Thread nD τ).loc main_arg10) : Vec Ideal S64x32 .f32) (ix2 k a) := by
  have hi : ∀ t : Fin cfg0.N, win0_11.index t (0 : Fin 2) = 0 ∧ win0_11.index t (1 : Fin 2) = 0 := (by decide +kernel : ∀ t : Fin grid0.N, _)
  unfold B12 iblk
  rw [View.read_apply]
  show V m c main_arg10 _ = _
  refine (congrFun (V_main_arg10 m c) _).trans ?_
  congr 1
  funext ax
  apply Fin.ext
  match ax with
  | ⟨0, _⟩ => show win0_11.index t (0 : Fin 2) * 64 + 1 * k.val = k.val; rw [(hi t).1]; omega
  | ⟨1, _⟩ => show win0_11.index t (1 : Fin 2) * 32 + 1 * a.val = a.val; rw [(hi t).2]; omega
theorem B13_at (t : Fin cfg0.N) (a : Fin 32) : B13 m c t (ix2 (0 : Fin 1) a) = (m ((c : Thread nD τ).loc main_arg11) : Vec Ideal S32 .f32) (ix1 a) := by
  have hi : ∀ t : Fin cfg0.N, win0_12.index t (0 : Fin 2) = 0 ∧ win0_12.index t (1 : Fin 2) = 0 := (by decide +kernel : ∀ t : Fin grid0.N, _)
  have e : (V m c main_v6 : Vec Ideal S1x32 .f32) = shapeCast S1x32 (m ((c : Thread nD τ).loc main_arg11) : Vec Ideal S32 .f32) shapeCasts_S32_S1x32 := by
    dsimp only [V, hostOps0]; after_results; rfl
  unfold B13 iblk
  rw [View.read_apply]
  show V m c main_v6 _ = _
  refine (congrFun e _).trans ?_
  refine (congrArg _ (?_ : _ = ix2 (0 : Fin 1) a)).trans (shapeCast_a_1a_apply _ shapeCasts_S32_S1x32 (0 : Fin 1) a)
  funext ax
  apply Fin.ext
  match ax with
  | ⟨0, _⟩ => show win0_12.index t (0 : Fin 2) * 1 + 1 * 0 = 0; rw [(hi t).1]
  | ⟨1, _⟩ => show win0_12.index t (1 : Fin 2) * 32 + 1 * a.val = a.val; rw [(hi t).2]; omega
theorem B14_at (t : Fin cfg0.N) (a : Fin 32) (d : Fin 64) : B14 m c t (ix2 a d) = (m ((c : Thread nD τ).loc main_arg12) : Vec Ideal S32x64 .f32) (ix2 a d) := by
  have hi : ∀ t : Fin cfg0.N, win0_13.index t (0 : Fin 2) = 0 ∧ win0_13.index t (1 : Fin 2) = 0 := (by decide +kernel : ∀ t : Fin grid0.N, _)
  unfold B14 iblk
  rw [View.read_apply]
  show V m c main_arg12 _ = _
  refine (congrFun (V_main_arg12 m c) _).trans ?_
  congr 1
  funext ax
  apply Fin.ext
  match ax with
  | ⟨0, _⟩ => show win0_13.index t (0 : Fin 2) * 32 + 1 * a.val = a.val; rw [(hi t).1]; omega
  | ⟨1, _⟩ => show win0_13.index t (1 : Fin 2) * 64 + 1 * d.val = d.val; rw [(hi t).2]; omega
theorem B15_at (t : Fin cfg0.N) (d : Fin 64) : B15 m c t (ix2 (0 : Fin 1) d) = (m ((c : Thread nD τ).loc main_arg13) : Vec Ideal S64 .f32) (ix1 d) := by
  have hi : ∀ t : Fin cfg0.N, win0_14.index t (0 : Fin 2) = 0 ∧ win0_14.index t (1 : Fin 2) = 0 := (by decide +kernel : ∀ t : Fin grid0.N, _)
  have e : (V m c main_v7 : Vec Ideal S1x64 .f32) = shapeCast S1x64 (m ((c : Thread nD τ).loc main_arg13) : Vec Ideal S64 .f32) shapeCasts_S64_S1x64 := by
    dsimp only [V, hostOps0]; after_results; rfl
  unfold B15 iblk
  rw [View.read_apply]
  show V m c main_v7 _ = _
  refine (congrFun e _).trans ?_
  refine (congrArg _ (?_ : _ = ix2 (0 : Fin 1) d)).trans (shapeCast_a_1a_apply _ shapeCasts_S64_S1x64 (0 : Fin 1) d)
  funext ax
  apply Fin.ext
  match ax with
  | ⟨0, _⟩ => show win0_14.index t (0 : Fin 2) * 1 + 1 * 0 = 0; rw [(hi t).1]
  | ⟨1, _⟩ => show win0_14.index t (1 : Fin 2) * 64 + 1 * d.val = d.val; rw [(hi t).2]; omega
theorem B16_at (t : Fin cfg0.N) (k : Fin 64) (d : Fin 64) : B16 m c t (ix2 k d) = (m ((c : Thread nD τ).loc main_arg14) : Vec Ideal S64x64 .f32) (ix2 k d) := by
  have hi : ∀ t : Fin cfg0.N, win0_15.index t (0 : Fin 2) = 0 ∧ win0_15.index t (1 : Fin 2) = 0 := (by decide +kernel : ∀ t : Fin grid0.N, _)
  unfold B16 iblk
  rw [View.read_apply]
  show V m c main_arg14 _ = _
  refine (congrFun (V_main_arg14 m c) _).trans ?_
  congr 1
  funext ax
  apply Fin.ext
  match ax with
  | ⟨0, _⟩ => show win0_15.index t (0 : Fin 2) * 64 + 1 * k.val = k.val; rw [(hi t).1]; omega
  | ⟨1, _⟩ => show win0_15.index t (1 : Fin 2) * 64 + 1 * d.val = d.val; rw [(hi t).2]; omega
theorem B17_at (t : Fin cfg0.N) (d : Fin 64) : B17 m c t (ix2 (0 : Fin 1) d) = (m ((c : Thread nD τ).loc main_arg15) : Vec Ideal S64 .f32) (ix1 d) := by
  have hi : ∀ t : Fin cfg0.N, win0_16.index t (0 : Fin 2) = 0 ∧ win0_16.index t (1 : Fin 2) = 0 := (by decide +kernel : ∀ t : Fin grid0.N, _)
  have e : (V m c main_v8 : Vec Ideal S1x64 .f32) = shapeCast S1x64 (m ((c : Thread nD τ).loc main_arg15) : Vec Ideal S64 .f32) shapeCasts_S64_S1x64 := by
    dsimp only [V, hostOps0]; after_results; rfl
  unfold B17 iblk
  rw [View.read_apply]
  show V m c main_v8 _ = _
  refine (congrFun e _).trans ?_
  refine (congrArg _ (?_ : _ = ix2 (0 : Fin 1) d)).trans (shapeCast_a_1a_apply _ shapeCasts_S64_S1x64 (0 : Fin 1) d)
  funext ax
  apply Fin.ext
  match ax with
  | ⟨0, _⟩ => show win0_16.index t (0 : Fin 2) * 1 + 1 * 0 = 0; rw [(hi t).1]
  | ⟨1, _⟩ => show win0_16.index t (1 : Fin 2) * 64 + 1 * d.val = d.val; rw [(hi t).2]; omega
theorem B18_at (t : Fin cfg0.N) (k : Fin 64) (q : Fin 2) : B18 m c t (ix2 k q) = (m ((c : Thread nD τ).loc main_arg16) : Vec Ideal S64x2 .f32) (ix2 k q) := by
  have hi : ∀ t : Fin cfg0.N, win0_17.index t (0 : Fin 2) = 0 ∧ win0_17.index t (1 : Fin 2) = 0 := (by decide +kernel : ∀ t : Fin grid0.N, _)
  unfold B18 iblk
  rw [View.read_apply]
  show V m c main_arg16 _ = _
  refine (congrFun (V_main_arg16 m c) _).trans ?_
  congr 1
  funext ax
  apply Fin.ext
  match ax with
  | ⟨0, _⟩ => show win0_17.index t (0 : Fin 2) * 64 + 1 * k.val = k.val; rw [(hi t).1]; omega
  | ⟨1, _⟩ => show win0_17.index t (1 : Fin 2) * 2 + 1 * q.val = q.val; rw [(hi t).2]; omega
theorem B19_at (t : Fin cfg0.N) (q : Fin 2) : B19 m c t (ix2 (0 : Fin 1) q) = (m ((c : Thread nD τ).loc main_arg17) : Vec Ideal S2 .f32) (ix1 q) := by
  have hi : ∀ t : Fin cfg0.N, win0_18.index t (0 : Fin 2) = 0 ∧ win0_18.index t (1 : Fin 2) = 0 := (by decide +kernel : ∀ t : Fin grid0.N, _)
  have e : (V m c main_v9 : Vec Ideal S1x2 .f32) = shapeCast S1x2 (m ((c : Thread nD τ).loc main_arg17) : Vec Ideal S2 .f32) shapeCasts_S2_S1x2 := by
    dsimp only [V, hostOps0]; after_results; rfl
  unfold B19 iblk
  rw [View.read_apply]
  show V m c main_v9 _ = _
  refine (congrFun e _).trans ?_
  refine (congrArg _ (?_ : _ = ix2 (0 : Fin 1) q)).trans (shapeCast_a_1a_apply _ shapeCasts_S2_S1x2 (0 : Fin 1) q)
  funext ax
  apply Fin.ext
  match ax with
  | ⟨0, _⟩ => show win0_18.index t (0 : Fin 2) * 1 + 1 * 0 = 0; rw [(hi t).1]
  | ⟨1, _⟩ => show win0_18.index t (1 : Fin 2) * 2 + 1 * q.val = q.val; rw [(hi t).2]; omega

end Cert.KernelIdeal.Gen

end
-- ==== Proof.Spec.lean ====
/-
  The mathematics both programs compute, stated once over the extended reals and free of any program.

  Inputs: node features x (10000 × 128) and z (10000 × 16), a dense incidence matrix H (10000 × 2048) with hyperedge
  weights w (2048), and seven affine layers.  Stage by stage:
    x1 = x·Ψ + ψ, z1 = z·Φ + φ;  gate g = σ(relu([x1 | z1]·G1 + γ1)·G2 + γ2);  fused = g·z1 + (1 − g)·x1;
    node degree dv(i) = Σ_j H(i,j)·w(j), s(i) = rsqrt(dv(i) + ε);  edge degree de(j) = Σ_i H(i,j), se(j) = w(j) / (de(j) + ε);
    a layer L(y)(i,d) = max((Σ_j H(i,j) · ((Σ_i' H(i',j) · (y(i',d)·s(i'))) · se(j))) · s(i), 0);
    h1 = L(fused·C1 + c1), h2 = L(h1·C2 + c2), logits = h2·Hd + hd.
  The results are (logits, g).  ε, 1 and 0 are the words the programs print; they are kept as words here.
-/
import Idealize.ShloMosaic.PureOps.Ideal

noncomputable section

namespace Spec

open Idealize.ShloMosaic

/-- The printed word of ε (about 1e-9), at its exact binary value. -/
def eps : EReal := Ideal.ofBits .f32 0x3089705F#32

section
variable (x : Fin 10000 → Fin 128 → EReal) (z : Fin 10000 → Fin 16 → EReal) (H : Fin 10000 → Fin 2048 → EReal) (w : Fin 2048 → EReal)
  (psiW : Fin 128 → Fin 32 → EReal) (psib : Fin 32 → EReal) (phiW : Fin 16 → Fin 32 → EReal) (phib : Fin 32 → EReal)
  (g1W : Fin 64 → Fin 64 → EReal) (g1b : Fin 64 → EReal) (g2W : Fin 64 → Fin 32 → EReal) (g2b : Fin 32 → EReal)
  (c1W : Fin 32 → Fin 64 → EReal) (c1b : Fin 64 → EReal) (c2W : Fin 64 → Fin 64 → EReal) (c2b : Fin 64 → EReal)
  (hdW : Fin 64 → Fin 2 → EReal) (hdb : Fin 2 → EReal)

/-- x·Ψ + ψ. -/
def x1 (i : Fin 10000) (a : Fin 32) : EReal := (∑ k : Fin 128, x i k * psiW k a) + psib a
/-- z·Φ + φ. -/
def z1 (i : Fin 10000) (a : Fin 32) : EReal := (∑ k : Fin 16, z i k * phiW k a) + phib a
/-- The two halves side by side: columns 0..31 are x1, columns 32..63 are z1. -/
def cat (i : Fin 10000) (b : Fin 64) : EReal :=
  if h : b.val < 32 then x1 x psiW psib i ⟨b.val, h⟩ else z1 z phiW phib i ⟨b.val - 32, by omega⟩
/-- The gate's hidden layer. -/
def gh (i : Fin 10000) (b : Fin 64) : EReal := max ((∑ k : Fin 64, cat x z psiW psib phiW phib i k * g1W k b) + g1b b) 0
/-- The gate, a logistic of an affine map of the hidden layer. -/
def gate (i : Fin 10000) (a : Fin 32) : EReal :=
  Ideal.logistic ((∑ k : Fin 64, gh x z psiW psib phiW phib g1W g1b i k * g2W k a) + g2b a)
/-- The gated mixture of the two embeddings. -/
def fused (i : Fin 10000) (a : Fin 32) : EReal :=
  gate x z psiW psib phiW phib g1W g1b g2W g2b i a * z1 z phiW phib i a
    + (1 - gate x z psiW psib phiW phib g1W g1b g2W g2b i a) * x1 x psiW psib i a
/-- The weighted degree of node i. -/
def dv (i : Fin 10000) : EReal := ∑ j : Fin 2048, H i j * w j
/-- Its inverse square root, ε inside. -/
def s (i : Fin 10000) : EReal := Ideal.rsqrt (dv H w i + eps)
/-- The degree of hyperedge j. -/
def de (j : Fin 2048) : EReal := ∑ i : Fin 10000, H i j
/-- The hyperedge's weight over its degree, ε in the denominator. -/
def se (j : Fin 2048) : EReal := Ideal.div (w j) (de H j + eps)

/-- One normalized message-passing layer applied to node features y (10000 × 64): nodes to hyperedges, the
    per-hyperedge factor, hyperedges back to nodes, the per-node factor, then the positive part. -/
def edge (y : Fin 10000 → Fin 64 → EReal) (j : Fin 2048) (d : Fin 64) : EReal :=
  (∑ i : Fin 10000, H i j * (y i d * s H w i)) * se H w j
def layer (y : Fin 10000 → Fin 64 → EReal) (i : Fin 10000) (d : Fin 64) : EReal :=
  max ((∑ j : Fin 2048, H i j * edge H w y j d) * s H w i) 0

/-- The first layer's input: fused·C1 + c1. -/
def y1 (i : Fin 10000) (d : Fin 64) : EReal :=
  (∑ a : Fin 32, fused x z psiW psib phiW phib g1W g1b g2W g2b i a * c1W a d) + c1b d
def h1 (i : Fin 10000) (d : Fin 64) : EReal := layer H w (y1 x z psiW psib phiW phib g1W g1b g2W g2b c1W c1b) i d
/-- The second layer's input: h1·C2 + c2. -/
def y2 (i : Fin 10000) (d : Fin 64) : EReal :=
  (∑ k : Fin 64, h1 x z H w psiW psib phiW phib g1W g1b g2W g2b c1W c1b i k * c2W k d) + c2b d
def h2 (i : Fin 10000) (d : Fin 64) : EReal :=
  layer H w (y2 x z H w psiW psib phiW phib g1W g1b g2W g2b c1W c1b c2W c2b) i d
/-- The head. -/
def logits (i : Fin 10000) (o : Fin 2) : EReal :=
  (∑ k : Fin 64, h2 x z H w psiW psib phiW phib g1W g1b g2W g2b c1W c1b c2W c2b i k * hdW k o) + hdb o

end

end Spec

end
-- ==== Proof.SpecArrays.lean ====
/-
  The two results as whole arrays: each an index-by-index function of the eighteen argument arrays, through the
  stage functions of the specification.  A rank-2 array is read at (row, column), a rank-1 array at its one coordinate.
-/
import proofs.«104241_g40587440947829_cont_sun_m_1101_21_alg».proof.Proof.Spec
import Idealize.ShloMosaic.Lib.ValueIdx

noncomputable section

namespace Spec

open Idealize.ShloMosaic Idealize.ShloMosaic.ValueIdx

/-- A rank-2 array of extended reals, and a rank-1 one. -/
abbrev A2 (a b : Nat) : Type := (⟨2, ![a, b]⟩ : Shape).Idx → EReal
abbrev A1 (a : Nat) : Type := (⟨1, ![a]⟩ : Shape).Idx → EReal

/-- A rank-2 array read at row i, column k. -/
def mat {a b : Nat} (X : A2 a b) (i : Fin a) (k : Fin b) : EReal := X (ix2 i k)
/-- A rank-1 array read at k. -/
def vec {a : Nat} (X : A1 a) (k : Fin a) : EReal := X (ix1 k)

section
variable (x : A2 10000 128) (z : A2 10000 16) (H : A2 10000 2048) (w : A1 2048)
  (psiW : A2 128 32) (psib : A1 32) (phiW : A2 16 32) (phib : A1 32)
  (g1W : A2 64 64) (g1b : A1 64) (g2W : A2 64 32) (g2b : A1 32)
  (c1W : A2 32 64) (c1b : A1 64) (c2W : A2 64 64) (c2b : A1 64)
  (hdW : A2 64 2) (hdb : A1 2)

/-- The gate, as the 10000 × 32 result array. -/
def gateOut : A2 10000 32 := fun i =>
  gate (mat x) (mat z) (mat psiW) (vec psib) (mat phiW) (vec phib) (mat g1W) (vec g1b) (mat g2W) (vec g2b)
    ⟨(i 0).val, idx2_lt0 i⟩ ⟨(i 1).val, idx2_lt1 i⟩

/-- The logits, as the 10000 × 2 result array. -/
def logitsOut : A2 10000 2 := fun i =>
  logits (mat x) (mat z) (mat H) (vec w) (mat psiW) (vec psib) (mat phiW) (vec phib) (mat g1W) (vec g1b) (mat g2W) (vec g2b)
    (mat c1W) (vec c1b) (mat c2W) (vec c2b) (mat hdW) (vec hdb) ⟨(i 0).val, idx2_lt0 i⟩ ⟨(i 1).val, idx2_lt1 i⟩

end

end Spec

end
-- ==== Proof.LibPlainMatmul.lean ====
/-
  General lemmas, free of any program.

  * A `tpu.matmul` of an m×k block by a k×n block into the zero accumulator, read at the entry (a, b) at the ideal
    values, is the plain sum over the contracted coordinate c of A(a, c) · B(c, b): no accumulator term, no chunk order.
    Stated for the record `DotDims.plain m k n` and for any record equal to it (a printed record of the same six
    lists differs from it only in its well-formedness proof).
  * The two coordinates of a rank-2 index built from a pair.
  * The coercion of the reals into the extended reals commutes with finite sums and with the maximum of two reals.
-/
import Idealize.ShloMosaic.PureOps.Ideal.Laws
import Idealize.ShloMosaic.Lib.ValueIdx

noncomputable section

namespace PlainMatmul

open Idealize.ShloMosaic Idealize.ShloMosaic.ValueIdx

/-- The entry (a, b) of the product of an m×k by a k×n matrix accumulated into zero is `∑ c, A(a, c) · B(c, b)`. -/
theorem matmul_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (F := Ideal) (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  -- the contraction index built from c has c on its one axis
  have hc := contrEquiv1_symm_val (DotDims.plain m k n) k rfl rfl c
  -- the left operand is read at (a, c): axis 0 is the output's row, axis 1 the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => exact ((DotDims.plain m k n).lhsIdx_val_of_single rfl (ix2 a b) _).trans hc
  -- the right operand is read at (c, b)
  have hr : (DotDims.plain m k n).rhsIdx (ix2 a b) ((contrEquiv1 _ k rfl rfl).symm c) = ix2 c b := by
    funext ax; apply Fin.ext
    match ax with
    | ⟨0, _⟩ => exact ((DotDims.plain m k n).rhsIdx_val_of_single rfl (ix2 a b) _).trans hc
    | ⟨1, _⟩ => simp [DotDims.rhsIdx, DotDims.plain]; rfl
  rw [hl, hr]

/-- The same for any record that IS the plain one. -/
theorem matmul_zero_apply_of_eq {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul (F := Ideal) d prec A B (constant ⟨2, ![m, n]⟩ .f32 0x00000000#32) (ix2 a b)
      = ∑ c : Fin k, A (ix2 a c) * B (ix2 c b) := by
  subst hd; exact matmul_zero_apply prec A B a b

/-- A finite sum of reals, coerced, is the sum of the coerced terms. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The first coordinate of the index built from (a, b) is a. -/
theorem ix2_at0 {n0 n1 : Nat} (a : Fin n0) (b : Fin n1) : (ix2 a b 0 : Fin n0) = a := rfl
/-- The second coordinate of the index built from (a, b) is b. -/
theorem ix2_at1 {n0 n1 : Nat} (a : Fin n0) (b : Fin n1) : (ix2 a b 1 : Fin n1) = b := rfl

/-- The coercion is monotone, so it commutes with the maximum. -/
theorem coe_max (a b : ℝ) : ((max a b : ℝ) : EReal) = max (a : EReal) (b : EReal) :=
  EReal.coe_strictMono.monotone.map_max

end PlainMatmul

end
-- ==== Proof.PayDefs.lean ====
/-
  Shared by the entry-by-entry readings of the kernel body: a block's row as a row of the whole arrays, one layer's
  node output for given hyperedge features, and the one matrix product of the body that contracts the ROW axis of
  both operands (a 400 × 64 block against a 400 × 2048 block into 64 × 2048), read at an entry.
-/
import proofs.«104241_g40587440947829_cont_sun_m_1101_21_alg».proof.Proof.Gen.KernelIdeal.Skeleton
import proofs.«104241_g40587440947829_cont_sun_m_1101_21_alg».proof.Proof.SpecArrays
import proofs.«104241_g40587440947829_cont_sun_m_1101_21_alg».proof.Proof.LibPlainMatmul
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

noncomputable section

namespace Cert.KernelIdeal.PayVal

open Cert.KernelIdeal Cert.KernelIdeal.Gen Idealize.ShloMosaic Idealize.ShloMosaic.ValueIdx

/-- Row r of a block whose first row is o is row o + r of the arrays. -/
abbrev row (o : ℕ) (ho : o + 400 ≤ 10000) (r : Fin 400) : Fin 10000 := ⟨o + r.val, by have := r.isLt; omega⟩

/-- One layer's node output for given hyperedge features e: max((Σ_j H(i,j)·e(j,k))·s(i), 0). -/
def lay (H : Fin 10000 → Fin 2048 → EReal) (w : Fin 2048 → EReal) (e : Fin 2048 → Fin 64 → EReal) (i : Fin 10000) (k : Fin 64) : EReal :=
  max ((∑ j : Fin 2048, H i j * e j k) * Spec.s H w i) 0

theorem lay_edge (H : Fin 10000 → Fin 2048 → EReal) (w : Fin 2048 → EReal) (y : Fin 10000 → Fin 64 → EReal) (i : Fin 10000) (k : Fin 64) :
    lay H w (Spec.edge H w y) i k = Spec.layer H w y i k := rfl

/-- The left operand's row coordinate is the contraction position's one coordinate (axis 0 is the contracted one). -/
private theorem mT_lhs0 (i : S64x2048.Idx) (q : dot_S400x64_S400x2048_S64x2048_0_0_1_1_n_n.contr.Idx) :
    (dot_S400x64_S400x2048_S64x2048_0_0_1_1_n_n.lhsIdx i q 0).val = (q ⟨0, by decide⟩).val :=
  dot_S400x64_S400x2048_S64x2048_0_0_1_1_n_n.lhsIdx_val_of_single rfl i q
/-- The left operand's column coordinate is the result's row coordinate (axis 1 is free and comes first in the result). -/
private theorem mT_lhs1 (i : S64x2048.Idx) (q : dot_S400x64_S400x2048_S64x2048_0_0_1_1_n_n.contr.Idx) :
    (dot_S400x64_S400x2048_S64x2048_0_0_1_1_n_n.lhsIdx i q 1).val = (i 0).val := by
  unfold DotDims.lhsIdx
  rw [dif_neg (show ¬(1 : Fin S400x64.rank) ∈ dot_S400x64_S400x2048_S64x2048_0_0_1_1_n_n.lhsBatch by decide), dif_pos (show (1 : Fin S400x64.rank) ∈ dot_S400x64_S400x2048_S64x2048_0_0_1_1_n_n.lhsNonContracting by decide)]
  rfl
/-- The right operand's row coordinate is the contraction position's one coordinate. -/
private theorem mT_rhs0 (i : S64x2048.Idx) (q : dot_S400x64_S400x2048_S64x2048_0_0_1_1_n_n.contr.Idx) :
    (dot_S400x64_S400x2048_S64x2048_0_0_1_1_n_n.rhsIdx i q 0).val = (q ⟨0, by decide⟩).val :=
  dot_S400x64_S400x2048_S64x2048_0_0_1_1_n_n.rhsIdx_val_of_single rfl i q
/-- The right operand's column coordinate is the result's column coordinate. -/
private theorem mT_rhs1 (i : S64x2048.Idx) (q : dot_S400x64_S400x2048_S64x2048_0_0_1_1_n_n.contr.Idx) :
    (dot_S400x64_S400x2048_S64x2048_0_0_1_1_n_n.rhsIdx i q 1).val = (i 1).val := by
  unfold DotDims.rhsIdx
  rw [dif_neg (show ¬(1 : Fin S400x2048.rank) ∈ dot_S400x64_S400x2048_S64x2048_0_0_1_1_n_n.rhsBatch by decide), dif_pos (show (1 : Fin S400x2048.rank) ∈ dot_S400x64_S400x2048_S64x2048_0_0_1_1_n_n.rhsNonContracting by decide)]
  rfl

/-- The product contracting the row axis of both blocks, into the zero accumulator, at entry (d, j): Σ_r A(r,d)·B(r,j). -/
theorem matmulT_apply (A : FVec Ideal S400x64 .bf16) (B : FVec Ideal S400x2048 .bf16) (d : Fin 64) (j : Fin 2048) :
    matmul (F := Ideal) dot_S400x64_S400x2048_S64x2048_0_0_1_1_n_n none A B (constant S64x2048 .f32 0x00000000#32) (ix2 d j)
      = ∑ r : Fin 400, A (ix2 r d) * B (ix2 r j) := by
  show FloatOps.matmul _ none A B _ (ix2 d j) = _
  rw [Ideal.matmul_constant_zero_apply, ← Equiv.sum_comp (contrEquiv1 dot_S400x64_S400x2048_S64x2048_0_0_1_1_n_n 400 rfl rfl).symm]
  refine Finset.sum_congr rfl fun r _ => ?_
  -- the contraction position built from r has r on its one axis
  have hr := contrEquiv1_symm_val dot_S400x64_S400x2048_S64x2048_0_0_1_1_n_n 400 rfl rfl r
  -- the left operand is read at (r, d)
  have hl : dot_S400x64_S400x2048_S64x2048_0_0_1_1_n_n.lhsIdx (ix2 d j) ((contrEquiv1 dot_S400x64_S400x2048_S64x2048_0_0_1_1_n_n 400 rfl rfl).symm r) = ix2 r d := by
    funext ax; apply Fin.ext
    match ax with
    | ⟨0, _⟩ => exact (mT_lhs0 _ _).trans hr
    | ⟨1, _⟩ => exact mT_lhs1 _ _
  -- the right operand is read at (r, j)
  have hrr : dot_S400x64_S400x2048_S64x2048_0_0_1_1_n_n.rhsIdx (ix2 d j) ((contrEquiv1 dot_S400x64_S400x2048_S64x2048_0_0_1_1_n_n 400 rfl rfl).symm r) = ix2 r j := by
    funext ax; apply Fin.ext
    match ax with
    | ⟨0, _⟩ => exact (mT_rhs0 _ _).trans hr
    | ⟨1, _⟩ => exact mT_rhs1 _ _
  rw [hl, hrr]

end Cert.KernelIdeal.PayVal

end
-- ==== Proof.PayVal0.lean ====
/-
  Phase 0 of the kernel body at the ideal values, entry by entry, in the specification's terms.
  A grid point sees rows o .. o+399 of the node arrays: block X holds rows of x, Z of z, Hb of H; the small arrays are whole.
-/
import proofs.«104241_g40587440947829_cont_sun_m_1101_21_alg».proof.Proof.PayDefs
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

noncomputable section

namespace Cert.KernelIdeal.PayVal

open Cert.KernelIdeal Cert.KernelIdeal.Gen Idealize.ShloMosaic Idealize.ShloMosaic.ValueIdx

/-- Two 400 × 32 blocks side by side, read at column b: the first block on columns 0..31, the second on 32..63. -/
private theorem cat_at (P Q : FVec Ideal S400x32 .f32) (r : Fin 400) (b : Fin 64) :
    concatenate S400x64 1 [⟨S400x32, P⟩, ⟨S400x32, Q⟩] concatenates_S400x32_S400x32_S400x64_d1 (ix2 r b)
      = if h : b.val < 32 then P (ix2 r ⟨b.val, h⟩) else Q (ix2 r ⟨b.val - 32, by have := b.isLt; omega⟩) := by
  by_cases h : b.val < 32
  · rw [dif_pos h]
    refine concatenate_pair_apply_left (1 : Fin 2) P Q _ (ix2 r b) rfl (ix2 r ⟨b.val, h⟩) fun ax => ?_
    match ax with
    | ⟨0, _⟩ => rfl
    | ⟨1, _⟩ => rfl
  · rw [dif_neg h]
    refine concatenate_pair_apply_right (1 : Fin 2) P Q _ (ix2 r b) rfl rfl (ix2 r ⟨b.val - 32, by have := b.isLt; omega⟩) (fun ax hax => ?_) ?_
    · match ax with
      | ⟨0, _⟩ => rfl
      | ⟨1, _⟩ => exact absurd rfl hax
    · show b.val - 32 + 32 = b.val
      omega

-- the whole arrays, as plain functions of row and column
variable (x : Fin 10000 → Fin 128 → EReal) (z : Fin 10000 → Fin 16 → EReal) (H : Fin 10000 → Fin 2048 → EReal) (w : Fin 2048 → EReal)
  (psiW : Fin 128 → Fin 32 → EReal) (psib : Fin 32 → EReal) (phiW : Fin 16 → Fin 32 → EReal) (phib : Fin 32 → EReal)
  (g1W : Fin 64 → Fin 64 → EReal) (g1b : Fin 64 → EReal) (g2W : Fin 64 → Fin 32 → EReal) (g2b : Fin 32 → EReal)
  (c1W : Fin 32 → Fin 64 → EReal) (c1b : Fin 64 → EReal) (c2W : Fin 64 → Fin 64 → EReal) (c2b : Fin 64 → EReal)
  (hdW : Fin 64 → Fin 2 → EReal) (hdb : Fin 2 → EReal)
-- what the body loads at a point
variable (X : Vec Ideal S400x128 .f32) (Z : Vec Ideal S400x16 .f32) (Hb : Vec Ideal S400x2048 .f32) (W16 : Vec Ideal S2048x1 .bf16)
  (Wrow : Vec Ideal S1x2048 .f32)
  (PsiW : Vec Ideal S128x32 .f32) (Psib : Vec Ideal S1x32 .f32) (PhiW : Vec Ideal S16x32 .f32) (Phib : Vec Ideal S1x32 .f32)
  (G1W : Vec Ideal S64x64 .f32) (G1b : Vec Ideal S1x64 .f32) (G2W : Vec Ideal S64x32 .f32) (G2b : Vec Ideal S1x32 .f32)
  (C1W : Vec Ideal S32x64 .f32) (C1b : Vec Ideal S1x64 .f32) (C2W : Vec Ideal S64x64 .f32) (C2b : Vec Ideal S1x64 .f32)
  (HdW : Vec Ideal S64x2 .f32) (Hdb : Vec Ideal S1x2 .f32)
-- the block's first row
variable (o : ℕ) (ho : o + 400 ≤ 10000)

/-- The bf16 word of 1.0 is the extended real 1. -/
private theorem one_bf16 : Ideal.ofBits .bf16 0x3F80#16 = 1 := IdealRules.sign_bit.ideal_onePat .bf16
/-- The f32 word of 1.0 is the extended real 1. -/
private theorem one_f32 : Ideal.ofBits .f32 0x3F800000#32 = 1 := IdealRules.sign_bit.ideal_onePat .f32

/-- A column [m,1] broadcast along the rows to [m,n] reads, at (p, c), the column at row p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The bf16 copy of the block is the block (a change of format is the identity). -/
theorem hq_at (r : Fin 400) (j : Fin 2048) : k0_pay10 (F := Ideal) Hb (ix2 r j) = Hb (ix2 r j) := by
  unfold k0_pay10
  exact congrFun (shapeCast_self _ _) _

theorem hq9_at (r : Fin 400) (j : Fin 2048) : k0_pay9 (F := Ideal) Hb (ix2 r j) = Hb (ix2 r j) := by
  unfold k0_pay9
  rfl

/-- The first embedding x·Ψ + ψ at a row of the block. -/
private theorem x1blk_at
    (hX : ∀ (r : Fin 400) (k : Fin 128), X (ix2 r k) = x (row o ho r) k)
    (hPsiW : ∀ k a, PsiW (ix2 k a) = psiW k a) (hPsib : ∀ a, Psib (ix2 0 a) = psib a)
    (r : Fin 400) (a : Fin 32) :
    k0_pay13 (F := Ideal) X PsiW Psib (ix2 r a) = Spec.x1 x psiW psib (row o ho r) a := by
  unfold k0_pay13
  show matmul (F := Ideal) dot_S400x128_S128x32_S400x32_1_0_0_1_n_n none X PsiW (constant S400x32 .f32 0x00000000#32) (ix2 r a)
      + broadcastTo S400x32 (shapeCast S1x32 Psib shapeCasts_S1x32_S1x32) broadcasts_S1x32_S400x32 (ix2 r a) = _
  unfold Spec.x1
  refine congrArg₂ (· + ·) ?_ ?_
  · refine (PlainMatmul.matmul_zero_apply_of_eq _ rfl none _ _ r a).trans ?_
    exact Finset.sum_congr rfl fun c _ => congrArg₂ (· * ·) (hX r c) (hPsiW c a)
  · rw [shapeCast_self]
    exact (broadcastTo_1b_ab_apply _ _ r a).trans (hPsib a)

/-- The second embedding z·Φ + φ at a row of the block. -/
private theorem z1blk_at
    (hZ : ∀ (r : Fin 400) (k : Fin 16), Z (ix2 r k) = z (row o ho r) k)
    (hPhiW : ∀ k a, PhiW (ix2 k a) = phiW k a) (hPhib : ∀ a, Phib (ix2 0 a) = phib a)
    (r : Fin 400) (a : Fin 32) :
    k0_pay15 (F := Ideal) (k0_pay14 Z PhiW) Phib (ix2 r a) = Spec.z1 z phiW phib (row o ho r) a := by
  unfold k0_pay15 k0_pay14
  show matmul (F := Ideal) dot_S400x16_S16x32_S400x32_1_0_0_1_n_n none Z PhiW (constant S400x32 .f32 0x00000000#32) (ix2 r a)
      + broadcastTo S400x32 (shapeCast S1x32 Phib shapeCasts_S1x32_S1x32) broadcasts_S1x32_S400x32 (ix2 r a) = _
  unfold Spec.z1
  refine congrArg₂ (· + ·) ?_ ?_
  · refine (PlainMatmul.matmul_zero_apply_of_eq _ rfl none _ _ r a).trans ?_
    exact Finset.sum_congr rfl fun c _ => congrArg₂ (· * ·) (hZ r c) (hPhiW c a)
  · rw [shapeCast_self]
    exact (broadcastTo_1b_ab_apply _ _ r a).trans (hPhib a)

/-- The gate at a row of the block. -/
theorem gate_at
    (hX : ∀ (r : Fin 400) (k : Fin 128), X (ix2 r k) = x (row o ho r) k) (hZ : ∀ (r : Fin 400) (k : Fin 16), Z (ix2 r k) = z (row o ho r) k)
    (hPsiW : ∀ k a, PsiW (ix2 k a) = psiW k a) (hPsib : ∀ a, Psib (ix2 0 a) = psib a)
    (hPhiW : ∀ k a, PhiW (ix2 k a) = phiW k a) (hPhib : ∀ a, Phib (ix2 0 a) = phib a)
    (hG1W : ∀ k b, G1W (ix2 k b) = g1W k b) (hG1b : ∀ b, G1b (ix2 0 b) = g1b b)
    (hG2W : ∀ k a, G2W (ix2 k a) = g2W k a) (hG2b : ∀ a, G2b (ix2 0 a) = g2b a)
    (r : Fin 400) (a : Fin 32) :
    k0_pay16 (F := Ideal) (k0_pay13 X PsiW Psib) (k0_pay14 Z PhiW) Phib G1W G1b G2W G2b (ix2 r a)
      = Spec.gate x z psiW psib phiW phib g1W g1b g2W g2b (row o ho r) a := by
  unfold k0_pay16
  show Ideal.logistic (matmul (F := Ideal) dot_S400x64_S64x32_S400x32_1_0_0_1_n_n none
        (maximumf (addf (matmul dot_S400x64_S64x64_S400x64_1_0_0_1_n_n none
              (concatenate S400x64 1 [⟨S400x32, k0_pay13 X PsiW Psib⟩, ⟨S400x32, k0_pay15 (k0_pay14 Z PhiW) Phib⟩] concatenates_S400x32_S400x32_S400x64_d1)
              G1W (constant S400x64 .f32 0x00000000#32))
            (broadcastTo S400x64 (shapeCast S1x64 G1b shapeCasts_S1x64_S1x64) broadcasts_S1x64_S400x64))
          (broadcast S400x64 (Ideal.ofBits .f32 0x00000000#32)))
        G2W (constant S400x32 .f32 0x00000000#32) (ix2 r a)
      + broadcastTo S400x32 (shapeCast S1x32 G2b shapeCasts_S1x32_S1x32) broadcasts_S1x32_S400x32 (ix2 r a)) = _
  unfold Spec.gate
  refine congrArg Ideal.logistic (congrArg₂ (· + ·) ?_ ?_)
  · refine (PlainMatmul.matmul_zero_apply_of_eq _ rfl none _ _ r a).trans ?_
    refine Finset.sum_congr rfl fun k _ => congrArg₂ (· * ·) ?_ (hG2W k a)
    -- the hidden layer at (r, k)
    show max (matmul (F := Ideal) dot_S400x64_S64x64_S400x64_1_0_0_1_n_n none
          (concatenate S400x64 1 [⟨S400x32, k0_pay13 X PsiW Psib⟩, ⟨S400x32, k0_pay15 (k0_pay14 Z PhiW) Phib⟩] concatenates_S400x32_S400x32_S400x64_d1)
          G1W (constant S400x64 .f32 0x00000000#32) (ix2 r k)
        + broadcastTo S400x64 (shapeCast S1x64 G1b shapeCasts_S1x64_S1x64) broadcasts_S1x64_S400x64 (ix2 r k))
        (Ideal.ofBits .f32 0x00000000#32) = _
    unfold Spec.gh
    rw [Ideal.ofBits_zero_f32]
    refine congrArg (max · 0) (congrArg₂ (· + ·) ?_ ?_)
    · refine (PlainMatmul.matmul_zero_apply_of_eq _ rfl none _ _ r k).trans ?_
      refine Finset.sum_congr rfl fun c _ => congrArg₂ (· * ·) ?_ (hG1W c k)
      -- the two embeddings side by side at (r, c)
      rw [cat_at]
      unfold Spec.cat
      by_cases hc : c.val < 32
      · rw [dif_pos hc, dif_pos hc]
        exact x1blk_at x psiW psib X PsiW Psib o ho hX hPsiW hPsib r ⟨c.val, hc⟩
      · rw [dif_neg hc, dif_neg hc]
        exact z1blk_at z phiW phib Z PhiW Phib o ho hZ hPhiW hPhib r ⟨c.val - 32, by have := c.isLt; omega⟩
    · rw [shapeCast_self]
      exact (broadcastTo_1b_ab_apply _ _ r k).trans (hG1b k)
  · rw [shapeCast_self]
    exact (broadcastTo_1b_ab_apply _ _ r a).trans (hG2b a)

/-- The node factor s at a row of the block. -/
theorem s_at (hH : ∀ (r : Fin 400) (j : Fin 2048), Hb (ix2 r j) = H (row o ho r) j) (hW16 : ∀ j, W16 (ix2 j 0) = w j) (r : Fin 400) :
    k0_pay11 (F := Ideal) Hb W16 (ix2 r 0) = Spec.s H w (row o ho r) := by
  unfold k0_pay11
  show Ideal.rsqrt (matmul (F := Ideal) dot_S400x2048_S2048x1_S400x1_1_0_0_1_n_n none (k0_pay9 Hb) (shapeCast S2048x1 W16 shapeCasts_S2048x1_S2048x1)
      (constant S400x1 .f32 0x00000000#32) (ix2 r (0 : Fin 1)) + Ideal.ofBits .f32 0x3089705F#32) = _
  unfold Spec.s Spec.dv Spec.eps
  refine congrArg (fun t => Ideal.rsqrt (t + Ideal.ofBits .f32 0x3089705F#32)) ?_
  refine (PlainMatmul.matmul_zero_apply_of_eq _ rfl none _ _ r (0 : Fin 1)).trans ?_
  refine Finset.sum_congr rfl fun c _ => ?_
  rw [shapeCast_self]
  exact congrArg₂ (· * ·) (hH r c) (hW16 c)

/-- The hyperedge degrees gain the block's column sums. -/
theorem de_step (acc : Vec Ideal S1x2048 .f32) (j : Fin 2048) :
    k0_pay12 (F := Ideal) Hb acc (ix2 0 j) = acc (ix2 0 j) + ∑ r : Fin 400, Hb (ix2 r j) := by
  unfold k0_pay12
  refine (congrFun (shapeCast_self _ _) _).trans ?_
  show acc (ix2 0 j) + matmul (F := Ideal) dot_S1x400_S400x2048_S1x2048_1_0_0_1_n_n none
      (broadcast S1x400 (Ideal.ofBits .bf16 0x3F80#16)) (k0_pay9 Hb) (constant S1x2048 .f32 0x00000000#32) (ix2 (0 : Fin 1) j) = _
  refine congrArg (acc (ix2 0 j) + ·) ?_
  refine (PlainMatmul.matmul_zero_apply_of_eq _ rfl none _ _ (0 : Fin 1) j).trans ?_
  refine Finset.sum_congr rfl fun c _ => ?_
  -- the left factor is the constant 1
  show Ideal.ofBits .bf16 0x3F80#16 * Hb (ix2 c j) = Hb (ix2 c j)
  rw [one_bf16, one_mul]

/-- The first aggregation gains, at (d, j), the block's Σ_r (y1(r,d)·s(r))·H(r,j). -/
theorem m1_step
    (hX : ∀ (r : Fin 400) (k : Fin 128), X (ix2 r k) = x (row o ho r) k) (hZ : ∀ (r : Fin 400) (k : Fin 16), Z (ix2 r k) = z (row o ho r) k)
    (hH : ∀ (r : Fin 400) (j : Fin 2048), Hb (ix2 r j) = H (row o ho r) j) (hW16 : ∀ j, W16 (ix2 j 0) = w j)
    (hPsiW : ∀ k a, PsiW (ix2 k a) = psiW k a) (hPsib : ∀ a, Psib (ix2 0 a) = psib a)
    (hPhiW : ∀ k a, PhiW (ix2 k a) = phiW k a) (hPhib : ∀ a, Phib (ix2 0 a) = phib a)
    (hG1W : ∀ k b, G1W (ix2 k b) = g1W k b) (hG1b : ∀ b, G1b (ix2 0 b) = g1b b)
    (hG2W : ∀ k a, G2W (ix2 k a) = g2W k a) (hG2b : ∀ a, G2b (ix2 0 a) = g2b a)
    (hC1W : ∀ a d, C1W (ix2 a d) = c1W a d) (hC1b : ∀ d, C1b (ix2 0 d) = c1b d)
    (acc : Vec Ideal S64x2048 .f32) (d : Fin 64) (j : Fin 2048) :
    k0_pay4 (F := Ideal) acc (k0_pay17 (k0_pay9 Hb) (k0_pay11 Hb W16) (k0_pay13 X PsiW Psib) (k0_pay14 Z PhiW) Phib G1W G1b G2W G2b C1W C1b) (ix2 d j)
      = acc (ix2 d j) + ∑ r : Fin 400,
          (Spec.y1 x z psiW psib phiW phib g1W g1b g2W g2b c1W c1b (row o ho r) d * Spec.s H w (row o ho r)) * H (row o ho r) j := by
  unfold k0_pay4
  refine (congrFun (shapeCast_self _ _) _).trans ?_
  unfold k0_pay17
  show acc (ix2 d j) + matmul (F := Ideal) dot_S400x64_S400x2048_S64x2048_0_0_1_1_n_n none
      (truncf .bf16
        (mulf
          (addf
            (matmul dot_S400x32_S32x64_S400x64_1_0_0_1_n_n none
              (addf
                (mulf (k0_pay16 (k0_pay13 X PsiW Psib) (k0_pay14 Z PhiW) Phib G1W G1b G2W G2b) (k0_pay15 (k0_pay14 Z PhiW) Phib))
                (mulf
                  (subf (broadcast S400x32 (Ideal.ofBits .f32 0x3F800000#32)) (k0_pay16 (k0_pay13 X PsiW Psib) (k0_pay14 Z PhiW) Phib G1W G1b G2W G2b))
                  (k0_pay13 X PsiW Psib)))
              C1W (constant S400x64 .f32 0x00000000#32))
            (broadcastTo S400x64 (shapeCast S1x64 C1b shapeCasts_S1x64_S1x64) broadcasts_S1x64_S400x64))
          (broadcastTo S400x64 (k0_pay11 Hb W16) broadcasts_S400x1_S400x64))
        bitsLt_bf16_f32)
      (k0_pay9 Hb) (constant S64x2048 .f32 0x00000000#32) (ix2 d j) = _
  refine congrArg (acc (ix2 d j) + ·) ?_
  refine (matmulT_apply _ _ d j).trans ?_
  refine Finset.sum_congr rfl fun r _ => congrArg₂ (· * ·) ?_ ((hq9_at Hb r j).trans (hH r j))
  -- the left factor at (r, d): the layer's input times the node factor
  show (matmul (F := Ideal) dot_S400x32_S32x64_S400x64_1_0_0_1_n_n none
          (addf
            (mulf (k0_pay16 (k0_pay13 X PsiW Psib) (k0_pay14 Z PhiW) Phib G1W G1b G2W G2b) (k0_pay15 (k0_pay14 Z PhiW) Phib))
            (mulf
              (subf (broadcast S400x32 (Ideal.ofBits .f32 0x3F800000#32)) (k0_pay16 (k0_pay13 X PsiW Psib) (k0_pay14 Z PhiW) Phib G1W G1b G2W G2b))
              (k0_pay13 X PsiW Psib)))
          C1W (constant S400x64 .f32 0x00000000#32) (ix2 r d)
        + broadcastTo S400x64 (shapeCast S1x64 C1b shapeCasts_S1x64_S1x64) broadcasts_S1x64_S400x64 (ix2 r d))
      * broadcastTo S400x64 (k0_pay11 Hb W16) broadcasts_S400x1_S400x64 (ix2 r d) = _
  refine congrArg₂ (· * ·) ?_ ?_
  · unfold Spec.y1
    refine congrArg₂ (· + ·) ?_ ?_
    · refine (PlainMatmul.matmul_zero_apply_of_eq _ rfl none _ _ r d).trans ?_
      refine Finset.sum_congr rfl fun c _ => congrArg₂ (· * ·) ?_ (hC1W c d)
      -- the gated mixture at (r, c)
      show k0_pay16 (k0_pay13 X PsiW Psib) (k0_pay14 Z PhiW) Phib G1W G1b G2W G2b (ix2 r c) * k0_pay15 (k0_pay14 Z PhiW) Phib (ix2 r c)
          + (Ideal.ofBits .f32 0x3F800000#32 - k0_pay16 (k0_pay13 X PsiW Psib) (k0_pay14 Z PhiW) Phib G1W G1b G2W G2b (ix2 r c))
            * k0_pay13 X PsiW Psib (ix2 r c) = _
      unfold Spec.fused
      rw [one_f32, gate_at x z psiW psib phiW phib g1W g1b g2W g2b X Z PsiW Psib PhiW Phib G1W G1b G2W G2b o ho
            hX hZ hPsiW hPsib hPhiW hPhib hG1W hG1b hG2W hG2b r c,
        z1blk_at z phiW phib Z PhiW Phib o ho hZ hPhiW hPhib r c, x1blk_at x psiW psib X PsiW Psib o ho hX hPsiW hPsib r c]
    · rw [shapeCast_self]
      exact (broadcastTo_1b_ab_apply _ _ r d).trans (hC1b d)
  · exact (broadcastTo_a1_ab_apply _ _ r d).trans (s_at H w Hb W16 o ho hH hW16 r)

end Cert.KernelIdeal.PayVal

end
-- ==== Proof.PayVal12.lean ====
/-
  The per-hyperedge normalisation and phases 1 and 2 of the kernel body at the ideal values, entry by entry.
  A grid point sees rows o .. o+399 of the resident copy of H (block HQ) and the normalised hyperedge features MN (2048 × 64).
-/
import proofs.«104241_g40587440947829_cont_sun_m_1101_21_alg».proof.Proof.PayDefs
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

noncomputable section

namespace Cert.KernelIdeal.PayVal

open Cert.KernelIdeal Cert.KernelIdeal.Gen Idealize.ShloMosaic Idealize.ShloMosaic.ValueIdx

-- the whole arrays, as plain functions of row and column
variable (x : Fin 10000 → Fin 128 → EReal) (z : Fin 10000 → Fin 16 → EReal) (H : Fin 10000 → Fin 2048 → EReal) (w : Fin 2048 → EReal)
  (psiW : Fin 128 → Fin 32 → EReal) (psib : Fin 32 → EReal) (phiW : Fin 16 → Fin 32 → EReal) (phib : Fin 32 → EReal)
  (g1W : Fin 64 → Fin 64 → EReal) (g1b : Fin 64 → EReal) (g2W : Fin 64 → Fin 32 → EReal) (g2b : Fin 32 → EReal)
  (c1W : Fin 32 → Fin 64 → EReal) (c1b : Fin 64 → EReal) (c2W : Fin 64 → Fin 64 → EReal) (c2b : Fin 64 → EReal)
  (hdW : Fin 64 → Fin 2 → EReal) (hdb : Fin 2 → EReal)
-- what the body loads at a point
variable (X : Vec Ideal S400x128 .f32) (Z : Vec Ideal S400x16 .f32) (Hb : Vec Ideal S400x2048 .f32) (W16 : Vec Ideal S2048x1 .bf16)
  (Wrow : Vec Ideal S1x2048 .f32)
  (PsiW : Vec Ideal S128x32 .f32) (Psib : Vec Ideal S1x32 .f32) (PhiW : Vec Ideal S16x32 .f32) (Phib : Vec Ideal S1x32 .f32)
  (G1W : Vec Ideal S64x64 .f32) (G1b : Vec Ideal S1x64 .f32) (G2W : Vec Ideal S64x32 .f32) (G2b : Vec Ideal S1x32 .f32)
  (C1W : Vec Ideal S32x64 .f32) (C1b : Vec Ideal S1x64 .f32) (C2W : Vec Ideal S64x64 .f32) (C2b : Vec Ideal S1x64 .f32)
  (HdW : Vec Ideal S64x2 .f32) (Hdb : Vec Ideal S1x2 .f32)
-- the block's first row
variable (o : ℕ) (ho : o + 400 ≤ 10000)

variable (HQ : Vec Ideal S400x2048 .bf16) (MN : Vec Ideal S2048x64 .bf16) (e : Fin 2048 → Fin 64 → EReal)

/-- A column of m entries broadcast across n columns reads, at (p, c), the column's entry p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The scaled, transposed aggregate at (j, d): the shared reading of the two normalisations. -/
private theorem norm_at (Wr De : Vec Ideal S1x2048 .f32) (M : Vec Ideal S64x2048 .f32)
    (h1 : S1x2048.ShapeCasts S1x2048) (hb : S1x2048.Broadcasts S64x2048) (ht : S64x2048.Transposes [1, 0] S2048x64)
    (h2 : S2048x64.ShapeCasts S2048x64) (hlt : FTy.bf16.bits < FTy.f32.bits) (j : Fin 2048) (d : Fin 64) :
    shapeCast S2048x64 (transpose S2048x64 [1, 0] (truncf (F := Ideal) .bf16 (mulf M (broadcastTo S64x2048
        (divf (shapeCast S1x2048 Wr h1) (addf De (broadcast S1x2048 (Scalar.ofBits (F := Ideal) .f32 0x3089705F#32)))) hb)) hlt) ht) h2 (ix2 j d)
      = M (ix2 d j) * Ideal.div (Wr (ix2 0 j)) (De (ix2 0 j) + Spec.eps) := by
  rw [shapeCast_self, shapeCast_self]
  refine (transpose_ix2_apply _ ht j d).trans ?_
  refine (truncf_apply (ψ := .bf16) _ hlt _).trans ?_
  refine (mulf_apply _ _ _).trans ?_
  refine congrArg (fun t => M (ix2 d j) * t) ?_
  refine (broadcastTo_1b_ab_apply _ hb d j).trans ?_
  rfl

/-- Transposing the aggregate and scaling hyperedge j by w(j) / (de(j) + ε). -/
theorem norm1_at (De : Vec Ideal S1x2048 .f32) (M : Vec Ideal S64x2048 .f32) (j : Fin 2048) (d : Fin 64) :
    k0_pay5 (F := Ideal) Wrow De M (ix2 j d) = M (ix2 d j) * Ideal.div (Wrow (ix2 0 j)) (De (ix2 0 j) + Spec.eps) := by
  unfold k0_pay5
  exact norm_at Wrow De M _ _ _ _ _ j d

theorem norm2_at (De : Vec Ideal S1x2048 .f32) (M : Vec Ideal S64x2048 .f32) (j : Fin 2048) (d : Fin 64) :
    k0_pay7 (F := Ideal) Wrow De M (ix2 j d) = M (ix2 d j) * Ideal.div (Wrow (ix2 0 j)) (De (ix2 0 j) + Spec.eps) := by
  unfold k0_pay7
  exact norm_at Wrow De M _ _ _ _ _ j d

/-- The block's column of node factors as the body computes it: rsqrt of (HQ·W16 + ε). -/
private def sCol (A : FVec Ideal S400x2048 .bf16) (u : FVec Ideal S2048x1 .bf16) (hc : S2048x1.ShapeCasts S2048x1) : FVec Ideal S400x1 .f32 :=
  rsqrt (addf (matmul (F := Ideal) dot_S400x2048_S2048x1_S400x1_1_0_0_1_n_n none A (shapeCast S2048x1 u hc) (constant S400x1 .f32 0x00000000#32))
    (broadcast S400x1 (Scalar.ofBits (F := Ideal) .f32 0x3089705F#32)))

/-- The column of node factors at row r is s at row o + r of the arrays. -/
private theorem s_blk_at (hHQ : ∀ (r : Fin 400) (j : Fin 2048), HQ (ix2 r j) = H (row o ho r) j) (hW16 : ∀ j, W16 (ix2 j 0) = w j)
    (hc : S2048x1.ShapeCasts S2048x1) (r : Fin 400) :
    sCol HQ W16 hc (ix2 r (0 : Fin 1)) = Spec.s H w (row o ho r) := by
  unfold sCol Spec.s Spec.dv
  rw [shapeCast_self]
  show Ideal.rsqrt (matmul (F := Ideal) dot_S400x2048_S2048x1_S400x1_1_0_0_1_n_n none HQ W16 (constant S400x1 .f32 0x00000000#32) (ix2 r (0 : Fin 1)) + Spec.eps) = _
  rw [PlainMatmul.matmul_zero_apply_of_eq dot_S400x2048_S2048x1_S400x1_1_0_0_1_n_n rfl none HQ W16 r (0 : Fin 1)]
  refine congrArg (fun t => Ideal.rsqrt (t + Spec.eps)) ?_
  exact Finset.sum_congr rfl fun c _ => by rw [hHQ, hW16]

/-- The block's layer output as the body computes it: max((HQ·MN)·s, 0). -/
private def layBlk (A : FVec Ideal S400x2048 .bf16) (u : FVec Ideal S2048x1 .bf16) (B : FVec Ideal S2048x64 .bf16)
    (hc : S2048x1.ShapeCasts S2048x1) (hb : S400x1.Broadcasts S400x64) : FVec Ideal S400x64 .f32 :=
  maximumf (mulf (matmul (F := Ideal) dot_S400x2048_S2048x64_S400x64_1_0_0_1_n_n none A B (constant S400x64 .f32 0x00000000#32))
      (broadcastTo S400x64 (sCol A u hc) hb))
    (broadcast S400x64 (Scalar.ofBits (F := Ideal) .f32 0x00000000#32))

/-- The layer output at (r, k) is the layer's node output at row o + r for the hyperedge features e. -/
private theorem lay_blk_at (hHQ : ∀ (r : Fin 400) (j : Fin 2048), HQ (ix2 r j) = H (row o ho r) j) (hW16 : ∀ j, W16 (ix2 j 0) = w j)
    (hMN : ∀ j k, MN (ix2 j k) = e j k) (hc : S2048x1.ShapeCasts S2048x1) (hb : S400x1.Broadcasts S400x64) (r : Fin 400) (k : Fin 64) :
    layBlk HQ W16 MN hc hb (ix2 r k) = lay H w e (row o ho r) k := by
  unfold layBlk lay
  refine (maximumf_apply _ _ _).trans ?_
  refine congrArg₂ max ?_ Ideal.ofBits_zero_f32
  refine (mulf_apply _ _ _).trans ?_
  refine congrArg₂ (· * ·) ?_ ?_
  · rw [PlainMatmul.matmul_zero_apply_of_eq dot_S400x2048_S2048x64_S400x64_1_0_0_1_n_n rfl none HQ MN r k]
    exact Finset.sum_congr rfl fun c _ => by rw [hHQ, hMN]
  · exact (broadcastTo_a1_ab_apply _ hb r k).trans (s_blk_at H w W16 o ho HQ hHQ hW16 hc r)

/-- The second aggregation gains, at (d, j), the block's Σ_r ((lay(r,·)·C2 + c2)(d)·s(r))·H(r,j). -/
theorem m2_step
    (hHQ : ∀ (r : Fin 400) (j : Fin 2048), HQ (ix2 r j) = H (row o ho r) j) (hW16 : ∀ j, W16 (ix2 j 0) = w j)
    (hMN : ∀ j k, MN (ix2 j k) = e j k) (hC2W : ∀ k d, C2W (ix2 k d) = c2W k d) (hC2b : ∀ d, C2b (ix2 0 d) = c2b d)
    (acc : Vec Ideal S64x2048 .f32) (d : Fin 64) (j : Fin 2048) :
    k0_pay6 (F := Ideal) HQ W16 MN C2W C2b acc (ix2 d j)
      = acc (ix2 d j) + ∑ r : Fin 400,
          (((∑ k : Fin 64, lay H w e (row o ho r) k * c2W k d) + c2b d) * Spec.s H w (row o ho r)) * H (row o ho r) j := by
  unfold k0_pay6
  show shapeCast S64x2048 (addf acc (matmul (F := Ideal) dot_S400x64_S400x2048_S64x2048_0_0_1_1_n_n none
      (truncf (F := Ideal) .bf16 (mulf (addf (matmul (F := Ideal) dot_S400x64_S64x64_S400x64_1_0_0_1_n_n none
            (layBlk HQ W16 MN shapeCasts_S2048x1_S2048x1 broadcasts_S400x1_S400x64) C2W (constant S400x64 .f32 0x00000000#32))
          (broadcastTo S400x64 (shapeCast S1x64 C2b shapeCasts_S1x64_S1x64) broadcasts_S1x64_S400x64))
        (broadcastTo S400x64 (sCol HQ W16 shapeCasts_S2048x1_S2048x1) broadcasts_S400x1_S400x64)) bitsLt_bf16_f32)
      HQ (constant S64x2048 .f32 0x00000000#32))) shapeCasts_S64x2048_S64x2048 (ix2 d j) = _
  rw [shapeCast_self, shapeCast_self]
  refine (addf_apply _ _ _).trans ?_
  refine congrArg (fun t => acc (ix2 d j) + t) ?_
  refine (matmulT_apply _ HQ d j).trans ?_
  refine Finset.sum_congr rfl fun r _ => ?_
  refine congrArg₂ (· * ·) ?_ (hHQ r j)
  refine (truncf_apply (ψ := .bf16) _ bitsLt_bf16_f32 _).trans ?_
  refine (mulf_apply _ _ _).trans ?_
  refine congrArg₂ (· * ·) ?_ ?_
  · refine (addf_apply _ _ _).trans ?_
    refine congrArg₂ (· + ·) ?_ ?_
    · rw [PlainMatmul.matmul_zero_apply_of_eq dot_S400x64_S64x64_S400x64_1_0_0_1_n_n rfl none _ C2W r d]
      exact Finset.sum_congr rfl fun k _ => by rw [lay_blk_at H w W16 o ho HQ MN e hHQ hW16 hMN, hC2W]
    · exact (broadcastTo_1b_ab_apply _ _ r d).trans (hC2b d)
  · exact (broadcastTo_a1_ab_apply _ _ r d).trans (s_blk_at H w W16 o ho HQ hHQ hW16 _ r)

/-- The logits at a row of the block. -/
theorem logits_at
    (hHQ : ∀ (r : Fin 400) (j : Fin 2048), HQ (ix2 r j) = H (row o ho r) j) (hW16 : ∀ j, W16 (ix2 j 0) = w j)
    (hMN : ∀ j k, MN (ix2 j k) = e j k) (hHdW : ∀ k q, HdW (ix2 k q) = hdW k q) (hHdb : ∀ q, Hdb (ix2 0 q) = hdb q)
    (r : Fin 400) (q : Fin 2) :
    k0_pay8 (F := Ideal) HQ W16 MN HdW Hdb (ix2 r q) = (∑ k : Fin 64, lay H w e (row o ho r) k * hdW k q) + hdb q := by
  unfold k0_pay8
  show addf (matmul (F := Ideal) dot_S400x64_S64x2_S400x2_1_0_0_1_n_n none
        (layBlk HQ W16 MN shapeCasts_S2048x1_S2048x1 broadcasts_S400x1_S400x64) HdW (constant S400x2 .f32 0x00000000#32))
      (broadcastTo S400x2 (shapeCast S1x2 Hdb shapeCasts_S1x2_S1x2) broadcasts_S1x2_S400x2) (ix2 r q) = _
  rw [shapeCast_self]
  refine (addf_apply _ _ _).trans ?_
  refine congrArg₂ (· + ·) ?_ ?_
  · rw [PlainMatmul.matmul_zero_apply_of_eq dot_S400x64_S64x2_S400x2_1_0_0_1_n_n rfl none _ HdW r q]
    exact Finset.sum_congr rfl fun k _ => by rw [lay_blk_at H w W16 o ho HQ MN e hHQ hW16 hMN, hHdW]
  · exact (broadcastTo_1b_ab_apply _ _ r q).trans (hHdb q)

end Cert.KernelIdeal.PayVal

end
-- ==== Proof.LibBlockSum.lean ====
/-
  A general lemma, free of any program: a sum over m·n consecutive indices is the sum over m blocks of the sums over the n
  indices of each block, in any commutative additive monoid.
-/
import Mathlib.Algebra.BigOperators.Fin
import Mathlib.Logic.Equiv.Fin.Basic

namespace BlockSum

/-- Entry r of block t of n-element blocks lies below m·n. -/
theorem idx_lt {m n : ℕ} (t : Fin m) (r : Fin n) : n * t.val + r.val < m * n := by
  have ht := t.isLt; have hr := r.isLt
  calc n * t.val + r.val < n * t.val + n := Nat.add_lt_add_left hr _
    _ = n * (t.val + 1) := (Nat.mul_succ n t.val).symm
    _ ≤ n * m := Nat.mul_le_mul_left n ht
    _ = m * n := Nat.mul_comm n m

/-- Σ over Fin (m·n) = Σ over blocks t < m of Σ over r < n of the entry n·t + r. -/
theorem sum_blocks {M : Type} [AddCommMonoid M] (m n : ℕ) (f : Fin (m * n) → M) :
    ∑ i : Fin (m * n), f i = ∑ t : Fin m, ∑ r : Fin n, f ⟨n * t.val + r.val, idx_lt t r⟩ := by
  -- re-index by the pair (block, position in the block), then split the sum over pairs
  rw [← Equiv.sum_comp (finProdFinEquiv : Fin m × Fin n ≃ Fin (m * n)) f, Fintype.sum_prod_type]
  refine Finset.sum_congr rfl fun t _ => Finset.sum_congr rfl fun r _ => congrArg f (Fin.ext ?_)
  show r.val + n * t.val = n * t.val + r.val
  exact Nat.add_comm _ _

end BlockSum
-- ==== Proof.KI.Closed.lean ====
/-
  The kernel's accumulators and stored blocks in closed form, at the ideal values, in the specification's terms.

  With the argument arrays read as plain functions of row and column: after phase 0 the hyperedge degrees are the
  column sums of H and the first aggregate at (d, j) is Σ_i (y1(i,d)·s(i))·H(i,j); the first normalisation turns it
  into the specification's hyperedge features of y1; the resident copy's block k is rows 400k .. of H; after phase 1
  the second aggregate is the same sum for y2 and the second normalisation gives the hyperedge features of y2; the
  gate block of point t < 25 is the gate on rows 400t .., the logits block of point t ≥ 50 the logits on rows 400(t−50) ...
-/
import proofs.«104241_g40587440947829_cont_sun_m_1101_21_alg».proof.Proof.KI.State
import proofs.«104241_g40587440947829_cont_sun_m_1101_21_alg».proof.Proof.KI.Blocks
import proofs.«104241_g40587440947829_cont_sun_m_1101_21_alg».proof.Proof.PayVal0
import proofs.«104241_g40587440947829_cont_sun_m_1101_21_alg».proof.Proof.PayVal12
import proofs.«104241_g40587440947829_cont_sun_m_1101_21_alg».proof.Proof.LibBlockSum

set_option maxRecDepth 16384

noncomputable section

namespace Cert.KernelIdeal.Gen

open Idealize.ShloMosaic Idealize.ShloMosaic.TcCoe Idealize.ShloMosaic.ValueIdx

variable (m : (ℓ : Loc nD τ sig) → Buf (Elt Ideal) ℓ) (c : Dev nD)

/-! ## The argument arrays as plain functions of row and column -/

abbrev xA : Fin 10000 → Fin 128 → EReal := Spec.mat (m ((c : Thread nD τ).loc main_arg0))
abbrev zA : Fin 10000 → Fin 16 → EReal := Spec.mat (m ((c : Thread nD τ).loc main_arg1))
abbrev HA : Fin 10000 → Fin 2048 → EReal := Spec.mat (m ((c : Thread nD τ).loc main_arg2))
abbrev wA : Fin 2048 → EReal := Spec.vec (m ((c : Thread nD τ).loc main_arg3))
abbrev psiWA : Fin 128 → Fin 32 → EReal := Spec.mat (m ((c : Thread nD τ).loc main_arg4))
abbrev psibA : Fin 32 → EReal := Spec.vec (m ((c : Thread nD τ).loc main_arg5))
abbrev phiWA : Fin 16 → Fin 32 → EReal := Spec.mat (m ((c : Thread nD τ).loc main_arg6))
abbrev phibA : Fin 32 → EReal := Spec.vec (m ((c : Thread nD τ).loc main_arg7))
abbrev g1WA : Fin 64 → Fin 64 → EReal := Spec.mat (m ((c : Thread nD τ).loc main_arg8))
abbrev g1bA : Fin 64 → EReal := Spec.vec (m ((c : Thread nD τ).loc main_arg9))
abbrev g2WA : Fin 64 → Fin 32 → EReal := Spec.mat (m ((c : Thread nD τ).loc main_arg10))
abbrev g2bA : Fin 32 → EReal := Spec.vec (m ((c : Thread nD τ).loc main_arg11))
abbrev c1WA : Fin 32 → Fin 64 → EReal := Spec.mat (m ((c : Thread nD τ).loc main_arg12))
abbrev c1bA : Fin 64 → EReal := Spec.vec (m ((c : Thread nD τ).loc main_arg13))
abbrev c2WA : Fin 64 → Fin 64 → EReal := Spec.mat (m ((c : Thread nD τ).loc main_arg14))
abbrev c2bA : Fin 64 → EReal := Spec.vec (m ((c : Thread nD τ).loc main_arg15))
abbrev hdWA : Fin 64 → Fin 2 → EReal := Spec.mat (m ((c : Thread nD τ).loc main_arg16))
abbrev hdbA : Fin 2 → EReal := Spec.vec (m ((c : Thread nD τ).loc main_arg17))

/-- The two layers' inputs and the node factor, of the argument arrays. -/
abbrev y1A : Fin 10000 → Fin 64 → EReal :=
  Spec.y1 (xA m c) (zA m c) (psiWA m c) (psibA m c) (phiWA m c) (phibA m c) (g1WA m c) (g1bA m c) (g2WA m c) (g2bA m c) (c1WA m c) (c1bA m c)
abbrev y2A : Fin 10000 → Fin 64 → EReal :=
  Spec.y2 (xA m c) (zA m c) (HA m c) (wA m c) (psiWA m c) (psibA m c) (phiWA m c) (phibA m c) (g1WA m c) (g1bA m c) (g2WA m c) (g2bA m c)
    (c1WA m c) (c1bA m c) (c2WA m c) (c2bA m c)
abbrev sA : Fin 10000 → EReal := Spec.s (HA m c) (wA m c)

/-! ## Sums over the rows, block by block -/

/-- A function of the 10000 rows, continued by zero to all naturals. -/
private def ext0 (g : Fin 10000 → EReal) (i : ℕ) : EReal := if h : i < 10000 then g ⟨i, h⟩ else 0

/-- Below 10000 the continuation is the function. -/
private theorem ext0_lt (g : Fin 10000 → EReal) (i : ℕ) (h : i < 10000) : ext0 g i = g ⟨i, h⟩ := by
  unfold ext0
  rw [dif_pos h]

/-- The 25 blocks of 400 rows, summed one after the other, are all 10000 rows. -/
private theorem sum_rows (g : Fin 10000 → EReal) :
    ∑ t' ∈ Finset.range 25, ∑ r : Fin 400, ext0 g (400 * t' + r.val) = ∑ i : Fin 10000, g i := by
  rw [Finset.sum_range]
  refine (BlockSum.sum_blocks 25 400 (fun i : Fin (25 * 400) => ext0 g i.val)).symm.trans ?_
  show ∑ i : Fin 10000, ext0 g i.val = ∑ i : Fin 10000, g i
  exact Finset.sum_congr rfl fun i _ => ext0_lt g i.val i.isLt

/-- Row r of the streamed block of a phase-0 point t is row 400·t + r of the arrays. -/
private theorem row_eq (t : Fin cfg0.N) (ht : t.val < 25) (r : Fin 400) (h : 400 * t.val + r.val < 10000) :
    PayVal.row (rowOff t) (rowOff_le t) r = (⟨400 * t.val + r.val, h⟩ : Fin 10000) := by
  apply Fin.ext
  show 400 * min t.val 24 + r.val = 400 * t.val + r.val
  rw [Nat.min_eq_left (by omega)]

/-- The zero row, the first hyperedge degrees. -/
private theorem pay1_zero (j : Fin 2048) : k0_pay1 (F := Ideal) (ix2 (0 : Fin 1) j) = 0 := by
  unfold k0_pay1
  refine (congrFun (shapeCast_self _ _) _).trans ?_
  exact Ideal.ofBits_zero_f32

/-- The zero block, the first aggregate before phase 0. -/
private theorem pay2_zero (d : Fin 64) (j : Fin 2048) : k0_pay2 (F := Ideal) (ix2 d j) = 0 := by
  unfold k0_pay2
  refine (congrFun (shapeCast_self _ _) _).trans ?_
  exact Ideal.ofBits_zero_f32

/-- The zero block, the second aggregate before phase 1. -/
private theorem pay3_zero (d : Fin 64) (j : Fin 2048) : k0_pay3 (F := Ideal) (ix2 d j) = 0 := by
  unfold k0_pay3
  refine (congrFun (shapeCast_self _ _) _).trans ?_
  exact Ideal.ofBits_zero_f32

/-! ## Closed forms -/

/-- The block of H a phase-0 point t sees, at (r, j), is H at row 400·t + r. -/
private theorem B1_row (t : Fin cfg0.N) (ht : t.val < 25) (r : Fin 400) (j : Fin 2048) :
    B1 m c t (ix2 r j) = ext0 (fun i => HA m c i j) (400 * t.val + r.val) := by
  have h : 400 * t.val + r.val < 10000 := by have := r.isLt; omega
  rw [ext0_lt _ _ h, ← row_eq t ht r h]
  exact B1_at m c t r j

/-- The hyperedge degrees after a phase-0 point n: the column sums of H over blocks 0 .. n. -/
private theorem de_partial (j : Fin 2048) : ∀ (n : ℕ) (hn : n < cfg0.N), n < 25 →
    deAt m c n hn (ix2 (0 : Fin 1) j) = ∑ t' ∈ Finset.range (n + 1), ∑ r : Fin 400, ext0 (fun i => HA m c i j) (400 * t' + r.val)
  | 0, hn, _ => by
    show k0_pay12 (B1 m c ⟨0, hn⟩) (k0_pay1 (F := Ideal)) (ix2 (0 : Fin 1) j) = _
    refine (PayVal.de_step _ _ j).trans ?_
    rw [pay1_zero, zero_add, Finset.sum_range_one]
    exact Finset.sum_congr rfl fun r _ => B1_row m c ⟨0, hn⟩ (show (0 : ℕ) < 25 by decide) r j
  | n + 1, hn, h => by
    rw [deAt_succ_lt m c n hn h]
    refine (PayVal.de_step _ _ j).trans ?_
    rw [de_partial j n (Nat.lt_of_succ_lt hn) (by omega), Finset.sum_range_succ _ (n + 1)]
    exact congrArg (_ + ·) (Finset.sum_congr rfl fun r _ => B1_row m c ⟨n + 1, hn⟩ h r j)

theorem de_closed (j : Fin 2048) :
    deAt m c 24 (by have := N75; omega) (ix2 (0 : Fin 1) j) = Spec.de (HA m c) j := by
  rw [de_partial m c j 24 _ (by decide)]
  exact sum_rows (fun i => HA m c i j)

/-- A phase-0 point t adds to the first aggregate, at (d, j), its block's Σ_r (y1(r,d)·s(r))·H(r,j). -/
private theorem m1_point (t : Fin cfg0.N) (ht : t.val < 25) (acc : Vec Ideal S64x2048 .f32) (d : Fin 64) (j : Fin 2048) :
    k0_pay4 (F := Ideal) acc (agg1 m c t) (ix2 d j)
      = acc (ix2 d j) + ∑ r : Fin 400, ext0 (fun i => (y1A m c i d * sA m c i) * HA m c i j) (400 * t.val + r.val) := by
  unfold agg1
  refine (PayVal.m1_step (xA m c) (zA m c) (HA m c) (wA m c) (psiWA m c) (psibA m c) (phiWA m c) (phibA m c) (g1WA m c) (g1bA m c)
    (g2WA m c) (g2bA m c) (c1WA m c) (c1bA m c)
    (B2 m c t) (B3 m c t) (B1 m c t) (B4 m c t) (B6 m c t) (B7 m c t) (B8 m c t) (B9 m c t) (B10 m c t) (B11 m c t) (B12 m c t) (B13 m c t)
    (B14 m c t) (B15 m c t) (rowOff t) (rowOff_le t)
    (B2_at m c t) (B3_at m c t) (B1_at m c t) (B4_at m c t) (B6_at m c t) (B7_at m c t) (B8_at m c t) (B9_at m c t) (B10_at m c t) (B11_at m c t)
    (B12_at m c t) (B13_at m c t) (B14_at m c t) (B15_at m c t) acc d j).trans ?_
  refine congrArg (acc (ix2 d j) + ·) (Finset.sum_congr rfl fun r _ => ?_)
  have h : 400 * t.val + r.val < 10000 := by have := r.isLt; omega
  rw [ext0_lt _ _ h, row_eq t ht r h]

/-- The first aggregate after a phase-0 point n: the sum over the rows of blocks 0 .. n. -/
private theorem m1_partial (d : Fin 64) (j : Fin 2048) : ∀ (n : ℕ) (hn : n < cfg0.N), n < 25 →
    m1At m c n hn (ix2 d j)
      = ∑ t' ∈ Finset.range (n + 1), ∑ r : Fin 400, ext0 (fun i => (y1A m c i d * sA m c i) * HA m c i j) (400 * t' + r.val)
  | 0, hn, _ => by
    show k0_pay4 (k0_pay2 (F := Ideal)) (agg1 m c ⟨0, hn⟩) (ix2 d j) = _
    refine (m1_point m c ⟨0, hn⟩ (show (0 : ℕ) < 25 by decide) _ d j).trans ?_
    rw [pay2_zero, zero_add, Finset.sum_range_one]
  | n + 1, hn, h => by
    rw [m1At_succ_lt m c n hn h]
    refine (m1_point m c ⟨n + 1, hn⟩ h _ d j).trans ?_
    rw [m1_partial d j n (Nat.lt_of_succ_lt hn) (by omega), Finset.sum_range_succ _ (n + 1)]

theorem m1_closed (d : Fin 64) (j : Fin 2048) :
    m1At m c 24 (by have := N75; omega) (ix2 d j) = ∑ i : Fin 10000, (y1A m c i d * sA m c i) * HA m c i j := by
  rw [m1_partial m c d j 24 _ (by decide)]
  exact sum_rows (fun i => (y1A m c i d * sA m c i) * HA m c i j)

/-- An aggregate Σ_i (y(i,d)·s(i))·H(i,j), scaled by w(j) / (de(j) + ε), is the hyperedge feature of y at (j, d). -/
private theorem edge_of_agg (y : Fin 10000 → Fin 64 → EReal) (j : Fin 2048) (d : Fin 64) :
    (∑ i : Fin 10000, (y i d * sA m c i) * HA m c i j) * Ideal.div (wA m c j) (Spec.de (HA m c) j + Spec.eps)
      = Spec.edge (HA m c) (wA m c) y j d := by
  unfold Spec.edge Spec.se
  exact congrArg (· * Ideal.div (wA m c j) (Spec.de (HA m c) j + Spec.eps)) (Finset.sum_congr rfl fun i _ => mul_comm _ _)

theorem mn1_closed (j : Fin 2048) (d : Fin 64) :
    mn1 m c (ix2 j d) = Spec.edge (HA m c) (wA m c) (y1A m c) j d := by
  unfold mn1
  refine (PayVal.norm1_at _ _ _ j d).trans ?_
  rw [m1_closed m c d j, de_closed m c j, B5_at m c _ j]
  exact edge_of_agg m c (y1A m c) j d

theorem hq_closed (k : ℕ) (hk : k < cfg0.N) (hk25 : k < 25) (r : Fin 400) (j : Fin 2048) :
    hqBlk m c k hk (ix2 r j) = HA m c (⟨400 * k + r.val, by have := r.isLt; omega⟩ : Fin 10000) j := by
  unfold hqBlk
  refine (PayVal.hq_at _ r j).trans ?_
  refine (B1_at m c ⟨k, hk⟩ r j).trans ?_
  exact congrArg (fun i => HA m c i j) (row_eq ⟨k, hk⟩ hk25 r (show 400 * k + r.val < 10000 by have := r.isLt; omega))

/-- A phase-1 point working on block q adds to the second aggregate, at (d, j), Σ_r (y2(r,d)·s(r))·H(r,j) over the block's rows. -/
private theorem m2_point (n : ℕ) (hn : n < cfg0.N) (q : ℕ) (hq : q < cfg0.N) (hq25 : q < 25) (acc : Vec Ideal S64x2048 .f32)
    (d : Fin 64) (j : Fin 2048) :
    k0_pay6 (F := Ideal) (hqBlk m c q hq) (B4 m c ⟨n, hn⟩) (mn1 m c) (B16 m c ⟨n, hn⟩) (B17 m c ⟨n, hn⟩) acc (ix2 d j)
      = acc (ix2 d j) + ∑ r : Fin 400, ext0 (fun i => (y2A m c i d * sA m c i) * HA m c i j) (400 * q + r.val) := by
  refine (PayVal.m2_step (HA m c) (wA m c) (c2WA m c) (c2bA m c) (B4 m c ⟨n, hn⟩) (B16 m c ⟨n, hn⟩) (B17 m c ⟨n, hn⟩) (400 * q) (by omega)
    (hqBlk m c q hq) (mn1 m c) (Spec.edge (HA m c) (wA m c) (y1A m c))
    (hq_closed m c q hq hq25) (B4_at m c ⟨n, hn⟩) (mn1_closed m c) (B16_at m c ⟨n, hn⟩) (B17_at m c ⟨n, hn⟩) acc d j).trans ?_
  refine congrArg (acc (ix2 d j) + ·) (Finset.sum_congr rfl fun r _ => ?_)
  have h : 400 * q + r.val < 10000 := by have := r.isLt; omega
  rw [ext0_lt _ _ h]
  rfl

/-- The second aggregate after the phase-1 point 25 + k: the sum over the rows of blocks 0 .. k. -/
private theorem m2_partial (d : Fin 64) (j : Fin 2048) : ∀ (k : ℕ) (hk : 25 + k < cfg0.N), k < 25 →
    m2At m c (25 + k) hk (ix2 d j)
      = ∑ t' ∈ Finset.range (k + 1), ∑ r : Fin 400, ext0 (fun i => (y2A m c i d * sA m c i) * HA m c i j) (400 * t' + r.val)
  | 0, hk, _ => by
    show m2At m c (24 + 1) hk (ix2 d j) = _
    rw [m2At_succ_in m c 24 hk (by omega)]
    refine (m2_point m c (24 + 1) hk (24 + 1 - 25) (by have := N75; omega) (by omega) _ d j).trans ?_
    rw [m2At_early m c 24 (by have := N75; omega) (by omega), pay3_zero, zero_add, Finset.sum_range_one]
  | k + 1, hk, h => by
    show m2At m c (25 + k + 1) hk (ix2 d j) = _
    rw [m2At_succ_in m c (25 + k) hk (by omega)]
    refine (m2_point m c (25 + k + 1) hk (25 + k + 1 - 25) (by have := N75; omega) (by omega) _ d j).trans ?_
    rw [m2_partial d j k (Nat.lt_of_succ_lt hk) (by omega), Finset.sum_range_succ _ (k + 1),
      show 25 + k + 1 - 25 = k + 1 from by omega]

theorem m2_closed (d : Fin 64) (j : Fin 2048) :
    m2At m c 49 (by have := N75; omega) (ix2 d j) = ∑ i : Fin 10000, (y2A m c i d * sA m c i) * HA m c i j := by
  show m2At m c (25 + 24) _ (ix2 d j) = _
  rw [m2_partial m c d j 24 _ (by decide)]
  exact sum_rows (fun i => (y2A m c i d * sA m c i) * HA m c i j)

theorem mn2_closed (j : Fin 2048) (d : Fin 64) :
    mn2 m c (ix2 j d) = Spec.edge (HA m c) (wA m c) (y2A m c) j d := by
  unfold mn2
  refine (PayVal.norm2_at _ _ _ j d).trans ?_
  rw [m2_closed m c d j, deAt_const m c 49 _ (by decide), de_closed m c j, B5_at m c _ j]
  exact edge_of_agg m c (y2A m c) j d

theorem g_closed (t : Fin cfg0.N) (ht : t.val < 25) (r : Fin 400) (a : Fin 32) :
    gBlk m c t (ix2 r a)
      = Spec.gate (xA m c) (zA m c) (psiWA m c) (psibA m c) (phiWA m c) (phibA m c) (g1WA m c) (g1bA m c) (g2WA m c) (g2bA m c)
          (⟨400 * t.val + r.val, by have := r.isLt; omega⟩ : Fin 10000) a := by
  unfold gBlk
  refine (PayVal.gate_at (xA m c) (zA m c) (psiWA m c) (psibA m c) (phiWA m c) (phibA m c) (g1WA m c) (g1bA m c) (g2WA m c) (g2bA m c)
    (B2 m c t) (B3 m c t) (B6 m c t) (B7 m c t) (B8 m c t) (B9 m c t) (B10 m c t) (B11 m c t) (B12 m c t) (B13 m c t) (rowOff t) (rowOff_le t)
    (B2_at m c t) (B3_at m c t) (B6_at m c t) (B7_at m c t) (B8_at m c t) (B9_at m c t) (B10_at m c t) (B11_at m c t) (B12_at m c t) (B13_at m c t)
    r a).trans ?_
  rw [row_eq t ht r (by have := r.isLt; omega)]

theorem l_closed (t : Fin cfg0.N) (ht : 50 ≤ t.val) (r : Fin 400) (q : Fin 2) :
    lBlk m c t (ix2 r q)
      = Spec.logits (xA m c) (zA m c) (HA m c) (wA m c) (psiWA m c) (psibA m c) (phiWA m c) (phibA m c) (g1WA m c) (g1bA m c) (g2WA m c) (g2bA m c)
          (c1WA m c) (c1bA m c) (c2WA m c) (c2bA m c) (hdWA m c) (hdbA m c)
          (⟨400 * (t.val - 50) + r.val, by have := r.isLt; have := t.isLt; have := N75; omega⟩ : Fin 10000) q := by
  unfold lBlk
  have hq25 : t.val - 50 < 25 := by have := t.isLt; have := N75; omega
  refine (PayVal.logits_at (HA m c) (wA m c) (hdWA m c) (hdbA m c) (B4 m c t) (B18 m c t) (B19 m c t) (400 * (t.val - 50)) (by omega)
    (hqBlk m c (t.val - 50) (by have := t.isLt; omega)) (mn2 m c) (Spec.edge (HA m c) (wA m c) (y2A m c))
    (hq_closed m c (t.val - 50) _ hq25) (B4_at m c t) (mn2_closed m c) (B18_at m c t) (B19_at m c t) r q).trans ?_
  rfl

end Cert.KernelIdeal.Gen

end
-- ==== Proof.KI.Final.lean ====
/-
  The two output arrays after the run, at the ideal values: the gate array and the logits array of the specification.

  The gate's window is written back after points 0 .. 23 (blocks 0 .. 23) and after the last point (block 24), each time
  holding that block's gate; the logits' window after points 50 .. 74 (blocks 0 .. 24), holding that block's logits.
  The blocks tile the arrays, so each array ends as the one function whose blocks they are.
-/
import proofs.«104241_g40587440947829_cont_sun_m_1101_21_alg».proof.Proof.KI.BodyDefs
import proofs.«104241_g40587440947829_cont_sun_m_1101_21_alg».proof.Proof.KI.Closed

set_option maxRecDepth 16384

noncomputable section

namespace Cert.KernelIdeal.Gen

open Idealize.ShloMosaic Idealize.ShloMosaic.TcCoe Idealize.ShloMosaic.ValueIdx
open Idealize.ShloMosaic.Pipeline (Dat Cfg Window)

variable (m : (ℓ : Loc nD τ sig) → Buf (Elt Ideal) ℓ) (c : Dev nD)

/-- The gate array of the argument arrays. -/
abbrev gateArr : Spec.A2 10000 32 :=
  Spec.gateOut (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- The logits array of the argument arrays. -/
abbrev logitsArr : Spec.A2 10000 2 :=
  Spec.logitsOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))

/-! ## The logits' window -/

/-- The logits array at an index whose coordinates are (ρ, q) is the specification's logits at row ρ, column q. -/
private theorem logitsArr_at (i : S10000x2.Idx) (ρ : Fin 10000) (q : Fin 2) (h0 : (i 0).val = ρ.val) (h1 : (i 1).val = q.val) :
    logitsArr m c i = Spec.logits (xA m c) (zA m c) (HA m c) (wA m c) (psiWA m c) (psibA m c) (phiWA m c) (phibA m c) (g1WA m c) (g1bA m c)
      (g2WA m c) (g2bA m c) (c1WA m c) (c1bA m c) (c2WA m c) (c2bA m c) (hdWA m c) (hdbA m c) ρ q := by
  have e0 : (⟨(i 0).val, idx2_lt0 i⟩ : Fin 10000) = ρ := Fin.ext h0
  have e1 : (⟨(i 1).val, idx2_lt1 i⟩ : Fin 2) = q := Fin.ext h1
  unfold logitsArr Spec.logitsOut
  dsimp only
  rw [e0, e1]

/-- The logits' window is at block max (t − 50) 0 of the rows, block 0 of the columns. -/
private theorem idx20 : ∀ t : Fin cfg0.N, win0_20.index t (0 : Fin 2) = t.val - 50 ∧ win0_20.index t (1 : Fin 2) = 0 :=
  (by decide +kernel : ∀ t : Fin grid0.N, _)

/-- What a phase-2 point writes back is its block of the logits array. -/
private theorem flushed20_eq (t : Fin cfg0.N) (ht : 50 ≤ t.val) :
    (dats (F := Ideal) m 0 c).flushed 20 t = ((cfg0.win 20).blk t).view.read (Elt Ideal) (logitsArr m c) := by
  show (cfg0.win 20).cut (grid0.coords t) ((dats m 0 c).after 20 t) = _
  rw [after20]
  obtain ⟨i0, i1⟩ := idx20 t
  funext y
  have hy0 : (y 0).val < 400 := (y 0).isLt
  have hy1 : (y 1).val < 2 := (y 1).isLt
  have hN := N75
  have ht' := t.isLt
  show lBlk m c t ((cfg0.win 20).xinj (grid0.coords t) y) = logitsArr m c (((cfg0.win 20).blk t).view.emb y)
  have ey : (cfg0.win 20).xinj (grid0.coords t) y = ix2 (⟨(y 0).val, hy0⟩ : Fin 400) (⟨(y 1).val, hy1⟩ : Fin 2) := by
    funext a
    match a with
    | ⟨0, _⟩ => rfl
    | ⟨1, _⟩ => rfl
  rw [ey, l_closed m c t ht]
  refine (logitsArr_at m c _ _ _ ?_ ?_).symm
  · show win0_20.index t (0 : Fin 2) * 400 + 1 * (y 0).val = 400 * (t.val - 50) + (y 0).val
    rw [i0]; omega
  · show win0_20.index t (1 : Fin 2) * 2 + 1 * (y 1).val = (y 1).val
    rw [i1]; omega

/-- An index is in point t's block iff each coordinate is in the block's range on its axis. -/
private theorem mem_blk20 (t : Fin cfg0.N) (i : S10000x2.Idx) :
    i ∈ ((cfg0.win 20).blk t).view.set ↔ ∀ a : Fin 2, win0_20.index t a * S400x2.size a ≤ (i a).val ∧ (i a).val < win0_20.index t a * S400x2.size a + S400x2.size a := by
  show i ∈ ((View.whole main_v10_1).slice (win0_20.rect t)).set ↔ _
  rw [View.set_slice_whole, Rect.mem_set_unit]
  exact Iff.rfl

/-- Every row is in the block of the phase-2 point 50 + row / 400. -/
private theorem cover20 (i : S10000x2.Idx) : ∃ t : Fin cfg0.N, (cfg0.win 20).flush t = true ∧ i ∈ ((cfg0.win 20).blk t).view.set := by
  have hi0 : (i 0).val < 10000 := (i 0).isLt
  have hi1 : (i 1).val < 2 := (i 1).isLt
  have hN := N75
  refine ⟨⟨50 + (i 0).val / 400, by omega⟩, (flush20_iff _).mpr (by show 50 ≤ 50 + (i 0).val / 400; omega), ?_⟩
  obtain ⟨i0, i1⟩ := idx20 ⟨50 + (i 0).val / 400, by omega⟩
  rw [mem_blk20]
  intro a
  match a with
  | ⟨0, _⟩ =>
    show win0_20.index ⟨50 + (i 0).val / 400, _⟩ (0 : Fin 2) * 400 ≤ (i 0).val ∧ (i 0).val < win0_20.index ⟨50 + (i 0).val / 400, _⟩ (0 : Fin 2) * 400 + 400
    rw [i0]; show (50 + (i 0).val / 400 - 50) * 400 ≤ (i 0).val ∧ (i 0).val < (50 + (i 0).val / 400 - 50) * 400 + 400; omega
  | ⟨1, _⟩ =>
    show win0_20.index ⟨50 + (i 0).val / 400, _⟩ (1 : Fin 2) * 2 ≤ (i 1).val ∧ (i 1).val < win0_20.index ⟨50 + (i 0).val / 400, _⟩ (1 : Fin 2) * 2 + 2
    rw [i1]; omega

/-! ## The gate's window -/

/-- The gate array at an index whose coordinates are (ρ, a) is the specification's gate at row ρ, column a. -/
private theorem gateArr_at (i : S10000x32.Idx) (ρ : Fin 10000) (a : Fin 32) (h0 : (i 0).val = ρ.val) (h1 : (i 1).val = a.val) :
    gateArr m c i = Spec.gate (xA m c) (zA m c) (psiWA m c) (psibA m c) (phiWA m c) (phibA m c) (g1WA m c) (g1bA m c) (g2WA m c) (g2bA m c) ρ a := by
  have e0 : (⟨(i 0).val, idx2_lt0 i⟩ : Fin 10000) = ρ := Fin.ext h0
  have e1 : (⟨(i 1).val, idx2_lt1 i⟩ : Fin 32) = a := Fin.ext h1
  unfold gateArr Spec.gateOut
  dsimp only
  rw [e0, e1]

/-- The gate's window is at block min t 24 of the rows, block 0 of the columns. -/
private theorem idx19 : ∀ t : Fin cfg0.N, win0_19.index t (0 : Fin 2) = min t.val 24 ∧ win0_19.index t (1 : Fin 2) = 0 :=
  (by decide +kernel : ∀ t : Fin grid0.N, _)

/-- What is written back after a point t < 24, and after the last point, is that point's block of the gate array. -/
private theorem flushed19_eq (t : Fin cfg0.N) (hf : t.val < 24 ∨ t.val = 74) :
    (dats (F := Ideal) m 0 c).flushed 19 t = ((cfg0.win 19).blk t).view.read (Elt Ideal) (gateArr m c) := by
  show (cfg0.win 19).cut (grid0.coords t) ((dats m 0 c).after 19 t) = _
  obtain ⟨i0, i1⟩ := idx19 t
  have hN := N75
  funext y
  have hy0 : (y 0).val < 400 := (y 0).isLt
  have hy1 : (y 1).val < 32 := (y 1).isLt
  have ey : (cfg0.win 19).xinj (grid0.coords t) y = ix2 (⟨(y 0).val, hy0⟩ : Fin 400) (⟨(y 1).val, hy1⟩ : Fin 32) := by
    funext a
    match a with
    | ⟨0, _⟩ => rfl
    | ⟨1, _⟩ => rfl
  rcases hf with hlt | hlast
  · -- a phase-0 point before the last block: its own gate block, rows 400 t ..
    rw [after19_live m c t (by omega)]
    show gBlk m c t ((cfg0.win 19).xinj (grid0.coords t) y) = gateArr m c (((cfg0.win 19).blk t).view.emb y)
    rw [ey, g_closed m c t (by omega)]
    refine (gateArr_at m c _ _ _ ?_ ?_).symm
    · show win0_19.index t (0 : Fin 2) * 400 + 1 * (y 0).val = 400 * t.val + (y 0).val
      rw [i0]; omega
    · show win0_19.index t (1 : Fin 2) * 32 + 1 * (y 1).val = (y 1).val
      rw [i1]; omega
  · -- the last point: the window still holds block 24's gate, rows 9600 ..
    rw [after19_late m c t (by omega)]
    show gBlk m c ⟨24, _⟩ ((cfg0.win 19).xinj (grid0.coords t) y) = gateArr m c (((cfg0.win 19).blk t).view.emb y)
    rw [ey, g_closed m c ⟨24, by omega⟩ (show (24 : ℕ) < 25 by omega)]
    refine (gateArr_at m c _ _ _ ?_ ?_).symm
    · show win0_19.index t (0 : Fin 2) * 400 + 1 * (y 0).val = 400 * 24 + (y 0).val
      rw [i0]; omega
    · show win0_19.index t (1 : Fin 2) * 32 + 1 * (y 1).val = (y 1).val
      rw [i1]; omega

/-- An index is in point t's block iff each coordinate is in the block's range on its axis. -/
private theorem mem_blk19 (t : Fin cfg0.N) (i : S10000x32.Idx) :
    i ∈ ((cfg0.win 19).blk t).view.set ↔ ∀ a : Fin 2, win0_19.index t a * S400x32.size a ≤ (i a).val ∧ (i a).val < win0_19.index t a * S400x32.size a + S400x32.size a := by
  show i ∈ ((View.whole main_v10_0).slice (win0_19.rect t)).set ↔ _
  rw [View.set_slice_whole, Rect.mem_set_unit]
  exact Iff.rfl

/-- A row below 9600 is in the block of point row / 400; a row from 9600 on is in the block written back after the last point. -/
private theorem cover19 (i : S10000x32.Idx) : ∃ t : Fin cfg0.N, (cfg0.win 19).flush t = true ∧ i ∈ ((cfg0.win 19).blk t).view.set := by
  have hi0 : (i 0).val < 10000 := (i 0).isLt
  have hi1 : (i 1).val < 32 := (i 1).isLt
  have hN := N75
  by_cases hρ : (i 0).val / 400 < 24
  · refine ⟨⟨(i 0).val / 400, by omega⟩, (flush19_iff _).mpr (Or.inl hρ), ?_⟩
    obtain ⟨i0, i1⟩ := idx19 ⟨(i 0).val / 400, by omega⟩
    rw [mem_blk19]
    intro a
    match a with
    | ⟨0, _⟩ =>
      show win0_19.index ⟨(i 0).val / 400, _⟩ (0 : Fin 2) * 400 ≤ (i 0).val ∧ (i 0).val < win0_19.index ⟨(i 0).val / 400, _⟩ (0 : Fin 2) * 400 + 400
      rw [i0]; show min ((i 0).val / 400) 24 * 400 ≤ (i 0).val ∧ (i 0).val < min ((i 0).val / 400) 24 * 400 + 400; omega
    | ⟨1, _⟩ =>
      show win0_19.index ⟨(i 0).val / 400, _⟩ (1 : Fin 2) * 32 ≤ (i 1).val ∧ (i 1).val < win0_19.index ⟨(i 0).val / 400, _⟩ (1 : Fin 2) * 32 + 32
      rw [i1]; omega
  · refine ⟨⟨74, by omega⟩, (flush19_iff _).mpr (Or.inr rfl), ?_⟩
    obtain ⟨i0, i1⟩ := idx19 ⟨74, by omega⟩
    rw [mem_blk19]
    intro a
    match a with
    | ⟨0, _⟩ =>
      show win0_19.index ⟨74, _⟩ (0 : Fin 2) * 400 ≤ (i 0).val ∧ (i 0).val < win0_19.index ⟨74, _⟩ (0 : Fin 2) * 400 + 400
      rw [i0]; show min 74 24 * 400 ≤ (i 0).val ∧ (i 0).val < min 74 24 * 400 + 400; omega
    | ⟨1, _⟩ =>
      show win0_19.index ⟨74, _⟩ (1 : Fin 2) * 32 ≤ (i 1).val ∧ (i 1).val < win0_19.index ⟨74, _⟩ (1 : Fin 2) * 32 + 32
      rw [i1]; omega

/-- The gate's result array ends as the gate array. -/
theorem final19 : (dats (F := Ideal) m 0 c).arrAt 19 cfg0.N = gateArr m c := by
  exact (dats (F := Ideal) m 0 c).arrAt_eq_of_cover 19 (gateArr m c) (fun t hf => flushed19_eq m c t ((flush19_iff t).mp hf)) cover19

/-- The logits' result array ends as the logits array. -/
theorem final20 : (dats (F := Ideal) m 0 c).arrAt 20 cfg0.N = logitsArr m c := by
  exact (dats (F := Ideal) m 0 c).arrAt_eq_of_cover 20 (logitsArr m c) (fun t hf => flushed20_eq m c t ((flush20_iff t).mp hf)) cover20

end Cert.KernelIdeal.Gen

end
-- ==== Proof.KI.Value.lean ====
/-
  The idealized kernel's run with its results named: every weakly fair execution ends with the logits array and the
  gate array of the specification in the two result buffers, and the argument arrays unchanged.
-/
import proofs.«104241_g40587440947829_cont_sun_m_1101_21_alg».proof.Proof.KI.FrameRun
import proofs.«104241_g40587440947829_cont_sun_m_1101_21_alg».proof.Proof.KI.Final

set_option maxRecDepth 16384

noncomputable section

namespace Cert.KernelIdeal.Gen

open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

set_option maxHeartbeats 1600000 in
/-- The frame run's post read at the two result arrays (what the write-backs left: the specification's arrays) and at
    the argument arrays (a staged input is its entry contents; an array no window stages bypasses the region). -/
theorem run_value :
    θ_run (defs (F := Ideal)) (onTc (τ := τ) (main (F := Ideal))) ⟨m, fun _ => 0, ρ⟩ (fun r => ∀ c : Dev nD,
      r.2.mem ((c.tc : Thread nD τ).loc main_v10_1) = logitsArr m c
      ∧ r.2.mem ((c.tc : Thread nD τ).loc main_v10_0) = gateArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).1 20).trans (final20 m c), ((h c).1 19).trans (final19 m c),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).1 0).trans (((dats m 0 c).arrAt_in 0 rfl _).trans ((A_eq m c 0).trans (V_main_arg2 m c))),
      ((h c).2 main_arg3 (Pipeline.mem_restRefs_of main_arg3 (by decide) (by decide))).trans (V_main_arg3 m c),
      ((h c).1 5).trans (((dats m 0 c).arrAt_in 5 rfl _).trans ((A_eq m c 5).trans (V_main_arg4 m c))),
      ((h c).2 main_arg5 (Pipeline.mem_restRefs_of main_arg5 (by decide) (by decide))).trans (V_main_arg5 m c),
      ((h c).1 7).trans (((dats m 0 c).arrAt_in 7 rfl _).trans ((A_eq m c 7).trans (V_main_arg6 m c))),
      ((h c).2 main_arg7 (Pipeline.mem_restRefs_of main_arg7 (by decide) (by decide))).trans (V_main_arg7 m c),
      ((h c).1 9).trans (((dats m 0 c).arrAt_in 9 rfl _).trans ((A_eq m c 9).trans (V_main_arg8 m c))),
      ((h c).2 main_arg9 (Pipeline.mem_restRefs_of main_arg9 (by decide) (by decide))).trans (V_main_arg9 m c),
      ((h c).1 11).trans (((dats m 0 c).arrAt_in 11 rfl _).trans ((A_eq m c 11).trans (V_main_arg10 m c))),
      ((h c).2 main_arg11 (Pipeline.mem_restRefs_of main_arg11 (by decide) (by decide))).trans (V_main_arg11 m c),
      ((h c).1 13).trans (((dats m 0 c).arrAt_in 13 rfl _).trans ((A_eq m c 13).trans (V_main_arg12 m c))),
      ((h c).2 main_arg13 (Pipeline.mem_restRefs_of main_arg13 (by decide) (by decide))).trans (V_main_arg13 m c),
      ((h c).1 15).trans (((dats m 0 c).arrAt_in 15 rfl _).trans ((A_eq m c 15).trans (V_main_arg14 m c))),
      ((h c).2 main_arg15 (Pipeline.mem_restRefs_of main_arg15 (by decide) (by decide))).trans (V_main_arg15 m c),
      ((h c).1 17).trans (((dats m 0 c).arrAt_in 17 rfl _).trans ((A_eq m c 17).trans (V_main_arg16 m c))),
      ((h c).2 main_arg17 (Pipeline.mem_restRefs_of main_arg17 (by decide) (by decide))).trans (V_main_arg17 m c)⟩) (run_main (F := Ideal) m ρ)

end Cert.KernelIdeal.Gen

end
-- ==== Proof.RefValue.lean ====
/-
  The reference program's two results, read at the ideal values, are the specification's arrays of its arguments.
-/
import proofs.«104241_g40587440947829_cont_sun_m_1101_21_alg».proof.Defs
import proofs.«104241_g40587440947829_cont_sun_m_1101_21_alg».proof.Proof.Gen.ReferenceIdeal
import proofs.«104241_g40587440947829_cont_sun_m_1101_21_alg».proof.Proof.Gen.ReferenceIdeal.Run
import proofs.«104241_g40587440947829_cont_sun_m_1101_21_alg».proof.Proof.Gen.ReferenceIdeal.Read
import proofs.«104241_g40587440947829_cont_sun_m_1101_21_alg».proof.Proof.SpecArrays
import Idealize.ShloMosaic.PureOps.IdealRules
import Idealize.ShloMosaic.PureOps.Ideal.Laws
import Idealize.ShloMosaic.Lib.Pipeline.Value
import Idealize.ShloMosaic.Lib.ValueIdx

noncomputable section

namespace Cert.RefValue

open Idealize.ShloMosaic Idealize.ShloMosaic.TcCoe Idealize.SL.Sem Cert.ReferenceIdeal
open Cert.ReferenceIdeal.Gen Cert.ReferenceIdeal.Read Idealize.ShloMosaic.ValueIdx

/-- An array of extended reals over a literal shape, as the reference program's stages take and return it. -/
abbrev T (S : Shape) : Type := (⟨S, .f32⟩ : BufTy).Contents (Elt Ideal)

/-- The printed words of one and of zero are the numbers. -/
theorem one_word : Ideal.ofBits .f32 0x3F800000#32 = 1 := IdealRules.sign_bit.ideal_onePat .f32
theorem zero_word : Ideal.ofBits .f32 0x00000000#32 = 0 := Ideal.ofBits_zero_f32

section
variable (x0 : T S10000x128) (x1 : T S10000x16) (x2 : T S10000x2048) (x3 : T S2048) (x4 : T S128x32) (x5 : T S32)
  (x6 : T S16x32) (x7 : T S32) (x8 : T S64x64) (x9 : T S64) (x10 : T S64x32) (x11 : T S32) (x12 : T S32x64) (x13 : T S64)
  (x14 : T S64x64) (x15 : T S64) (x16 : T S64x2) (x17 : T S2)

/-- The first embedding: x·Ψ + ψ at row p, column q. -/
theorem x1_at (p : Fin 10000) (q : Fin 32) :
    val_main_v3 (F := Ideal) x0 x4 x5 (ix2 p q) = Spec.x1 (Spec.mat x0) (Spec.mat x4) (Spec.vec x5) p q := by
  rw [val_main_v3_apply, val_main_v0_apply, val_main_v2_apply, val_main_v1_apply]
  have el : ∀ k : Fin 128, lidx_main_v0 (ix2 p q) k = ix2 p k := fun k => funext fun a => Fin.ext (by
    match a with | ⟨0, _⟩ => rfl | ⟨1, _⟩ => rfl)
  have er : ∀ k : Fin 128, ridx_main_v0 (ix2 p q) k = ix2 k q := fun k => funext fun a => Fin.ext (by
    match a with | ⟨0, _⟩ => rfl | ⟨1, _⟩ => rfl)
  have eb : idx_main_v1 (idx_main_v2 (ix2 p q)) = ix1 q := funext fun a => Fin.ext (by
    match a with | ⟨0, _⟩ => rfl)
  simp only [el, er, eb, Ideal.addf_def]
  rfl

/-- The second embedding: z·Φ + φ at row p, column q. -/
theorem z1_at (p : Fin 10000) (q : Fin 32) :
    val_main_v7 (F := Ideal) x1 x6 x7 (ix2 p q) = Spec.z1 (Spec.mat x1) (Spec.mat x6) (Spec.vec x7) p q := by
  rw [val_main_v7_apply, val_main_v4_apply, val_main_v6_apply, val_main_v5_apply]
  have el : ∀ k : Fin 16, lidx_main_v4 (ix2 p q) k = ix2 p k := fun k => funext fun a => Fin.ext (by
    match a with | ⟨0, _⟩ => rfl | ⟨1, _⟩ => rfl)
  have er : ∀ k : Fin 16, ridx_main_v4 (ix2 p q) k = ix2 k q := fun k => funext fun a => Fin.ext (by
    match a with | ⟨0, _⟩ => rfl | ⟨1, _⟩ => rfl)
  have eb : idx_main_v5 (idx_main_v6 (ix2 p q)) = ix1 q := funext fun a => Fin.ext (by
    match a with | ⟨0, _⟩ => rfl)
  simp only [el, er, eb, Ideal.addf_def]
  rfl

/-- The two embeddings side by side: column b of the joined array is column b of the first for b < 32, and column
    b - 32 of the second otherwise. -/
theorem cat_at (p : Fin 10000) (b : Fin 64) :
    val_main_v8 (F := Ideal) x0 x1 x4 x5 x6 x7 (ix2 p b)
      = Spec.cat (Spec.mat x0) (Spec.mat x1) (Spec.mat x4) (Spec.vec x5) (Spec.mat x6) (Spec.vec x7) p b := by
  unfold val_main_v8 Spec.cat
  by_cases h : b.val < 32
  · rw [dif_pos h, ← x1_at]
    exact concatenate_pair_apply_left (t := S10000x64) (s₁ := S10000x32) (s₂ := S10000x32) (1 : Fin 2) _ _
      concatenates_S10000x32_S10000x32_S10000x64_d1 (ix2 p b) rfl
      (ix2 p (⟨b.val, h⟩ : Fin 32)) (fun a => by match a with | ⟨0, _⟩ => rfl | ⟨1, _⟩ => rfl)
  · rw [dif_neg h, ← z1_at]
    exact concatenate_pair_apply_right (t := S10000x64) (s₁ := S10000x32) (s₂ := S10000x32) (1 : Fin 2) _ _
      concatenates_S10000x32_S10000x32_S10000x64_d1 (ix2 p b) rfl rfl
      (ix2 p (⟨b.val - 32, by omega⟩ : Fin 32))
      (fun a ha => by match a, ha with | ⟨0, _⟩, _ => rfl | ⟨1, _⟩, ha => exact absurd rfl ha)
      (by show (b.val - 32) + 32 = b.val; omega)

/-- The gate's hidden layer: the positive part of [x1 | z1]·G1 + γ1. -/
theorem gh_at (p : Fin 10000) (b : Fin 64) :
    val_main_v13 (F := Ideal) x0 x1 x4 x5 x6 x7 x8 x9 (ix2 p b)
      = Spec.gh (Spec.mat x0) (Spec.mat x1) (Spec.mat x4) (Spec.vec x5) (Spec.mat x6) (Spec.vec x7) (Spec.mat x8) (Spec.vec x9) p b := by
  rw [val_main_v13_apply, val_main_v12_apply, val_main_v9_apply, val_main_v11_apply, val_main_v10_apply,
    val_main_call0_v0_apply, val_main_call0_cst_apply]
  have el : ∀ k : Fin 64, lidx_main_v9 (ix2 p b) k = ix2 p k := fun k => funext fun a => Fin.ext (by
    match a with | ⟨0, _⟩ => rfl | ⟨1, _⟩ => rfl)
  have er : ∀ k : Fin 64, ridx_main_v9 (ix2 p b) k = ix2 k b := fun k => funext fun a => Fin.ext (by
    match a with | ⟨0, _⟩ => rfl | ⟨1, _⟩ => rfl)
  have eb : idx_main_v10 (idx_main_v11 (ix2 p b)) = ix1 b := funext fun a => Fin.ext (by
    match a with | ⟨0, _⟩ => rfl)
  simp only [el, er, eb, cat_at, Ideal.addf_def, Ideal.maximumf_def, Ideal.ofBits_def, zero_word]
  rfl

/-- The gate: the logistic of (hidden layer)·G2 + γ2, the program's 1 / (1 + exp(-t)) being the logistic of t. -/
theorem gate_at (p : Fin 10000) (q : Fin 32) :
    val_main_v23 (F := Ideal) x0 x1 x4 x5 x6 x7 x8 x9 x10 x11 (ix2 p q)
      = Spec.gate (Spec.mat x0) (Spec.mat x1) (Spec.mat x4) (Spec.vec x5) (Spec.mat x6) (Spec.vec x7) (Spec.mat x8) (Spec.vec x9)
          (Spec.mat x10) (Spec.vec x11) p q := by
  rw [val_main_v23_apply, val_main_v22_apply, val_main_cst_0_apply, val_main_v21_apply, val_main_v20_apply, val_main_cst_apply,
    val_main_v19_apply, val_main_v18_apply, val_main_v17_apply, val_main_v14_apply, val_main_v16_apply, val_main_v15_apply]
  have el : ∀ k : Fin 64, lidx_main_v14 (ix2 p q) k = ix2 p k := fun k => funext fun a => Fin.ext (by
    match a with | ⟨0, _⟩ => rfl | ⟨1, _⟩ => rfl)
  have er : ∀ k : Fin 64, ridx_main_v14 (ix2 p q) k = ix2 k q := fun k => funext fun a => Fin.ext (by
    match a with | ⟨0, _⟩ => rfl | ⟨1, _⟩ => rfl)
  have eb : idx_main_v15 (idx_main_v16 (ix2 p q)) = ix1 q := funext fun a => Fin.ext (by
    match a with | ⟨0, _⟩ => rfl)
  simp only [el, er, eb, gh_at, Ideal.addf_def, Ideal.hostDivf_def, Ideal.hostUnary_exp_def, Ideal.hostNegf_def, Ideal.negf_def,
    Ideal.ofBits_def, one_word]
  rfl

/-- The gated mixture g·z1 + (1 − g)·x1. -/
theorem fused_at (p : Fin 10000) (q : Fin 32) :
    val_main_v28 (F := Ideal) x0 x1 x4 x5 x6 x7 x8 x9 x10 x11 (ix2 p q)
      = Spec.fused (Spec.mat x0) (Spec.mat x1) (Spec.mat x4) (Spec.vec x5) (Spec.mat x6) (Spec.vec x7) (Spec.mat x8) (Spec.vec x9)
          (Spec.mat x10) (Spec.vec x11) p q := by
  rw [val_main_v28_apply, val_main_v24_apply, val_main_v27_apply, val_main_v26_apply, val_main_v25_apply, val_main_cst_1_apply,
    gate_at, z1_at, x1_at]
  simp only [Ideal.addf_def, Ideal.mulf_def, Ideal.subf_def, Ideal.ofBits_def, one_word]
  rfl

/-- The first layer's input: fused·C1 + c1. -/
theorem y1_at (p : Fin 10000) (d : Fin 64) :
    val_main_v32 (F := Ideal) x0 x1 x4 x5 x6 x7 x8 x9 x10 x11 x12 x13 (ix2 p d)
      = Spec.y1 (Spec.mat x0) (Spec.mat x1) (Spec.mat x4) (Spec.vec x5) (Spec.mat x6) (Spec.vec x7) (Spec.mat x8) (Spec.vec x9)
          (Spec.mat x10) (Spec.vec x11) (Spec.mat x12) (Spec.vec x13) p d := by
  rw [val_main_v32_apply, val_main_v29_apply, val_main_v31_apply, val_main_v30_apply]
  have el : ∀ k : Fin 32, lidx_main_v29 (ix2 p d) k = ix2 p k := fun k => funext fun a => Fin.ext (by
    match a with | ⟨0, _⟩ => rfl | ⟨1, _⟩ => rfl)
  have er : ∀ k : Fin 32, ridx_main_v29 (ix2 p d) k = ix2 k d := fun k => funext fun a => Fin.ext (by
    match a with | ⟨0, _⟩ => rfl | ⟨1, _⟩ => rfl)
  have eb : idx_main_v30 (idx_main_v31 (ix2 p d)) = ix1 d := funext fun a => Fin.ext (by
    match a with | ⟨0, _⟩ => rfl)
  simp only [el, er, eb, fused_at, Ideal.addf_def]
  rfl

/-- The weighted degree of node p (first layer's copy): the sum over the hyperedges, started from zero. -/
theorem dv_at (p : Fin 10000) :
    val_main_v36 (F := Ideal) x2 x3 (ix1 p) = Spec.dv (Spec.mat x2) (Spec.vec x3) p := by
  rw [val_main_v36_apply, val_main_cst_2_apply]
  have ek : ∀ k : Fin 2048, idx_main_v36 (ix1 p) k = ix2 p k := fun k => funext fun a => Fin.ext (by
    match a with | ⟨0, _⟩ => rfl | ⟨1, _⟩ => rfl)
  have ew : ∀ k : Fin 2048, idx_main_v33 (idx_main_v34 (ix2 p k)) = ix1 k := fun k => funext fun a => Fin.ext (by
    match a with | ⟨0, _⟩ => rfl)
  simp only [ek, val_main_v35_apply, val_main_v34_apply, val_main_v33_apply, ew, Ideal.mulf_def, Ideal.ofBits_def, zero_word,
    zero_add]
  rfl

/-- Its inverse square root, ε inside. -/
theorem s_at (p : Fin 10000) :
    val_main_v40 (F := Ideal) x2 x3 (ix1 p) = Spec.s (Spec.mat x2) (Spec.vec x3) p := by
  rw [val_main_v40_apply, val_main_v39_apply, val_main_v38_apply, val_main_cst_4_apply, dv_at]
  simp only [Ideal.addf_def, Ideal.hostUnary_rsqrt_def, Ideal.ofBits_def]
  rfl

/-- The degree of hyperedge j (first layer's copy): the sum over the nodes, started from zero. -/
theorem de_at (j : Fin 2048) :
    val_main_v37 (F := Ideal) x2 (ix1 j) = Spec.de (Spec.mat x2) j := by
  rw [val_main_v37_apply, val_main_cst_3_apply]
  have ek : ∀ k : Fin 10000, idx_main_v37 (ix1 j) k = ix2 k j := fun k => funext fun a => Fin.ext (by
    match a with | ⟨0, _⟩ => rfl | ⟨1, _⟩ => rfl)
  simp only [ek, Ideal.ofBits_def, zero_word, zero_add]
  rfl

/-- The hyperedge's weight over its degree, ε in the denominator. -/
theorem se_at (j : Fin 2048) :
    val_main_v48 (F := Ideal) x2 x3 (ix1 j) = Spec.se (Spec.mat x2) (Spec.vec x3) j := by
  rw [val_main_v48_apply, val_main_v47_apply, val_main_v46_apply, val_main_cst_5_apply, de_at]
  simp only [Ideal.addf_def, Ideal.hostDivf_def, Ideal.ofBits_def]
  rfl

/-- First layer, nodes to hyperedges: the transposed incidence matrix against the scaled input, times the
    per-hyperedge factor. -/
theorem edge1_at (j : Fin 2048) (d : Fin 64) :
    val_main_v51 (F := Ideal) x0 x1 x2 x3 x4 x5 x6 x7 x8 x9 x10 x11 x12 x13 (ix2 j d)
      = Spec.edge (Spec.mat x2) (Spec.vec x3)
          (Spec.y1 (Spec.mat x0) (Spec.mat x1) (Spec.mat x4) (Spec.vec x5) (Spec.mat x6) (Spec.vec x7) (Spec.mat x8) (Spec.vec x9)
          (Spec.mat x10) (Spec.vec x11) (Spec.mat x12) (Spec.vec x13)) j d := by
  rw [val_main_v51_apply, val_main_v45_apply, val_main_v50_apply, val_main_v49_apply]
  have el : ∀ k : Fin 10000, idx_main_v44 (lidx_main_v45 (ix2 j d) k) = ix2 k j := fun k => funext fun a => Fin.ext (by
    match a with | ⟨0, _⟩ => rfl | ⟨1, _⟩ => rfl)
  have er : ∀ k : Fin 10000, ridx_main_v45 (ix2 j d) k = ix2 k d := fun k => funext fun a => Fin.ext (by
    match a with | ⟨0, _⟩ => rfl | ⟨1, _⟩ => rfl)
  have es : ∀ k : Fin 10000, idx_main_v41 (idx_main_v42 (ix2 k d)) = ix1 k := fun k => funext fun a => Fin.ext (by
    match a with | ⟨0, _⟩ => rfl)
  have ee : idx_main_v49 (idx_main_v50 (ix2 j d)) = ix1 j := funext fun a => Fin.ext (by
    match a with | ⟨0, _⟩ => rfl)
  simp only [val_main_v44_apply, el, er, val_main_v43_apply, val_main_v42_apply, val_main_v41_apply, es, ee, y1_at, s_at, se_at,
    Ideal.mulf_def]
  rfl

/-- First layer, hyperedges back to nodes, the per-node factor, the positive part. -/
theorem h1_at (p : Fin 10000) (d : Fin 64) :
    val_main_v56 (F := Ideal) x0 x1 x2 x3 x4 x5 x6 x7 x8 x9 x10 x11 x12 x13 (ix2 p d)
      = Spec.h1 (Spec.mat x0) (Spec.mat x1) (Spec.mat x2) (Spec.vec x3) (Spec.mat x4) (Spec.vec x5) (Spec.mat x6) (Spec.vec x7)
          (Spec.mat x8) (Spec.vec x9) (Spec.mat x10) (Spec.vec x11) (Spec.mat x12) (Spec.vec x13) p d := by
  rw [val_main_v56_apply, val_main_v55_apply, val_main_v52_apply, val_main_v54_apply, val_main_v53_apply,
    val_main_call1_v0_apply, val_main_call1_cst_apply]
  have el : ∀ k : Fin 2048, lidx_main_v52 (ix2 p d) k = ix2 p k := fun k => funext fun a => Fin.ext (by
    match a with | ⟨0, _⟩ => rfl | ⟨1, _⟩ => rfl)
  have er : ∀ k : Fin 2048, ridx_main_v52 (ix2 p d) k = ix2 k d := fun k => funext fun a => Fin.ext (by
    match a with | ⟨0, _⟩ => rfl | ⟨1, _⟩ => rfl)
  have es : idx_main_v53 (idx_main_v54 (ix2 p d)) = ix1 p := funext fun a => Fin.ext (by
    match a with | ⟨0, _⟩ => rfl)
  simp only [el, er, es, edge1_at, s_at, Ideal.mulf_def, Ideal.maximumf_def, Ideal.ofBits_def, zero_word]
  rfl

/-- The second layer's input: h1·C2 + c2. -/
theorem y2_at (p : Fin 10000) (d : Fin 64) :
    val_main_v60 (F := Ideal) x0 x1 x2 x3 x4 x5 x6 x7 x8 x9 x10 x11 x12 x13 x14 x15 (ix2 p d)
      = Spec.y2 (Spec.mat x0) (Spec.mat x1) (Spec.mat x2) (Spec.vec x3) (Spec.mat x4) (Spec.vec x5) (Spec.mat x6) (Spec.vec x7)
          (Spec.mat x8) (Spec.vec x9) (Spec.mat x10) (Spec.vec x11) (Spec.mat x12) (Spec.vec x13) (Spec.mat x14) (Spec.vec x15) p d := by
  rw [val_main_v60_apply, val_main_v57_apply, val_main_v59_apply, val_main_v58_apply]
  have el : ∀ k : Fin 64, lidx_main_v57 (ix2 p d) k = ix2 p k := fun k => funext fun a => Fin.ext (by
    match a with | ⟨0, _⟩ => rfl | ⟨1, _⟩ => rfl)
  have er : ∀ k : Fin 64, ridx_main_v57 (ix2 p d) k = ix2 k d := fun k => funext fun a => Fin.ext (by
    match a with | ⟨0, _⟩ => rfl | ⟨1, _⟩ => rfl)
  have eb : idx_main_v58 (idx_main_v59 (ix2 p d)) = ix1 d := funext fun a => Fin.ext (by
    match a with | ⟨0, _⟩ => rfl)
  simp only [el, er, eb, h1_at, Ideal.addf_def]
  rfl

/-- The weighted degree of node p, as the second layer computes it again. -/
theorem dv2_at (p : Fin 10000) :
    val_main_v64 (F := Ideal) x2 x3 (ix1 p) = Spec.dv (Spec.mat x2) (Spec.vec x3) p := by
  rw [val_main_v64_apply, val_main_cst_6_apply]
  have ek : ∀ k : Fin 2048, idx_main_v64 (ix1 p) k = ix2 p k := fun k => funext fun a => Fin.ext (by
    match a with | ⟨0, _⟩ => rfl | ⟨1, _⟩ => rfl)
  have ew : ∀ k : Fin 2048, idx_main_v61 (idx_main_v62 (ix2 p k)) = ix1 k := fun k => funext fun a => Fin.ext (by
    match a with | ⟨0, _⟩ => rfl)
  simp only [ek, val_main_v63_apply, val_main_v62_apply, val_main_v61_apply, ew, Ideal.mulf_def, Ideal.ofBits_def, zero_word,
    zero_add]
  rfl

/-- Its inverse square root, as the second layer computes it again. -/
theorem s2_at (p : Fin 10000) :
    val_main_v68 (F := Ideal) x2 x3 (ix1 p) = Spec.s (Spec.mat x2) (Spec.vec x3) p := by
  rw [val_main_v68_apply, val_main_v67_apply, val_main_v66_apply, val_main_cst_8_apply, dv2_at]
  simp only [Ideal.addf_def, Ideal.hostUnary_rsqrt_def, Ideal.ofBits_def]
  rfl

/-- The degree of hyperedge j, as the second layer computes it again. -/
theorem de2_at (j : Fin 2048) :
    val_main_v65 (F := Ideal) x2 (ix1 j) = Spec.de (Spec.mat x2) j := by
  rw [val_main_v65_apply, val_main_cst_7_apply]
  have ek : ∀ k : Fin 10000, idx_main_v65 (ix1 j) k = ix2 k j := fun k => funext fun a => Fin.ext (by
    match a with | ⟨0, _⟩ => rfl | ⟨1, _⟩ => rfl)
  simp only [ek, Ideal.ofBits_def, zero_word, zero_add]
  rfl

/-- The hyperedge's weight over its degree, as the second layer computes it again. -/
theorem se2_at (j : Fin 2048) :
    val_main_v76 (F := Ideal) x2 x3 (ix1 j) = Spec.se (Spec.mat x2) (Spec.vec x3) j := by
  rw [val_main_v76_apply, val_main_v75_apply, val_main_v74_apply, val_main_cst_9_apply, de2_at]
  simp only [Ideal.addf_def, Ideal.hostDivf_def, Ideal.ofBits_def]
  rfl

/-- Second layer, nodes to hyperedges. -/
theorem edge2_at (j : Fin 2048) (d : Fin 64) :
    val_main_v79 (F := Ideal) x0 x1 x2 x3 x4 x5 x6 x7 x8 x9 x10 x11 x12 x13 x14 x15 (ix2 j d)
      = Spec.edge (Spec.mat x2) (Spec.vec x3)
          (Spec.y2 (Spec.mat x0) (Spec.mat x1) (Spec.mat x2) (Spec.vec x3) (Spec.mat x4) (Spec.vec x5) (Spec.mat x6) (Spec.vec x7)
          (Spec.mat x8) (Spec.vec x9) (Spec.mat x10) (Spec.vec x11) (Spec.mat x12) (Spec.vec x13) (Spec.mat x14) (Spec.vec x15)) j d := by
  rw [val_main_v79_apply, val_main_v73_apply, val_main_v78_apply, val_main_v77_apply]
  have el : ∀ k : Fin 10000, idx_main_v72 (lidx_main_v73 (ix2 j d) k) = ix2 k j := fun k => funext fun a => Fin.ext (by
    match a with | ⟨0, _⟩ => rfl | ⟨1, _⟩ => rfl)
  have er : ∀ k : Fin 10000, ridx_main_v73 (ix2 j d) k = ix2 k d := fun k => funext fun a => Fin.ext (by
    match a with | ⟨0, _⟩ => rfl | ⟨1, _⟩ => rfl)
  have es : ∀ k : Fin 10000, idx_main_v69 (idx_main_v70 (ix2 k d)) = ix1 k := fun k => funext fun a => Fin.ext (by
    match a with | ⟨0, _⟩ => rfl)
  have ee : idx_main_v77 (idx_main_v78 (ix2 j d)) = ix1 j := funext fun a => Fin.ext (by
    match a with | ⟨0, _⟩ => rfl)
  simp only [val_main_v72_apply, el, er, val_main_v71_apply, val_main_v70_apply, val_main_v69_apply, es, ee, y2_at, s2_at, se2_at,
    Ideal.mulf_def]
  rfl

/-- Second layer, hyperedges back to nodes, the per-node factor, the positive part. -/
theorem h2_at (p : Fin 10000) (d : Fin 64) :
    val_main_v84 (F := Ideal) x0 x1 x2 x3 x4 x5 x6 x7 x8 x9 x10 x11 x12 x13 x14 x15 (ix2 p d)
      = Spec.h2 (Spec.mat x0) (Spec.mat x1) (Spec.mat x2) (Spec.vec x3) (Spec.mat x4) (Spec.vec x5) (Spec.mat x6) (Spec.vec x7)
          (Spec.mat x8) (Spec.vec x9) (Spec.mat x10) (Spec.vec x11) (Spec.mat x12) (Spec.vec x13) (Spec.mat x14) (Spec.vec x15) p d := by
  rw [val_main_v84_apply, val_main_v83_apply, val_main_v80_apply, val_main_v82_apply, val_main_v81_apply,
    val_main_call2_v0_apply, val_main_call2_cst_apply]
  have el : ∀ k : Fin 2048, lidx_main_v80 (ix2 p d) k = ix2 p k := fun k => funext fun a => Fin.ext (by
    match a with | ⟨0, _⟩ => rfl | ⟨1, _⟩ => rfl)
  have er : ∀ k : Fin 2048, ridx_main_v80 (ix2 p d) k = ix2 k d := fun k => funext fun a => Fin.ext (by
    match a with | ⟨0, _⟩ => rfl | ⟨1, _⟩ => rfl)
  have es : idx_main_v81 (idx_main_v82 (ix2 p d)) = ix1 p := funext fun a => Fin.ext (by
    match a with | ⟨0, _⟩ => rfl)
  simp only [el, er, es, edge2_at, s2_at, Ideal.mulf_def, Ideal.maximumf_def, Ideal.ofBits_def, zero_word]
  rfl

/-- The head: h2·Hd + hd. -/
theorem logits_at (p : Fin 10000) (o : Fin 2) :
    val_main_v88 (F := Ideal) x0 x1 x2 x3 x4 x5 x6 x7 x8 x9 x10 x11 x12 x13 x14 x15 x16 x17 (ix2 p o)
      = Spec.logits (Spec.mat x0) (Spec.mat x1) (Spec.mat x2) (Spec.vec x3) (Spec.mat x4) (Spec.vec x5) (Spec.mat x6) (Spec.vec x7)
          (Spec.mat x8) (Spec.vec x9) (Spec.mat x10) (Spec.vec x11) (Spec.mat x12) (Spec.vec x13) (Spec.mat x14) (Spec.vec x15)
          (Spec.mat x16) (Spec.vec x17) p o := by
  rw [val_main_v88_apply, val_main_v85_apply, val_main_v87_apply, val_main_v86_apply]
  have el : ∀ k : Fin 64, lidx_main_v85 (ix2 p o) k = ix2 p k := fun k => funext fun a => Fin.ext (by
    match a with | ⟨0, _⟩ => rfl | ⟨1, _⟩ => rfl)
  have er : ∀ k : Fin 64, ridx_main_v85 (ix2 p o) k = ix2 k o := fun k => funext fun a => Fin.ext (by
    match a with | ⟨0, _⟩ => rfl | ⟨1, _⟩ => rfl)
  have eb : idx_main_v86 (idx_main_v87 (ix2 p o)) = ix1 o := funext fun a => Fin.ext (by
    match a with | ⟨0, _⟩ => rfl)
  simp only [el, er, eb, h2_at, Ideal.addf_def]
  rfl

/-- The program's last stage is the logits array, and its gate stage the gate array, index by index. -/
theorem logits_stage :
    val_main_v88 (F := Ideal) x0 x1 x2 x3 x4 x5 x6 x7 x8 x9 x10 x11 x12 x13 x14 x15 x16 x17
      = Spec.logitsOut x0 x1 x2 x3 x4 x5 x6 x7 x8 x9 x10 x11 x12 x13 x14 x15 x16 x17 := by
  funext i
  obtain ⟨p, o, rfl⟩ : ∃ (p : Fin 10000) (o : Fin 2), i = ix2 p o := ⟨i 0, i 1, eq_ix2 i⟩
  exact logits_at x0 x1 x2 x3 x4 x5 x6 x7 x8 x9 x10 x11 x12 x13 x14 x15 x16 x17 p o

theorem gate_stage :
    val_main_v23 (F := Ideal) x0 x1 x4 x5 x6 x7 x8 x9 x10 x11
      = Spec.gateOut x0 x1 x4 x5 x6 x7 x8 x9 x10 x11 := by
  funext i
  obtain ⟨p, q, rfl⟩ : ∃ (p : Fin 10000) (q : Fin 32), i = ix2 p q := ⟨i 0, i 1, eq_ix2 i⟩
  exact gate_at x0 x1 x4 x5 x6 x7 x8 x9 x10 x11 p q

end

/-- Every weakly fair execution of the reference ends with the logits array and the gate array of the specification,
    as functions of the argument arrays, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v88)
          = Spec.logitsOut (m ((c.tc : Thread nD τ).loc main_arg0)) (m ((c.tc : Thread nD τ).loc main_arg1)) (m ((c.tc : Thread nD τ).loc main_arg2)) (m ((c.tc : Thread nD τ).loc main_arg3))
              (m ((c.tc : Thread nD τ).loc main_arg4)) (m ((c.tc : Thread nD τ).loc main_arg5)) (m ((c.tc : Thread nD τ).loc main_arg6)) (m ((c.tc : Thread nD τ).loc main_arg7))
              (m ((c.tc : Thread nD τ).loc main_arg8)) (m ((c.tc : Thread nD τ).loc main_arg9)) (m ((c.tc : Thread nD τ).loc main_arg10)) (m ((c.tc : Thread nD τ).loc main_arg11))
              (m ((c.tc : Thread nD τ).loc main_arg12)) (m ((c.tc : Thread nD τ).loc main_arg13)) (m ((c.tc : Thread nD τ).loc main_arg14)) (m ((c.tc : Thread nD τ).loc main_arg15))
              (m ((c.tc : Thread nD τ).loc main_arg16)) (m ((c.tc : Thread nD τ).loc main_arg17))
      ∧ r.2.mem ((c.tc : Thread nD τ).loc main_v23)
          = Spec.gateOut (m ((c.tc : Thread nD τ).loc main_arg0)) (m ((c.tc : Thread nD τ).loc main_arg1))
              (m ((c.tc : Thread nD τ).loc main_arg4)) (m ((c.tc : Thread nD τ).loc main_arg5)) (m ((c.tc : Thread nD τ).loc main_arg6)) (m ((c.tc : Thread nD τ).loc main_arg7))
              (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c =>
    ⟨(h c).1.trans ((val_main_v88_eq m c).trans (logits_stage
        (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)))),
      (h c).2.1.trans ((val_main_v23_eq
        (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))).trans (gate_stage
        (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))),
      (h c).2.2⟩)
    (Cert.ReferenceIdeal.Value.run (F := Ideal) m ρ)

end Cert.RefValue

end
-- ==== Proof.lean ====
/-
  The certificate: a gated-fusion network followed by two normalised hypergraph message-passing layers and a linear head,
  computed by one pipelined kernel over 75 grid points, against the plain whole-array program.

  The kernel streams the incidence matrix H once, in 25 blocks of 400 rows (phase 0), keeping a copy resident and
  accumulating the hyperedge degrees and the first node-to-hyperedge aggregate block by block; it then revisits the
  resident copy twice (phases 1 and 2), normalising the aggregate per hyperedge at each phase boundary.  At the ideal
  values every change of float format is the identity and sums may be regrouped freely, so block by block the kernel
  computes exactly the reference's stages: Σ over 10000 rows is Σ over 25 blocks of Σ over 400 rows, an accumulator
  started at zero collects the blocks one at a time, and a product's factors commute.  No distributive law is used and
  the finiteness of the inputs is never needed.

  The three frames: each kernel program runs to the end without a fault and leaves its arguments unchanged (the body run
  symbolically at each of six control cases, the scratch buffers tracked point by point); the reference's by its run.
  The idealization rewrote nothing.  The value claim: both programs end with the specification's logits and gate arrays.
-/
import proofs.«104241_g40587440947829_cont_sun_m_1101_21_alg».proof.Defs
import proofs.«104241_g40587440947829_cont_sun_m_1101_21_alg».proof.Proof.Gen.Kernel
import proofs.«104241_g40587440947829_cont_sun_m_1101_21_alg».proof.Proof.Gen.KernelIdeal
import proofs.«104241_g40587440947829_cont_sun_m_1101_21_alg».proof.Proof.Gen.ReferenceIdeal
import proofs.«104241_g40587440947829_cont_sun_m_1101_21_alg».proof.Proof.Gen.Pre_finite_inputs
import proofs.«104241_g40587440947829_cont_sun_m_1101_21_alg».proof.Proof.K.FrameRun
import proofs.«104241_g40587440947829_cont_sun_m_1101_21_alg».proof.Proof.KI.FrameRun
import proofs.«104241_g40587440947829_cont_sun_m_1101_21_alg».proof.Proof.KI.Value
import proofs.«104241_g40587440947829_cont_sun_m_1101_21_alg».proof.Proof.RefValue

noncomputable section

namespace Cert.Proof

open Idealize.ShloMosaic Idealize.SL.Sem

/-- The word-level kernel runs and keeps its arguments. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- And the reference: its run, the results dropped. -/
theorem frame_ri : Cert.frame_ReferenceIdeal := fun m ρ _ =>
  (θ_run Cert.ReferenceIdeal.defs _ _).mono (fun _ h c => (h c).2.2) (Cert.RefValue.run m ρ)

/-- From memories agreeing on the arguments both programs end with the specification's logits and gate arrays of those
    arguments: the kernel by its run with the results named, the reference by its run read stage by stage. -/
theorem algebraic : Cert.algebraic_KernelIdeal_ReferenceIdeal := by
  intro m ρ m' ρ' _ hagree
  refine ⟨fun c => Cert.KernelIdeal.Gen.logitsArr m c, fun c => Cert.KernelIdeal.Gen.gateArr m c, Cert.KernelIdeal.Gen.run_value m ρ, ?_⟩
  refine (θ_run Cert.ReferenceIdeal.defs _ _).mono (fun _ h c => ?_) (Cert.RefValue.run m' ρ')
  obtain ⟨a0, a1, a2, a3, a4, a5, a6, a7, a8, a9, a10, a11, a12, a13, a14, a15, a16, a17⟩ := hagree c
  refine ⟨(h c).1.trans ?_, (h c).2.1.trans ?_, (h c).2.2⟩
  · rw [a0, a1, a2, a3, a4, a5, a6, a7, a8, a9, a10, a11, a12, a13, a14, a15, a16, a17]
  · rw [a0, a1, a4, a5, a6, a7, a8, a9, a10, a11]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
